-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg1 : IVec S50000x32 32) (main_v13 : IVec S_ 1) (main_v15 : IVec S50000x32 1) (main_c_5 : IVec S_ 32) : IVec S_ 1 :=
  let main_v16 : IVec S50000x32 32 := broadcastInDim S50000x32 ![] bcast_S_S50000x32 main_c_5
  let main_v17 : IVec S50000x32 1 := cmpi .slt main_arg1 main_v16
  let main_v18 : IVec S50000x32 1 := andi main_v15 main_v17
  let main_c_6 : IVec S_ 1 := constantI S_ 1 1#1
  let main_v19 : IVec S_ 1 := (fun x v => Host.reduce IntOp.andi x v reducesTo_S50000x32_S_d0_1 h_S_) main_v18 main_c_6
  let main_v20 : IVec S_ 1 := andi main_v13 main_v19
  main_v20

def fn {F : FTy → Type} [FloatOps F] (main_arg0 : FVec F S50000x128 .f32) (main_arg1 : IVec S50000x32 32) (main_arg2 : IVec S50000x32 1) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S50000x32 32 := broadcastInDim S50000x32 ![] bcast_S_S50000x32 main_c_4
  let main_v15 : IVec S50000x32 1 := cmpi .sge main_arg1 main_v14
  let main_c_5 : IVec S_ 32 := constantI S_ 32 50000#32
  fn_part1 (F := F) main_arg1 main_v13 main_v15 main_c_5
-- ==== Kernel.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S50000x32x1 : Shape := ⟨3, ![50000, 32, 1]⟩
abbrev S1 : Shape := ⟨1, ![1]⟩
abbrev S1x1x1 : Shape := ⟨3, ![1, 1, 1]⟩
abbrev S50000 : Shape := ⟨1, ![50000]⟩
abbrev S32 : Shape := ⟨1, ![32]⟩
abbrev S1x32 : Shape := ⟨2, ![1, 32]⟩
abbrev S50000x1 : Shape := ⟨2, ![50000, 1]⟩
abbrev S50000x1x128 : Shape := ⟨3, ![50000, 1, 128]⟩
abbrev S50000x32x128 : Shape := ⟨3, ![50000, 32, 128]⟩
abbrev S8x32 : Shape := ⟨2, ![8, 32]⟩
abbrev S8x32x128 : Shape := ⟨3, ![8, 32, 128]⟩
abbrev S2x1x128 : Shape := ⟨3, ![2, 1, 128]⟩
abbrev S2 : Shape := ⟨1, ![2]⟩
abbrev S1x1 : Shape := ⟨2, ![1, 1]⟩
abbrev S1x1x128 : Shape := ⟨3, ![1, 1, 128]⟩

abbrev nBuf : Space → Nat
  | .hbm => 53
  | .vmem => 9
  | .smem => 4
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S50000x32, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S50000x128, .f32⟩
  | .hbm, ⟨8, _⟩ => ⟨S_, .i32⟩
  | .hbm, ⟨9, _⟩ => ⟨S_, .i32⟩
  | .hbm, ⟨10, _⟩ => ⟨S50000x32, .i32⟩
  | .hbm, ⟨11, _⟩ => ⟨S50000x32, .i32⟩
  | .hbm, ⟨12, _⟩ => ⟨S50000x32, .i32⟩
  | .hbm, ⟨13, _⟩ => ⟨S50000x32, .i32⟩
  | .hbm, ⟨14, _⟩ => ⟨S50000x32, .i32⟩
  | .hbm, ⟨15, _⟩ => ⟨S50000x32, .i32⟩
  | .hbm, ⟨16, _⟩ => ⟨S_, .i32⟩
  | .hbm, ⟨17, _⟩ => ⟨S50000x32, .i32⟩
  | .hbm, ⟨18, _⟩ => ⟨S50000x32, .i1⟩
  | .hbm, ⟨19, _⟩ => ⟨S_, .i32⟩
  | .hbm, ⟨20, _⟩ => ⟨S50000x32, .i32⟩
  | .hbm, ⟨21, _⟩ => ⟨S50000x32, .i32⟩
  | .hbm, ⟨22, _⟩ => ⟨S50000x32, .i32⟩
  | .hbm, ⟨23, _⟩ => ⟨S50000x32x1, .i32⟩
  | .hbm, ⟨24, _⟩ => ⟨S1, .i32⟩
  | .hbm, ⟨25, _⟩ => ⟨S_, .i32⟩
  | .hbm, ⟨26, _⟩ => ⟨S50000x32x1, .i32⟩
  | .hbm, ⟨27, _⟩ => ⟨S50000x32x1, .i1⟩
  | .hbm, ⟨28, _⟩ => ⟨S1x1x1, .i32⟩
  | .hbm, ⟨29, _⟩ => ⟨S50000x32x1, .i32⟩
  | .hbm, ⟨30, _⟩ => ⟨S50000x32x1, .i1⟩
  | .hbm, ⟨31, _⟩ => ⟨S50000x32x1, .i1⟩
  | .hbm, ⟨32, _⟩ => ⟨S_, .i1⟩
  | .hbm, ⟨33, _⟩ => ⟨S50000x32, .i1⟩
  | .hbm, ⟨34, _⟩ => ⟨S50000x32, .i32⟩
  | .hbm, ⟨35, _⟩ => ⟨S_, .i32⟩
  | .hbm, ⟨36, _⟩ => ⟨S50000x32, .i32⟩
  | .hbm, ⟨37, _⟩ => ⟨S50000x32, .i32⟩
  | .hbm, ⟨38, _⟩ => ⟨S50000x32, .i32⟩
  | .hbm, ⟨39, _⟩ => ⟨S_, .i32⟩
  | .hbm, ⟨40, _⟩ => ⟨S50000, .i32⟩
  | .hbm, ⟨41, _⟩ => ⟨S32, .i32⟩
  | .hbm, ⟨42, _⟩ => ⟨S1x32, .i32⟩
  | .hbm, ⟨43, _⟩ => ⟨S50000x1, .i32⟩
  | .hbm, ⟨44, _⟩ => ⟨S50000x32, .i32⟩
  | .hbm, ⟨45, _⟩ => ⟨S50000x32, .i32⟩
  | .hbm, ⟨46, _⟩ => ⟨S50000x32, .i1⟩
  | .hbm, ⟨47, _⟩ => ⟨S_, .i32⟩
  | .hbm, ⟨48, _⟩ => ⟨S50000x32, .i32⟩
  | .hbm, ⟨49, _⟩ => ⟨S50000x32, .i32⟩
  | .hbm, ⟨50, _⟩ => ⟨S50000x32, .i32⟩
  | .hbm, ⟨51, _⟩ => ⟨S50000x1x128, .f32⟩
  | .hbm, ⟨52, _⟩ => ⟨S50000x32x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8x32x128, .f32⟩
  | .local _ .vmem, ⟨7, _⟩ => ⟨S8x32x128, .f32⟩
  | .local _ .vmem, ⟨8, _⟩ => ⟨S2x1x128, .f32⟩
  | .local _ .smem, ⟨0, _⟩ => ⟨S8x32, .i32⟩
  | .local _ .smem, ⟨1, _⟩ => ⟨S8x32, .i32⟩
  | .local _ .smem, ⟨2, _⟩ => ⟨S8x32, .i32⟩
  | .local _ .smem, ⟨3, _⟩ => ⟨S8x32, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_call1_v0 : Ref sig .tc := ⟨.hbm, 13, rfl⟩
abbrev main_call1_v1_0 : Ref sig .tc := ⟨.hbm, 14, rfl⟩
abbrev main_v4 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_c_4 : Ref sig .tc := ⟨.hbm, 35, rfl⟩
abbrev main_call2_v14 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6250], ![false]⟩

def k1_off1 (v0 : BitVec 32) : Fin 3 → Nat :=
  let c0_i32_4 : BitVec 32 := 0#32
  let c0_i32_5 : BitVec 32 := 0#32
  ![v0.toNat, 0, 0]

def k1_chk1 (v0 : BitVec 32) : Prop :=
  (∀ a, (k1_off1 v0) a + S1x1x128.size a ≤ S50000x1x128.size a)
instance k1_chk1.dec : ∀ (v0 : BitVec 32), Decidable (k1_chk1 v0) := fun v0 => decidable_of_iff' _ (Iff.of_eq (k1_chk1.eq_1 v0))
theorem k1_off1_inb : ∀ (v0 : BitVec 32) (k1_hw1 : k1_chk1 v0), ∀ a, (k1_off1 v0) a + S1x1x128.size a ≤ S50000x1x128.size a := fun v0 k1_hw1 => k1_hw1

def k1_off2 (v13 : BitVec 32) : Fin 3 → Nat :=
  let c0_i32_16 : BitVec 32 := 0#32
  let c0_i32_17 : BitVec 32 := 0#32
  ![v13.toNat, 0, 0]

def k1_chk2 (v13 : BitVec 32) : Prop :=
  (∀ a, (k1_off2 v13) a + S1x1x128.size a ≤ S50000x1x128.size a)
instance k1_chk2.dec : ∀ (v13 : BitVec 32), Decidable (k1_chk2 v13) := fun v13 => decidable_of_iff' _ (Iff.of_eq (k1_chk2.eq_1 v13))
theorem k1_off2_inb : ∀ (v13 : BitVec 32) (k1_hw2 : k1_chk2 v13), ∀ a, (k1_off2 v13) a + S1x1x128.size a ≤ S50000x1x128.size a := fun v13 k1_hw2 => k1_hw2

def k1_off3 (v36 : BitVec 32) : Fin 3 → Nat :=
  let c0_i32_38 : BitVec 32 := 0#32
  let c0_i32_39 : BitVec 32 := 0#32
  ![v36.toNat, 0, 0]

def k1_chk3 (v36 : BitVec 32) : Prop :=
  (∀ a, (k1_off3 v36) a + S1x1x128.size a ≤ S50000x1x128.size a)
instance k1_chk3.dec : ∀ (v36 : BitVec 32), Decidable (k1_chk3 v36) := fun v36 => decidable_of_iff' _ (Iff.of_eq (k1_chk3.eq_1 v36))
theorem k1_off3_inb : ∀ (v36 : BitVec 32) (k1_hw3 : k1_chk3 v36), ∀ a, (k1_off3 v36) a + S1x1x128.size a ≤ S50000x1x128.size a := fun v36 k1_hw3 => k1_hw3

def k1_off4 (v59 : BitVec 32) : Fin 3 → Nat :=
  let c0_i32_61 : BitVec 32 := 0#32
  let c0_i32_62 : BitVec 32 := 0#32
  ![v59.toNat, 0, 0]

def k1_chk4 (v59 : BitVec 32) : Prop :=
  (∀ a, (k1_off4 v59) a + S1x1x128.size a ≤ S50000x1x128.size a)
instance k1_chk4.dec : ∀ (v59 : BitVec 32), Decidable (k1_chk4 v59) := fun v59 => decidable_of_iff' _ (Iff.of_eq (k1_chk4.eq_1 v59))
theorem k1_off4_inb : ∀ (v59 : BitVec 32) (k1_hw4 : k1_chk4 v59), ∀ a, (k1_off4 v59) a + S1x1x128.size a ≤ S50000x1x128.size a := fun v59 k1_hw4 => k1_hw4

def k1_off5 (v82 : BitVec 32) : Fin 3 → Nat :=
  let c0_i32_84 : BitVec 32 := 0#32
  let c0_i32_85 : BitVec 32 := 0#32
  ![v82.toNat, 0, 0]

def k1_chk5 (v82 : BitVec 32) : Prop :=
  (∀ a, (k1_off5 v82) a + S1x1x128.size a ≤ S50000x1x128.size a)
instance k1_chk5.dec : ∀ (v82 : BitVec 32), Decidable (k1_chk5 v82) := fun v82 => decidable_of_iff' _ (Iff.of_eq (k1_chk5.eq_1 v82))
theorem k1_off5_inb : ∀ (v82 : BitVec 32) (k1_hw5 : k1_chk5 v82), ∀ a, (k1_off5 v82) a + S1x1x128.size a ≤ S50000x1x128.size a := fun v82 k1_hw5 => k1_hw5

def k1_off6 (v105 : BitVec 32) : Fin 3 → Nat :=
  let c0_i32_107 : BitVec 32 := 0#32
  let c0_i32_108 : BitVec 32 := 0#32
  ![v105.toNat, 0, 0]

def k1_chk6 (v105 : BitVec 32) : Prop :=
  (∀ a, (k1_off6 v105) a + S1x1x128.size a ≤ S50000x1x128.size a)
instance k1_chk6.dec : ∀ (v105 : BitVec 32), Decidable (k1_chk6 v105) := fun v105 => decidable_of_iff' _ (Iff.of_eq (k1_chk6.eq_1 v105))
theorem k1_off6_inb : ∀ (v105 : BitVec 32) (k1_hw6 : k1_chk6 v105), ∀ a, (k1_off6 v105) a + S1x1x128.size a ≤ S50000x1x128.size a := fun v105 k1_hw6 => k1_hw6

def k1_off7 (v128 : BitVec 32) : Fin 3 → Nat :=
  let c0_i32_130 : BitVec 32 := 0#32
  let c0_i32_131 : BitVec 32 := 0#32
  ![v128.toNat, 0, 0]

def k1_chk7 (v128 : BitVec 32) : Prop :=
  (∀ a, (k1_off7 v128) a + S1x1x128.size a ≤ S50000x1x128.size a)
instance k1_chk7.dec : ∀ (v128 : BitVec 32), Decidable (k1_chk7 v128) := fun v128 => decidable_of_iff' _ (Iff.of_eq (k1_chk7.eq_1 v128))
theorem k1_off7_inb : ∀ (v128 : BitVec 32) (k1_hw7 : k1_chk7 v128), ∀ a, (k1_off7 v128) a + S1x1x128.size a ≤ S50000x1x128.size a := fun v128 k1_hw7 => k1_hw7

def k1_off8 (v151 : BitVec 32) : Fin 3 → Nat :=
  let c0_i32_153 : BitVec 32 := 0#32
  let c0_i32_154 : BitVec 32 := 0#32
  ![v151.toNat, 0, 0]

def k1_chk8 (v151 : BitVec 32) : Prop :=
  (∀ a, (k1_off8 v151) a + S1x1x128.size a ≤ S50000x1x128.size a)
instance k1_chk8.dec : ∀ (v151 : BitVec 32), Decidable (k1_chk8 v151) := fun v151 => decidable_of_iff' _ (Iff.of_eq (k1_chk8.eq_1 v151))
theorem k1_off8_inb : ∀ (v151 : BitVec 32) (k1_hw8 : k1_chk8 v151), ∀ a, (k1_off8 v151) a + S1x1x128.size a ≤ S50000x1x128.size a := fun v151 k1_hw8 => k1_hw8

def k1_off9 (v174 : BitVec 32) : Fin 3 → Nat :=
  let c0_i32_176 : BitVec 32 := 0#32
  let c0_i32_177 : BitVec 32 := 0#32
  ![v174.toNat, 0, 0]

def k1_chk9 (v174 : BitVec 32) : Prop :=
  (∀ a, (k1_off9 v174) a + S1x1x128.size a ≤ S50000x1x128.size a)
instance k1_chk9.dec : ∀ (v174 : BitVec 32), Decidable (k1_chk9 v174) := fun v174 => decidable_of_iff' _ (Iff.of_eq (k1_chk9.eq_1 v174))
theorem k1_off9_inb : ∀ (v174 : BitVec 32) (k1_hw9 : k1_chk9 v174), ∀ a, (k1_off9 v174) a + S1x1x128.size a ≤ S50000x1x128.size a := fun v174 k1_hw9 => k1_hw9

def k1_off10 (v197 : BitVec 32) : Fin 3 → Nat :=
  let c0_i32_199 : BitVec 32 := 0#32
  let c0_i32_200 : BitVec 32 := 0#32
  ![v197.toNat, 0, 0]

def k1_chk10 (v197 : BitVec 32) : Prop :=
  (∀ a, (k1_off10 v197) a + S1x1x128.size a ≤ S50000x1x128.size a)
instance k1_chk10.dec : ∀ (v197 : BitVec 32), Decidable (k1_chk10 v197) := fun v197 => decidable_of_iff' _ (Iff.of_eq (k1_chk10.eq_1 v197))
theorem k1_off10_inb : ∀ (v197 : BitVec 32) (k1_hw10 : k1_chk10 v197), ∀ a, (k1_off10 v197) a + S1x1x128.size a ≤ S50000x1x128.size a := fun v197 k1_hw10 => k1_hw10

def k1_off11 (v220 : BitVec 32) : Fin 3 → Nat :=
  let c0_i32_222 : BitVec 32 := 0#32
  let c0_i32_223 : BitVec 32 := 0#32
  ![v220.toNat, 0, 0]

def k1_chk11 (v220 : BitVec 32) : Prop :=
  (∀ a, (k1_off11 v220) a + S1x1x128.size a ≤ S50000x1x128.size a)
instance k1_chk11.dec : ∀ (v220 : BitVec 32), Decidable (k1_chk11 v220) := fun v220 => decidable_of_iff' _ (Iff.of_eq (k1_chk11.eq_1 v220))
theorem k1_off11_inb : ∀ (v220 : BitVec 32) (k1_hw11 : k1_chk11 v220), ∀ a, (k1_off11 v220) a + S1x1x128.size a ≤ S50000x1x128.size a := fun v220 k1_hw11 => k1_hw11

def k1_off12 (v243 : BitVec 32) : Fin 3 → Nat :=
  let c0_i32_245 : BitVec 32 := 0#32
  let c0_i32_246 : BitVec 32 := 0#32
  ![v243.toNat, 0, 0]

def k1_chk12 (v243 : BitVec 32) : Prop :=
  (∀ a, (k1_off12 v243) a + S1x1x128.size a ≤ S50000x1x128.size a)
instance k1_chk12.dec : ∀ (v243 : BitVec 32), Decidable (k1_chk12 v243) := fun v243 => decidable_of_iff' _ (Iff.of_eq (k1_chk12.eq_1 v243))
theorem k1_off12_inb : ∀ (v243 : BitVec 32) (k1_hw12 : k1_chk12 v243), ∀ a, (k1_off12 v243) a + S1x1x128.size a ≤ S50000x1x128.size a := fun v243 k1_hw12 => k1_hw12

def k1_off13 (v266 : BitVec 32) : Fin 3 → Nat :=
  let c0_i32_268 : BitVec 32 := 0#32
  let c0_i32_269 : BitVec 32 := 0#32
  ![v266.toNat, 0, 0]

def k1_chk13 (v266 : BitVec 32) : Prop :=
  (∀ a, (k1_off13 v266) a + S1x1x128.size a ≤ S50000x1x128.size a)
instance k1_chk13.dec : ∀ (v266 : BitVec 32), Decidable (k1_chk13 v266) := fun v266 => decidable_of_iff' _ (Iff.of_eq (k1_chk13.eq_1 v266))
theorem k1_off13_inb : ∀ (v266 : BitVec 32) (k1_hw13 : k1_chk13 v266), ∀ a, (k1_off13 v266) a + S1x1x128.size a ≤ S50000x1x128.size a := fun v266 k1_hw13 => k1_hw13

def k1_off14 (v289 : BitVec 32) : Fin 3 → Nat :=
  let c0_i32_291 : BitVec 32 := 0#32
  let c0_i32_292 : BitVec 32 := 0#32
  ![v289.toNat, 0, 0]

def k1_chk14 (v289 : BitVec 32) : Prop :=
  (∀ a, (k1_off14 v289) a + S1x1x128.size a ≤ S50000x1x128.size a)
instance k1_chk14.dec : ∀ (v289 : BitVec 32), Decidable (k1_chk14 v289) := fun v289 => decidable_of_iff' _ (Iff.of_eq (k1_chk14.eq_1 v289))
theorem k1_off14_inb : ∀ (v289 : BitVec 32) (k1_hw14 : k1_chk14 v289), ∀ a, (k1_off14 v289) a + S1x1x128.size a ≤ S50000x1x128.size a := fun v289 k1_hw14 => k1_hw14

def k1_off15 (v312 : BitVec 32) : Fin 3 → Nat :=
  let c0_i32_314 : BitVec 32 := 0#32
  let c0_i32_315 : BitVec 32 := 0#32
  ![v312.toNat, 0, 0]

def k1_chk15 (v312 : BitVec 32) : Prop :=
  (∀ a, (k1_off15 v312) a + S1x1x128.size a ≤ S50000x1x128.size a)
instance k1_chk15.dec : ∀ (v312 : BitVec 32), Decidable (k1_chk15 v312) := fun v312 => decidable_of_iff' _ (Iff.of_eq (k1_chk15.eq_1 v312))
theorem k1_off15_inb : ∀ (v312 : BitVec 32) (k1_hw15 : k1_chk15 v312), ∀ a, (k1_off15 v312) a + S1x1x128.size a ≤ S50000x1x128.size a := fun v312 k1_hw15 => k1_hw15

def k1_off16 (v335 : BitVec 32) : Fin 3 → Nat :=
  let c0_i32_337 : BitVec 32 := 0#32
  let c0_i32_338 : BitVec 32 := 0#32
  ![v335.toNat, 0, 0]

def k1_chk16 (v335 : BitVec 32) : Prop :=
  (∀ a, (k1_off16 v335) a + S1x1x128.size a ≤ S50000x1x128.size a)
instance k1_chk16.dec : ∀ (v335 : BitVec 32), Decidable (k1_chk16 v335) := fun v335 => decidable_of_iff' _ (Iff.of_eq (k1_chk16.eq_1 v335))
theorem k1_off16_inb : ∀ (v335 : BitVec 32) (k1_hw16 : k1_chk16 v335), ∀ a, (k1_off16 v335) a + S1x1x128.size a ≤ S50000x1x128.size a := fun v335 k1_hw16 => k1_hw16

def k1_off17 (v358 : BitVec 32) : Fin 3 → Nat :=
  let c0_i32_360 : BitVec 32 := 0#32
  let c0_i32_361 : BitVec 32 := 0#32
  ![v358.toNat, 0, 0]

def k1_chk17 (v358 : BitVec 32) : Prop :=
  (∀ a, (k1_off17 v358) a + S1x1x128.size a ≤ S50000x1x128.size a)
instance k1_chk17.dec : ∀ (v358 : BitVec 32), Decidable (k1_chk17 v358) := fun v358 => decidable_of_iff' _ (Iff.of_eq (k1_chk17.eq_1 v358))
theorem k1_off17_inb : ∀ (v358 : BitVec 32) (k1_hw17 : k1_chk17 v358), ∀ a, (k1_off17 v358) a + S1x1x128.size a ≤ S50000x1x128.size a := fun v358 k1_hw17 => k1_hw17

def k1_off18 (v381 : BitVec 32) : Fin 3 → Nat :=
  let c0_i32_383 : BitVec 32 := 0#32
  let c0_i32_384 : BitVec 32 := 0#32
  ![v381.toNat, 0, 0]

def k1_chk18 (v381 : BitVec 32) : Prop :=
  (∀ a, (k1_off18 v381) a + S1x1x128.size a ≤ S50000x1x128.size a)
instance k1_chk18.dec : ∀ (v381 : BitVec 32), Decidable (k1_chk18 v381) := fun v381 => decidable_of_iff' _ (Iff.of_eq (k1_chk18.eq_1 v381))
theorem k1_off18_inb : ∀ (v381 : BitVec 32) (k1_hw18 : k1_chk18 v381), ∀ a, (k1_off18 v381) a + S1x1x128.size a ≤ S50000x1x128.size a := fun v381 k1_hw18 => k1_hw18

def k1_off19 (v404 : BitVec 32) : Fin 3 → Nat :=
  let c0_i32_406 : BitVec 32 := 0#32
  let c0_i32_407 : BitVec 32 := 0#32
  ![v404.toNat, 0, 0]

def k1_chk19 (v404 : BitVec 32) : Prop :=
  (∀ a, (k1_off19 v404) a + S1x1x128.size a ≤ S50000x1x128.size a)
instance k1_chk19.dec : ∀ (v404 : BitVec 32), Decidable (k1_chk19 v404) := fun v404 => decidable_of_iff' _ (Iff.of_eq (k1_chk19.eq_1 v404))
theorem k1_off19_inb : ∀ (v404 : BitVec 32) (k1_hw19 : k1_chk19 v404), ∀ a, (k1_off19 v404) a + S1x1x128.size a ≤ S50000x1x128.size a := fun v404 k1_hw19 => k1_hw19

def k1_off20 (v427 : BitVec 32) : Fin 3 → Nat :=
  let c0_i32_429 : BitVec 32 := 0#32
  let c0_i32_430 : BitVec 32 := 0#32
  ![v427.toNat, 0, 0]

def k1_chk20 (v427 : BitVec 32) : Prop :=
  (∀ a, (k1_off20 v427) a + S1x1x128.size a ≤ S50000x1x128.size a)
instance k1_chk20.dec : ∀ (v427 : BitVec 32), Decidable (k1_chk20 v427) := fun v427 => decidable_of_iff' _ (Iff.of_eq (k1_chk20.eq_1 v427))
theorem k1_off20_inb : ∀ (v427 : BitVec 32) (k1_hw20 : k1_chk20 v427), ∀ a, (k1_off20 v427) a + S1x1x128.size a ≤ S50000x1x128.size a := fun v427 k1_hw20 => k1_hw20

def k1_off21 (v450 : BitVec 32) : Fin 3 → Nat :=
  let c0_i32_452 : BitVec 32 := 0#32
  let c0_i32_453 : BitVec 32 := 0#32
  ![v450.toNat, 0, 0]

def k1_chk21 (v450 : BitVec 32) : Prop :=
  (∀ a, (k1_off21 v450) a + S1x1x128.size a ≤ S50000x1x128.size a)
instance k1_chk21.dec : ∀ (v450 : BitVec 32), Decidable (k1_chk21 v450) := fun v450 => decidable_of_iff' _ (Iff.of_eq (k1_chk21.eq_1 v450))
theorem k1_off21_inb : ∀ (v450 : BitVec 32) (k1_hw21 : k1_chk21 v450), ∀ a, (k1_off21 v450) a + S1x1x128.size a ≤ S50000x1x128.size a := fun v450 k1_hw21 => k1_hw21

def k1_off22 (v473 : BitVec 32) : Fin 3 → Nat :=
  let c0_i32_475 : BitVec 32 := 0#32
  let c0_i32_476 : BitVec 32 := 0#32
  ![v473.toNat, 0, 0]

def k1_chk22 (v473 : BitVec 32) : Prop :=
  (∀ a, (k1_off22 v473) a + S1x1x128.size a ≤ S50000x1x128.size a)
instance k1_chk22.dec : ∀ (v473 : BitVec 32), Decidable (k1_chk22 v473) := fun v473 => decidable_of_iff' _ (Iff.of_eq (k1_chk22.eq_1 v473))
theorem k1_off22_inb : ∀ (v473 : BitVec 32) (k1_hw22 : k1_chk22 v473), ∀ a, (k1_off22 v473) a + S1x1x128.size a ≤ S50000x1x128.size a := fun v473 k1_hw22 => k1_hw22

def k1_off23 (v496 : BitVec 32) : Fin 3 → Nat :=
  let c0_i32_498 : BitVec 32 := 0#32
  let c0_i32_499 : BitVec 32 := 0#32
  ![v496.toNat, 0, 0]

def k1_chk23 (v496 : BitVec 32) : Prop :=
  (∀ a, (k1_off23 v496) a + S1x1x128.size a ≤ S50000x1x128.size a)
instance k1_chk23.dec : ∀ (v496 : BitVec 32), Decidable (k1_chk23 v496) := fun v496 => decidable_of_iff' _ (Iff.of_eq (k1_chk23.eq_1 v496))
theorem k1_off23_inb : ∀ (v496 : BitVec 32) (k1_hw23 : k1_chk23 v496), ∀ a, (k1_off23 v496) a + S1x1x128.size a ≤ S50000x1x128.size a := fun v496 k1_hw23 => k1_hw23

def k1_off24 (v519 : BitVec 32) : Fin 3 → Nat :=
  let c0_i32_521 : BitVec 32 := 0#32
  let c0_i32_522 : BitVec 32 := 0#32
  ![v519.toNat, 0, 0]

def k1_chk24 (v519 : BitVec 32) : Prop :=
  (∀ a, (k1_off24 v519) a + S1x1x128.size a ≤ S50000x1x128.size a)
instance k1_chk24.dec : ∀ (v519 : BitVec 32), Decidable (k1_chk24 v519) := fun v519 => decidable_of_iff' _ (Iff.of_eq (k1_chk24.eq_1 v519))
theorem k1_off24_inb : ∀ (v519 : BitVec 32) (k1_hw24 : k1_chk24 v519), ∀ a, (k1_off24 v519) a + S1x1x128.size a ≤ S50000x1x128.size a := fun v519 k1_hw24 => k1_hw24

def k1_off25 (v542 : BitVec 32) : Fin 3 → Nat :=
  let c0_i32_544 : BitVec 32 := 0#32
  let c0_i32_545 : BitVec 32 := 0#32
  ![v542.toNat, 0, 0]

def k1_chk25 (v542 : BitVec 32) : Prop :=
  (∀ a, (k1_off25 v542) a + S1x1x128.size a ≤ S50000x1x128.size a)
instance k1_chk25.dec : ∀ (v542 : BitVec 32), Decidable (k1_chk25 v542) := fun v542 => decidable_of_iff' _ (Iff.of_eq (k1_chk25.eq_1 v542))
theorem k1_off25_inb : ∀ (v542 : BitVec 32) (k1_hw25 : k1_chk25 v542), ∀ a, (k1_off25 v542) a + S1x1x128.size a ≤ S50000x1x128.size a := fun v542 k1_hw25 => k1_hw25

def k1_off26 (v565 : BitVec 32) : Fin 3 → Nat :=
  let c0_i32_567 : BitVec 32 := 0#32
  let c0_i32_568 : BitVec 32 := 0#32
  ![v565.toNat, 0, 0]

def k1_chk26 (v565 : BitVec 32) : Prop :=
  (∀ a, (k1_off26 v565) a + S1x1x128.size a ≤ S50000x1x128.size a)
instance k1_chk26.dec : ∀ (v565 : BitVec 32), Decidable (k1_chk26 v565) := fun v565 => decidable_of_iff' _ (Iff.of_eq (k1_chk26.eq_1 v565))
theorem k1_off26_inb : ∀ (v565 : BitVec 32) (k1_hw26 : k1_chk26 v565), ∀ a, (k1_off26 v565) a + S1x1x128.size a ≤ S50000x1x128.size a := fun v565 k1_hw26 => k1_hw26

def k1_off27 (v588 : BitVec 32) : Fin 3 → Nat :=
  let c0_i32_590 : BitVec 32 := 0#32
  let c0_i32_591 : BitVec 32 := 0#32
  ![v588.toNat, 0, 0]

def k1_chk27 (v588 : BitVec 32) : Prop :=
  (∀ a, (k1_off27 v588) a + S1x1x128.size a ≤ S50000x1x128.size a)
instance k1_chk27.dec : ∀ (v588 : BitVec 32), Decidable (k1_chk27 v588) := fun v588 => decidable_of_iff' _ (Iff.of_eq (k1_chk27.eq_1 v588))
theorem k1_off27_inb : ∀ (v588 : BitVec 32) (k1_hw27 : k1_chk27 v588), ∀ a, (k1_off27 v588) a + S1x1x128.size a ≤ S50000x1x128.size a := fun v588 k1_hw27 => k1_hw27

def k1_off28 (v611 : BitVec 32) : Fin 3 → Nat :=
  let c0_i32_613 : BitVec 32 := 0#32
  let c0_i32_614 : BitVec 32 := 0#32
  ![v611.toNat, 0, 0]

def k1_chk28 (v611 : BitVec 32) : Prop :=
  (∀ a, (k1_off28 v611) a + S1x1x128.size a ≤ S50000x1x128.size a)
instance k1_chk28.dec : ∀ (v611 : BitVec 32), Decidable (k1_chk28 v611) := fun v611 => decidable_of_iff' _ (Iff.of_eq (k1_chk28.eq_1 v611))
theorem k1_off28_inb : ∀ (v611 : BitVec 32) (k1_hw28 : k1_chk28 v611), ∀ a, (k1_off28 v611) a + S1x1x128.size a ≤ S50000x1x128.size a := fun v611 k1_hw28 => k1_hw28

def k1_off29 (v634 : BitVec 32) : Fin 3 → Nat :=
  let c0_i32_636 : BitVec 32 := 0#32
  let c0_i32_637 : BitVec 32 := 0#32
  ![v634.toNat, 0, 0]

def k1_chk29 (v634 : BitVec 32) : Prop :=
  (∀ a, (k1_off29 v634) a + S1x1x128.size a ≤ S50000x1x128.size a)
instance k1_chk29.dec : ∀ (v634 : BitVec 32), Decidable (k1_chk29 v634) := fun v634 => decidable_of_iff' _ (Iff.of_eq (k1_chk29.eq_1 v634))
theorem k1_off29_inb : ∀ (v634 : BitVec 32) (k1_hw29 : k1_chk29 v634), ∀ a, (k1_off29 v634) a + S1x1x128.size a ≤ S50000x1x128.size a := fun v634 k1_hw29 => k1_hw29

def k1_off30 (v657 : BitVec 32) : Fin 3 → Nat :=
  let c0_i32_659 : BitVec 32 := 0#32
  let c0_i32_660 : BitVec 32 := 0#32
  ![v657.toNat, 0, 0]

def k1_chk30 (v657 : BitVec 32) : Prop :=
  (∀ a, (k1_off30 v657) a + S1x1x128.size a ≤ S50000x1x128.size a)
instance k1_chk30.dec : ∀ (v657 : BitVec 32), Decidable (k1_chk30 v657) := fun v657 => decidable_of_iff' _ (Iff.of_eq (k1_chk30.eq_1 v657))
theorem k1_off30_inb : ∀ (v657 : BitVec 32) (k1_hw30 : k1_chk30 v657), ∀ a, (k1_off30 v657) a + S1x1x128.size a ≤ S50000x1x128.size a := fun v657 k1_hw30 => k1_hw30

def k1_off31 (v680 : BitVec 32) : Fin 3 → Nat :=
  let c0_i32_682 : BitVec 32 := 0#32
  let c0_i32_683 : BitVec 32 := 0#32
  ![v680.toNat, 0, 0]

def k1_chk31 (v680 : BitVec 32) : Prop :=
  (∀ a, (k1_off31 v680) a + S1x1x128.size a ≤ S50000x1x128.size a)
instance k1_chk31.dec : ∀ (v680 : BitVec 32), Decidable (k1_chk31 v680) := fun v680 => decidable_of_iff' _ (Iff.of_eq (k1_chk31.eq_1 v680))
theorem k1_off31_inb : ∀ (v680 : BitVec 32) (k1_hw31 : k1_chk31 v680), ∀ a, (k1_off31 v680) a + S1x1x128.size a ≤ S50000x1x128.size a := fun v680 k1_hw31 => k1_hw31

def k1_off32 (v703 : BitVec 32) : Fin 3 → Nat :=
  let c0_i32_705 : BitVec 32 := 0#32
  let c0_i32_706 : BitVec 32 := 0#32
  ![v703.toNat, 0, 0]

def k1_chk32 (v703 : BitVec 32) : Prop :=
  (∀ a, (k1_off32 v703) a + S1x1x128.size a ≤ S50000x1x128.size a)
instance k1_chk32.dec : ∀ (v703 : BitVec 32), Decidable (k1_chk32 v703) := fun v703 => decidable_of_iff' _ (Iff.of_eq (k1_chk32.eq_1 v703))
theorem k1_off32_inb : ∀ (v703 : BitVec 32) (k1_hw32 : k1_chk32 v703), ∀ a, (k1_off32 v703) a + S1x1x128.size a ≤ S50000x1x128.size a := fun v703 k1_hw32 => k1_hw32

def k1_off33 (v736 : BitVec 32) : Fin 3 → Nat :=
  let c0_i32_739 : BitVec 32 := 0#32
  let c0_i32_740 : BitVec 32 := 0#32
  ![v736.toNat, 0, 0]

def k1_chk33 (v736 : BitVec 32) : Prop :=
  (∀ a, (k1_off33 v736) a + S1x1x128.size a ≤ S50000x1x128.size a)
instance k1_chk33.dec : ∀ (v736 : BitVec 32), Decidable (k1_chk33 v736) := fun v736 => decidable_of_iff' _ (Iff.of_eq (k1_chk33.eq_1 v736))
theorem k1_off33_inb : ∀ (v736 : BitVec 32) (k1_hw33 : k1_chk33 v736), ∀ a, (k1_off33 v736) a + S1x1x128.size a ≤ S50000x1x128.size a := fun v736 k1_hw33 => k1_hw33

def k1_off34 (v749 : BitVec 32) : Fin 3 → Nat :=
  let c0_i32_753 : BitVec 32 := 0#32
  let c0_i32_754 : BitVec 32 := 0#32
  ![v749.toNat, 0, 0]

def k1_chk34 (v749 : BitVec 32) : Prop :=
  (∀ a, (k1_off34 v749) a + S1x1x128.size a ≤ S50000x1x128.size a)
instance k1_chk34.dec : ∀ (v749 : BitVec 32), Decidable (k1_chk34 v749) := fun v749 => decidable_of_iff' _ (Iff.of_eq (k1_chk34.eq_1 v749))
theorem k1_off34_inb : ∀ (v749 : BitVec 32) (k1_hw34 : k1_chk34 v749), ∀ a, (k1_off34 v749) a + S1x1x128.size a ≤ S50000x1x128.size a := fun v749 k1_hw34 => k1_hw34

def k1_off35 (v772 : BitVec 32) : Fin 3 → Nat :=
  let c0_i32_777 : BitVec 32 := 0#32
  let c0_i32_778 : BitVec 32 := 0#32
  ![v772.toNat, 0, 0]

def k1_chk35 (v772 : BitVec 32) : Prop :=
  (∀ a, (k1_off35 v772) a + S1x1x128.size a ≤ S50000x1x128.size a)
instance k1_chk35.dec : ∀ (v772 : BitVec 32), Decidable (k1_chk35 v772) := fun v772 => decidable_of_iff' _ (Iff.of_eq (k1_chk35.eq_1 v772))
theorem k1_off35_inb : ∀ (v772 : BitVec 32) (k1_hw35 : k1_chk35 v772), ∀ a, (k1_off35 v772) a + S1x1x128.size a ≤ S50000x1x128.size a := fun v772 k1_hw35 => k1_hw35

def k1_off36 (v795 : BitVec 32) : Fin 3 → Nat :=
  let c0_i32_801 : BitVec 32 := 0#32
  let c0_i32_802 : BitVec 32 := 0#32
  ![v795.toNat, 0, 0]

def k1_chk36 (v795 : BitVec 32) : Prop :=
  (∀ a, (k1_off36 v795) a + S1x1x128.size a ≤ S50000x1x128.size a)
instance k1_chk36.dec : ∀ (v795 : BitVec 32), Decidable (k1_chk36 v795) := fun v795 => decidable_of_iff' _ (Iff.of_eq (k1_chk36.eq_1 v795))
theorem k1_off36_inb : ∀ (v795 : BitVec 32) (k1_hw36 : k1_chk36 v795), ∀ a, (k1_off36 v795) a + S1x1x128.size a ≤ S50000x1x128.size a := fun v795 k1_hw36 => k1_hw36

def k1_off37 (v818 : BitVec 32) : Fin 3 → Nat :=
  let c0_i32_825 : BitVec 32 := 0#32
  let c0_i32_826 : BitVec 32 := 0#32
  ![v818.toNat, 0, 0]

def k1_chk37 (v818 : BitVec 32) : Prop :=
  (∀ a, (k1_off37 v818) a + S1x1x128.size a ≤ S50000x1x128.size a)
instance k1_chk37.dec : ∀ (v818 : BitVec 32), Decidable (k1_chk37 v818) := fun v818 => decidable_of_iff' _ (Iff.of_eq (k1_chk37.eq_1 v818))
theorem k1_off37_inb : ∀ (v818 : BitVec 32) (k1_hw37 : k1_chk37 v818), ∀ a, (k1_off37 v818) a + S1x1x128.size a ≤ S50000x1x128.size a := fun v818 k1_hw37 => k1_hw37

def k1_off38 (v841 : BitVec 32) : Fin 3 → Nat :=
  let c0_i32_849 : BitVec 32 := 0#32
  let c0_i32_850 : BitVec 32 := 0#32
  ![v841.toNat, 0, 0]

def k1_chk38 (v841 : BitVec 32) : Prop :=
  (∀ a, (k1_off38 v841) a + S1x1x128.size a ≤ S50000x1x128.size a)
instance k1_chk38.dec : ∀ (v841 : BitVec 32), Decidable (k1_chk38 v841) := fun v841 => decidable_of_iff' _ (Iff.of_eq (k1_chk38.eq_1 v841))
theorem k1_off38_inb : ∀ (v841 : BitVec 32) (k1_hw38 : k1_chk38 v841), ∀ a, (k1_off38 v841) a + S1x1x128.size a ≤ S50000x1x128.size a := fun v841 k1_hw38 => k1_hw38

def k1_off39 (v864 : BitVec 32) : Fin 3 → Nat :=
  let c0_i32_873 : BitVec 32 := 0#32
  let c0_i32_874 : BitVec 32 := 0#32
  ![v864.toNat, 0, 0]

def k1_chk39 (v864 : BitVec 32) : Prop :=
  (∀ a, (k1_off39 v864) a + S1x1x128.size a ≤ S50000x1x128.size a)
instance k1_chk39.dec : ∀ (v864 : BitVec 32), Decidable (k1_chk39 v864) := fun v864 => decidable_of_iff' _ (Iff.of_eq (k1_chk39.eq_1 v864))
theorem k1_off39_inb : ∀ (v864 : BitVec 32) (k1_hw39 : k1_chk39 v864), ∀ a, (k1_off39 v864) a + S1x1x128.size a ≤ S50000x1x128.size a := fun v864 k1_hw39 => k1_hw39

def k1_off40 (v887 : BitVec 32) : Fin 3 → Nat :=
  let c0_i32_897 : BitVec 32 := 0#32
  let c0_i32_898 : BitVec 32 := 0#32
  ![v887.toNat, 0, 0]

def k1_chk40 (v887 : BitVec 32) : Prop :=
  (∀ a, (k1_off40 v887) a + S1x1x128.size a ≤ S50000x1x128.size a)
instance k1_chk40.dec : ∀ (v887 : BitVec 32), Decidable (k1_chk40 v887) := fun v887 => decidable_of_iff' _ (Iff.of_eq (k1_chk40.eq_1 v887))
theorem k1_off40_inb : ∀ (v887 : BitVec 32) (k1_hw40 : k1_chk40 v887), ∀ a, (k1_off40 v887) a + S1x1x128.size a ≤ S50000x1x128.size a := fun v887 k1_hw40 => k1_hw40

def k1_off41 (v910 : BitVec 32) : Fin 3 → Nat :=
  let c0_i32_921 : BitVec 32 := 0#32
  let c0_i32_922 : BitVec 32 := 0#32
  ![v910.toNat, 0, 0]

def k1_chk41 (v910 : BitVec 32) : Prop :=
  (∀ a, (k1_off41 v910) a + S1x1x128.size a ≤ S50000x1x128.size a)
instance k1_chk41.dec : ∀ (v910 : BitVec 32), Decidable (k1_chk41 v910) := fun v910 => decidable_of_iff' _ (Iff.of_eq (k1_chk41.eq_1 v910))
theorem k1_off41_inb : ∀ (v910 : BitVec 32) (k1_hw41 : k1_chk41 v910), ∀ a, (k1_off41 v910) a + S1x1x128.size a ≤ S50000x1x128.size a := fun v910 k1_hw41 => k1_hw41

def k1_off42 (v933 : BitVec 32) : Fin 3 → Nat :=
  let c0_i32_945 : BitVec 32 := 0#32
  let c0_i32_946 : BitVec 32 := 0#32
  ![v933.toNat, 0, 0]

def k1_chk42 (v933 : BitVec 32) : Prop :=
  (∀ a, (k1_off42 v933) a + S1x1x128.size a ≤ S50000x1x128.size a)
instance k1_chk42.dec : ∀ (v933 : BitVec 32), Decidable (k1_chk42 v933) := fun v933 => decidable_of_iff' _ (Iff.of_eq (k1_chk42.eq_1 v933))
theorem k1_off42_inb : ∀ (v933 : BitVec 32) (k1_hw42 : k1_chk42 v933), ∀ a, (k1_off42 v933) a + S1x1x128.size a ≤ S50000x1x128.size a := fun v933 k1_hw42 => k1_hw42

def k1_off43 (v956 : BitVec 32) : Fin 3 → Nat :=
  let c0_i32_969 : BitVec 32 := 0#32
  let c0_i32_970 : BitVec 32 := 0#32
  ![v956.toNat, 0, 0]

def k1_chk43 (v956 : BitVec 32) : Prop :=
  (∀ a, (k1_off43 v956) a + S1x1x128.size a ≤ S50000x1x128.size a)
instance k1_chk43.dec : ∀ (v956 : BitVec 32), Decidable (k1_chk43 v956) := fun v956 => decidable_of_iff' _ (Iff.of_eq (k1_chk43.eq_1 v956))
theorem k1_off43_inb : ∀ (v956 : BitVec 32) (k1_hw43 : k1_chk43 v956), ∀ a, (k1_off43 v956) a + S1x1x128.size a ≤ S50000x1x128.size a := fun v956 k1_hw43 => k1_hw43

def k1_off44 (v979 : BitVec 32) : Fin 3 → Nat :=
  let c0_i32_993 : BitVec 32 := 0#32
  let c0_i32_994 : BitVec 32 := 0#32
  ![v979.toNat, 0, 0]

def k1_chk44 (v979 : BitVec 32) : Prop :=
  (∀ a, (k1_off44 v979) a + S1x1x128.size a ≤ S50000x1x128.size a)
instance k1_chk44.dec : ∀ (v979 : BitVec 32), Decidable (k1_chk44 v979) := fun v979 => decidable_of_iff' _ (Iff.of_eq (k1_chk44.eq_1 v979))
theorem k1_off44_inb : ∀ (v979 : BitVec 32) (k1_hw44 : k1_chk44 v979), ∀ a, (k1_off44 v979) a + S1x1x128.size a ≤ S50000x1x128.size a := fun v979 k1_hw44 => k1_hw44

def k1_off45 (v1002 : BitVec 32) : Fin 3 → Nat :=
  let c0_i32_1017 : BitVec 32 := 0#32
  let c0_i32_1018 : BitVec 32 := 0#32
  ![v1002.toNat, 0, 0]

def k1_chk45 (v1002 : BitVec 32) : Prop :=
  (∀ a, (k1_off45 v1002) a + S1x1x128.size a ≤ S50000x1x128.size a)
instance k1_chk45.dec : ∀ (v1002 : BitVec 32), Decidable (k1_chk45 v1002) := fun v1002 => decidable_of_iff' _ (Iff.of_eq (k1_chk45.eq_1 v1002))
theorem k1_off45_inb : ∀ (v1002 : BitVec 32) (k1_hw45 : k1_chk45 v1002), ∀ a, (k1_off45 v1002) a + S1x1x128.size a ≤ S50000x1x128.size a := fun v1002 k1_hw45 => k1_hw45

def k1_off46 (v1025 : BitVec 32) : Fin 3 → Nat :=
  let c0_i32_1041 : BitVec 32 := 0#32
  let c0_i32_1042 : BitVec 32 := 0#32
  ![v1025.toNat, 0, 0]

def k1_chk46 (v1025 : BitVec 32) : Prop :=
  (∀ a, (k1_off46 v1025) a + S1x1x128.size a ≤ S50000x1x128.size a)
instance k1_chk46.dec : ∀ (v1025 : BitVec 32), Decidable (k1_chk46 v1025) := fun v1025 => decidable_of_iff' _ (Iff.of_eq (k1_chk46.eq_1 v1025))
theorem k1_off46_inb : ∀ (v1025 : BitVec 32) (k1_hw46 : k1_chk46 v1025), ∀ a, (k1_off46 v1025) a + S1x1x128.size a ≤ S50000x1x128.size a := fun v1025 k1_hw46 => k1_hw46

def k1_off47 (v1048 : BitVec 32) : Fin 3 → Nat :=
  let c0_i32_1065 : BitVec 32 := 0#32
  let c0_i32_1066 : BitVec 32 := 0#32
  ![v1048.toNat, 0, 0]

def k1_chk47 (v1048 : BitVec 32) : Prop :=
  (∀ a, (k1_off47 v1048) a + S1x1x128.size a ≤ S50000x1x128.size a)
instance k1_chk47.dec : ∀ (v1048 : BitVec 32), Decidable (k1_chk47 v1048) := fun v1048 => decidable_of_iff' _ (Iff.of_eq (k1_chk47.eq_1 v1048))
theorem k1_off47_inb : ∀ (v1048 : BitVec 32) (k1_hw47 : k1_chk47 v1048), ∀ a, (k1_off47 v1048) a + S1x1x128.size a ≤ S50000x1x128.size a := fun v1048 k1_hw47 => k1_hw47

def k1_off48 (v1071 : BitVec 32) : Fin 3 → Nat :=
  let c0_i32_1089 : BitVec 32 := 0#32
  let c0_i32_1090 : BitVec 32 := 0#32
  ![v1071.toNat, 0, 0]

def k1_chk48 (v1071 : BitVec 32) : Prop :=
  (∀ a, (k1_off48 v1071) a + S1x1x128.size a ≤ S50000x1x128.size a)
instance k1_chk48.dec : ∀ (v1071 : BitVec 32), Decidable (k1_chk48 v1071) := fun v1071 => decidable_of_iff' _ (Iff.of_eq (k1_chk48.eq_1 v1071))
theorem k1_off48_inb : ∀ (v1071 : BitVec 32) (k1_hw48 : k1_chk48 v1071), ∀ a, (k1_off48 v1071) a + S1x1x128.size a ≤ S50000x1x128.size a := fun v1071 k1_hw48 => k1_hw48

def k1_off49 (v1094 : BitVec 32) : Fin 3 → Nat :=
  let c0_i32_1113 : BitVec 32 := 0#32
  let c0_i32_1114 : BitVec 32 := 0#32
  ![v1094.toNat, 0, 0]

def k1_chk49 (v1094 : BitVec 32) : Prop :=
  (∀ a, (k1_off49 v1094) a + S1x1x128.size a ≤ S50000x1x128.size a)
instance k1_chk49.dec : ∀ (v1094 : BitVec 32), Decidable (k1_chk49 v1094) := fun v1094 => decidable_of_iff' _ (Iff.of_eq (k1_chk49.eq_1 v1094))
theorem k1_off49_inb : ∀ (v1094 : BitVec 32) (k1_hw49 : k1_chk49 v1094), ∀ a, (k1_off49 v1094) a + S1x1x128.size a ≤ S50000x1x128.size a := fun v1094 k1_hw49 => k1_hw49

def k1_off50 (v1117 : BitVec 32) : Fin 3 → Nat :=
  let c0_i32_1137 : BitVec 32 := 0#32
  let c0_i32_1138 : BitVec 32 := 0#32
  ![v1117.toNat, 0, 0]

def k1_chk50 (v1117 : BitVec 32) : Prop :=
  (∀ a, (k1_off50 v1117) a + S1x1x128.size a ≤ S50000x1x128.size a)
instance k1_chk50.dec : ∀ (v1117 : BitVec 32), Decidable (k1_chk50 v1117) := fun v1117 => decidable_of_iff' _ (Iff.of_eq (k1_chk50.eq_1 v1117))
theorem k1_off50_inb : ∀ (v1117 : BitVec 32) (k1_hw50 : k1_chk50 v1117), ∀ a, (k1_off50 v1117) a + S1x1x128.size a ≤ S50000x1x128.size a := fun v1117 k1_hw50 => k1_hw50

def k1_off51 (v1140 : BitVec 32) : Fin 3 → Nat :=
  let c0_i32_1161 : BitVec 32 := 0#32
  let c0_i32_1162 : BitVec 32 := 0#32
  ![v1140.toNat, 0, 0]

def k1_chk51 (v1140 : BitVec 32) : Prop :=
  (∀ a, (k1_off51 v1140) a + S1x1x128.size a ≤ S50000x1x128.size a)
instance k1_chk51.dec : ∀ (v1140 : BitVec 32), Decidable (k1_chk51 v1140) := fun v1140 => decidable_of_iff' _ (Iff.of_eq (k1_chk51.eq_1 v1140))
theorem k1_off51_inb : ∀ (v1140 : BitVec 32) (k1_hw51 : k1_chk51 v1140), ∀ a, (k1_off51 v1140) a + S1x1x128.size a ≤ S50000x1x128.size a := fun v1140 k1_hw51 => k1_hw51

def k1_off52 (v1163 : BitVec 32) : Fin 3 → Nat :=
  let c0_i32_1185 : BitVec 32 := 0#32
  let c0_i32_1186 : BitVec 32 := 0#32
  ![v1163.toNat, 0, 0]

def k1_chk52 (v1163 : BitVec 32) : Prop :=
  (∀ a, (k1_off52 v1163) a + S1x1x128.size a ≤ S50000x1x128.size a)
instance k1_chk52.dec : ∀ (v1163 : BitVec 32), Decidable (k1_chk52 v1163) := fun v1163 => decidable_of_iff' _ (Iff.of_eq (k1_chk52.eq_1 v1163))
theorem k1_off52_inb : ∀ (v1163 : BitVec 32) (k1_hw52 : k1_chk52 v1163), ∀ a, (k1_off52 v1163) a + S1x1x128.size a ≤ S50000x1x128.size a := fun v1163 k1_hw52 => k1_hw52

def k1_off53 (v1186 : BitVec 32) : Fin 3 → Nat :=
  let c0_i32_1209 : BitVec 32 := 0#32
  let c0_i32_1210 : BitVec 32 := 0#32
  ![v1186.toNat, 0, 0]

def k1_chk53 (v1186 : BitVec 32) : Prop :=
  (∀ a, (k1_off53 v1186) a + S1x1x128.size a ≤ S50000x1x128.size a)
instance k1_chk53.dec : ∀ (v1186 : BitVec 32), Decidable (k1_chk53 v1186) := fun v1186 => decidable_of_iff' _ (Iff.of_eq (k1_chk53.eq_1 v1186))
theorem k1_off53_inb : ∀ (v1186 : BitVec 32) (k1_hw53 : k1_chk53 v1186), ∀ a, (k1_off53 v1186) a + S1x1x128.size a ≤ S50000x1x128.size a := fun v1186 k1_hw53 => k1_hw53

def k1_off54 (v1209 : BitVec 32) : Fin 3 → Nat :=
  let c0_i32_1233 : BitVec 32 := 0#32
  let c0_i32_1234 : BitVec 32 := 0#32
  ![v1209.toNat, 0, 0]

def k1_chk54 (v1209 : BitVec 32) : Prop :=
  (∀ a, (k1_off54 v1209) a + S1x1x128.size a ≤ S50000x1x128.size a)
instance k1_chk54.dec : ∀ (v1209 : BitVec 32), Decidable (k1_chk54 v1209) := fun v1209 => decidable_of_iff' _ (Iff.of_eq (k1_chk54.eq_1 v1209))
theorem k1_off54_inb : ∀ (v1209 : BitVec 32) (k1_hw54 : k1_chk54 v1209), ∀ a, (k1_off54 v1209) a + S1x1x128.size a ≤ S50000x1x128.size a := fun v1209 k1_hw54 => k1_hw54

def k1_off55 (v1232 : BitVec 32) : Fin 3 → Nat :=
  let c0_i32_1257 : BitVec 32 := 0#32
  let c0_i32_1258 : BitVec 32 := 0#32
  ![v1232.toNat, 0, 0]

def k1_chk55 (v1232 : BitVec 32) : Prop :=
  (∀ a, (k1_off55 v1232) a + S1x1x128.size a ≤ S50000x1x128.size a)
instance k1_chk55.dec : ∀ (v1232 : BitVec 32), Decidable (k1_chk55 v1232) := fun v1232 => decidable_of_iff' _ (Iff.of_eq (k1_chk55.eq_1 v1232))
theorem k1_off55_inb : ∀ (v1232 : BitVec 32) (k1_hw55 : k1_chk55 v1232), ∀ a, (k1_off55 v1232) a + S1x1x128.size a ≤ S50000x1x128.size a := fun v1232 k1_hw55 => k1_hw55

def k1_off56 (v1255 : BitVec 32) : Fin 3 → Nat :=
  let c0_i32_1281 : BitVec 32 := 0#32
  let c0_i32_1282 : BitVec 32 := 0#32
  ![v1255.toNat, 0, 0]

def k1_chk56 (v1255 : BitVec 32) : Prop :=
  (∀ a, (k1_off56 v1255) a + S1x1x128.size a ≤ S50000x1x128.size a)
instance k1_chk56.dec : ∀ (v1255 : BitVec 32), Decidable (k1_chk56 v1255) := fun v1255 => decidable_of_iff' _ (Iff.of_eq (k1_chk56.eq_1 v1255))
theorem k1_off56_inb : ∀ (v1255 : BitVec 32) (k1_hw56 : k1_chk56 v1255), ∀ a, (k1_off56 v1255) a + S1x1x128.size a ≤ S50000x1x128.size a := fun v1255 k1_hw56 => k1_hw56

def k1_off57 (v1278 : BitVec 32) : Fin 3 → Nat :=
  let c0_i32_1305 : BitVec 32 := 0#32
  let c0_i32_1306 : BitVec 32 := 0#32
  ![v1278.toNat, 0, 0]

def k1_chk57 (v1278 : BitVec 32) : Prop :=
  (∀ a, (k1_off57 v1278) a + S1x1x128.size a ≤ S50000x1x128.size a)
instance k1_chk57.dec : ∀ (v1278 : BitVec 32), Decidable (k1_chk57 v1278) := fun v1278 => decidable_of_iff' _ (Iff.of_eq (k1_chk57.eq_1 v1278))
theorem k1_off57_inb : ∀ (v1278 : BitVec 32) (k1_hw57 : k1_chk57 v1278), ∀ a, (k1_off57 v1278) a + S1x1x128.size a ≤ S50000x1x128.size a := fun v1278 k1_hw57 => k1_hw57

def k1_off58 (v1301 : BitVec 32) : Fin 3 → Nat :=
  let c0_i32_1329 : BitVec 32 := 0#32
  let c0_i32_1330 : BitVec 32 := 0#32
  ![v1301.toNat, 0, 0]

def k1_chk58 (v1301 : BitVec 32) : Prop :=
  (∀ a, (k1_off58 v1301) a + S1x1x128.size a ≤ S50000x1x128.size a)
instance k1_chk58.dec : ∀ (v1301 : BitVec 32), Decidable (k1_chk58 v1301) := fun v1301 => decidable_of_iff' _ (Iff.of_eq (k1_chk58.eq_1 v1301))
theorem k1_off58_inb : ∀ (v1301 : BitVec 32) (k1_hw58 : k1_chk58 v1301), ∀ a, (k1_off58 v1301) a + S1x1x128.size a ≤ S50000x1x128.size a := fun v1301 k1_hw58 => k1_hw58

def k1_off59 (v1324 : BitVec 32) : Fin 3 → Nat :=
  let c0_i32_1353 : BitVec 32 := 0#32
  let c0_i32_1354 : BitVec 32 := 0#32
  ![v1324.toNat, 0, 0]

def k1_chk59 (v1324 : BitVec 32) : Prop :=
  (∀ a, (k1_off59 v1324) a + S1x1x128.size a ≤ S50000x1x128.size a)
instance k1_chk59.dec : ∀ (v1324 : BitVec 32), Decidable (k1_chk59 v1324) := fun v1324 => decidable_of_iff' _ (Iff.of_eq (k1_chk59.eq_1 v1324))
theorem k1_off59_inb : ∀ (v1324 : BitVec 32) (k1_hw59 : k1_chk59 v1324), ∀ a, (k1_off59 v1324) a + S1x1x128.size a ≤ S50000x1x128.size a := fun v1324 k1_hw59 => k1_hw59

def k1_off60 (v1347 : BitVec 32) : Fin 3 → Nat :=
  let c0_i32_1377 : BitVec 32 := 0#32
  let c0_i32_1378 : BitVec 32 := 0#32
  ![v1347.toNat, 0, 0]

def k1_chk60 (v1347 : BitVec 32) : Prop :=
  (∀ a, (k1_off60 v1347) a + S1x1x128.size a ≤ S50000x1x128.size a)
instance k1_chk60.dec : ∀ (v1347 : BitVec 32), Decidable (k1_chk60 v1347) := fun v1347 => decidable_of_iff' _ (Iff.of_eq (k1_chk60.eq_1 v1347))
theorem k1_off60_inb : ∀ (v1347 : BitVec 32) (k1_hw60 : k1_chk60 v1347), ∀ a, (k1_off60 v1347) a + S1x1x128.size a ≤ S50000x1x128.size a := fun v1347 k1_hw60 => k1_hw60

def k1_off61 (v1370 : BitVec 32) : Fin 3 → Nat :=
  let c0_i32_1401 : BitVec 32 := 0#32
  let c0_i32_1402 : BitVec 32 := 0#32
  ![v1370.toNat, 0, 0]

def k1_chk61 (v1370 : BitVec 32) : Prop :=
  (∀ a, (k1_off61 v1370) a + S1x1x128.size a ≤ S50000x1x128.size a)
instance k1_chk61.dec : ∀ (v1370 : BitVec 32), Decidable (k1_chk61 v1370) := fun v1370 => decidable_of_iff' _ (Iff.of_eq (k1_chk61.eq_1 v1370))
theorem k1_off61_inb : ∀ (v1370 : BitVec 32) (k1_hw61 : k1_chk61 v1370), ∀ a, (k1_off61 v1370) a + S1x1x128.size a ≤ S50000x1x128.size a := fun v1370 k1_hw61 => k1_hw61

def k1_off62 (v1393 : BitVec 32) : Fin 3 → Nat :=
  let c0_i32_1425 : BitVec 32 := 0#32
  let c0_i32_1426 : BitVec 32 := 0#32
  ![v1393.toNat, 0, 0]

def k1_chk62 (v1393 : BitVec 32) : Prop :=
  (∀ a, (k1_off62 v1393) a + S1x1x128.size a ≤ S50000x1x128.size a)
instance k1_chk62.dec : ∀ (v1393 : BitVec 32), Decidable (k1_chk62 v1393) := fun v1393 => decidable_of_iff' _ (Iff.of_eq (k1_chk62.eq_1 v1393))
theorem k1_off62_inb : ∀ (v1393 : BitVec 32) (k1_hw62 : k1_chk62 v1393), ∀ a, (k1_off62 v1393) a + S1x1x128.size a ≤ S50000x1x128.size a := fun v1393 k1_hw62 => k1_hw62

def k1_off63 (v1416 : BitVec 32) : Fin 3 → Nat :=
  let c0_i32_1449 : BitVec 32 := 0#32
  let c0_i32_1450 : BitVec 32 := 0#32
  ![v1416.toNat, 0, 0]

def k1_chk63 (v1416 : BitVec 32) : Prop :=
  (∀ a, (k1_off63 v1416) a + S1x1x128.size a ≤ S50000x1x128.size a)
instance k1_chk63.dec : ∀ (v1416 : BitVec 32), Decidable (k1_chk63 v1416) := fun v1416 => decidable_of_iff' _ (Iff.of_eq (k1_chk63.eq_1 v1416))
theorem k1_off63_inb : ∀ (v1416 : BitVec 32) (k1_hw63 : k1_chk63 v1416), ∀ a, (k1_off63 v1416) a + S1x1x128.size a ≤ S50000x1x128.size a := fun v1416 k1_hw63 => k1_hw63

def k1_off64 (v1439 : BitVec 32) : Fin 3 → Nat :=
  let c0_i32_1473 : BitVec 32 := 0#32
  let c0_i32_1474 : BitVec 32 := 0#32
  ![v1439.toNat, 0, 0]

def k1_chk64 (v1439 : BitVec 32) : Prop :=
  (∀ a, (k1_off64 v1439) a + S1x1x128.size a ≤ S50000x1x128.size a)
instance k1_chk64.dec : ∀ (v1439 : BitVec 32), Decidable (k1_chk64 v1439) := fun v1439 => decidable_of_iff' _ (Iff.of_eq (k1_chk64.eq_1 v1439))
theorem k1_off64_inb : ∀ (v1439 : BitVec 32) (k1_hw64 : k1_chk64 v1439), ∀ a, (k1_off64 v1439) a + S1x1x128.size a ≤ S50000x1x128.size a := fun v1439 k1_hw64 => k1_hw64

def k1_off65 (v1472 : BitVec 32) : Fin 3 → Nat :=
  let c0_i32_1507 : BitVec 32 := 0#32
  let c0_i32_1508 : BitVec 32 := 0#32
  ![v1472.toNat, 0, 0]

def k1_chk65 (v1472 : BitVec 32) : Prop :=
  (∀ a, (k1_off65 v1472) a + S1x1x128.size a ≤ S50000x1x128.size a)
instance k1_chk65.dec : ∀ (v1472 : BitVec 32), Decidable (k1_chk65 v1472) := fun v1472 => decidable_of_iff' _ (Iff.of_eq (k1_chk65.eq_1 v1472))
theorem k1_off65_inb : ∀ (v1472 : BitVec 32) (k1_hw65 : k1_chk65 v1472), ∀ a, (k1_off65 v1472) a + S1x1x128.size a ≤ S50000x1x128.size a := fun v1472 k1_hw65 => k1_hw65

def k1_off66 (v1485 : BitVec 32) : Fin 3 → Nat :=
  let c0_i32_1521 : BitVec 32 := 0#32
  let c0_i32_1522 : BitVec 32 := 0#32
  ![v1485.toNat, 0, 0]

def k1_chk66 (v1485 : BitVec 32) : Prop :=
  (∀ a, (k1_off66 v1485) a + S1x1x128.size a ≤ S50000x1x128.size a)
instance k1_chk66.dec : ∀ (v1485 : BitVec 32), Decidable (k1_chk66 v1485) := fun v1485 => decidable_of_iff' _ (Iff.of_eq (k1_chk66.eq_1 v1485))
theorem k1_off66_inb : ∀ (v1485 : BitVec 32) (k1_hw66 : k1_chk66 v1485), ∀ a, (k1_off66 v1485) a + S1x1x128.size a ≤ S50000x1x128.size a := fun v1485 k1_hw66 => k1_hw66

def k1_off67 (v1508 : BitVec 32) : Fin 3 → Nat :=
  let c0_i32_1545 : BitVec 32 := 0#32
  let c0_i32_1546 : BitVec 32 := 0#32
  ![v1508.toNat, 0, 0]

def k1_chk67 (v1508 : BitVec 32) : Prop :=
  (∀ a, (k1_off67 v1508) a + S1x1x128.size a ≤ S50000x1x128.size a)
instance k1_chk67.dec : ∀ (v1508 : BitVec 32), Decidable (k1_chk67 v1508) := fun v1508 => decidable_of_iff' _ (Iff.of_eq (k1_chk67.eq_1 v1508))
theorem k1_off67_inb : ∀ (v1508 : BitVec 32) (k1_hw67 : k1_chk67 v1508), ∀ a, (k1_off67 v1508) a + S1x1x128.size a ≤ S50000x1x128.size a := fun v1508 k1_hw67 => k1_hw67

def k1_off68 (v1531 : BitVec 32) : Fin 3 → Nat :=
  let c0_i32_1569 : BitVec 32 := 0#32
  let c0_i32_1570 : BitVec 32 := 0#32
  ![v1531.toNat, 0, 0]

def k1_chk68 (v1531 : BitVec 32) : Prop :=
  (∀ a, (k1_off68 v1531) a + S1x1x128.size a ≤ S50000x1x128.size a)
instance k1_chk68.dec : ∀ (v1531 : BitVec 32), Decidable (k1_chk68 v1531) := fun v1531 => decidable_of_iff' _ (Iff.of_eq (k1_chk68.eq_1 v1531))
theorem k1_off68_inb : ∀ (v1531 : BitVec 32) (k1_hw68 : k1_chk68 v1531), ∀ a, (k1_off68 v1531) a + S1x1x128.size a ≤ S50000x1x128.size a := fun v1531 k1_hw68 => k1_hw68

def k1_off69 (v1554 : BitVec 32) : Fin 3 → Nat :=
  let c0_i32_1593 : BitVec 32 := 0#32
  let c0_i32_1594 : BitVec 32 := 0#32
  ![v1554.toNat, 0, 0]

def k1_chk69 (v1554 : BitVec 32) : Prop :=
  (∀ a, (k1_off69 v1554) a + S1x1x128.size a ≤ S50000x1x128.size a)
instance k1_chk69.dec : ∀ (v1554 : BitVec 32), Decidable (k1_chk69 v1554) := fun v1554 => decidable_of_iff' _ (Iff.of_eq (k1_chk69.eq_1 v1554))
theorem k1_off69_inb : ∀ (v1554 : BitVec 32) (k1_hw69 : k1_chk69 v1554), ∀ a, (k1_off69 v1554) a + S1x1x128.size a ≤ S50000x1x128.size a := fun v1554 k1_hw69 => k1_hw69

def k1_off70 (v1577 : BitVec 32) : Fin 3 → Nat :=
  let c0_i32_1617 : BitVec 32 := 0#32
  let c0_i32_1618 : BitVec 32 := 0#32
  ![v1577.toNat, 0, 0]

def k1_chk70 (v1577 : BitVec 32) : Prop :=
  (∀ a, (k1_off70 v1577) a + S1x1x128.size a ≤ S50000x1x128.size a)
instance k1_chk70.dec : ∀ (v1577 : BitVec 32), Decidable (k1_chk70 v1577) := fun v1577 => decidable_of_iff' _ (Iff.of_eq (k1_chk70.eq_1 v1577))
theorem k1_off70_inb : ∀ (v1577 : BitVec 32) (k1_hw70 : k1_chk70 v1577), ∀ a, (k1_off70 v1577) a + S1x1x128.size a ≤ S50000x1x128.size a := fun v1577 k1_hw70 => k1_hw70

def k1_off71 (v1600 : BitVec 32) : Fin 3 → Nat :=
  let c0_i32_1641 : BitVec 32 := 0#32
  let c0_i32_1642 : BitVec 32 := 0#32
  ![v1600.toNat, 0, 0]

def k1_chk71 (v1600 : BitVec 32) : Prop :=
  (∀ a, (k1_off71 v1600) a + S1x1x128.size a ≤ S50000x1x128.size a)
instance k1_chk71.dec : ∀ (v1600 : BitVec 32), Decidable (k1_chk71 v1600) := fun v1600 => decidable_of_iff' _ (Iff.of_eq (k1_chk71.eq_1 v1600))
theorem k1_off71_inb : ∀ (v1600 : BitVec 32) (k1_hw71 : k1_chk71 v1600), ∀ a, (k1_off71 v1600) a + S1x1x128.size a ≤ S50000x1x128.size a := fun v1600 k1_hw71 => k1_hw71

def k1_off72 (v1623 : BitVec 32) : Fin 3 → Nat :=
  let c0_i32_1665 : BitVec 32 := 0#32
  let c0_i32_1666 : BitVec 32 := 0#32
  ![v1623.toNat, 0, 0]

def k1_chk72 (v1623 : BitVec 32) : Prop :=
  (∀ a, (k1_off72 v1623) a + S1x1x128.size a ≤ S50000x1x128.size a)
instance k1_chk72.dec : ∀ (v1623 : BitVec 32), Decidable (k1_chk72 v1623) := fun v1623 => decidable_of_iff' _ (Iff.of_eq (k1_chk72.eq_1 v1623))
theorem k1_off72_inb : ∀ (v1623 : BitVec 32) (k1_hw72 : k1_chk72 v1623), ∀ a, (k1_off72 v1623) a + S1x1x128.size a ≤ S50000x1x128.size a := fun v1623 k1_hw72 => k1_hw72

def k1_off73 (v1646 : BitVec 32) : Fin 3 → Nat :=
  let c0_i32_1689 : BitVec 32 := 0#32
  let c0_i32_1690 : BitVec 32 := 0#32
  ![v1646.toNat, 0, 0]

def k1_chk73 (v1646 : BitVec 32) : Prop :=
  (∀ a, (k1_off73 v1646) a + S1x1x128.size a ≤ S50000x1x128.size a)
instance k1_chk73.dec : ∀ (v1646 : BitVec 32), Decidable (k1_chk73 v1646) := fun v1646 => decidable_of_iff' _ (Iff.of_eq (k1_chk73.eq_1 v1646))
theorem k1_off73_inb : ∀ (v1646 : BitVec 32) (k1_hw73 : k1_chk73 v1646), ∀ a, (k1_off73 v1646) a + S1x1x128.size a ≤ S50000x1x128.size a := fun v1646 k1_hw73 => k1_hw73

def k1_off74 (v1669 : BitVec 32) : Fin 3 → Nat :=
  let c0_i32_1713 : BitVec 32 := 0#32
  let c0_i32_1714 : BitVec 32 := 0#32
  ![v1669.toNat, 0, 0]

def k1_chk74 (v1669 : BitVec 32) : Prop :=
  (∀ a, (k1_off74 v1669) a + S1x1x128.size a ≤ S50000x1x128.size a)
instance k1_chk74.dec : ∀ (v1669 : BitVec 32), Decidable (k1_chk74 v1669) := fun v1669 => decidable_of_iff' _ (Iff.of_eq (k1_chk74.eq_1 v1669))
theorem k1_off74_inb : ∀ (v1669 : BitVec 32) (k1_hw74 : k1_chk74 v1669), ∀ a, (k1_off74 v1669) a + S1x1x128.size a ≤ S50000x1x128.size a := fun v1669 k1_hw74 => k1_hw74

def k1_off75 (v1692 : BitVec 32) : Fin 3 → Nat :=
  let c0_i32_1737 : BitVec 32 := 0#32
  let c0_i32_1738 : BitVec 32 := 0#32
  ![v1692.toNat, 0, 0]

def k1_chk75 (v1692 : BitVec 32) : Prop :=
  (∀ a, (k1_off75 v1692) a + S1x1x128.size a ≤ S50000x1x128.size a)
instance k1_chk75.dec : ∀ (v1692 : BitVec 32), Decidable (k1_chk75 v1692) := fun v1692 => decidable_of_iff' _ (Iff.of_eq (k1_chk75.eq_1 v1692))
theorem k1_off75_inb : ∀ (v1692 : BitVec 32) (k1_hw75 : k1_chk75 v1692), ∀ a, (k1_off75 v1692) a + S1x1x128.size a ≤ S50000x1x128.size a := fun v1692 k1_hw75 => k1_hw75

def k1_off76 (v1715 : BitVec 32) : Fin 3 → Nat :=
  let c0_i32_1761 : BitVec 32 := 0#32
  let c0_i32_1762 : BitVec 32 := 0#32
  ![v1715.toNat, 0, 0]

def k1_chk76 (v1715 : BitVec 32) : Prop :=
  (∀ a, (k1_off76 v1715) a + S1x1x128.size a ≤ S50000x1x128.size a)
instance k1_chk76.dec : ∀ (v1715 : BitVec 32), Decidable (k1_chk76 v1715) := fun v1715 => decidable_of_iff' _ (Iff.of_eq (k1_chk76.eq_1 v1715))
theorem k1_off76_inb : ∀ (v1715 : BitVec 32) (k1_hw76 : k1_chk76 v1715), ∀ a, (k1_off76 v1715) a + S1x1x128.size a ≤ S50000x1x128.size a := fun v1715 k1_hw76 => k1_hw76

def k1_off77 (v1738 : BitVec 32) : Fin 3 → Nat :=
  let c0_i32_1785 : BitVec 32 := 0#32
  let c0_i32_1786 : BitVec 32 := 0#32
  ![v1738.toNat, 0, 0]

def k1_chk77 (v1738 : BitVec 32) : Prop :=
  (∀ a, (k1_off77 v1738) a + S1x1x128.size a ≤ S50000x1x128.size a)
instance k1_chk77.dec : ∀ (v1738 : BitVec 32), Decidable (k1_chk77 v1738) := fun v1738 => decidable_of_iff' _ (Iff.of_eq (k1_chk77.eq_1 v1738))
theorem k1_off77_inb : ∀ (v1738 : BitVec 32) (k1_hw77 : k1_chk77 v1738), ∀ a, (k1_off77 v1738) a + S1x1x128.size a ≤ S50000x1x128.size a := fun v1738 k1_hw77 => k1_hw77

def k1_off78 (v1761 : BitVec 32) : Fin 3 → Nat :=
  let c0_i32_1809 : BitVec 32 := 0#32
  let c0_i32_1810 : BitVec 32 := 0#32
  ![v1761.toNat, 0, 0]

def k1_chk78 (v1761 : BitVec 32) : Prop :=
  (∀ a, (k1_off78 v1761) a + S1x1x128.size a ≤ S50000x1x128.size a)
instance k1_chk78.dec : ∀ (v1761 : BitVec 32), Decidable (k1_chk78 v1761) := fun v1761 => decidable_of_iff' _ (Iff.of_eq (k1_chk78.eq_1 v1761))
theorem k1_off78_inb : ∀ (v1761 : BitVec 32) (k1_hw78 : k1_chk78 v1761), ∀ a, (k1_off78 v1761) a + S1x1x128.size a ≤ S50000x1x128.size a := fun v1761 k1_hw78 => k1_hw78

def k1_off79 (v1784 : BitVec 32) : Fin 3 → Nat :=
  let c0_i32_1833 : BitVec 32 := 0#32
  let c0_i32_1834 : BitVec 32 := 0#32
  ![v1784.toNat, 0, 0]

def k1_chk79 (v1784 : BitVec 32) : Prop :=
  (∀ a, (k1_off79 v1784) a + S1x1x128.size a ≤ S50000x1x128.size a)
instance k1_chk79.dec : ∀ (v1784 : BitVec 32), Decidable (k1_chk79 v1784) := fun v1784 => decidable_of_iff' _ (Iff.of_eq (k1_chk79.eq_1 v1784))
theorem k1_off79_inb : ∀ (v1784 : BitVec 32) (k1_hw79 : k1_chk79 v1784), ∀ a, (k1_off79 v1784) a + S1x1x128.size a ≤ S50000x1x128.size a := fun v1784 k1_hw79 => k1_hw79

def k1_off80 (v1807 : BitVec 32) : Fin 3 → Nat :=
  let c0_i32_1857 : BitVec 32 := 0#32
  let c0_i32_1858 : BitVec 32 := 0#32
  ![v1807.toNat, 0, 0]

def k1_chk80 (v1807 : BitVec 32) : Prop :=
  (∀ a, (k1_off80 v1807) a + S1x1x128.size a ≤ S50000x1x128.size a)
instance k1_chk80.dec : ∀ (v1807 : BitVec 32), Decidable (k1_chk80 v1807) := fun v1807 => decidable_of_iff' _ (Iff.of_eq (k1_chk80.eq_1 v1807))
theorem k1_off80_inb : ∀ (v1807 : BitVec 32) (k1_hw80 : k1_chk80 v1807), ∀ a, (k1_off80 v1807) a + S1x1x128.size a ≤ S50000x1x128.size a := fun v1807 k1_hw80 => k1_hw80

def k1_off81 (v1830 : BitVec 32) : Fin 3 → Nat :=
  let c0_i32_1881 : BitVec 32 := 0#32
  let c0_i32_1882 : BitVec 32 := 0#32
  ![v1830.toNat, 0, 0]

def k1_chk81 (v1830 : BitVec 32) : Prop :=
  (∀ a, (k1_off81 v1830) a + S1x1x128.size a ≤ S50000x1x128.size a)
instance k1_chk81.dec : ∀ (v1830 : BitVec 32), Decidable (k1_chk81 v1830) := fun v1830 => decidable_of_iff' _ (Iff.of_eq (k1_chk81.eq_1 v1830))
theorem k1_off81_inb : ∀ (v1830 : BitVec 32) (k1_hw81 : k1_chk81 v1830), ∀ a, (k1_off81 v1830) a + S1x1x128.size a ≤ S50000x1x128.size a := fun v1830 k1_hw81 => k1_hw81

def k1_off82 (v1853 : BitVec 32) : Fin 3 → Nat :=
  let c0_i32_1905 : BitVec 32 := 0#32
  let c0_i32_1906 : BitVec 32 := 0#32
  ![v1853.toNat, 0, 0]

def k1_chk82 (v1853 : BitVec 32) : Prop :=
  (∀ a, (k1_off82 v1853) a + S1x1x128.size a ≤ S50000x1x128.size a)
instance k1_chk82.dec : ∀ (v1853 : BitVec 32), Decidable (k1_chk82 v1853) := fun v1853 => decidable_of_iff' _ (Iff.of_eq (k1_chk82.eq_1 v1853))
theorem k1_off82_inb : ∀ (v1853 : BitVec 32) (k1_hw82 : k1_chk82 v1853), ∀ a, (k1_off82 v1853) a + S1x1x128.size a ≤ S50000x1x128.size a := fun v1853 k1_hw82 => k1_hw82

def k1_off83 (v1876 : BitVec 32) : Fin 3 → Nat :=
  let c0_i32_1929 : BitVec 32 := 0#32
  let c0_i32_1930 : BitVec 32 := 0#32
  ![v1876.toNat, 0, 0]

def k1_chk83 (v1876 : BitVec 32) : Prop :=
  (∀ a, (k1_off83 v1876) a + S1x1x128.size a ≤ S50000x1x128.size a)
instance k1_chk83.dec : ∀ (v1876 : BitVec 32), Decidable (k1_chk83 v1876) := fun v1876 => decidable_of_iff' _ (Iff.of_eq (k1_chk83.eq_1 v1876))
theorem k1_off83_inb : ∀ (v1876 : BitVec 32) (k1_hw83 : k1_chk83 v1876), ∀ a, (k1_off83 v1876) a + S1x1x128.size a ≤ S50000x1x128.size a := fun v1876 k1_hw83 => k1_hw83

def k1_off84 (v1899 : BitVec 32) : Fin 3 → Nat :=
  let c0_i32_1953 : BitVec 32 := 0#32
  let c0_i32_1954 : BitVec 32 := 0#32
  ![v1899.toNat, 0, 0]

def k1_chk84 (v1899 : BitVec 32) : Prop :=
  (∀ a, (k1_off84 v1899) a + S1x1x128.size a ≤ S50000x1x128.size a)
instance k1_chk84.dec : ∀ (v1899 : BitVec 32), Decidable (k1_chk84 v1899) := fun v1899 => decidable_of_iff' _ (Iff.of_eq (k1_chk84.eq_1 v1899))
theorem k1_off84_inb : ∀ (v1899 : BitVec 32) (k1_hw84 : k1_chk84 v1899), ∀ a, (k1_off84 v1899) a + S1x1x128.size a ≤ S50000x1x128.size a := fun v1899 k1_hw84 => k1_hw84

def k1_off85 (v1922 : BitVec 32) : Fin 3 → Nat :=
  let c0_i32_1977 : BitVec 32 := 0#32
  let c0_i32_1978 : BitVec 32 := 0#32
  ![v1922.toNat, 0, 0]

def k1_chk85 (v1922 : BitVec 32) : Prop :=
  (∀ a, (k1_off85 v1922) a + S1x1x128.size a ≤ S50000x1x128.size a)
instance k1_chk85.dec : ∀ (v1922 : BitVec 32), Decidable (k1_chk85 v1922) := fun v1922 => decidable_of_iff' _ (Iff.of_eq (k1_chk85.eq_1 v1922))
theorem k1_off85_inb : ∀ (v1922 : BitVec 32) (k1_hw85 : k1_chk85 v1922), ∀ a, (k1_off85 v1922) a + S1x1x128.size a ≤ S50000x1x128.size a := fun v1922 k1_hw85 => k1_hw85

def k1_off86 (v1945 : BitVec 32) : Fin 3 → Nat :=
  let c0_i32_2001 : BitVec 32 := 0#32
  let c0_i32_2002 : BitVec 32 := 0#32
  ![v1945.toNat, 0, 0]

def k1_chk86 (v1945 : BitVec 32) : Prop :=
  (∀ a, (k1_off86 v1945) a + S1x1x128.size a ≤ S50000x1x128.size a)
instance k1_chk86.dec : ∀ (v1945 : BitVec 32), Decidable (k1_chk86 v1945) := fun v1945 => decidable_of_iff' _ (Iff.of_eq (k1_chk86.eq_1 v1945))
theorem k1_off86_inb : ∀ (v1945 : BitVec 32) (k1_hw86 : k1_chk86 v1945), ∀ a, (k1_off86 v1945) a + S1x1x128.size a ≤ S50000x1x128.size a := fun v1945 k1_hw86 => k1_hw86

def k1_off87 (v1968 : BitVec 32) : Fin 3 → Nat :=
  let c0_i32_2025 : BitVec 32 := 0#32
  let c0_i32_2026 : BitVec 32 := 0#32
  ![v1968.toNat, 0, 0]

def k1_chk87 (v1968 : BitVec 32) : Prop :=
  (∀ a, (k1_off87 v1968) a + S1x1x128.size a ≤ S50000x1x128.size a)
instance k1_chk87.dec : ∀ (v1968 : BitVec 32), Decidable (k1_chk87 v1968) := fun v1968 => decidable_of_iff' _ (Iff.of_eq (k1_chk87.eq_1 v1968))
theorem k1_off87_inb : ∀ (v1968 : BitVec 32) (k1_hw87 : k1_chk87 v1968), ∀ a, (k1_off87 v1968) a + S1x1x128.size a ≤ S50000x1x128.size a := fun v1968 k1_hw87 => k1_hw87

def k1_off88 (v1991 : BitVec 32) : Fin 3 → Nat :=
  let c0_i32_2049 : BitVec 32 := 0#32
  let c0_i32_2050 : BitVec 32 := 0#32
  ![v1991.toNat, 0, 0]

def k1_chk88 (v1991 : BitVec 32) : Prop :=
  (∀ a, (k1_off88 v1991) a + S1x1x128.size a ≤ S50000x1x128.size a)
instance k1_chk88.dec : ∀ (v1991 : BitVec 32), Decidable (k1_chk88 v1991) := fun v1991 => decidable_of_iff' _ (Iff.of_eq (k1_chk88.eq_1 v1991))
theorem k1_off88_inb : ∀ (v1991 : BitVec 32) (k1_hw88 : k1_chk88 v1991), ∀ a, (k1_off88 v1991) a + S1x1x128.size a ≤ S50000x1x128.size a := fun v1991 k1_hw88 => k1_hw88

def k1_off89 (v2014 : BitVec 32) : Fin 3 → Nat :=
  let c0_i32_2073 : BitVec 32 := 0#32
  let c0_i32_2074 : BitVec 32 := 0#32
  ![v2014.toNat, 0, 0]

def k1_chk89 (v2014 : BitVec 32) : Prop :=
  (∀ a, (k1_off89 v2014) a + S1x1x128.size a ≤ S50000x1x128.size a)
instance k1_chk89.dec : ∀ (v2014 : BitVec 32), Decidable (k1_chk89 v2014) := fun v2014 => decidable_of_iff' _ (Iff.of_eq (k1_chk89.eq_1 v2014))
theorem k1_off89_inb : ∀ (v2014 : BitVec 32) (k1_hw89 : k1_chk89 v2014), ∀ a, (k1_off89 v2014) a + S1x1x128.size a ≤ S50000x1x128.size a := fun v2014 k1_hw89 => k1_hw89

def k1_off90 (v2037 : BitVec 32) : Fin 3 → Nat :=
  let c0_i32_2097 : BitVec 32 := 0#32
  let c0_i32_2098 : BitVec 32 := 0#32
  ![v2037.toNat, 0, 0]

def k1_chk90 (v2037 : BitVec 32) : Prop :=
  (∀ a, (k1_off90 v2037) a + S1x1x128.size a ≤ S50000x1x128.size a)
instance k1_chk90.dec : ∀ (v2037 : BitVec 32), Decidable (k1_chk90 v2037) := fun v2037 => decidable_of_iff' _ (Iff.of_eq (k1_chk90.eq_1 v2037))
theorem k1_off90_inb : ∀ (v2037 : BitVec 32) (k1_hw90 : k1_chk90 v2037), ∀ a, (k1_off90 v2037) a + S1x1x128.size a ≤ S50000x1x128.size a := fun v2037 k1_hw90 => k1_hw90

def k1_off91 (v2060 : BitVec 32) : Fin 3 → Nat :=
  let c0_i32_2121 : BitVec 32 := 0#32
  let c0_i32_2122 : BitVec 32 := 0#32
  ![v2060.toNat, 0, 0]

def k1_chk91 (v2060 : BitVec 32) : Prop :=
  (∀ a, (k1_off91 v2060) a + S1x1x128.size a ≤ S50000x1x128.size a)
instance k1_chk91.dec : ∀ (v2060 : BitVec 32), Decidable (k1_chk91 v2060) := fun v2060 => decidable_of_iff' _ (Iff.of_eq (k1_chk91.eq_1 v2060))
theorem k1_off91_inb : ∀ (v2060 : BitVec 32) (k1_hw91 : k1_chk91 v2060), ∀ a, (k1_off91 v2060) a + S1x1x128.size a ≤ S50000x1x128.size a := fun v2060 k1_hw91 => k1_hw91

def k1_off92 (v2083 : BitVec 32) : Fin 3 → Nat :=
  let c0_i32_2145 : BitVec 32 := 0#32
  let c0_i32_2146 : BitVec 32 := 0#32
  ![v2083.toNat, 0, 0]

def k1_chk92 (v2083 : BitVec 32) : Prop :=
  (∀ a, (k1_off92 v2083) a + S1x1x128.size a ≤ S50000x1x128.size a)
instance k1_chk92.dec : ∀ (v2083 : BitVec 32), Decidable (k1_chk92 v2083) := fun v2083 => decidable_of_iff' _ (Iff.of_eq (k1_chk92.eq_1 v2083))
theorem k1_off92_inb : ∀ (v2083 : BitVec 32) (k1_hw92 : k1_chk92 v2083), ∀ a, (k1_off92 v2083) a + S1x1x128.size a ≤ S50000x1x128.size a := fun v2083 k1_hw92 => k1_hw92

def k1_off93 (v2106 : BitVec 32) : Fin 3 → Nat :=
  let c0_i32_2169 : BitVec 32 := 0#32
  let c0_i32_2170 : BitVec 32 := 0#32
  ![v2106.toNat, 0, 0]

def k1_chk93 (v2106 : BitVec 32) : Prop :=
  (∀ a, (k1_off93 v2106) a + S1x1x128.size a ≤ S50000x1x128.size a)
instance k1_chk93.dec : ∀ (v2106 : BitVec 32), Decidable (k1_chk93 v2106) := fun v2106 => decidable_of_iff' _ (Iff.of_eq (k1_chk93.eq_1 v2106))
theorem k1_off93_inb : ∀ (v2106 : BitVec 32) (k1_hw93 : k1_chk93 v2106), ∀ a, (k1_off93 v2106) a + S1x1x128.size a ≤ S50000x1x128.size a := fun v2106 k1_hw93 => k1_hw93

def k1_off94 (v2129 : BitVec 32) : Fin 3 → Nat :=
  let c0_i32_2193 : BitVec 32 := 0#32
  let c0_i32_2194 : BitVec 32 := 0#32
  ![v2129.toNat, 0, 0]

def k1_chk94 (v2129 : BitVec 32) : Prop :=
  (∀ a, (k1_off94 v2129) a + S1x1x128.size a ≤ S50000x1x128.size a)
instance k1_chk94.dec : ∀ (v2129 : BitVec 32), Decidable (k1_chk94 v2129) := fun v2129 => decidable_of_iff' _ (Iff.of_eq (k1_chk94.eq_1 v2129))
theorem k1_off94_inb : ∀ (v2129 : BitVec 32) (k1_hw94 : k1_chk94 v2129), ∀ a, (k1_off94 v2129) a + S1x1x128.size a ≤ S50000x1x128.size a := fun v2129 k1_hw94 => k1_hw94

def k1_off95 (v2152 : BitVec 32) : Fin 3 → Nat :=
  let c0_i32_2217 : BitVec 32 := 0#32
  let c0_i32_2218 : BitVec 32 := 0#32
  ![v2152.toNat, 0, 0]

def k1_chk95 (v2152 : BitVec 32) : Prop :=
  (∀ a, (k1_off95 v2152) a + S1x1x128.size a ≤ S50000x1x128.size a)
instance k1_chk95.dec : ∀ (v2152 : BitVec 32), Decidable (k1_chk95 v2152) := fun v2152 => decidable_of_iff' _ (Iff.of_eq (k1_chk95.eq_1 v2152))
theorem k1_off95_inb : ∀ (v2152 : BitVec 32) (k1_hw95 : k1_chk95 v2152), ∀ a, (k1_off95 v2152) a + S1x1x128.size a ≤ S50000x1x128.size a := fun v2152 k1_hw95 => k1_hw95

def k1_off96 (v2175 : BitVec 32) : Fin 3 → Nat :=
  let c0_i32_2241 : BitVec 32 := 0#32
  let c0_i32_2242 : BitVec 32 := 0#32
  ![v2175.toNat, 0, 0]

def k1_chk96 (v2175 : BitVec 32) : Prop :=
  (∀ a, (k1_off96 v2175) a + S1x1x128.size a ≤ S50000x1x128.size a)
instance k1_chk96.dec : ∀ (v2175 : BitVec 32), Decidable (k1_chk96 v2175) := fun v2175 => decidable_of_iff' _ (Iff.of_eq (k1_chk96.eq_1 v2175))
theorem k1_off96_inb : ∀ (v2175 : BitVec 32) (k1_hw96 : k1_chk96 v2175), ∀ a, (k1_off96 v2175) a + S1x1x128.size a ≤ S50000x1x128.size a := fun v2175 k1_hw96 => k1_hw96

def k1_off97 (v2208 : BitVec 32) : Fin 3 → Nat :=
  let c0_i32_2275 : BitVec 32 := 0#32
  let c0_i32_2276 : BitVec 32 := 0#32
  ![v2208.toNat, 0, 0]

def k1_chk97 (v2208 : BitVec 32) : Prop :=
  (∀ a, (k1_off97 v2208) a + S1x1x128.size a ≤ S50000x1x128.size a)
instance k1_chk97.dec : ∀ (v2208 : BitVec 32), Decidable (k1_chk97 v2208) := fun v2208 => decidable_of_iff' _ (Iff.of_eq (k1_chk97.eq_1 v2208))
theorem k1_off97_inb : ∀ (v2208 : BitVec 32) (k1_hw97 : k1_chk97 v2208), ∀ a, (k1_off97 v2208) a + S1x1x128.size a ≤ S50000x1x128.size a := fun v2208 k1_hw97 => k1_hw97

def k1_off98 (v2221 : BitVec 32) : Fin 3 → Nat :=
  let c0_i32_2289 : BitVec 32 := 0#32
  let c0_i32_2290 : BitVec 32 := 0#32
  ![v2221.toNat, 0, 0]

def k1_chk98 (v2221 : BitVec 32) : Prop :=
  (∀ a, (k1_off98 v2221) a + S1x1x128.size a ≤ S50000x1x128.size a)
instance k1_chk98.dec : ∀ (v2221 : BitVec 32), Decidable (k1_chk98 v2221) := fun v2221 => decidable_of_iff' _ (Iff.of_eq (k1_chk98.eq_1 v2221))
theorem k1_off98_inb : ∀ (v2221 : BitVec 32) (k1_hw98 : k1_chk98 v2221), ∀ a, (k1_off98 v2221) a + S1x1x128.size a ≤ S50000x1x128.size a := fun v2221 k1_hw98 => k1_hw98

def k1_off99 (v2244 : BitVec 32) : Fin 3 → Nat :=
  let c0_i32_2313 : BitVec 32 := 0#32
  let c0_i32_2314 : BitVec 32 := 0#32
  ![v2244.toNat, 0, 0]

def k1_chk99 (v2244 : BitVec 32) : Prop :=
  (∀ a, (k1_off99 v2244) a + S1x1x128.size a ≤ S50000x1x128.size a)
instance k1_chk99.dec : ∀ (v2244 : BitVec 32), Decidable (k1_chk99 v2244) := fun v2244 => decidable_of_iff' _ (Iff.of_eq (k1_chk99.eq_1 v2244))
theorem k1_off99_inb : ∀ (v2244 : BitVec 32) (k1_hw99 : k1_chk99 v2244), ∀ a, (k1_off99 v2244) a + S1x1x128.size a ≤ S50000x1x128.size a := fun v2244 k1_hw99 => k1_hw99

def k1_off100 (v2267 : BitVec 32) : Fin 3 → Nat :=
  let c0_i32_2337 : BitVec 32 := 0#32
  let c0_i32_2338 : BitVec 32 := 0#32
  ![v2267.toNat, 0, 0]

def k1_chk100 (v2267 : BitVec 32) : Prop :=
  (∀ a, (k1_off100 v2267) a + S1x1x128.size a ≤ S50000x1x128.size a)
instance k1_chk100.dec : ∀ (v2267 : BitVec 32), Decidable (k1_chk100 v2267) := fun v2267 => decidable_of_iff' _ (Iff.of_eq (k1_chk100.eq_1 v2267))
theorem k1_off100_inb : ∀ (v2267 : BitVec 32) (k1_hw100 : k1_chk100 v2267), ∀ a, (k1_off100 v2267) a + S1x1x128.size a ≤ S50000x1x128.size a := fun v2267 k1_hw100 => k1_hw100

def k1_off101 (v2290 : BitVec 32) : Fin 3 → Nat :=
  let c0_i32_2361 : BitVec 32 := 0#32
  let c0_i32_2362 : BitVec 32 := 0#32
  ![v2290.toNat, 0, 0]

def k1_chk101 (v2290 : BitVec 32) : Prop :=
  (∀ a, (k1_off101 v2290) a + S1x1x128.size a ≤ S50000x1x128.size a)
instance k1_chk101.dec : ∀ (v2290 : BitVec 32), Decidable (k1_chk101 v2290) := fun v2290 => decidable_of_iff' _ (Iff.of_eq (k1_chk101.eq_1 v2290))
theorem k1_off101_inb : ∀ (v2290 : BitVec 32) (k1_hw101 : k1_chk101 v2290), ∀ a, (k1_off101 v2290) a + S1x1x128.size a ≤ S50000x1x128.size a := fun v2290 k1_hw101 => k1_hw101

def k1_off102 (v2313 : BitVec 32) : Fin 3 → Nat :=
  let c0_i32_2385 : BitVec 32 := 0#32
  let c0_i32_2386 : BitVec 32 := 0#32
  ![v2313.toNat, 0, 0]

def k1_chk102 (v2313 : BitVec 32) : Prop :=
  (∀ a, (k1_off102 v2313) a + S1x1x128.size a ≤ S50000x1x128.size a)
instance k1_chk102.dec : ∀ (v2313 : BitVec 32), Decidable (k1_chk102 v2313) := fun v2313 => decidable_of_iff' _ (Iff.of_eq (k1_chk102.eq_1 v2313))
theorem k1_off102_inb : ∀ (v2313 : BitVec 32) (k1_hw102 : k1_chk102 v2313), ∀ a, (k1_off102 v2313) a + S1x1x128.size a ≤ S50000x1x128.size a := fun v2313 k1_hw102 => k1_hw102

def k1_off103 (v2336 : BitVec 32) : Fin 3 → Nat :=
  let c0_i32_2409 : BitVec 32 := 0#32
  let c0_i32_2410 : BitVec 32 := 0#32
  ![v2336.toNat, 0, 0]

def k1_chk103 (v2336 : BitVec 32) : Prop :=
  (∀ a, (k1_off103 v2336) a + S1x1x128.size a ≤ S50000x1x128.size a)
instance k1_chk103.dec : ∀ (v2336 : BitVec 32), Decidable (k1_chk103 v2336) := fun v2336 => decidable_of_iff' _ (Iff.of_eq (k1_chk103.eq_1 v2336))
theorem k1_off103_inb : ∀ (v2336 : BitVec 32) (k1_hw103 : k1_chk103 v2336), ∀ a, (k1_off103 v2336) a + S1x1x128.size a ≤ S50000x1x128.size a := fun v2336 k1_hw103 => k1_hw103

def k1_off104 (v2359 : BitVec 32) : Fin 3 → Nat :=
  let c0_i32_2433 : BitVec 32 := 0#32
  let c0_i32_2434 : BitVec 32 := 0#32
  ![v2359.toNat, 0, 0]

def k1_chk104 (v2359 : BitVec 32) : Prop :=
  (∀ a, (k1_off104 v2359) a + S1x1x128.size a ≤ S50000x1x128.size a)
instance k1_chk104.dec : ∀ (v2359 : BitVec 32), Decidable (k1_chk104 v2359) := fun v2359 => decidable_of_iff' _ (Iff.of_eq (k1_chk104.eq_1 v2359))
theorem k1_off104_inb : ∀ (v2359 : BitVec 32) (k1_hw104 : k1_chk104 v2359), ∀ a, (k1_off104 v2359) a + S1x1x128.size a ≤ S50000x1x128.size a := fun v2359 k1_hw104 => k1_hw104

def k1_off105 (v2382 : BitVec 32) : Fin 3 → Nat :=
  let c0_i32_2457 : BitVec 32 := 0#32
  let c0_i32_2458 : BitVec 32 := 0#32
  ![v2382.toNat, 0, 0]

def k1_chk105 (v2382 : BitVec 32) : Prop :=
  (∀ a, (k1_off105 v2382) a + S1x1x128.size a ≤ S50000x1x128.size a)
instance k1_chk105.dec : ∀ (v2382 : BitVec 32), Decidable (k1_chk105 v2382) := fun v2382 => decidable_of_iff' _ (Iff.of_eq (k1_chk105.eq_1 v2382))
theorem k1_off105_inb : ∀ (v2382 : BitVec 32) (k1_hw105 : k1_chk105 v2382), ∀ a, (k1_off105 v2382) a + S1x1x128.size a ≤ S50000x1x128.size a := fun v2382 k1_hw105 => k1_hw105

def k1_off106 (v2405 : BitVec 32) : Fin 3 → Nat :=
  let c0_i32_2481 : BitVec 32 := 0#32
  let c0_i32_2482 : BitVec 32 := 0#32
  ![v2405.toNat, 0, 0]

def k1_chk106 (v2405 : BitVec 32) : Prop :=
  (∀ a, (k1_off106 v2405) a + S1x1x128.size a ≤ S50000x1x128.size a)
instance k1_chk106.dec : ∀ (v2405 : BitVec 32), Decidable (k1_chk106 v2405) := fun v2405 => decidable_of_iff' _ (Iff.of_eq (k1_chk106.eq_1 v2405))
theorem k1_off106_inb : ∀ (v2405 : BitVec 32) (k1_hw106 : k1_chk106 v2405), ∀ a, (k1_off106 v2405) a + S1x1x128.size a ≤ S50000x1x128.size a := fun v2405 k1_hw106 => k1_hw106

def k1_off107 (v2428 : BitVec 32) : Fin 3 → Nat :=
  let c0_i32_2505 : BitVec 32 := 0#32
  let c0_i32_2506 : BitVec 32 := 0#32
  ![v2428.toNat, 0, 0]

def k1_chk107 (v2428 : BitVec 32) : Prop :=
  (∀ a, (k1_off107 v2428) a + S1x1x128.size a ≤ S50000x1x128.size a)
instance k1_chk107.dec : ∀ (v2428 : BitVec 32), Decidable (k1_chk107 v2428) := fun v2428 => decidable_of_iff' _ (Iff.of_eq (k1_chk107.eq_1 v2428))
theorem k1_off107_inb : ∀ (v2428 : BitVec 32) (k1_hw107 : k1_chk107 v2428), ∀ a, (k1_off107 v2428) a + S1x1x128.size a ≤ S50000x1x128.size a := fun v2428 k1_hw107 => k1_hw107

def k1_off108 (v2451 : BitVec 32) : Fin 3 → Nat :=
  let c0_i32_2529 : BitVec 32 := 0#32
  let c0_i32_2530 : BitVec 32 := 0#32
  ![v2451.toNat, 0, 0]

def k1_chk108 (v2451 : BitVec 32) : Prop :=
  (∀ a, (k1_off108 v2451) a + S1x1x128.size a ≤ S50000x1x128.size a)
instance k1_chk108.dec : ∀ (v2451 : BitVec 32), Decidable (k1_chk108 v2451) := fun v2451 => decidable_of_iff' _ (Iff.of_eq (k1_chk108.eq_1 v2451))
theorem k1_off108_inb : ∀ (v2451 : BitVec 32) (k1_hw108 : k1_chk108 v2451), ∀ a, (k1_off108 v2451) a + S1x1x128.size a ≤ S50000x1x128.size a := fun v2451 k1_hw108 => k1_hw108

def k1_off109 (v2474 : BitVec 32) : Fin 3 → Nat :=
  let c0_i32_2553 : BitVec 32 := 0#32
  let c0_i32_2554 : BitVec 32 := 0#32
  ![v2474.toNat, 0, 0]

def k1_chk109 (v2474 : BitVec 32) : Prop :=
  (∀ a, (k1_off109 v2474) a + S1x1x128.size a ≤ S50000x1x128.size a)
instance k1_chk109.dec : ∀ (v2474 : BitVec 32), Decidable (k1_chk109 v2474) := fun v2474 => decidable_of_iff' _ (Iff.of_eq (k1_chk109.eq_1 v2474))
theorem k1_off109_inb : ∀ (v2474 : BitVec 32) (k1_hw109 : k1_chk109 v2474), ∀ a, (k1_off109 v2474) a + S1x1x128.size a ≤ S50000x1x128.size a := fun v2474 k1_hw109 => k1_hw109

def k1_off110 (v2497 : BitVec 32) : Fin 3 → Nat :=
  let c0_i32_2577 : BitVec 32 := 0#32
  let c0_i32_2578 : BitVec 32 := 0#32
  ![v2497.toNat, 0, 0]

def k1_chk110 (v2497 : BitVec 32) : Prop :=
  (∀ a, (k1_off110 v2497) a + S1x1x128.size a ≤ S50000x1x128.size a)
instance k1_chk110.dec : ∀ (v2497 : BitVec 32), Decidable (k1_chk110 v2497) := fun v2497 => decidable_of_iff' _ (Iff.of_eq (k1_chk110.eq_1 v2497))
theorem k1_off110_inb : ∀ (v2497 : BitVec 32) (k1_hw110 : k1_chk110 v2497), ∀ a, (k1_off110 v2497) a + S1x1x128.size a ≤ S50000x1x128.size a := fun v2497 k1_hw110 => k1_hw110

def k1_off111 (v2520 : BitVec 32) : Fin 3 → Nat :=
  let c0_i32_2601 : BitVec 32 := 0#32
  let c0_i32_2602 : BitVec 32 := 0#32
  ![v2520.toNat, 0, 0]

def k1_chk111 (v2520 : BitVec 32) : Prop :=
  (∀ a, (k1_off111 v2520) a + S1x1x128.size a ≤ S50000x1x128.size a)
instance k1_chk111.dec : ∀ (v2520 : BitVec 32), Decidable (k1_chk111 v2520) := fun v2520 => decidable_of_iff' _ (Iff.of_eq (k1_chk111.eq_1 v2520))
theorem k1_off111_inb : ∀ (v2520 : BitVec 32) (k1_hw111 : k1_chk111 v2520), ∀ a, (k1_off111 v2520) a + S1x1x128.size a ≤ S50000x1x128.size a := fun v2520 k1_hw111 => k1_hw111

def k1_off112 (v2543 : BitVec 32) : Fin 3 → Nat :=
  let c0_i32_2625 : BitVec 32 := 0#32
  let c0_i32_2626 : BitVec 32 := 0#32
  ![v2543.toNat, 0, 0]

def k1_chk112 (v2543 : BitVec 32) : Prop :=
  (∀ a, (k1_off112 v2543) a + S1x1x128.size a ≤ S50000x1x128.size a)
instance k1_chk112.dec : ∀ (v2543 : BitVec 32), Decidable (k1_chk112 v2543) := fun v2543 => decidable_of_iff' _ (Iff.of_eq (k1_chk112.eq_1 v2543))
theorem k1_off112_inb : ∀ (v2543 : BitVec 32) (k1_hw112 : k1_chk112 v2543), ∀ a, (k1_off112 v2543) a + S1x1x128.size a ≤ S50000x1x128.size a := fun v2543 k1_hw112 => k1_hw112

def k1_off113 (v2566 : BitVec 32) : Fin 3 → Nat :=
  let c0_i32_2649 : BitVec 32 := 0#32
  let c0_i32_2650 : BitVec 32 := 0#32
  ![v2566.toNat, 0, 0]

def k1_chk113 (v2566 : BitVec 32) : Prop :=
  (∀ a, (k1_off113 v2566) a + S1x1x128.size a ≤ S50000x1x128.size a)
instance k1_chk113.dec : ∀ (v2566 : BitVec 32), Decidable (k1_chk113 v2566) := fun v2566 => decidable_of_iff' _ (Iff.of_eq (k1_chk113.eq_1 v2566))
theorem k1_off113_inb : ∀ (v2566 : BitVec 32) (k1_hw113 : k1_chk113 v2566), ∀ a, (k1_off113 v2566) a + S1x1x128.size a ≤ S50000x1x128.size a := fun v2566 k1_hw113 => k1_hw113

def k1_off114 (v2589 : BitVec 32) : Fin 3 → Nat :=
  let c0_i32_2673 : BitVec 32 := 0#32
  let c0_i32_2674 : BitVec 32 := 0#32
  ![v2589.toNat, 0, 0]

def k1_chk114 (v2589 : BitVec 32) : Prop :=
  (∀ a, (k1_off114 v2589) a + S1x1x128.size a ≤ S50000x1x128.size a)
instance k1_chk114.dec : ∀ (v2589 : BitVec 32), Decidable (k1_chk114 v2589) := fun v2589 => decidable_of_iff' _ (Iff.of_eq (k1_chk114.eq_1 v2589))
theorem k1_off114_inb : ∀ (v2589 : BitVec 32) (k1_hw114 : k1_chk114 v2589), ∀ a, (k1_off114 v2589) a + S1x1x128.size a ≤ S50000x1x128.size a := fun v2589 k1_hw114 => k1_hw114

def k1_off115 (v2612 : BitVec 32) : Fin 3 → Nat :=
  let c0_i32_2697 : BitVec 32 := 0#32
  let c0_i32_2698 : BitVec 32 := 0#32
  ![v2612.toNat, 0, 0]

def k1_chk115 (v2612 : BitVec 32) : Prop :=
  (∀ a, (k1_off115 v2612) a + S1x1x128.size a ≤ S50000x1x128.size a)
instance k1_chk115.dec : ∀ (v2612 : BitVec 32), Decidable (k1_chk115 v2612) := fun v2612 => decidable_of_iff' _ (Iff.of_eq (k1_chk115.eq_1 v2612))
theorem k1_off115_inb : ∀ (v2612 : BitVec 32) (k1_hw115 : k1_chk115 v2612), ∀ a, (k1_off115 v2612) a + S1x1x128.size a ≤ S50000x1x128.size a := fun v2612 k1_hw115 => k1_hw115

def k1_off116 (v2635 : BitVec 32) : Fin 3 → Nat :=
  let c0_i32_2721 : BitVec 32 := 0#32
  let c0_i32_2722 : BitVec 32 := 0#32
  ![v2635.toNat, 0, 0]

def k1_chk116 (v2635 : BitVec 32) : Prop :=
  (∀ a, (k1_off116 v2635) a + S1x1x128.size a ≤ S50000x1x128.size a)
instance k1_chk116.dec : ∀ (v2635 : BitVec 32), Decidable (k1_chk116 v2635) := fun v2635 => decidable_of_iff' _ (Iff.of_eq (k1_chk116.eq_1 v2635))
theorem k1_off116_inb : ∀ (v2635 : BitVec 32) (k1_hw116 : k1_chk116 v2635), ∀ a, (k1_off116 v2635) a + S1x1x128.size a ≤ S50000x1x128.size a := fun v2635 k1_hw116 => k1_hw116

def k1_off117 (v2658 : BitVec 32) : Fin 3 → Nat :=
  let c0_i32_2745 : BitVec 32 := 0#32
  let c0_i32_2746 : BitVec 32 := 0#32
  ![v2658.toNat, 0, 0]

def k1_chk117 (v2658 : BitVec 32) : Prop :=
  (∀ a, (k1_off117 v2658) a + S1x1x128.size a ≤ S50000x1x128.size a)
instance k1_chk117.dec : ∀ (v2658 : BitVec 32), Decidable (k1_chk117 v2658) := fun v2658 => decidable_of_iff' _ (Iff.of_eq (k1_chk117.eq_1 v2658))
theorem k1_off117_inb : ∀ (v2658 : BitVec 32) (k1_hw117 : k1_chk117 v2658), ∀ a, (k1_off117 v2658) a + S1x1x128.size a ≤ S50000x1x128.size a := fun v2658 k1_hw117 => k1_hw117

def k1_off118 (v2681 : BitVec 32) : Fin 3 → Nat :=
  let c0_i32_2769 : BitVec 32 := 0#32
  let c0_i32_2770 : BitVec 32 := 0#32
  ![v2681.toNat, 0, 0]

def k1_chk118 (v2681 : BitVec 32) : Prop :=
  (∀ a, (k1_off118 v2681) a + S1x1x128.size a ≤ S50000x1x128.size a)
instance k1_chk118.dec : ∀ (v2681 : BitVec 32), Decidable (k1_chk118 v2681) := fun v2681 => decidable_of_iff' _ (Iff.of_eq (k1_chk118.eq_1 v2681))
theorem k1_off118_inb : ∀ (v2681 : BitVec 32) (k1_hw118 : k1_chk118 v2681), ∀ a, (k1_off118 v2681) a + S1x1x128.size a ≤ S50000x1x128.size a := fun v2681 k1_hw118 => k1_hw118

def k1_off119 (v2704 : BitVec 32) : Fin 3 → Nat :=
  let c0_i32_2793 : BitVec 32 := 0#32
  let c0_i32_2794 : BitVec 32 := 0#32
  ![v2704.toNat, 0, 0]

def k1_chk119 (v2704 : BitVec 32) : Prop :=
  (∀ a, (k1_off119 v2704) a + S1x1x128.size a ≤ S50000x1x128.size a)
instance k1_chk119.dec : ∀ (v2704 : BitVec 32), Decidable (k1_chk119 v2704) := fun v2704 => decidable_of_iff' _ (Iff.of_eq (k1_chk119.eq_1 v2704))
theorem k1_off119_inb : ∀ (v2704 : BitVec 32) (k1_hw119 : k1_chk119 v2704), ∀ a, (k1_off119 v2704) a + S1x1x128.size a ≤ S50000x1x128.size a := fun v2704 k1_hw119 => k1_hw119

def k1_off120 (v2727 : BitVec 32) : Fin 3 → Nat :=
  let c0_i32_2817 : BitVec 32 := 0#32
  let c0_i32_2818 : BitVec 32 := 0#32
  ![v2727.toNat, 0, 0]

def k1_chk120 (v2727 : BitVec 32) : Prop :=
  (∀ a, (k1_off120 v2727) a + S1x1x128.size a ≤ S50000x1x128.size a)
instance k1_chk120.dec : ∀ (v2727 : BitVec 32), Decidable (k1_chk120 v2727) := fun v2727 => decidable_of_iff' _ (Iff.of_eq (k1_chk120.eq_1 v2727))
theorem k1_off120_inb : ∀ (v2727 : BitVec 32) (k1_hw120 : k1_chk120 v2727), ∀ a, (k1_off120 v2727) a + S1x1x128.size a ≤ S50000x1x128.size a := fun v2727 k1_hw120 => k1_hw120

def k1_off121 (v2750 : BitVec 32) : Fin 3 → Nat :=
  let c0_i32_2841 : BitVec 32 := 0#32
  let c0_i32_2842 : BitVec 32 := 0#32
  ![v2750.toNat, 0, 0]

def k1_chk121 (v2750 : BitVec 32) : Prop :=
  (∀ a, (k1_off121 v2750) a + S1x1x128.size a ≤ S50000x1x128.size a)
instance k1_chk121.dec : ∀ (v2750 : BitVec 32), Decidable (k1_chk121 v2750) := fun v2750 => decidable_of_iff' _ (Iff.of_eq (k1_chk121.eq_1 v2750))
theorem k1_off121_inb : ∀ (v2750 : BitVec 32) (k1_hw121 : k1_chk121 v2750), ∀ a, (k1_off121 v2750) a + S1x1x128.size a ≤ S50000x1x128.size a := fun v2750 k1_hw121 => k1_hw121

def k1_off122 (v2773 : BitVec 32) : Fin 3 → Nat :=
  let c0_i32_2865 : BitVec 32 := 0#32
  let c0_i32_2866 : BitVec 32 := 0#32
  ![v2773.toNat, 0, 0]

def k1_chk122 (v2773 : BitVec 32) : Prop :=
  (∀ a, (k1_off122 v2773) a + S1x1x128.size a ≤ S50000x1x128.size a)
instance k1_chk122.dec : ∀ (v2773 : BitVec 32), Decidable (k1_chk122 v2773) := fun v2773 => decidable_of_iff' _ (Iff.of_eq (k1_chk122.eq_1 v2773))
theorem k1_off122_inb : ∀ (v2773 : BitVec 32) (k1_hw122 : k1_chk122 v2773), ∀ a, (k1_off122 v2773) a + S1x1x128.size a ≤ S50000x1x128.size a := fun v2773 k1_hw122 => k1_hw122

def k1_off123 (v2796 : BitVec 32) : Fin 3 → Nat :=
  let c0_i32_2889 : BitVec 32 := 0#32
  let c0_i32_2890 : BitVec 32 := 0#32
  ![v2796.toNat, 0, 0]

def k1_chk123 (v2796 : BitVec 32) : Prop :=
  (∀ a, (k1_off123 v2796) a + S1x1x128.size a ≤ S50000x1x128.size a)
instance k1_chk123.dec : ∀ (v2796 : BitVec 32), Decidable (k1_chk123 v2796) := fun v2796 => decidable_of_iff' _ (Iff.of_eq (k1_chk123.eq_1 v2796))
theorem k1_off123_inb : ∀ (v2796 : BitVec 32) (k1_hw123 : k1_chk123 v2796), ∀ a, (k1_off123 v2796) a + S1x1x128.size a ≤ S50000x1x128.size a := fun v2796 k1_hw123 => k1_hw123

def k1_off124 (v2819 : BitVec 32) : Fin 3 → Nat :=
  let c0_i32_2913 : BitVec 32 := 0#32
  let c0_i32_2914 : BitVec 32 := 0#32
  ![v2819.toNat, 0, 0]

def k1_chk124 (v2819 : BitVec 32) : Prop :=
  (∀ a, (k1_off124 v2819) a + S1x1x128.size a ≤ S50000x1x128.size a)
instance k1_chk124.dec : ∀ (v2819 : BitVec 32), Decidable (k1_chk124 v2819) := fun v2819 => decidable_of_iff' _ (Iff.of_eq (k1_chk124.eq_1 v2819))
theorem k1_off124_inb : ∀ (v2819 : BitVec 32) (k1_hw124 : k1_chk124 v2819), ∀ a, (k1_off124 v2819) a + S1x1x128.size a ≤ S50000x1x128.size a := fun v2819 k1_hw124 => k1_hw124

def k1_off125 (v2842 : BitVec 32) : Fin 3 → Nat :=
  let c0_i32_2937 : BitVec 32 := 0#32
  let c0_i32_2938 : BitVec 32 := 0#32
  ![v2842.toNat, 0, 0]

def k1_chk125 (v2842 : BitVec 32) : Prop :=
  (∀ a, (k1_off125 v2842) a + S1x1x128.size a ≤ S50000x1x128.size a)
instance k1_chk125.dec : ∀ (v2842 : BitVec 32), Decidable (k1_chk125 v2842) := fun v2842 => decidable_of_iff' _ (Iff.of_eq (k1_chk125.eq_1 v2842))
theorem k1_off125_inb : ∀ (v2842 : BitVec 32) (k1_hw125 : k1_chk125 v2842), ∀ a, (k1_off125 v2842) a + S1x1x128.size a ≤ S50000x1x128.size a := fun v2842 k1_hw125 => k1_hw125

def k1_off126 (v2865 : BitVec 32) : Fin 3 → Nat :=
  let c0_i32_2961 : BitVec 32 := 0#32
  let c0_i32_2962 : BitVec 32 := 0#32
  ![v2865.toNat, 0, 0]

def k1_chk126 (v2865 : BitVec 32) : Prop :=
  (∀ a, (k1_off126 v2865) a + S1x1x128.size a ≤ S50000x1x128.size a)
instance k1_chk126.dec : ∀ (v2865 : BitVec 32), Decidable (k1_chk126 v2865) := fun v2865 => decidable_of_iff' _ (Iff.of_eq (k1_chk126.eq_1 v2865))
theorem k1_off126_inb : ∀ (v2865 : BitVec 32) (k1_hw126 : k1_chk126 v2865), ∀ a, (k1_off126 v2865) a + S1x1x128.size a ≤ S50000x1x128.size a := fun v2865 k1_hw126 => k1_hw126

def k1_off127 (v2888 : BitVec 32) : Fin 3 → Nat :=
  let c0_i32_2985 : BitVec 32 := 0#32
  let c0_i32_2986 : BitVec 32 := 0#32
  ![v2888.toNat, 0, 0]

def k1_chk127 (v2888 : BitVec 32) : Prop :=
  (∀ a, (k1_off127 v2888) a + S1x1x128.size a ≤ S50000x1x128.size a)
instance k1_chk127.dec : ∀ (v2888 : BitVec 32), Decidable (k1_chk127 v2888) := fun v2888 => decidable_of_iff' _ (Iff.of_eq (k1_chk127.eq_1 v2888))
theorem k1_off127_inb : ∀ (v2888 : BitVec 32) (k1_hw127 : k1_chk127 v2888), ∀ a, (k1_off127 v2888) a + S1x1x128.size a ≤ S50000x1x128.size a := fun v2888 k1_hw127 => k1_hw127

def k1_off128 (v2911 : BitVec 32) : Fin 3 → Nat :=
  let c0_i32_3009 : BitVec 32 := 0#32
  let c0_i32_3010 : BitVec 32 := 0#32
  ![v2911.toNat, 0, 0]

def k1_chk128 (v2911 : BitVec 32) : Prop :=
  (∀ a, (k1_off128 v2911) a + S1x1x128.size a ≤ S50000x1x128.size a)
instance k1_chk128.dec : ∀ (v2911 : BitVec 32), Decidable (k1_chk128 v2911) := fun v2911 => decidable_of_iff' _ (Iff.of_eq (k1_chk128.eq_1 v2911))
theorem k1_off128_inb : ∀ (v2911 : BitVec 32) (k1_hw128 : k1_chk128 v2911), ∀ a, (k1_off128 v2911) a + S1x1x128.size a ≤ S50000x1x128.size a := fun v2911 k1_hw128 => k1_hw128

def k1_off129 (v2944 : BitVec 32) : Fin 3 → Nat :=
  let c0_i32_3043 : BitVec 32 := 0#32
  let c0_i32_3044 : BitVec 32 := 0#32
  ![v2944.toNat, 0, 0]

def k1_chk129 (v2944 : BitVec 32) : Prop :=
  (∀ a, (k1_off129 v2944) a + S1x1x128.size a ≤ S50000x1x128.size a)
instance k1_chk129.dec : ∀ (v2944 : BitVec 32), Decidable (k1_chk129 v2944) := fun v2944 => decidable_of_iff' _ (Iff.of_eq (k1_chk129.eq_1 v2944))
theorem k1_off129_inb : ∀ (v2944 : BitVec 32) (k1_hw129 : k1_chk129 v2944), ∀ a, (k1_off129 v2944) a + S1x1x128.size a ≤ S50000x1x128.size a := fun v2944 k1_hw129 => k1_hw129

def k1_off130 (v2957 : BitVec 32) : Fin 3 → Nat :=
  let c0_i32_3057 : BitVec 32 := 0#32
  let c0_i32_3058 : BitVec 32 := 0#32
  ![v2957.toNat, 0, 0]

def k1_chk130 (v2957 : BitVec 32) : Prop :=
  (∀ a, (k1_off130 v2957) a + S1x1x128.size a ≤ S50000x1x128.size a)
instance k1_chk130.dec : ∀ (v2957 : BitVec 32), Decidable (k1_chk130 v2957) := fun v2957 => decidable_of_iff' _ (Iff.of_eq (k1_chk130.eq_1 v2957))
theorem k1_off130_inb : ∀ (v2957 : BitVec 32) (k1_hw130 : k1_chk130 v2957), ∀ a, (k1_off130 v2957) a + S1x1x128.size a ≤ S50000x1x128.size a := fun v2957 k1_hw130 => k1_hw130

def k1_off131 (v2980 : BitVec 32) : Fin 3 → Nat :=
  let c0_i32_3081 : BitVec 32 := 0#32
  let c0_i32_3082 : BitVec 32 := 0#32
  ![v2980.toNat, 0, 0]

def k1_chk131 (v2980 : BitVec 32) : Prop :=
  (∀ a, (k1_off131 v2980) a + S1x1x128.size a ≤ S50000x1x128.size a)
instance k1_chk131.dec : ∀ (v2980 : BitVec 32), Decidable (k1_chk131 v2980) := fun v2980 => decidable_of_iff' _ (Iff.of_eq (k1_chk131.eq_1 v2980))
theorem k1_off131_inb : ∀ (v2980 : BitVec 32) (k1_hw131 : k1_chk131 v2980), ∀ a, (k1_off131 v2980) a + S1x1x128.size a ≤ S50000x1x128.size a := fun v2980 k1_hw131 => k1_hw131

def k1_off132 (v3003 : BitVec 32) : Fin 3 → Nat :=
  let c0_i32_3105 : BitVec 32 := 0#32
  let c0_i32_3106 : BitVec 32 := 0#32
  ![v3003.toNat, 0, 0]

def k1_chk132 (v3003 : BitVec 32) : Prop :=
  (∀ a, (k1_off132 v3003) a + S1x1x128.size a ≤ S50000x1x128.size a)
instance k1_chk132.dec : ∀ (v3003 : BitVec 32), Decidable (k1_chk132 v3003) := fun v3003 => decidable_of_iff' _ (Iff.of_eq (k1_chk132.eq_1 v3003))
theorem k1_off132_inb : ∀ (v3003 : BitVec 32) (k1_hw132 : k1_chk132 v3003), ∀ a, (k1_off132 v3003) a + S1x1x128.size a ≤ S50000x1x128.size a := fun v3003 k1_hw132 => k1_hw132

def k1_off133 (v3026 : BitVec 32) : Fin 3 → Nat :=
  let c0_i32_3129 : BitVec 32 := 0#32
  let c0_i32_3130 : BitVec 32 := 0#32
  ![v3026.toNat, 0, 0]

def k1_chk133 (v3026 : BitVec 32) : Prop :=
  (∀ a, (k1_off133 v3026) a + S1x1x128.size a ≤ S50000x1x128.size a)
instance k1_chk133.dec : ∀ (v3026 : BitVec 32), Decidable (k1_chk133 v3026) := fun v3026 => decidable_of_iff' _ (Iff.of_eq (k1_chk133.eq_1 v3026))
theorem k1_off133_inb : ∀ (v3026 : BitVec 32) (k1_hw133 : k1_chk133 v3026), ∀ a, (k1_off133 v3026) a + S1x1x128.size a ≤ S50000x1x128.size a := fun v3026 k1_hw133 => k1_hw133

def k1_off134 (v3049 : BitVec 32) : Fin 3 → Nat :=
  let c0_i32_3153 : BitVec 32 := 0#32
  let c0_i32_3154 : BitVec 32 := 0#32
  ![v3049.toNat, 0, 0]

def k1_chk134 (v3049 : BitVec 32) : Prop :=
  (∀ a, (k1_off134 v3049) a + S1x1x128.size a ≤ S50000x1x128.size a)
instance k1_chk134.dec : ∀ (v3049 : BitVec 32), Decidable (k1_chk134 v3049) := fun v3049 => decidable_of_iff' _ (Iff.of_eq (k1_chk134.eq_1 v3049))
theorem k1_off134_inb : ∀ (v3049 : BitVec 32) (k1_hw134 : k1_chk134 v3049), ∀ a, (k1_off134 v3049) a + S1x1x128.size a ≤ S50000x1x128.size a := fun v3049 k1_hw134 => k1_hw134

def k1_off135 (v3072 : BitVec 32) : Fin 3 → Nat :=
  let c0_i32_3177 : BitVec 32 := 0#32
  let c0_i32_3178 : BitVec 32 := 0#32
  ![v3072.toNat, 0, 0]

def k1_chk135 (v3072 : BitVec 32) : Prop :=
  (∀ a, (k1_off135 v3072) a + S1x1x128.size a ≤ S50000x1x128.size a)
instance k1_chk135.dec : ∀ (v3072 : BitVec 32), Decidable (k1_chk135 v3072) := fun v3072 => decidable_of_iff' _ (Iff.of_eq (k1_chk135.eq_1 v3072))
theorem k1_off135_inb : ∀ (v3072 : BitVec 32) (k1_hw135 : k1_chk135 v3072), ∀ a, (k1_off135 v3072) a + S1x1x128.size a ≤ S50000x1x128.size a := fun v3072 k1_hw135 => k1_hw135

def k1_off136 (v3095 : BitVec 32) : Fin 3 → Nat :=
  let c0_i32_3201 : BitVec 32 := 0#32
  let c0_i32_3202 : BitVec 32 := 0#32
  ![v3095.toNat, 0, 0]

def k1_chk136 (v3095 : BitVec 32) : Prop :=
  (∀ a, (k1_off136 v3095) a + S1x1x128.size a ≤ S50000x1x128.size a)
instance k1_chk136.dec : ∀ (v3095 : BitVec 32), Decidable (k1_chk136 v3095) := fun v3095 => decidable_of_iff' _ (Iff.of_eq (k1_chk136.eq_1 v3095))
theorem k1_off136_inb : ∀ (v3095 : BitVec 32) (k1_hw136 : k1_chk136 v3095), ∀ a, (k1_off136 v3095) a + S1x1x128.size a ≤ S50000x1x128.size a := fun v3095 k1_hw136 => k1_hw136

def k1_off137 (v3118 : BitVec 32) : Fin 3 → Nat :=
  let c0_i32_3225 : BitVec 32 := 0#32
  let c0_i32_3226 : BitVec 32 := 0#32
  ![v3118.toNat, 0, 0]

def k1_chk137 (v3118 : BitVec 32) : Prop :=
  (∀ a, (k1_off137 v3118) a + S1x1x128.size a ≤ S50000x1x128.size a)
instance k1_chk137.dec : ∀ (v3118 : BitVec 32), Decidable (k1_chk137 v3118) := fun v3118 => decidable_of_iff' _ (Iff.of_eq (k1_chk137.eq_1 v3118))
theorem k1_off137_inb : ∀ (v3118 : BitVec 32) (k1_hw137 : k1_chk137 v3118), ∀ a, (k1_off137 v3118) a + S1x1x128.size a ≤ S50000x1x128.size a := fun v3118 k1_hw137 => k1_hw137

def k1_off138 (v3141 : BitVec 32) : Fin 3 → Nat :=
  let c0_i32_3249 : BitVec 32 := 0#32
  let c0_i32_3250 : BitVec 32 := 0#32
  ![v3141.toNat, 0, 0]

def k1_chk138 (v3141 : BitVec 32) : Prop :=
  (∀ a, (k1_off138 v3141) a + S1x1x128.size a ≤ S50000x1x128.size a)
instance k1_chk138.dec : ∀ (v3141 : BitVec 32), Decidable (k1_chk138 v3141) := fun v3141 => decidable_of_iff' _ (Iff.of_eq (k1_chk138.eq_1 v3141))
theorem k1_off138_inb : ∀ (v3141 : BitVec 32) (k1_hw138 : k1_chk138 v3141), ∀ a, (k1_off138 v3141) a + S1x1x128.size a ≤ S50000x1x128.size a := fun v3141 k1_hw138 => k1_hw138

def k1_off139 (v3164 : BitVec 32) : Fin 3 → Nat :=
  let c0_i32_3273 : BitVec 32 := 0#32
  let c0_i32_3274 : BitVec 32 := 0#32
  ![v3164.toNat, 0, 0]

def k1_chk139 (v3164 : BitVec 32) : Prop :=
  (∀ a, (k1_off139 v3164) a + S1x1x128.size a ≤ S50000x1x128.size a)
instance k1_chk139.dec : ∀ (v3164 : BitVec 32), Decidable (k1_chk139 v3164) := fun v3164 => decidable_of_iff' _ (Iff.of_eq (k1_chk139.eq_1 v3164))
theorem k1_off139_inb : ∀ (v3164 : BitVec 32) (k1_hw139 : k1_chk139 v3164), ∀ a, (k1_off139 v3164) a + S1x1x128.size a ≤ S50000x1x128.size a := fun v3164 k1_hw139 => k1_hw139

def k1_off140 (v3187 : BitVec 32) : Fin 3 → Nat :=
  let c0_i32_3297 : BitVec 32 := 0#32
  let c0_i32_3298 : BitVec 32 := 0#32
  ![v3187.toNat, 0, 0]

def k1_chk140 (v3187 : BitVec 32) : Prop :=
  (∀ a, (k1_off140 v3187) a + S1x1x128.size a ≤ S50000x1x128.size a)
instance k1_chk140.dec : ∀ (v3187 : BitVec 32), Decidable (k1_chk140 v3187) := fun v3187 => decidable_of_iff' _ (Iff.of_eq (k1_chk140.eq_1 v3187))
theorem k1_off140_inb : ∀ (v3187 : BitVec 32) (k1_hw140 : k1_chk140 v3187), ∀ a, (k1_off140 v3187) a + S1x1x128.size a ≤ S50000x1x128.size a := fun v3187 k1_hw140 => k1_hw140

def k1_off141 (v3210 : BitVec 32) : Fin 3 → Nat :=
  let c0_i32_3321 : BitVec 32 := 0#32
  let c0_i32_3322 : BitVec 32 := 0#32
  ![v3210.toNat, 0, 0]

def k1_chk141 (v3210 : BitVec 32) : Prop :=
  (∀ a, (k1_off141 v3210) a + S1x1x128.size a ≤ S50000x1x128.size a)
instance k1_chk141.dec : ∀ (v3210 : BitVec 32), Decidable (k1_chk141 v3210) := fun v3210 => decidable_of_iff' _ (Iff.of_eq (k1_chk141.eq_1 v3210))
theorem k1_off141_inb : ∀ (v3210 : BitVec 32) (k1_hw141 : k1_chk141 v3210), ∀ a, (k1_off141 v3210) a + S1x1x128.size a ≤ S50000x1x128.size a := fun v3210 k1_hw141 => k1_hw141

def k1_off142 (v3233 : BitVec 32) : Fin 3 → Nat :=
  let c0_i32_3345 : BitVec 32 := 0#32
  let c0_i32_3346 : BitVec 32 := 0#32
  ![v3233.toNat, 0, 0]

def k1_chk142 (v3233 : BitVec 32) : Prop :=
  (∀ a, (k1_off142 v3233) a + S1x1x128.size a ≤ S50000x1x128.size a)
instance k1_chk142.dec : ∀ (v3233 : BitVec 32), Decidable (k1_chk142 v3233) := fun v3233 => decidable_of_iff' _ (Iff.of_eq (k1_chk142.eq_1 v3233))
theorem k1_off142_inb : ∀ (v3233 : BitVec 32) (k1_hw142 : k1_chk142 v3233), ∀ a, (k1_off142 v3233) a + S1x1x128.size a ≤ S50000x1x128.size a := fun v3233 k1_hw142 => k1_hw142

def k1_off143 (v3256 : BitVec 32) : Fin 3 → Nat :=
  let c0_i32_3369 : BitVec 32 := 0#32
  let c0_i32_3370 : BitVec 32 := 0#32
  ![v3256.toNat, 0, 0]

def k1_chk143 (v3256 : BitVec 32) : Prop :=
  (∀ a, (k1_off143 v3256) a + S1x1x128.size a ≤ S50000x1x128.size a)
instance k1_chk143.dec : ∀ (v3256 : BitVec 32), Decidable (k1_chk143 v3256) := fun v3256 => decidable_of_iff' _ (Iff.of_eq (k1_chk143.eq_1 v3256))
theorem k1_off143_inb : ∀ (v3256 : BitVec 32) (k1_hw143 : k1_chk143 v3256), ∀ a, (k1_off143 v3256) a + S1x1x128.size a ≤ S50000x1x128.size a := fun v3256 k1_hw143 => k1_hw143

def k1_off144 (v3279 : BitVec 32) : Fin 3 → Nat :=
  let c0_i32_3393 : BitVec 32 := 0#32
  let c0_i32_3394 : BitVec 32 := 0#32
  ![v3279.toNat, 0, 0]

def k1_chk144 (v3279 : BitVec 32) : Prop :=
  (∀ a, (k1_off144 v3279) a + S1x1x128.size a ≤ S50000x1x128.size a)
instance k1_chk144.dec : ∀ (v3279 : BitVec 32), Decidable (k1_chk144 v3279) := fun v3279 => decidable_of_iff' _ (Iff.of_eq (k1_chk144.eq_1 v3279))
theorem k1_off144_inb : ∀ (v3279 : BitVec 32) (k1_hw144 : k1_chk144 v3279), ∀ a, (k1_off144 v3279) a + S1x1x128.size a ≤ S50000x1x128.size a := fun v3279 k1_hw144 => k1_hw144

def k1_off145 (v3302 : BitVec 32) : Fin 3 → Nat :=
  let c0_i32_3417 : BitVec 32 := 0#32
  let c0_i32_3418 : BitVec 32 := 0#32
  ![v3302.toNat, 0, 0]

def k1_chk145 (v3302 : BitVec 32) : Prop :=
  (∀ a, (k1_off145 v3302) a + S1x1x128.size a ≤ S50000x1x128.size a)
instance k1_chk145.dec : ∀ (v3302 : BitVec 32), Decidable (k1_chk145 v3302) := fun v3302 => decidable_of_iff' _ (Iff.of_eq (k1_chk145.eq_1 v3302))
theorem k1_off145_inb : ∀ (v3302 : BitVec 32) (k1_hw145 : k1_chk145 v3302), ∀ a, (k1_off145 v3302) a + S1x1x128.size a ≤ S50000x1x128.size a := fun v3302 k1_hw145 => k1_hw145

def k1_off146 (v3325 : BitVec 32) : Fin 3 → Nat :=
  let c0_i32_3441 : BitVec 32 := 0#32
  let c0_i32_3442 : BitVec 32 := 0#32
  ![v3325.toNat, 0, 0]

def k1_chk146 (v3325 : BitVec 32) : Prop :=
  (∀ a, (k1_off146 v3325) a + S1x1x128.size a ≤ S50000x1x128.size a)
instance k1_chk146.dec : ∀ (v3325 : BitVec 32), Decidable (k1_chk146 v3325) := fun v3325 => decidable_of_iff' _ (Iff.of_eq (k1_chk146.eq_1 v3325))
theorem k1_off146_inb : ∀ (v3325 : BitVec 32) (k1_hw146 : k1_chk146 v3325), ∀ a, (k1_off146 v3325) a + S1x1x128.size a ≤ S50000x1x128.size a := fun v3325 k1_hw146 => k1_hw146

def k1_off147 (v3348 : BitVec 32) : Fin 3 → Nat :=
  let c0_i32_3465 : BitVec 32 := 0#32
  let c0_i32_3466 : BitVec 32 := 0#32
  ![v3348.toNat, 0, 0]

def k1_chk147 (v3348 : BitVec 32) : Prop :=
  (∀ a, (k1_off147 v3348) a + S1x1x128.size a ≤ S50000x1x128.size a)
instance k1_chk147.dec : ∀ (v3348 : BitVec 32), Decidable (k1_chk147 v3348) := fun v3348 => decidable_of_iff' _ (Iff.of_eq (k1_chk147.eq_1 v3348))
theorem k1_off147_inb : ∀ (v3348 : BitVec 32) (k1_hw147 : k1_chk147 v3348), ∀ a, (k1_off147 v3348) a + S1x1x128.size a ≤ S50000x1x128.size a := fun v3348 k1_hw147 => k1_hw147

def k1_off148 (v3371 : BitVec 32) : Fin 3 → Nat :=
  let c0_i32_3489 : BitVec 32 := 0#32
  let c0_i32_3490 : BitVec 32 := 0#32
  ![v3371.toNat, 0, 0]

def k1_chk148 (v3371 : BitVec 32) : Prop :=
  (∀ a, (k1_off148 v3371) a + S1x1x128.size a ≤ S50000x1x128.size a)
instance k1_chk148.dec : ∀ (v3371 : BitVec 32), Decidable (k1_chk148 v3371) := fun v3371 => decidable_of_iff' _ (Iff.of_eq (k1_chk148.eq_1 v3371))
theorem k1_off148_inb : ∀ (v3371 : BitVec 32) (k1_hw148 : k1_chk148 v3371), ∀ a, (k1_off148 v3371) a + S1x1x128.size a ≤ S50000x1x128.size a := fun v3371 k1_hw148 => k1_hw148

def k1_off149 (v3394 : BitVec 32) : Fin 3 → Nat :=
  let c0_i32_3513 : BitVec 32 := 0#32
  let c0_i32_3514 : BitVec 32 := 0#32
  ![v3394.toNat, 0, 0]

def k1_chk149 (v3394 : BitVec 32) : Prop :=
  (∀ a, (k1_off149 v3394) a + S1x1x128.size a ≤ S50000x1x128.size a)
instance k1_chk149.dec : ∀ (v3394 : BitVec 32), Decidable (k1_chk149 v3394) := fun v3394 => decidable_of_iff' _ (Iff.of_eq (k1_chk149.eq_1 v3394))
theorem k1_off149_inb : ∀ (v3394 : BitVec 32) (k1_hw149 : k1_chk149 v3394), ∀ a, (k1_off149 v3394) a + S1x1x128.size a ≤ S50000x1x128.size a := fun v3394 k1_hw149 => k1_hw149

def k1_off150 (v3417 : BitVec 32) : Fin 3 → Nat :=
  let c0_i32_3537 : BitVec 32 := 0#32
  let c0_i32_3538 : BitVec 32 := 0#32
  ![v3417.toNat, 0, 0]

def k1_chk150 (v3417 : BitVec 32) : Prop :=
  (∀ a, (k1_off150 v3417) a + S1x1x128.size a ≤ S50000x1x128.size a)
instance k1_chk150.dec : ∀ (v3417 : BitVec 32), Decidable (k1_chk150 v3417) := fun v3417 => decidable_of_iff' _ (Iff.of_eq (k1_chk150.eq_1 v3417))
theorem k1_off150_inb : ∀ (v3417 : BitVec 32) (k1_hw150 : k1_chk150 v3417), ∀ a, (k1_off150 v3417) a + S1x1x128.size a ≤ S50000x1x128.size a := fun v3417 k1_hw150 => k1_hw150

def k1_off151 (v3440 : BitVec 32) : Fin 3 → Nat :=
  let c0_i32_3561 : BitVec 32 := 0#32
  let c0_i32_3562 : BitVec 32 := 0#32
  ![v3440.toNat, 0, 0]

def k1_chk151 (v3440 : BitVec 32) : Prop :=
  (∀ a, (k1_off151 v3440) a + S1x1x128.size a ≤ S50000x1x128.size a)
instance k1_chk151.dec : ∀ (v3440 : BitVec 32), Decidable (k1_chk151 v3440) := fun v3440 => decidable_of_iff' _ (Iff.of_eq (k1_chk151.eq_1 v3440))
theorem k1_off151_inb : ∀ (v3440 : BitVec 32) (k1_hw151 : k1_chk151 v3440), ∀ a, (k1_off151 v3440) a + S1x1x128.size a ≤ S50000x1x128.size a := fun v3440 k1_hw151 => k1_hw151

def k1_off152 (v3463 : BitVec 32) : Fin 3 → Nat :=
  let c0_i32_3585 : BitVec 32 := 0#32
  let c0_i32_3586 : BitVec 32 := 0#32
  ![v3463.toNat, 0, 0]

def k1_chk152 (v3463 : BitVec 32) : Prop :=
  (∀ a, (k1_off152 v3463) a + S1x1x128.size a ≤ S50000x1x128.size a)
instance k1_chk152.dec : ∀ (v3463 : BitVec 32), Decidable (k1_chk152 v3463) := fun v3463 => decidable_of_iff' _ (Iff.of_eq (k1_chk152.eq_1 v3463))
theorem k1_off152_inb : ∀ (v3463 : BitVec 32) (k1_hw152 : k1_chk152 v3463), ∀ a, (k1_off152 v3463) a + S1x1x128.size a ≤ S50000x1x128.size a := fun v3463 k1_hw152 => k1_hw152

def k1_off153 (v3486 : BitVec 32) : Fin 3 → Nat :=
  let c0_i32_3609 : BitVec 32 := 0#32
  let c0_i32_3610 : BitVec 32 := 0#32
  ![v3486.toNat, 0, 0]

def k1_chk153 (v3486 : BitVec 32) : Prop :=
  (∀ a, (k1_off153 v3486) a + S1x1x128.size a ≤ S50000x1x128.size a)
instance k1_chk153.dec : ∀ (v3486 : BitVec 32), Decidable (k1_chk153 v3486) := fun v3486 => decidable_of_iff' _ (Iff.of_eq (k1_chk153.eq_1 v3486))
theorem k1_off153_inb : ∀ (v3486 : BitVec 32) (k1_hw153 : k1_chk153 v3486), ∀ a, (k1_off153 v3486) a + S1x1x128.size a ≤ S50000x1x128.size a := fun v3486 k1_hw153 => k1_hw153

def k1_off154 (v3509 : BitVec 32) : Fin 3 → Nat :=
  let c0_i32_3633 : BitVec 32 := 0#32
  let c0_i32_3634 : BitVec 32 := 0#32
  ![v3509.toNat, 0, 0]

def k1_chk154 (v3509 : BitVec 32) : Prop :=
  (∀ a, (k1_off154 v3509) a + S1x1x128.size a ≤ S50000x1x128.size a)
instance k1_chk154.dec : ∀ (v3509 : BitVec 32), Decidable (k1_chk154 v3509) := fun v3509 => decidable_of_iff' _ (Iff.of_eq (k1_chk154.eq_1 v3509))
theorem k1_off154_inb : ∀ (v3509 : BitVec 32) (k1_hw154 : k1_chk154 v3509), ∀ a, (k1_off154 v3509) a + S1x1x128.size a ≤ S50000x1x128.size a := fun v3509 k1_hw154 => k1_hw154

def k1_off155 (v3532 : BitVec 32) : Fin 3 → Nat :=
  let c0_i32_3657 : BitVec 32 := 0#32
  let c0_i32_3658 : BitVec 32 := 0#32
  ![v3532.toNat, 0, 0]

def k1_chk155 (v3532 : BitVec 32) : Prop :=
  (∀ a, (k1_off155 v3532) a + S1x1x128.size a ≤ S50000x1x128.size a)
instance k1_chk155.dec : ∀ (v3532 : BitVec 32), Decidable (k1_chk155 v3532) := fun v3532 => decidable_of_iff' _ (Iff.of_eq (k1_chk155.eq_1 v3532))
theorem k1_off155_inb : ∀ (v3532 : BitVec 32) (k1_hw155 : k1_chk155 v3532), ∀ a, (k1_off155 v3532) a + S1x1x128.size a ≤ S50000x1x128.size a := fun v3532 k1_hw155 => k1_hw155

def k1_off156 (v3555 : BitVec 32) : Fin 3 → Nat :=
  let c0_i32_3681 : BitVec 32 := 0#32
  let c0_i32_3682 : BitVec 32 := 0#32
  ![v3555.toNat, 0, 0]

def k1_chk156 (v3555 : BitVec 32) : Prop :=
  (∀ a, (k1_off156 v3555) a + S1x1x128.size a ≤ S50000x1x128.size a)
instance k1_chk156.dec : ∀ (v3555 : BitVec 32), Decidable (k1_chk156 v3555) := fun v3555 => decidable_of_iff' _ (Iff.of_eq (k1_chk156.eq_1 v3555))
theorem k1_off156_inb : ∀ (v3555 : BitVec 32) (k1_hw156 : k1_chk156 v3555), ∀ a, (k1_off156 v3555) a + S1x1x128.size a ≤ S50000x1x128.size a := fun v3555 k1_hw156 => k1_hw156

def k1_off157 (v3578 : BitVec 32) : Fin 3 → Nat :=
  let c0_i32_3705 : BitVec 32 := 0#32
  let c0_i32_3706 : BitVec 32 := 0#32
  ![v3578.toNat, 0, 0]

def k1_chk157 (v3578 : BitVec 32) : Prop :=
  (∀ a, (k1_off157 v3578) a + S1x1x128.size a ≤ S50000x1x128.size a)
instance k1_chk157.dec : ∀ (v3578 : BitVec 32), Decidable (k1_chk157 v3578) := fun v3578 => decidable_of_iff' _ (Iff.of_eq (k1_chk157.eq_1 v3578))
theorem k1_off157_inb : ∀ (v3578 : BitVec 32) (k1_hw157 : k1_chk157 v3578), ∀ a, (k1_off157 v3578) a + S1x1x128.size a ≤ S50000x1x128.size a := fun v3578 k1_hw157 => k1_hw157

def k1_off158 (v3601 : BitVec 32) : Fin 3 → Nat :=
  let c0_i32_3729 : BitVec 32 := 0#32
  let c0_i32_3730 : BitVec 32 := 0#32
  ![v3601.toNat, 0, 0]

def k1_chk158 (v3601 : BitVec 32) : Prop :=
  (∀ a, (k1_off158 v3601) a + S1x1x128.size a ≤ S50000x1x128.size a)
instance k1_chk158.dec : ∀ (v3601 : BitVec 32), Decidable (k1_chk158 v3601) := fun v3601 => decidable_of_iff' _ (Iff.of_eq (k1_chk158.eq_1 v3601))
theorem k1_off158_inb : ∀ (v3601 : BitVec 32) (k1_hw158 : k1_chk158 v3601), ∀ a, (k1_off158 v3601) a + S1x1x128.size a ≤ S50000x1x128.size a := fun v3601 k1_hw158 => k1_hw158

def k1_off159 (v3624 : BitVec 32) : Fin 3 → Nat :=
  let c0_i32_3753 : BitVec 32 := 0#32
  let c0_i32_3754 : BitVec 32 := 0#32
  ![v3624.toNat, 0, 0]

def k1_chk159 (v3624 : BitVec 32) : Prop :=
  (∀ a, (k1_off159 v3624) a + S1x1x128.size a ≤ S50000x1x128.size a)
instance k1_chk159.dec : ∀ (v3624 : BitVec 32), Decidable (k1_chk159 v3624) := fun v3624 => decidable_of_iff' _ (Iff.of_eq (k1_chk159.eq_1 v3624))
theorem k1_off159_inb : ∀ (v3624 : BitVec 32) (k1_hw159 : k1_chk159 v3624), ∀ a, (k1_off159 v3624) a + S1x1x128.size a ≤ S50000x1x128.size a := fun v3624 k1_hw159 => k1_hw159

def k1_off160 (v3647 : BitVec 32) : Fin 3 → Nat :=
  let c0_i32_3777 : BitVec 32 := 0#32
  let c0_i32_3778 : BitVec 32 := 0#32
  ![v3647.toNat, 0, 0]

def k1_chk160 (v3647 : BitVec 32) : Prop :=
  (∀ a, (k1_off160 v3647) a + S1x1x128.size a ≤ S50000x1x128.size a)
instance k1_chk160.dec : ∀ (v3647 : BitVec 32), Decidable (k1_chk160 v3647) := fun v3647 => decidable_of_iff' _ (Iff.of_eq (k1_chk160.eq_1 v3647))
theorem k1_off160_inb : ∀ (v3647 : BitVec 32) (k1_hw160 : k1_chk160 v3647), ∀ a, (k1_off160 v3647) a + S1x1x128.size a ≤ S50000x1x128.size a := fun v3647 k1_hw160 => k1_hw160

def k1_off161 (v3680 : BitVec 32) : Fin 3 → Nat :=
  let c0_i32_3811 : BitVec 32 := 0#32
  let c0_i32_3812 : BitVec 32 := 0#32
  ![v3680.toNat, 0, 0]

def k1_chk161 (v3680 : BitVec 32) : Prop :=
  (∀ a, (k1_off161 v3680) a + S1x1x128.size a ≤ S50000x1x128.size a)
instance k1_chk161.dec : ∀ (v3680 : BitVec 32), Decidable (k1_chk161 v3680) := fun v3680 => decidable_of_iff' _ (Iff.of_eq (k1_chk161.eq_1 v3680))
theorem k1_off161_inb : ∀ (v3680 : BitVec 32) (k1_hw161 : k1_chk161 v3680), ∀ a, (k1_off161 v3680) a + S1x1x128.size a ≤ S50000x1x128.size a := fun v3680 k1_hw161 => k1_hw161

def k1_off162 (v3693 : BitVec 32) : Fin 3 → Nat :=
  let c0_i32_3825 : BitVec 32 := 0#32
  let c0_i32_3826 : BitVec 32 := 0#32
  ![v3693.toNat, 0, 0]

def k1_chk162 (v3693 : BitVec 32) : Prop :=
  (∀ a, (k1_off162 v3693) a + S1x1x128.size a ≤ S50000x1x128.size a)
instance k1_chk162.dec : ∀ (v3693 : BitVec 32), Decidable (k1_chk162 v3693) := fun v3693 => decidable_of_iff' _ (Iff.of_eq (k1_chk162.eq_1 v3693))
theorem k1_off162_inb : ∀ (v3693 : BitVec 32) (k1_hw162 : k1_chk162 v3693), ∀ a, (k1_off162 v3693) a + S1x1x128.size a ≤ S50000x1x128.size a := fun v3693 k1_hw162 => k1_hw162

def k1_off163 (v3716 : BitVec 32) : Fin 3 → Nat :=
  let c0_i32_3849 : BitVec 32 := 0#32
  let c0_i32_3850 : BitVec 32 := 0#32
  ![v3716.toNat, 0, 0]

def k1_chk163 (v3716 : BitVec 32) : Prop :=
  (∀ a, (k1_off163 v3716) a + S1x1x128.size a ≤ S50000x1x128.size a)
instance k1_chk163.dec : ∀ (v3716 : BitVec 32), Decidable (k1_chk163 v3716) := fun v3716 => decidable_of_iff' _ (Iff.of_eq (k1_chk163.eq_1 v3716))
theorem k1_off163_inb : ∀ (v3716 : BitVec 32) (k1_hw163 : k1_chk163 v3716), ∀ a, (k1_off163 v3716) a + S1x1x128.size a ≤ S50000x1x128.size a := fun v3716 k1_hw163 => k1_hw163

def k1_off164 (v3739 : BitVec 32) : Fin 3 → Nat :=
  let c0_i32_3873 : BitVec 32 := 0#32
  let c0_i32_3874 : BitVec 32 := 0#32
  ![v3739.toNat, 0, 0]

def k1_chk164 (v3739 : BitVec 32) : Prop :=
  (∀ a, (k1_off164 v3739) a + S1x1x128.size a ≤ S50000x1x128.size a)
instance k1_chk164.dec : ∀ (v3739 : BitVec 32), Decidable (k1_chk164 v3739) := fun v3739 => decidable_of_iff' _ (Iff.of_eq (k1_chk164.eq_1 v3739))
theorem k1_off164_inb : ∀ (v3739 : BitVec 32) (k1_hw164 : k1_chk164 v3739), ∀ a, (k1_off164 v3739) a + S1x1x128.size a ≤ S50000x1x128.size a := fun v3739 k1_hw164 => k1_hw164

def k1_off165 (v3762 : BitVec 32) : Fin 3 → Nat :=
  let c0_i32_3897 : BitVec 32 := 0#32
  let c0_i32_3898 : BitVec 32 := 0#32
  ![v3762.toNat, 0, 0]

def k1_chk165 (v3762 : BitVec 32) : Prop :=
  (∀ a, (k1_off165 v3762) a + S1x1x128.size a ≤ S50000x1x128.size a)
instance k1_chk165.dec : ∀ (v3762 : BitVec 32), Decidable (k1_chk165 v3762) := fun v3762 => decidable_of_iff' _ (Iff.of_eq (k1_chk165.eq_1 v3762))
theorem k1_off165_inb : ∀ (v3762 : BitVec 32) (k1_hw165 : k1_chk165 v3762), ∀ a, (k1_off165 v3762) a + S1x1x128.size a ≤ S50000x1x128.size a := fun v3762 k1_hw165 => k1_hw165

def k1_off166 (v3785 : BitVec 32) : Fin 3 → Nat :=
  let c0_i32_3921 : BitVec 32 := 0#32
  let c0_i32_3922 : BitVec 32 := 0#32
  ![v3785.toNat, 0, 0]

def k1_chk166 (v3785 : BitVec 32) : Prop :=
  (∀ a, (k1_off166 v3785) a + S1x1x128.size a ≤ S50000x1x128.size a)
instance k1_chk166.dec : ∀ (v3785 : BitVec 32), Decidable (k1_chk166 v3785) := fun v3785 => decidable_of_iff' _ (Iff.of_eq (k1_chk166.eq_1 v3785))
theorem k1_off166_inb : ∀ (v3785 : BitVec 32) (k1_hw166 : k1_chk166 v3785), ∀ a, (k1_off166 v3785) a + S1x1x128.size a ≤ S50000x1x128.size a := fun v3785 k1_hw166 => k1_hw166

def k1_off167 (v3808 : BitVec 32) : Fin 3 → Nat :=
  let c0_i32_3945 : BitVec 32 := 0#32
  let c0_i32_3946 : BitVec 32 := 0#32
  ![v3808.toNat, 0, 0]

def k1_chk167 (v3808 : BitVec 32) : Prop :=
  (∀ a, (k1_off167 v3808) a + S1x1x128.size a ≤ S50000x1x128.size a)
instance k1_chk167.dec : ∀ (v3808 : BitVec 32), Decidable (k1_chk167 v3808) := fun v3808 => decidable_of_iff' _ (Iff.of_eq (k1_chk167.eq_1 v3808))
theorem k1_off167_inb : ∀ (v3808 : BitVec 32) (k1_hw167 : k1_chk167 v3808), ∀ a, (k1_off167 v3808) a + S1x1x128.size a ≤ S50000x1x128.size a := fun v3808 k1_hw167 => k1_hw167

def k1_off168 (v3831 : BitVec 32) : Fin 3 → Nat :=
  let c0_i32_3969 : BitVec 32 := 0#32
  let c0_i32_3970 : BitVec 32 := 0#32
  ![v3831.toNat, 0, 0]

def k1_chk168 (v3831 : BitVec 32) : Prop :=
  (∀ a, (k1_off168 v3831) a + S1x1x128.size a ≤ S50000x1x128.size a)
instance k1_chk168.dec : ∀ (v3831 : BitVec 32), Decidable (k1_chk168 v3831) := fun v3831 => decidable_of_iff' _ (Iff.of_eq (k1_chk168.eq_1 v3831))
theorem k1_off168_inb : ∀ (v3831 : BitVec 32) (k1_hw168 : k1_chk168 v3831), ∀ a, (k1_off168 v3831) a + S1x1x128.size a ≤ S50000x1x128.size a := fun v3831 k1_hw168 => k1_hw168

def k1_off169 (v3854 : BitVec 32) : Fin 3 → Nat :=
  let c0_i32_3993 : BitVec 32 := 0#32
  let c0_i32_3994 : BitVec 32 := 0#32
  ![v3854.toNat, 0, 0]

def k1_chk169 (v3854 : BitVec 32) : Prop :=
  (∀ a, (k1_off169 v3854) a + S1x1x128.size a ≤ S50000x1x128.size a)
instance k1_chk169.dec : ∀ (v3854 : BitVec 32), Decidable (k1_chk169 v3854) := fun v3854 => decidable_of_iff' _ (Iff.of_eq (k1_chk169.eq_1 v3854))
theorem k1_off169_inb : ∀ (v3854 : BitVec 32) (k1_hw169 : k1_chk169 v3854), ∀ a, (k1_off169 v3854) a + S1x1x128.size a ≤ S50000x1x128.size a := fun v3854 k1_hw169 => k1_hw169

def k1_off170 (v3877 : BitVec 32) : Fin 3 → Nat :=
  let c0_i32_4017 : BitVec 32 := 0#32
  let c0_i32_4018 : BitVec 32 := 0#32
  ![v3877.toNat, 0, 0]

def k1_chk170 (v3877 : BitVec 32) : Prop :=
  (∀ a, (k1_off170 v3877) a + S1x1x128.size a ≤ S50000x1x128.size a)
instance k1_chk170.dec : ∀ (v3877 : BitVec 32), Decidable (k1_chk170 v3877) := fun v3877 => decidable_of_iff' _ (Iff.of_eq (k1_chk170.eq_1 v3877))
theorem k1_off170_inb : ∀ (v3877 : BitVec 32) (k1_hw170 : k1_chk170 v3877), ∀ a, (k1_off170 v3877) a + S1x1x128.size a ≤ S50000x1x128.size a := fun v3877 k1_hw170 => k1_hw170

def k1_off171 (v3900 : BitVec 32) : Fin 3 → Nat :=
  let c0_i32_4041 : BitVec 32 := 0#32
  let c0_i32_4042 : BitVec 32 := 0#32
  ![v3900.toNat, 0, 0]

def k1_chk171 (v3900 : BitVec 32) : Prop :=
  (∀ a, (k1_off171 v3900) a + S1x1x128.size a ≤ S50000x1x128.size a)
instance k1_chk171.dec : ∀ (v3900 : BitVec 32), Decidable (k1_chk171 v3900) := fun v3900 => decidable_of_iff' _ (Iff.of_eq (k1_chk171.eq_1 v3900))
theorem k1_off171_inb : ∀ (v3900 : BitVec 32) (k1_hw171 : k1_chk171 v3900), ∀ a, (k1_off171 v3900) a + S1x1x128.size a ≤ S50000x1x128.size a := fun v3900 k1_hw171 => k1_hw171

def k1_off172 (v3923 : BitVec 32) : Fin 3 → Nat :=
  let c0_i32_4065 : BitVec 32 := 0#32
  let c0_i32_4066 : BitVec 32 := 0#32
  ![v3923.toNat, 0, 0]

def k1_chk172 (v3923 : BitVec 32) : Prop :=
  (∀ a, (k1_off172 v3923) a + S1x1x128.size a ≤ S50000x1x128.size a)
instance k1_chk172.dec : ∀ (v3923 : BitVec 32), Decidable (k1_chk172 v3923) := fun v3923 => decidable_of_iff' _ (Iff.of_eq (k1_chk172.eq_1 v3923))
theorem k1_off172_inb : ∀ (v3923 : BitVec 32) (k1_hw172 : k1_chk172 v3923), ∀ a, (k1_off172 v3923) a + S1x1x128.size a ≤ S50000x1x128.size a := fun v3923 k1_hw172 => k1_hw172

def k1_off173 (v3946 : BitVec 32) : Fin 3 → Nat :=
  let c0_i32_4089 : BitVec 32 := 0#32
  let c0_i32_4090 : BitVec 32 := 0#32
  ![v3946.toNat, 0, 0]

def k1_chk173 (v3946 : BitVec 32) : Prop :=
  (∀ a, (k1_off173 v3946) a + S1x1x128.size a ≤ S50000x1x128.size a)
instance k1_chk173.dec : ∀ (v3946 : BitVec 32), Decidable (k1_chk173 v3946) := fun v3946 => decidable_of_iff' _ (Iff.of_eq (k1_chk173.eq_1 v3946))
theorem k1_off173_inb : ∀ (v3946 : BitVec 32) (k1_hw173 : k1_chk173 v3946), ∀ a, (k1_off173 v3946) a + S1x1x128.size a ≤ S50000x1x128.size a := fun v3946 k1_hw173 => k1_hw173

def k1_off174 (v3969 : BitVec 32) : Fin 3 → Nat :=
  let c0_i32_4113 : BitVec 32 := 0#32
  let c0_i32_4114 : BitVec 32 := 0#32
  ![v3969.toNat, 0, 0]

def k1_chk174 (v3969 : BitVec 32) : Prop :=
  (∀ a, (k1_off174 v3969) a + S1x1x128.size a ≤ S50000x1x128.size a)
instance k1_chk174.dec : ∀ (v3969 : BitVec 32), Decidable (k1_chk174 v3969) := fun v3969 => decidable_of_iff' _ (Iff.of_eq (k1_chk174.eq_1 v3969))
theorem k1_off174_inb : ∀ (v3969 : BitVec 32) (k1_hw174 : k1_chk174 v3969), ∀ a, (k1_off174 v3969) a + S1x1x128.size a ≤ S50000x1x128.size a := fun v3969 k1_hw174 => k1_hw174

def k1_off175 (v3992 : BitVec 32) : Fin 3 → Nat :=
  let c0_i32_4137 : BitVec 32 := 0#32
  let c0_i32_4138 : BitVec 32 := 0#32
  ![v3992.toNat, 0, 0]

def k1_chk175 (v3992 : BitVec 32) : Prop :=
  (∀ a, (k1_off175 v3992) a + S1x1x128.size a ≤ S50000x1x128.size a)
instance k1_chk175.dec : ∀ (v3992 : BitVec 32), Decidable (k1_chk175 v3992) := fun v3992 => decidable_of_iff' _ (Iff.of_eq (k1_chk175.eq_1 v3992))
theorem k1_off175_inb : ∀ (v3992 : BitVec 32) (k1_hw175 : k1_chk175 v3992), ∀ a, (k1_off175 v3992) a + S1x1x128.size a ≤ S50000x1x128.size a := fun v3992 k1_hw175 => k1_hw175

def k1_off176 (v4015 : BitVec 32) : Fin 3 → Nat :=
  let c0_i32_4161 : BitVec 32 := 0#32
  let c0_i32_4162 : BitVec 32 := 0#32
  ![v4015.toNat, 0, 0]

def k1_chk176 (v4015 : BitVec 32) : Prop :=
  (∀ a, (k1_off176 v4015) a + S1x1x128.size a ≤ S50000x1x128.size a)
instance k1_chk176.dec : ∀ (v4015 : BitVec 32), Decidable (k1_chk176 v4015) := fun v4015 => decidable_of_iff' _ (Iff.of_eq (k1_chk176.eq_1 v4015))
theorem k1_off176_inb : ∀ (v4015 : BitVec 32) (k1_hw176 : k1_chk176 v4015), ∀ a, (k1_off176 v4015) a + S1x1x128.size a ≤ S50000x1x128.size a := fun v4015 k1_hw176 => k1_hw176

def k1_off177 (v4038 : BitVec 32) : Fin 3 → Nat :=
  let c0_i32_4185 : BitVec 32 := 0#32
  let c0_i32_4186 : BitVec 32 := 0#32
  ![v4038.toNat, 0, 0]

def k1_chk177 (v4038 : BitVec 32) : Prop :=
  (∀ a, (k1_off177 v4038) a + S1x1x128.size a ≤ S50000x1x128.size a)
instance k1_chk177.dec : ∀ (v4038 : BitVec 32), Decidable (k1_chk177 v4038) := fun v4038 => decidable_of_iff' _ (Iff.of_eq (k1_chk177.eq_1 v4038))
theorem k1_off177_inb : ∀ (v4038 : BitVec 32) (k1_hw177 : k1_chk177 v4038), ∀ a, (k1_off177 v4038) a + S1x1x128.size a ≤ S50000x1x128.size a := fun v4038 k1_hw177 => k1_hw177

def k1_off178 (v4061 : BitVec 32) : Fin 3 → Nat :=
  let c0_i32_4209 : BitVec 32 := 0#32
  let c0_i32_4210 : BitVec 32 := 0#32
  ![v4061.toNat, 0, 0]

def k1_chk178 (v4061 : BitVec 32) : Prop :=
  (∀ a, (k1_off178 v4061) a + S1x1x128.size a ≤ S50000x1x128.size a)
instance k1_chk178.dec : ∀ (v4061 : BitVec 32), Decidable (k1_chk178 v4061) := fun v4061 => decidable_of_iff' _ (Iff.of_eq (k1_chk178.eq_1 v4061))
theorem k1_off178_inb : ∀ (v4061 : BitVec 32) (k1_hw178 : k1_chk178 v4061), ∀ a, (k1_off178 v4061) a + S1x1x128.size a ≤ S50000x1x128.size a := fun v4061 k1_hw178 => k1_hw178

def k1_off179 (v4084 : BitVec 32) : Fin 3 → Nat :=
  let c0_i32_4233 : BitVec 32 := 0#32
  let c0_i32_4234 : BitVec 32 := 0#32
  ![v4084.toNat, 0, 0]

def k1_chk179 (v4084 : BitVec 32) : Prop :=
  (∀ a, (k1_off179 v4084) a + S1x1x128.size a ≤ S50000x1x128.size a)
instance k1_chk179.dec : ∀ (v4084 : BitVec 32), Decidable (k1_chk179 v4084) := fun v4084 => decidable_of_iff' _ (Iff.of_eq (k1_chk179.eq_1 v4084))
theorem k1_off179_inb : ∀ (v4084 : BitVec 32) (k1_hw179 : k1_chk179 v4084), ∀ a, (k1_off179 v4084) a + S1x1x128.size a ≤ S50000x1x128.size a := fun v4084 k1_hw179 => k1_hw179

def k1_off180 (v4107 : BitVec 32) : Fin 3 → Nat :=
  let c0_i32_4257 : BitVec 32 := 0#32
  let c0_i32_4258 : BitVec 32 := 0#32
  ![v4107.toNat, 0, 0]

def k1_chk180 (v4107 : BitVec 32) : Prop :=
  (∀ a, (k1_off180 v4107) a + S1x1x128.size a ≤ S50000x1x128.size a)
instance k1_chk180.dec : ∀ (v4107 : BitVec 32), Decidable (k1_chk180 v4107) := fun v4107 => decidable_of_iff' _ (Iff.of_eq (k1_chk180.eq_1 v4107))
theorem k1_off180_inb : ∀ (v4107 : BitVec 32) (k1_hw180 : k1_chk180 v4107), ∀ a, (k1_off180 v4107) a + S1x1x128.size a ≤ S50000x1x128.size a := fun v4107 k1_hw180 => k1_hw180

def k1_off181 (v4130 : BitVec 32) : Fin 3 → Nat :=
  let c0_i32_4281 : BitVec 32 := 0#32
  let c0_i32_4282 : BitVec 32 := 0#32
  ![v4130.toNat, 0, 0]

def k1_chk181 (v4130 : BitVec 32) : Prop :=
  (∀ a, (k1_off181 v4130) a + S1x1x128.size a ≤ S50000x1x128.size a)
instance k1_chk181.dec : ∀ (v4130 : BitVec 32), Decidable (k1_chk181 v4130) := fun v4130 => decidable_of_iff' _ (Iff.of_eq (k1_chk181.eq_1 v4130))
theorem k1_off181_inb : ∀ (v4130 : BitVec 32) (k1_hw181 : k1_chk181 v4130), ∀ a, (k1_off181 v4130) a + S1x1x128.size a ≤ S50000x1x128.size a := fun v4130 k1_hw181 => k1_hw181

def k1_off182 (v4153 : BitVec 32) : Fin 3 → Nat :=
  let c0_i32_4305 : BitVec 32 := 0#32
  let c0_i32_4306 : BitVec 32 := 0#32
  ![v4153.toNat, 0, 0]

def k1_chk182 (v4153 : BitVec 32) : Prop :=
  (∀ a, (k1_off182 v4153) a + S1x1x128.size a ≤ S50000x1x128.size a)
instance k1_chk182.dec : ∀ (v4153 : BitVec 32), Decidable (k1_chk182 v4153) := fun v4153 => decidable_of_iff' _ (Iff.of_eq (k1_chk182.eq_1 v4153))
theorem k1_off182_inb : ∀ (v4153 : BitVec 32) (k1_hw182 : k1_chk182 v4153), ∀ a, (k1_off182 v4153) a + S1x1x128.size a ≤ S50000x1x128.size a := fun v4153 k1_hw182 => k1_hw182

def k1_off183 (v4176 : BitVec 32) : Fin 3 → Nat :=
  let c0_i32_4329 : BitVec 32 := 0#32
  let c0_i32_4330 : BitVec 32 := 0#32
  ![v4176.toNat, 0, 0]

def k1_chk183 (v4176 : BitVec 32) : Prop :=
  (∀ a, (k1_off183 v4176) a + S1x1x128.size a ≤ S50000x1x128.size a)
instance k1_chk183.dec : ∀ (v4176 : BitVec 32), Decidable (k1_chk183 v4176) := fun v4176 => decidable_of_iff' _ (Iff.of_eq (k1_chk183.eq_1 v4176))
theorem k1_off183_inb : ∀ (v4176 : BitVec 32) (k1_hw183 : k1_chk183 v4176), ∀ a, (k1_off183 v4176) a + S1x1x128.size a ≤ S50000x1x128.size a := fun v4176 k1_hw183 => k1_hw183

def k1_off184 (v4199 : BitVec 32) : Fin 3 → Nat :=
  let c0_i32_4353 : BitVec 32 := 0#32
  let c0_i32_4354 : BitVec 32 := 0#32
  ![v4199.toNat, 0, 0]

def k1_chk184 (v4199 : BitVec 32) : Prop :=
  (∀ a, (k1_off184 v4199) a + S1x1x128.size a ≤ S50000x1x128.size a)
instance k1_chk184.dec : ∀ (v4199 : BitVec 32), Decidable (k1_chk184 v4199) := fun v4199 => decidable_of_iff' _ (Iff.of_eq (k1_chk184.eq_1 v4199))
theorem k1_off184_inb : ∀ (v4199 : BitVec 32) (k1_hw184 : k1_chk184 v4199), ∀ a, (k1_off184 v4199) a + S1x1x128.size a ≤ S50000x1x128.size a := fun v4199 k1_hw184 => k1_hw184

def k1_off185 (v4222 : BitVec 32) : Fin 3 → Nat :=
  let c0_i32_4377 : BitVec 32 := 0#32
  let c0_i32_4378 : BitVec 32 := 0#32
  ![v4222.toNat, 0, 0]

def k1_chk185 (v4222 : BitVec 32) : Prop :=
  (∀ a, (k1_off185 v4222) a + S1x1x128.size a ≤ S50000x1x128.size a)
instance k1_chk185.dec : ∀ (v4222 : BitVec 32), Decidable (k1_chk185 v4222) := fun v4222 => decidable_of_iff' _ (Iff.of_eq (k1_chk185.eq_1 v4222))
theorem k1_off185_inb : ∀ (v4222 : BitVec 32) (k1_hw185 : k1_chk185 v4222), ∀ a, (k1_off185 v4222) a + S1x1x128.size a ≤ S50000x1x128.size a := fun v4222 k1_hw185 => k1_hw185

def k1_off186 (v4245 : BitVec 32) : Fin 3 → Nat :=
  let c0_i32_4401 : BitVec 32 := 0#32
  let c0_i32_4402 : BitVec 32 := 0#32
  ![v4245.toNat, 0, 0]

def k1_chk186 (v4245 : BitVec 32) : Prop :=
  (∀ a, (k1_off186 v4245) a + S1x1x128.size a ≤ S50000x1x128.size a)
instance k1_chk186.dec : ∀ (v4245 : BitVec 32), Decidable (k1_chk186 v4245) := fun v4245 => decidable_of_iff' _ (Iff.of_eq (k1_chk186.eq_1 v4245))
theorem k1_off186_inb : ∀ (v4245 : BitVec 32) (k1_hw186 : k1_chk186 v4245), ∀ a, (k1_off186 v4245) a + S1x1x128.size a ≤ S50000x1x128.size a := fun v4245 k1_hw186 => k1_hw186

def k1_off187 (v4268 : BitVec 32) : Fin 3 → Nat :=
  let c0_i32_4425 : BitVec 32 := 0#32
  let c0_i32_4426 : BitVec 32 := 0#32
  ![v4268.toNat, 0, 0]

def k1_chk187 (v4268 : BitVec 32) : Prop :=
  (∀ a, (k1_off187 v4268) a + S1x1x128.size a ≤ S50000x1x128.size a)
instance k1_chk187.dec : ∀ (v4268 : BitVec 32), Decidable (k1_chk187 v4268) := fun v4268 => decidable_of_iff' _ (Iff.of_eq (k1_chk187.eq_1 v4268))
theorem k1_off187_inb : ∀ (v4268 : BitVec 32) (k1_hw187 : k1_chk187 v4268), ∀ a, (k1_off187 v4268) a + S1x1x128.size a ≤ S50000x1x128.size a := fun v4268 k1_hw187 => k1_hw187

def k1_off188 (v4291 : BitVec 32) : Fin 3 → Nat :=
  let c0_i32_4449 : BitVec 32 := 0#32
  let c0_i32_4450 : BitVec 32 := 0#32
  ![v4291.toNat, 0, 0]

def k1_chk188 (v4291 : BitVec 32) : Prop :=
  (∀ a, (k1_off188 v4291) a + S1x1x128.size a ≤ S50000x1x128.size a)
instance k1_chk188.dec : ∀ (v4291 : BitVec 32), Decidable (k1_chk188 v4291) := fun v4291 => decidable_of_iff' _ (Iff.of_eq (k1_chk188.eq_1 v4291))
theorem k1_off188_inb : ∀ (v4291 : BitVec 32) (k1_hw188 : k1_chk188 v4291), ∀ a, (k1_off188 v4291) a + S1x1x128.size a ≤ S50000x1x128.size a := fun v4291 k1_hw188 => k1_hw188

def k1_off189 (v4314 : BitVec 32) : Fin 3 → Nat :=
  let c0_i32_4473 : BitVec 32 := 0#32
  let c0_i32_4474 : BitVec 32 := 0#32
  ![v4314.toNat, 0, 0]

def k1_chk189 (v4314 : BitVec 32) : Prop :=
  (∀ a, (k1_off189 v4314) a + S1x1x128.size a ≤ S50000x1x128.size a)
instance k1_chk189.dec : ∀ (v4314 : BitVec 32), Decidable (k1_chk189 v4314) := fun v4314 => decidable_of_iff' _ (Iff.of_eq (k1_chk189.eq_1 v4314))
theorem k1_off189_inb : ∀ (v4314 : BitVec 32) (k1_hw189 : k1_chk189 v4314), ∀ a, (k1_off189 v4314) a + S1x1x128.size a ≤ S50000x1x128.size a := fun v4314 k1_hw189 => k1_hw189

def k1_off190 (v4337 : BitVec 32) : Fin 3 → Nat :=
  let c0_i32_4497 : BitVec 32 := 0#32
  let c0_i32_4498 : BitVec 32 := 0#32
  ![v4337.toNat, 0, 0]

def k1_chk190 (v4337 : BitVec 32) : Prop :=
  (∀ a, (k1_off190 v4337) a + S1x1x128.size a ≤ S50000x1x128.size a)
instance k1_chk190.dec : ∀ (v4337 : BitVec 32), Decidable (k1_chk190 v4337) := fun v4337 => decidable_of_iff' _ (Iff.of_eq (k1_chk190.eq_1 v4337))
theorem k1_off190_inb : ∀ (v4337 : BitVec 32) (k1_hw190 : k1_chk190 v4337), ∀ a, (k1_off190 v4337) a + S1x1x128.size a ≤ S50000x1x128.size a := fun v4337 k1_hw190 => k1_hw190

def k1_off191 (v4360 : BitVec 32) : Fin 3 → Nat :=
  let c0_i32_4521 : BitVec 32 := 0#32
  let c0_i32_4522 : BitVec 32 := 0#32
  ![v4360.toNat, 0, 0]

def k1_chk191 (v4360 : BitVec 32) : Prop :=
  (∀ a, (k1_off191 v4360) a + S1x1x128.size a ≤ S50000x1x128.size a)
instance k1_chk191.dec : ∀ (v4360 : BitVec 32), Decidable (k1_chk191 v4360) := fun v4360 => decidable_of_iff' _ (Iff.of_eq (k1_chk191.eq_1 v4360))
theorem k1_off191_inb : ∀ (v4360 : BitVec 32) (k1_hw191 : k1_chk191 v4360), ∀ a, (k1_off191 v4360) a + S1x1x128.size a ≤ S50000x1x128.size a := fun v4360 k1_hw191 => k1_hw191

def k1_off192 (v4383 : BitVec 32) : Fin 3 → Nat :=
  let c0_i32_4545 : BitVec 32 := 0#32
  let c0_i32_4546 : BitVec 32 := 0#32
  ![v4383.toNat, 0, 0]

def k1_chk192 (v4383 : BitVec 32) : Prop :=
  (∀ a, (k1_off192 v4383) a + S1x1x128.size a ≤ S50000x1x128.size a)
instance k1_chk192.dec : ∀ (v4383 : BitVec 32), Decidable (k1_chk192 v4383) := fun v4383 => decidable_of_iff' _ (Iff.of_eq (k1_chk192.eq_1 v4383))
theorem k1_off192_inb : ∀ (v4383 : BitVec 32) (k1_hw192 : k1_chk192 v4383), ∀ a, (k1_off192 v4383) a + S1x1x128.size a ≤ S50000x1x128.size a := fun v4383 k1_hw192 => k1_hw192

def k1_off193 (v4416 : BitVec 32) : Fin 3 → Nat :=
  let c0_i32_4579 : BitVec 32 := 0#32
  let c0_i32_4580 : BitVec 32 := 0#32
  ![v4416.toNat, 0, 0]

def k1_chk193 (v4416 : BitVec 32) : Prop :=
  (∀ a, (k1_off193 v4416) a + S1x1x128.size a ≤ S50000x1x128.size a)
instance k1_chk193.dec : ∀ (v4416 : BitVec 32), Decidable (k1_chk193 v4416) := fun v4416 => decidable_of_iff' _ (Iff.of_eq (k1_chk193.eq_1 v4416))
theorem k1_off193_inb : ∀ (v4416 : BitVec 32) (k1_hw193 : k1_chk193 v4416), ∀ a, (k1_off193 v4416) a + S1x1x128.size a ≤ S50000x1x128.size a := fun v4416 k1_hw193 => k1_hw193

def k1_off194 (v4429 : BitVec 32) : Fin 3 → Nat :=
  let c0_i32_4593 : BitVec 32 := 0#32
  let c0_i32_4594 : BitVec 32 := 0#32
  ![v4429.toNat, 0, 0]

def k1_chk194 (v4429 : BitVec 32) : Prop :=
  (∀ a, (k1_off194 v4429) a + S1x1x128.size a ≤ S50000x1x128.size a)
instance k1_chk194.dec : ∀ (v4429 : BitVec 32), Decidable (k1_chk194 v4429) := fun v4429 => decidable_of_iff' _ (Iff.of_eq (k1_chk194.eq_1 v4429))
theorem k1_off194_inb : ∀ (v4429 : BitVec 32) (k1_hw194 : k1_chk194 v4429), ∀ a, (k1_off194 v4429) a + S1x1x128.size a ≤ S50000x1x128.size a := fun v4429 k1_hw194 => k1_hw194

def k1_off195 (v4452 : BitVec 32) : Fin 3 → Nat :=
  let c0_i32_4617 : BitVec 32 := 0#32
  let c0_i32_4618 : BitVec 32 := 0#32
  ![v4452.toNat, 0, 0]

def k1_chk195 (v4452 : BitVec 32) : Prop :=
  (∀ a, (k1_off195 v4452) a + S1x1x128.size a ≤ S50000x1x128.size a)
instance k1_chk195.dec : ∀ (v4452 : BitVec 32), Decidable (k1_chk195 v4452) := fun v4452 => decidable_of_iff' _ (Iff.of_eq (k1_chk195.eq_1 v4452))
theorem k1_off195_inb : ∀ (v4452 : BitVec 32) (k1_hw195 : k1_chk195 v4452), ∀ a, (k1_off195 v4452) a + S1x1x128.size a ≤ S50000x1x128.size a := fun v4452 k1_hw195 => k1_hw195

def k1_off196 (v4475 : BitVec 32) : Fin 3 → Nat :=
  let c0_i32_4641 : BitVec 32 := 0#32
  let c0_i32_4642 : BitVec 32 := 0#32
  ![v4475.toNat, 0, 0]

def k1_chk196 (v4475 : BitVec 32) : Prop :=
  (∀ a, (k1_off196 v4475) a + S1x1x128.size a ≤ S50000x1x128.size a)
instance k1_chk196.dec : ∀ (v4475 : BitVec 32), Decidable (k1_chk196 v4475) := fun v4475 => decidable_of_iff' _ (Iff.of_eq (k1_chk196.eq_1 v4475))
theorem k1_off196_inb : ∀ (v4475 : BitVec 32) (k1_hw196 : k1_chk196 v4475), ∀ a, (k1_off196 v4475) a + S1x1x128.size a ≤ S50000x1x128.size a := fun v4475 k1_hw196 => k1_hw196

def k1_off197 (v4498 : BitVec 32) : Fin 3 → Nat :=
  let c0_i32_4665 : BitVec 32 := 0#32
  let c0_i32_4666 : BitVec 32 := 0#32
  ![v4498.toNat, 0, 0]

def k1_chk197 (v4498 : BitVec 32) : Prop :=
  (∀ a, (k1_off197 v4498) a + S1x1x128.size a ≤ S50000x1x128.size a)
instance k1_chk197.dec : ∀ (v4498 : BitVec 32), Decidable (k1_chk197 v4498) := fun v4498 => decidable_of_iff' _ (Iff.of_eq (k1_chk197.eq_1 v4498))
theorem k1_off197_inb : ∀ (v4498 : BitVec 32) (k1_hw197 : k1_chk197 v4498), ∀ a, (k1_off197 v4498) a + S1x1x128.size a ≤ S50000x1x128.size a := fun v4498 k1_hw197 => k1_hw197

def k1_off198 (v4521 : BitVec 32) : Fin 3 → Nat :=
  let c0_i32_4689 : BitVec 32 := 0#32
  let c0_i32_4690 : BitVec 32 := 0#32
  ![v4521.toNat, 0, 0]

def k1_chk198 (v4521 : BitVec 32) : Prop :=
  (∀ a, (k1_off198 v4521) a + S1x1x128.size a ≤ S50000x1x128.size a)
instance k1_chk198.dec : ∀ (v4521 : BitVec 32), Decidable (k1_chk198 v4521) := fun v4521 => decidable_of_iff' _ (Iff.of_eq (k1_chk198.eq_1 v4521))
theorem k1_off198_inb : ∀ (v4521 : BitVec 32) (k1_hw198 : k1_chk198 v4521), ∀ a, (k1_off198 v4521) a + S1x1x128.size a ≤ S50000x1x128.size a := fun v4521 k1_hw198 => k1_hw198

def k1_off199 (v4544 : BitVec 32) : Fin 3 → Nat :=
  let c0_i32_4713 : BitVec 32 := 0#32
  let c0_i32_4714 : BitVec 32 := 0#32
  ![v4544.toNat, 0, 0]

def k1_chk199 (v4544 : BitVec 32) : Prop :=
  (∀ a, (k1_off199 v4544) a + S1x1x128.size a ≤ S50000x1x128.size a)
instance k1_chk199.dec : ∀ (v4544 : BitVec 32), Decidable (k1_chk199 v4544) := fun v4544 => decidable_of_iff' _ (Iff.of_eq (k1_chk199.eq_1 v4544))
theorem k1_off199_inb : ∀ (v4544 : BitVec 32) (k1_hw199 : k1_chk199 v4544), ∀ a, (k1_off199 v4544) a + S1x1x128.size a ≤ S50000x1x128.size a := fun v4544 k1_hw199 => k1_hw199

def k1_off200 (v4567 : BitVec 32) : Fin 3 → Nat :=
  let c0_i32_4737 : BitVec 32 := 0#32
  let c0_i32_4738 : BitVec 32 := 0#32
  ![v4567.toNat, 0, 0]

def k1_chk200 (v4567 : BitVec 32) : Prop :=
  (∀ a, (k1_off200 v4567) a + S1x1x128.size a ≤ S50000x1x128.size a)
instance k1_chk200.dec : ∀ (v4567 : BitVec 32), Decidable (k1_chk200 v4567) := fun v4567 => decidable_of_iff' _ (Iff.of_eq (k1_chk200.eq_1 v4567))
theorem k1_off200_inb : ∀ (v4567 : BitVec 32) (k1_hw200 : k1_chk200 v4567), ∀ a, (k1_off200 v4567) a + S1x1x128.size a ≤ S50000x1x128.size a := fun v4567 k1_hw200 => k1_hw200

def k1_off201 (v4590 : BitVec 32) : Fin 3 → Nat :=
  let c0_i32_4761 : BitVec 32 := 0#32
  let c0_i32_4762 : BitVec 32 := 0#32
  ![v4590.toNat, 0, 0]

def k1_chk201 (v4590 : BitVec 32) : Prop :=
  (∀ a, (k1_off201 v4590) a + S1x1x128.size a ≤ S50000x1x128.size a)
instance k1_chk201.dec : ∀ (v4590 : BitVec 32), Decidable (k1_chk201 v4590) := fun v4590 => decidable_of_iff' _ (Iff.of_eq (k1_chk201.eq_1 v4590))
theorem k1_off201_inb : ∀ (v4590 : BitVec 32) (k1_hw201 : k1_chk201 v4590), ∀ a, (k1_off201 v4590) a + S1x1x128.size a ≤ S50000x1x128.size a := fun v4590 k1_hw201 => k1_hw201

def k1_off202 (v4613 : BitVec 32) : Fin 3 → Nat :=
  let c0_i32_4785 : BitVec 32 := 0#32
  let c0_i32_4786 : BitVec 32 := 0#32
  ![v4613.toNat, 0, 0]

def k1_chk202 (v4613 : BitVec 32) : Prop :=
  (∀ a, (k1_off202 v4613) a + S1x1x128.size a ≤ S50000x1x128.size a)
instance k1_chk202.dec : ∀ (v4613 : BitVec 32), Decidable (k1_chk202 v4613) := fun v4613 => decidable_of_iff' _ (Iff.of_eq (k1_chk202.eq_1 v4613))
theorem k1_off202_inb : ∀ (v4613 : BitVec 32) (k1_hw202 : k1_chk202 v4613), ∀ a, (k1_off202 v4613) a + S1x1x128.size a ≤ S50000x1x128.size a := fun v4613 k1_hw202 => k1_hw202

def k1_off203 (v4636 : BitVec 32) : Fin 3 → Nat :=
  let c0_i32_4809 : BitVec 32 := 0#32
  let c0_i32_4810 : BitVec 32 := 0#32
  ![v4636.toNat, 0, 0]

def k1_chk203 (v4636 : BitVec 32) : Prop :=
  (∀ a, (k1_off203 v4636) a + S1x1x128.size a ≤ S50000x1x128.size a)
instance k1_chk203.dec : ∀ (v4636 : BitVec 32), Decidable (k1_chk203 v4636) := fun v4636 => decidable_of_iff' _ (Iff.of_eq (k1_chk203.eq_1 v4636))
theorem k1_off203_inb : ∀ (v4636 : BitVec 32) (k1_hw203 : k1_chk203 v4636), ∀ a, (k1_off203 v4636) a + S1x1x128.size a ≤ S50000x1x128.size a := fun v4636 k1_hw203 => k1_hw203

def k1_off204 (v4659 : BitVec 32) : Fin 3 → Nat :=
  let c0_i32_4833 : BitVec 32 := 0#32
  let c0_i32_4834 : BitVec 32 := 0#32
  ![v4659.toNat, 0, 0]

def k1_chk204 (v4659 : BitVec 32) : Prop :=
  (∀ a, (k1_off204 v4659) a + S1x1x128.size a ≤ S50000x1x128.size a)
instance k1_chk204.dec : ∀ (v4659 : BitVec 32), Decidable (k1_chk204 v4659) := fun v4659 => decidable_of_iff' _ (Iff.of_eq (k1_chk204.eq_1 v4659))
theorem k1_off204_inb : ∀ (v4659 : BitVec 32) (k1_hw204 : k1_chk204 v4659), ∀ a, (k1_off204 v4659) a + S1x1x128.size a ≤ S50000x1x128.size a := fun v4659 k1_hw204 => k1_hw204

def k1_off205 (v4682 : BitVec 32) : Fin 3 → Nat :=
  let c0_i32_4857 : BitVec 32 := 0#32
  let c0_i32_4858 : BitVec 32 := 0#32
  ![v4682.toNat, 0, 0]

def k1_chk205 (v4682 : BitVec 32) : Prop :=
  (∀ a, (k1_off205 v4682) a + S1x1x128.size a ≤ S50000x1x128.size a)
instance k1_chk205.dec : ∀ (v4682 : BitVec 32), Decidable (k1_chk205 v4682) := fun v4682 => decidable_of_iff' _ (Iff.of_eq (k1_chk205.eq_1 v4682))
theorem k1_off205_inb : ∀ (v4682 : BitVec 32) (k1_hw205 : k1_chk205 v4682), ∀ a, (k1_off205 v4682) a + S1x1x128.size a ≤ S50000x1x128.size a := fun v4682 k1_hw205 => k1_hw205

def k1_off206 (v4705 : BitVec 32) : Fin 3 → Nat :=
  let c0_i32_4881 : BitVec 32 := 0#32
  let c0_i32_4882 : BitVec 32 := 0#32
  ![v4705.toNat, 0, 0]

def k1_chk206 (v4705 : BitVec 32) : Prop :=
  (∀ a, (k1_off206 v4705) a + S1x1x128.size a ≤ S50000x1x128.size a)
instance k1_chk206.dec : ∀ (v4705 : BitVec 32), Decidable (k1_chk206 v4705) := fun v4705 => decidable_of_iff' _ (Iff.of_eq (k1_chk206.eq_1 v4705))
theorem k1_off206_inb : ∀ (v4705 : BitVec 32) (k1_hw206 : k1_chk206 v4705), ∀ a, (k1_off206 v4705) a + S1x1x128.size a ≤ S50000x1x128.size a := fun v4705 k1_hw206 => k1_hw206

def k1_off207 (v4728 : BitVec 32) : Fin 3 → Nat :=
  let c0_i32_4905 : BitVec 32 := 0#32
  let c0_i32_4906 : BitVec 32 := 0#32
  ![v4728.toNat, 0, 0]

def k1_chk207 (v4728 : BitVec 32) : Prop :=
  (∀ a, (k1_off207 v4728) a + S1x1x128.size a ≤ S50000x1x128.size a)
instance k1_chk207.dec : ∀ (v4728 : BitVec 32), Decidable (k1_chk207 v4728) := fun v4728 => decidable_of_iff' _ (Iff.of_eq (k1_chk207.eq_1 v4728))
theorem k1_off207_inb : ∀ (v4728 : BitVec 32) (k1_hw207 : k1_chk207 v4728), ∀ a, (k1_off207 v4728) a + S1x1x128.size a ≤ S50000x1x128.size a := fun v4728 k1_hw207 => k1_hw207

def k1_off208 (v4751 : BitVec 32) : Fin 3 → Nat :=
  let c0_i32_4929 : BitVec 32 := 0#32
  let c0_i32_4930 : BitVec 32 := 0#32
  ![v4751.toNat, 0, 0]

def k1_chk208 (v4751 : BitVec 32) : Prop :=
  (∀ a, (k1_off208 v4751) a + S1x1x128.size a ≤ S50000x1x128.size a)
instance k1_chk208.dec : ∀ (v4751 : BitVec 32), Decidable (k1_chk208 v4751) := fun v4751 => decidable_of_iff' _ (Iff.of_eq (k1_chk208.eq_1 v4751))
theorem k1_off208_inb : ∀ (v4751 : BitVec 32) (k1_hw208 : k1_chk208 v4751), ∀ a, (k1_off208 v4751) a + S1x1x128.size a ≤ S50000x1x128.size a := fun v4751 k1_hw208 => k1_hw208

def k1_off209 (v4774 : BitVec 32) : Fin 3 → Nat :=
  let c0_i32_4953 : BitVec 32 := 0#32
  let c0_i32_4954 : BitVec 32 := 0#32
  ![v4774.toNat, 0, 0]

def k1_chk209 (v4774 : BitVec 32) : Prop :=
  (∀ a, (k1_off209 v4774) a + S1x1x128.size a ≤ S50000x1x128.size a)
instance k1_chk209.dec : ∀ (v4774 : BitVec 32), Decidable (k1_chk209 v4774) := fun v4774 => decidable_of_iff' _ (Iff.of_eq (k1_chk209.eq_1 v4774))
theorem k1_off209_inb : ∀ (v4774 : BitVec 32) (k1_hw209 : k1_chk209 v4774), ∀ a, (k1_off209 v4774) a + S1x1x128.size a ≤ S50000x1x128.size a := fun v4774 k1_hw209 => k1_hw209

def k1_off210 (v4797 : BitVec 32) : Fin 3 → Nat :=
  let c0_i32_4977 : BitVec 32 := 0#32
  let c0_i32_4978 : BitVec 32 := 0#32
  ![v4797.toNat, 0, 0]

def k1_chk210 (v4797 : BitVec 32) : Prop :=
  (∀ a, (k1_off210 v4797) a + S1x1x128.size a ≤ S50000x1x128.size a)
instance k1_chk210.dec : ∀ (v4797 : BitVec 32), Decidable (k1_chk210 v4797) := fun v4797 => decidable_of_iff' _ (Iff.of_eq (k1_chk210.eq_1 v4797))
theorem k1_off210_inb : ∀ (v4797 : BitVec 32) (k1_hw210 : k1_chk210 v4797), ∀ a, (k1_off210 v4797) a + S1x1x128.size a ≤ S50000x1x128.size a := fun v4797 k1_hw210 => k1_hw210

def k1_off211 (v4820 : BitVec 32) : Fin 3 → Nat :=
  let c0_i32_5001 : BitVec 32 := 0#32
  let c0_i32_5002 : BitVec 32 := 0#32
  ![v4820.toNat, 0, 0]

def k1_chk211 (v4820 : BitVec 32) : Prop :=
  (∀ a, (k1_off211 v4820) a + S1x1x128.size a ≤ S50000x1x128.size a)
instance k1_chk211.dec : ∀ (v4820 : BitVec 32), Decidable (k1_chk211 v4820) := fun v4820 => decidable_of_iff' _ (Iff.of_eq (k1_chk211.eq_1 v4820))
theorem k1_off211_inb : ∀ (v4820 : BitVec 32) (k1_hw211 : k1_chk211 v4820), ∀ a, (k1_off211 v4820) a + S1x1x128.size a ≤ S50000x1x128.size a := fun v4820 k1_hw211 => k1_hw211

def k1_off212 (v4843 : BitVec 32) : Fin 3 → Nat :=
  let c0_i32_5025 : BitVec 32 := 0#32
  let c0_i32_5026 : BitVec 32 := 0#32
  ![v4843.toNat, 0, 0]

def k1_chk212 (v4843 : BitVec 32) : Prop :=
  (∀ a, (k1_off212 v4843) a + S1x1x128.size a ≤ S50000x1x128.size a)
instance k1_chk212.dec : ∀ (v4843 : BitVec 32), Decidable (k1_chk212 v4843) := fun v4843 => decidable_of_iff' _ (Iff.of_eq (k1_chk212.eq_1 v4843))
theorem k1_off212_inb : ∀ (v4843 : BitVec 32) (k1_hw212 : k1_chk212 v4843), ∀ a, (k1_off212 v4843) a + S1x1x128.size a ≤ S50000x1x128.size a := fun v4843 k1_hw212 => k1_hw212

def k1_off213 (v4866 : BitVec 32) : Fin 3 → Nat :=
  let c0_i32_5049 : BitVec 32 := 0#32
  let c0_i32_5050 : BitVec 32 := 0#32
  ![v4866.toNat, 0, 0]

def k1_chk213 (v4866 : BitVec 32) : Prop :=
  (∀ a, (k1_off213 v4866) a + S1x1x128.size a ≤ S50000x1x128.size a)
instance k1_chk213.dec : ∀ (v4866 : BitVec 32), Decidable (k1_chk213 v4866) := fun v4866 => decidable_of_iff' _ (Iff.of_eq (k1_chk213.eq_1 v4866))
theorem k1_off213_inb : ∀ (v4866 : BitVec 32) (k1_hw213 : k1_chk213 v4866), ∀ a, (k1_off213 v4866) a + S1x1x128.size a ≤ S50000x1x128.size a := fun v4866 k1_hw213 => k1_hw213

def k1_off214 (v4889 : BitVec 32) : Fin 3 → Nat :=
  let c0_i32_5073 : BitVec 32 := 0#32
  let c0_i32_5074 : BitVec 32 := 0#32
  ![v4889.toNat, 0, 0]

def k1_chk214 (v4889 : BitVec 32) : Prop :=
  (∀ a, (k1_off214 v4889) a + S1x1x128.size a ≤ S50000x1x128.size a)
instance k1_chk214.dec : ∀ (v4889 : BitVec 32), Decidable (k1_chk214 v4889) := fun v4889 => decidable_of_iff' _ (Iff.of_eq (k1_chk214.eq_1 v4889))
theorem k1_off214_inb : ∀ (v4889 : BitVec 32) (k1_hw214 : k1_chk214 v4889), ∀ a, (k1_off214 v4889) a + S1x1x128.size a ≤ S50000x1x128.size a := fun v4889 k1_hw214 => k1_hw214

def k1_off215 (v4912 : BitVec 32) : Fin 3 → Nat :=
  let c0_i32_5097 : BitVec 32 := 0#32
  let c0_i32_5098 : BitVec 32 := 0#32
  ![v4912.toNat, 0, 0]

def k1_chk215 (v4912 : BitVec 32) : Prop :=
  (∀ a, (k1_off215 v4912) a + S1x1x128.size a ≤ S50000x1x128.size a)
instance k1_chk215.dec : ∀ (v4912 : BitVec 32), Decidable (k1_chk215 v4912) := fun v4912 => decidable_of_iff' _ (Iff.of_eq (k1_chk215.eq_1 v4912))
theorem k1_off215_inb : ∀ (v4912 : BitVec 32) (k1_hw215 : k1_chk215 v4912), ∀ a, (k1_off215 v4912) a + S1x1x128.size a ≤ S50000x1x128.size a := fun v4912 k1_hw215 => k1_hw215

def k1_off216 (v4935 : BitVec 32) : Fin 3 → Nat :=
  let c0_i32_5121 : BitVec 32 := 0#32
  let c0_i32_5122 : BitVec 32 := 0#32
  ![v4935.toNat, 0, 0]

def k1_chk216 (v4935 : BitVec 32) : Prop :=
  (∀ a, (k1_off216 v4935) a + S1x1x128.size a ≤ S50000x1x128.size a)
instance k1_chk216.dec : ∀ (v4935 : BitVec 32), Decidable (k1_chk216 v4935) := fun v4935 => decidable_of_iff' _ (Iff.of_eq (k1_chk216.eq_1 v4935))
theorem k1_off216_inb : ∀ (v4935 : BitVec 32) (k1_hw216 : k1_chk216 v4935), ∀ a, (k1_off216 v4935) a + S1x1x128.size a ≤ S50000x1x128.size a := fun v4935 k1_hw216 => k1_hw216

def k1_off217 (v4958 : BitVec 32) : Fin 3 → Nat :=
  let c0_i32_5145 : BitVec 32 := 0#32
  let c0_i32_5146 : BitVec 32 := 0#32
  ![v4958.toNat, 0, 0]

def k1_chk217 (v4958 : BitVec 32) : Prop :=
  (∀ a, (k1_off217 v4958) a + S1x1x128.size a ≤ S50000x1x128.size a)
instance k1_chk217.dec : ∀ (v4958 : BitVec 32), Decidable (k1_chk217 v4958) := fun v4958 => decidable_of_iff' _ (Iff.of_eq (k1_chk217.eq_1 v4958))
theorem k1_off217_inb : ∀ (v4958 : BitVec 32) (k1_hw217 : k1_chk217 v4958), ∀ a, (k1_off217 v4958) a + S1x1x128.size a ≤ S50000x1x128.size a := fun v4958 k1_hw217 => k1_hw217

def k1_off218 (v4981 : BitVec 32) : Fin 3 → Nat :=
  let c0_i32_5169 : BitVec 32 := 0#32
  let c0_i32_5170 : BitVec 32 := 0#32
  ![v4981.toNat, 0, 0]

def k1_chk218 (v4981 : BitVec 32) : Prop :=
  (∀ a, (k1_off218 v4981) a + S1x1x128.size a ≤ S50000x1x128.size a)
instance k1_chk218.dec : ∀ (v4981 : BitVec 32), Decidable (k1_chk218 v4981) := fun v4981 => decidable_of_iff' _ (Iff.of_eq (k1_chk218.eq_1 v4981))
theorem k1_off218_inb : ∀ (v4981 : BitVec 32) (k1_hw218 : k1_chk218 v4981), ∀ a, (k1_off218 v4981) a + S1x1x128.size a ≤ S50000x1x128.size a := fun v4981 k1_hw218 => k1_hw218

def k1_off219 (v5004 : BitVec 32) : Fin 3 → Nat :=
  let c0_i32_5193 : BitVec 32 := 0#32
  let c0_i32_5194 : BitVec 32 := 0#32
  ![v5004.toNat, 0, 0]

def k1_chk219 (v5004 : BitVec 32) : Prop :=
  (∀ a, (k1_off219 v5004) a + S1x1x128.size a ≤ S50000x1x128.size a)
instance k1_chk219.dec : ∀ (v5004 : BitVec 32), Decidable (k1_chk219 v5004) := fun v5004 => decidable_of_iff' _ (Iff.of_eq (k1_chk219.eq_1 v5004))
theorem k1_off219_inb : ∀ (v5004 : BitVec 32) (k1_hw219 : k1_chk219 v5004), ∀ a, (k1_off219 v5004) a + S1x1x128.size a ≤ S50000x1x128.size a := fun v5004 k1_hw219 => k1_hw219

def k1_off220 (v5027 : BitVec 32) : Fin 3 → Nat :=
  let c0_i32_5217 : BitVec 32 := 0#32
  let c0_i32_5218 : BitVec 32 := 0#32
  ![v5027.toNat, 0, 0]

def k1_chk220 (v5027 : BitVec 32) : Prop :=
  (∀ a, (k1_off220 v5027) a + S1x1x128.size a ≤ S50000x1x128.size a)
instance k1_chk220.dec : ∀ (v5027 : BitVec 32), Decidable (k1_chk220 v5027) := fun v5027 => decidable_of_iff' _ (Iff.of_eq (k1_chk220.eq_1 v5027))
theorem k1_off220_inb : ∀ (v5027 : BitVec 32) (k1_hw220 : k1_chk220 v5027), ∀ a, (k1_off220 v5027) a + S1x1x128.size a ≤ S50000x1x128.size a := fun v5027 k1_hw220 => k1_hw220

def k1_off221 (v5050 : BitVec 32) : Fin 3 → Nat :=
  let c0_i32_5241 : BitVec 32 := 0#32
  let c0_i32_5242 : BitVec 32 := 0#32
  ![v5050.toNat, 0, 0]

def k1_chk221 (v5050 : BitVec 32) : Prop :=
  (∀ a, (k1_off221 v5050) a + S1x1x128.size a ≤ S50000x1x128.size a)
instance k1_chk221.dec : ∀ (v5050 : BitVec 32), Decidable (k1_chk221 v5050) := fun v5050 => decidable_of_iff' _ (Iff.of_eq (k1_chk221.eq_1 v5050))
theorem k1_off221_inb : ∀ (v5050 : BitVec 32) (k1_hw221 : k1_chk221 v5050), ∀ a, (k1_off221 v5050) a + S1x1x128.size a ≤ S50000x1x128.size a := fun v5050 k1_hw221 => k1_hw221

def k1_off222 (v5073 : BitVec 32) : Fin 3 → Nat :=
  let c0_i32_5265 : BitVec 32 := 0#32
  let c0_i32_5266 : BitVec 32 := 0#32
  ![v5073.toNat, 0, 0]

def k1_chk222 (v5073 : BitVec 32) : Prop :=
  (∀ a, (k1_off222 v5073) a + S1x1x128.size a ≤ S50000x1x128.size a)
instance k1_chk222.dec : ∀ (v5073 : BitVec 32), Decidable (k1_chk222 v5073) := fun v5073 => decidable_of_iff' _ (Iff.of_eq (k1_chk222.eq_1 v5073))
theorem k1_off222_inb : ∀ (v5073 : BitVec 32) (k1_hw222 : k1_chk222 v5073), ∀ a, (k1_off222 v5073) a + S1x1x128.size a ≤ S50000x1x128.size a := fun v5073 k1_hw222 => k1_hw222

def k1_off223 (v5096 : BitVec 32) : Fin 3 → Nat :=
  let c0_i32_5289 : BitVec 32 := 0#32
  let c0_i32_5290 : BitVec 32 := 0#32
  ![v5096.toNat, 0, 0]

def k1_chk223 (v5096 : BitVec 32) : Prop :=
  (∀ a, (k1_off223 v5096) a + S1x1x128.size a ≤ S50000x1x128.size a)
instance k1_chk223.dec : ∀ (v5096 : BitVec 32), Decidable (k1_chk223 v5096) := fun v5096 => decidable_of_iff' _ (Iff.of_eq (k1_chk223.eq_1 v5096))
theorem k1_off223_inb : ∀ (v5096 : BitVec 32) (k1_hw223 : k1_chk223 v5096), ∀ a, (k1_off223 v5096) a + S1x1x128.size a ≤ S50000x1x128.size a := fun v5096 k1_hw223 => k1_hw223

def k1_off224 (v5119 : BitVec 32) : Fin 3 → Nat :=
  let c0_i32_5313 : BitVec 32 := 0#32
  let c0_i32_5314 : BitVec 32 := 0#32
  ![v5119.toNat, 0, 0]

def k1_chk224 (v5119 : BitVec 32) : Prop :=
  (∀ a, (k1_off224 v5119) a + S1x1x128.size a ≤ S50000x1x128.size a)
instance k1_chk224.dec : ∀ (v5119 : BitVec 32), Decidable (k1_chk224 v5119) := fun v5119 => decidable_of_iff' _ (Iff.of_eq (k1_chk224.eq_1 v5119))
theorem k1_off224_inb : ∀ (v5119 : BitVec 32) (k1_hw224 : k1_chk224 v5119), ∀ a, (k1_off224 v5119) a + S1x1x128.size a ≤ S50000x1x128.size a := fun v5119 k1_hw224 => k1_hw224

def k1_off225 (v5152 : BitVec 32) : Fin 3 → Nat :=
  let c0_i32_5347 : BitVec 32 := 0#32
  let c0_i32_5348 : BitVec 32 := 0#32
  ![v5152.toNat, 0, 0]

def k1_chk225 (v5152 : BitVec 32) : Prop :=
  (∀ a, (k1_off225 v5152) a + S1x1x128.size a ≤ S50000x1x128.size a)
instance k1_chk225.dec : ∀ (v5152 : BitVec 32), Decidable (k1_chk225 v5152) := fun v5152 => decidable_of_iff' _ (Iff.of_eq (k1_chk225.eq_1 v5152))
theorem k1_off225_inb : ∀ (v5152 : BitVec 32) (k1_hw225 : k1_chk225 v5152), ∀ a, (k1_off225 v5152) a + S1x1x128.size a ≤ S50000x1x128.size a := fun v5152 k1_hw225 => k1_hw225

def k1_off226 (v5165 : BitVec 32) : Fin 3 → Nat :=
  let c0_i32_5361 : BitVec 32 := 0#32
  let c0_i32_5362 : BitVec 32 := 0#32
  ![v5165.toNat, 0, 0]

def k1_chk226 (v5165 : BitVec 32) : Prop :=
  (∀ a, (k1_off226 v5165) a + S1x1x128.size a ≤ S50000x1x128.size a)
instance k1_chk226.dec : ∀ (v5165 : BitVec 32), Decidable (k1_chk226 v5165) := fun v5165 => decidable_of_iff' _ (Iff.of_eq (k1_chk226.eq_1 v5165))
theorem k1_off226_inb : ∀ (v5165 : BitVec 32) (k1_hw226 : k1_chk226 v5165), ∀ a, (k1_off226 v5165) a + S1x1x128.size a ≤ S50000x1x128.size a := fun v5165 k1_hw226 => k1_hw226

def k1_off227 (v5188 : BitVec 32) : Fin 3 → Nat :=
  let c0_i32_5385 : BitVec 32 := 0#32
  let c0_i32_5386 : BitVec 32 := 0#32
  ![v5188.toNat, 0, 0]

def k1_chk227 (v5188 : BitVec 32) : Prop :=
  (∀ a, (k1_off227 v5188) a + S1x1x128.size a ≤ S50000x1x128.size a)
instance k1_chk227.dec : ∀ (v5188 : BitVec 32), Decidable (k1_chk227 v5188) := fun v5188 => decidable_of_iff' _ (Iff.of_eq (k1_chk227.eq_1 v5188))
theorem k1_off227_inb : ∀ (v5188 : BitVec 32) (k1_hw227 : k1_chk227 v5188), ∀ a, (k1_off227 v5188) a + S1x1x128.size a ≤ S50000x1x128.size a := fun v5188 k1_hw227 => k1_hw227

def k1_off228 (v5211 : BitVec 32) : Fin 3 → Nat :=
  let c0_i32_5409 : BitVec 32 := 0#32
  let c0_i32_5410 : BitVec 32 := 0#32
  ![v5211.toNat, 0, 0]

def k1_chk228 (v5211 : BitVec 32) : Prop :=
  (∀ a, (k1_off228 v5211) a + S1x1x128.size a ≤ S50000x1x128.size a)
instance k1_chk228.dec : ∀ (v5211 : BitVec 32), Decidable (k1_chk228 v5211) := fun v5211 => decidable_of_iff' _ (Iff.of_eq (k1_chk228.eq_1 v5211))
theorem k1_off228_inb : ∀ (v5211 : BitVec 32) (k1_hw228 : k1_chk228 v5211), ∀ a, (k1_off228 v5211) a + S1x1x128.size a ≤ S50000x1x128.size a := fun v5211 k1_hw228 => k1_hw228

def k1_off229 (v5234 : BitVec 32) : Fin 3 → Nat :=
  let c0_i32_5433 : BitVec 32 := 0#32
  let c0_i32_5434 : BitVec 32 := 0#32
  ![v5234.toNat, 0, 0]

def k1_chk229 (v5234 : BitVec 32) : Prop :=
  (∀ a, (k1_off229 v5234) a + S1x1x128.size a ≤ S50000x1x128.size a)
instance k1_chk229.dec : ∀ (v5234 : BitVec 32), Decidable (k1_chk229 v5234) := fun v5234 => decidable_of_iff' _ (Iff.of_eq (k1_chk229.eq_1 v5234))
theorem k1_off229_inb : ∀ (v5234 : BitVec 32) (k1_hw229 : k1_chk229 v5234), ∀ a, (k1_off229 v5234) a + S1x1x128.size a ≤ S50000x1x128.size a := fun v5234 k1_hw229 => k1_hw229

def k1_off230 (v5257 : BitVec 32) : Fin 3 → Nat :=
  let c0_i32_5457 : BitVec 32 := 0#32
  let c0_i32_5458 : BitVec 32 := 0#32
  ![v5257.toNat, 0, 0]

def k1_chk230 (v5257 : BitVec 32) : Prop :=
  (∀ a, (k1_off230 v5257) a + S1x1x128.size a ≤ S50000x1x128.size a)
instance k1_chk230.dec : ∀ (v5257 : BitVec 32), Decidable (k1_chk230 v5257) := fun v5257 => decidable_of_iff' _ (Iff.of_eq (k1_chk230.eq_1 v5257))
theorem k1_off230_inb : ∀ (v5257 : BitVec 32) (k1_hw230 : k1_chk230 v5257), ∀ a, (k1_off230 v5257) a + S1x1x128.size a ≤ S50000x1x128.size a := fun v5257 k1_hw230 => k1_hw230

def k1_off231 (v5280 : BitVec 32) : Fin 3 → Nat :=
  let c0_i32_5481 : BitVec 32 := 0#32
  let c0_i32_5482 : BitVec 32 := 0#32
  ![v5280.toNat, 0, 0]

def k1_chk231 (v5280 : BitVec 32) : Prop :=
  (∀ a, (k1_off231 v5280) a + S1x1x128.size a ≤ S50000x1x128.size a)
instance k1_chk231.dec : ∀ (v5280 : BitVec 32), Decidable (k1_chk231 v5280) := fun v5280 => decidable_of_iff' _ (Iff.of_eq (k1_chk231.eq_1 v5280))
theorem k1_off231_inb : ∀ (v5280 : BitVec 32) (k1_hw231 : k1_chk231 v5280), ∀ a, (k1_off231 v5280) a + S1x1x128.size a ≤ S50000x1x128.size a := fun v5280 k1_hw231 => k1_hw231

def k1_off232 (v5303 : BitVec 32) : Fin 3 → Nat :=
  let c0_i32_5505 : BitVec 32 := 0#32
  let c0_i32_5506 : BitVec 32 := 0#32
  ![v5303.toNat, 0, 0]

def k1_chk232 (v5303 : BitVec 32) : Prop :=
  (∀ a, (k1_off232 v5303) a + S1x1x128.size a ≤ S50000x1x128.size a)
instance k1_chk232.dec : ∀ (v5303 : BitVec 32), Decidable (k1_chk232 v5303) := fun v5303 => decidable_of_iff' _ (Iff.of_eq (k1_chk232.eq_1 v5303))
theorem k1_off232_inb : ∀ (v5303 : BitVec 32) (k1_hw232 : k1_chk232 v5303), ∀ a, (k1_off232 v5303) a + S1x1x128.size a ≤ S50000x1x128.size a := fun v5303 k1_hw232 => k1_hw232

def k1_off233 (v5326 : BitVec 32) : Fin 3 → Nat :=
  let c0_i32_5529 : BitVec 32 := 0#32
  let c0_i32_5530 : BitVec 32 := 0#32
  ![v5326.toNat, 0, 0]

def k1_chk233 (v5326 : BitVec 32) : Prop :=
  (∀ a, (k1_off233 v5326) a + S1x1x128.size a ≤ S50000x1x128.size a)
instance k1_chk233.dec : ∀ (v5326 : BitVec 32), Decidable (k1_chk233 v5326) := fun v5326 => decidable_of_iff' _ (Iff.of_eq (k1_chk233.eq_1 v5326))
theorem k1_off233_inb : ∀ (v5326 : BitVec 32) (k1_hw233 : k1_chk233 v5326), ∀ a, (k1_off233 v5326) a + S1x1x128.size a ≤ S50000x1x128.size a := fun v5326 k1_hw233 => k1_hw233

def k1_off234 (v5349 : BitVec 32) : Fin 3 → Nat :=
  let c0_i32_5553 : BitVec 32 := 0#32
  let c0_i32_5554 : BitVec 32 := 0#32
  ![v5349.toNat, 0, 0]

def k1_chk234 (v5349 : BitVec 32) : Prop :=
  (∀ a, (k1_off234 v5349) a + S1x1x128.size a ≤ S50000x1x128.size a)
instance k1_chk234.dec : ∀ (v5349 : BitVec 32), Decidable (k1_chk234 v5349) := fun v5349 => decidable_of_iff' _ (Iff.of_eq (k1_chk234.eq_1 v5349))
theorem k1_off234_inb : ∀ (v5349 : BitVec 32) (k1_hw234 : k1_chk234 v5349), ∀ a, (k1_off234 v5349) a + S1x1x128.size a ≤ S50000x1x128.size a := fun v5349 k1_hw234 => k1_hw234

def k1_off235 (v5372 : BitVec 32) : Fin 3 → Nat :=
  let c0_i32_5577 : BitVec 32 := 0#32
  let c0_i32_5578 : BitVec 32 := 0#32
  ![v5372.toNat, 0, 0]

def k1_chk235 (v5372 : BitVec 32) : Prop :=
  (∀ a, (k1_off235 v5372) a + S1x1x128.size a ≤ S50000x1x128.size a)
instance k1_chk235.dec : ∀ (v5372 : BitVec 32), Decidable (k1_chk235 v5372) := fun v5372 => decidable_of_iff' _ (Iff.of_eq (k1_chk235.eq_1 v5372))
theorem k1_off235_inb : ∀ (v5372 : BitVec 32) (k1_hw235 : k1_chk235 v5372), ∀ a, (k1_off235 v5372) a + S1x1x128.size a ≤ S50000x1x128.size a := fun v5372 k1_hw235 => k1_hw235

def k1_off236 (v5395 : BitVec 32) : Fin 3 → Nat :=
  let c0_i32_5601 : BitVec 32 := 0#32
  let c0_i32_5602 : BitVec 32 := 0#32
  ![v5395.toNat, 0, 0]

def k1_chk236 (v5395 : BitVec 32) : Prop :=
  (∀ a, (k1_off236 v5395) a + S1x1x128.size a ≤ S50000x1x128.size a)
instance k1_chk236.dec : ∀ (v5395 : BitVec 32), Decidable (k1_chk236 v5395) := fun v5395 => decidable_of_iff' _ (Iff.of_eq (k1_chk236.eq_1 v5395))
theorem k1_off236_inb : ∀ (v5395 : BitVec 32) (k1_hw236 : k1_chk236 v5395), ∀ a, (k1_off236 v5395) a + S1x1x128.size a ≤ S50000x1x128.size a := fun v5395 k1_hw236 => k1_hw236

def k1_off237 (v5418 : BitVec 32) : Fin 3 → Nat :=
  let c0_i32_5625 : BitVec 32 := 0#32
  let c0_i32_5626 : BitVec 32 := 0#32
  ![v5418.toNat, 0, 0]

def k1_chk237 (v5418 : BitVec 32) : Prop :=
  (∀ a, (k1_off237 v5418) a + S1x1x128.size a ≤ S50000x1x128.size a)
instance k1_chk237.dec : ∀ (v5418 : BitVec 32), Decidable (k1_chk237 v5418) := fun v5418 => decidable_of_iff' _ (Iff.of_eq (k1_chk237.eq_1 v5418))
theorem k1_off237_inb : ∀ (v5418 : BitVec 32) (k1_hw237 : k1_chk237 v5418), ∀ a, (k1_off237 v5418) a + S1x1x128.size a ≤ S50000x1x128.size a := fun v5418 k1_hw237 => k1_hw237

def k1_off238 (v5441 : BitVec 32) : Fin 3 → Nat :=
  let c0_i32_5649 : BitVec 32 := 0#32
  let c0_i32_5650 : BitVec 32 := 0#32
  ![v5441.toNat, 0, 0]

def k1_chk238 (v5441 : BitVec 32) : Prop :=
  (∀ a, (k1_off238 v5441) a + S1x1x128.size a ≤ S50000x1x128.size a)
instance k1_chk238.dec : ∀ (v5441 : BitVec 32), Decidable (k1_chk238 v5441) := fun v5441 => decidable_of_iff' _ (Iff.of_eq (k1_chk238.eq_1 v5441))
theorem k1_off238_inb : ∀ (v5441 : BitVec 32) (k1_hw238 : k1_chk238 v5441), ∀ a, (k1_off238 v5441) a + S1x1x128.size a ≤ S50000x1x128.size a := fun v5441 k1_hw238 => k1_hw238

def k1_off239 (v5464 : BitVec 32) : Fin 3 → Nat :=
  let c0_i32_5673 : BitVec 32 := 0#32
  let c0_i32_5674 : BitVec 32 := 0#32
  ![v5464.toNat, 0, 0]

def k1_chk239 (v5464 : BitVec 32) : Prop :=
  (∀ a, (k1_off239 v5464) a + S1x1x128.size a ≤ S50000x1x128.size a)
instance k1_chk239.dec : ∀ (v5464 : BitVec 32), Decidable (k1_chk239 v5464) := fun v5464 => decidable_of_iff' _ (Iff.of_eq (k1_chk239.eq_1 v5464))
theorem k1_off239_inb : ∀ (v5464 : BitVec 32) (k1_hw239 : k1_chk239 v5464), ∀ a, (k1_off239 v5464) a + S1x1x128.size a ≤ S50000x1x128.size a := fun v5464 k1_hw239 => k1_hw239

def k1_off240 (v5487 : BitVec 32) : Fin 3 → Nat :=
  let c0_i32_5697 : BitVec 32 := 0#32
  let c0_i32_5698 : BitVec 32 := 0#32
  ![v5487.toNat, 0, 0]

def k1_chk240 (v5487 : BitVec 32) : Prop :=
  (∀ a, (k1_off240 v5487) a + S1x1x128.size a ≤ S50000x1x128.size a)
instance k1_chk240.dec : ∀ (v5487 : BitVec 32), Decidable (k1_chk240 v5487) := fun v5487 => decidable_of_iff' _ (Iff.of_eq (k1_chk240.eq_1 v5487))
theorem k1_off240_inb : ∀ (v5487 : BitVec 32) (k1_hw240 : k1_chk240 v5487), ∀ a, (k1_off240 v5487) a + S1x1x128.size a ≤ S50000x1x128.size a := fun v5487 k1_hw240 => k1_hw240

def k1_off241 (v5510 : BitVec 32) : Fin 3 → Nat :=
  let c0_i32_5721 : BitVec 32 := 0#32
  let c0_i32_5722 : BitVec 32 := 0#32
  ![v5510.toNat, 0, 0]

def k1_chk241 (v5510 : BitVec 32) : Prop :=
  (∀ a, (k1_off241 v5510) a + S1x1x128.size a ≤ S50000x1x128.size a)
instance k1_chk241.dec : ∀ (v5510 : BitVec 32), Decidable (k1_chk241 v5510) := fun v5510 => decidable_of_iff' _ (Iff.of_eq (k1_chk241.eq_1 v5510))
theorem k1_off241_inb : ∀ (v5510 : BitVec 32) (k1_hw241 : k1_chk241 v5510), ∀ a, (k1_off241 v5510) a + S1x1x128.size a ≤ S50000x1x128.size a := fun v5510 k1_hw241 => k1_hw241

def k1_off242 (v5533 : BitVec 32) : Fin 3 → Nat :=
  let c0_i32_5745 : BitVec 32 := 0#32
  let c0_i32_5746 : BitVec 32 := 0#32
  ![v5533.toNat, 0, 0]

def k1_chk242 (v5533 : BitVec 32) : Prop :=
  (∀ a, (k1_off242 v5533) a + S1x1x128.size a ≤ S50000x1x128.size a)
instance k1_chk242.dec : ∀ (v5533 : BitVec 32), Decidable (k1_chk242 v5533) := fun v5533 => decidable_of_iff' _ (Iff.of_eq (k1_chk242.eq_1 v5533))
theorem k1_off242_inb : ∀ (v5533 : BitVec 32) (k1_hw242 : k1_chk242 v5533), ∀ a, (k1_off242 v5533) a + S1x1x128.size a ≤ S50000x1x128.size a := fun v5533 k1_hw242 => k1_hw242

def k1_off243 (v5556 : BitVec 32) : Fin 3 → Nat :=
  let c0_i32_5769 : BitVec 32 := 0#32
  let c0_i32_5770 : BitVec 32 := 0#32
  ![v5556.toNat, 0, 0]

def k1_chk243 (v5556 : BitVec 32) : Prop :=
  (∀ a, (k1_off243 v5556) a + S1x1x128.size a ≤ S50000x1x128.size a)
instance k1_chk243.dec : ∀ (v5556 : BitVec 32), Decidable (k1_chk243 v5556) := fun v5556 => decidable_of_iff' _ (Iff.of_eq (k1_chk243.eq_1 v5556))
theorem k1_off243_inb : ∀ (v5556 : BitVec 32) (k1_hw243 : k1_chk243 v5556), ∀ a, (k1_off243 v5556) a + S1x1x128.size a ≤ S50000x1x128.size a := fun v5556 k1_hw243 => k1_hw243

def k1_off244 (v5579 : BitVec 32) : Fin 3 → Nat :=
  let c0_i32_5793 : BitVec 32 := 0#32
  let c0_i32_5794 : BitVec 32 := 0#32
  ![v5579.toNat, 0, 0]

def k1_chk244 (v5579 : BitVec 32) : Prop :=
  (∀ a, (k1_off244 v5579) a + S1x1x128.size a ≤ S50000x1x128.size a)
instance k1_chk244.dec : ∀ (v5579 : BitVec 32), Decidable (k1_chk244 v5579) := fun v5579 => decidable_of_iff' _ (Iff.of_eq (k1_chk244.eq_1 v5579))
theorem k1_off244_inb : ∀ (v5579 : BitVec 32) (k1_hw244 : k1_chk244 v5579), ∀ a, (k1_off244 v5579) a + S1x1x128.size a ≤ S50000x1x128.size a := fun v5579 k1_hw244 => k1_hw244

def k1_off245 (v5602 : BitVec 32) : Fin 3 → Nat :=
  let c0_i32_5817 : BitVec 32 := 0#32
  let c0_i32_5818 : BitVec 32 := 0#32
  ![v5602.toNat, 0, 0]

def k1_chk245 (v5602 : BitVec 32) : Prop :=
  (∀ a, (k1_off245 v5602) a + S1x1x128.size a ≤ S50000x1x128.size a)
instance k1_chk245.dec : ∀ (v5602 : BitVec 32), Decidable (k1_chk245 v5602) := fun v5602 => decidable_of_iff' _ (Iff.of_eq (k1_chk245.eq_1 v5602))
theorem k1_off245_inb : ∀ (v5602 : BitVec 32) (k1_hw245 : k1_chk245 v5602), ∀ a, (k1_off245 v5602) a + S1x1x128.size a ≤ S50000x1x128.size a := fun v5602 k1_hw245 => k1_hw245

def k1_off246 (v5625 : BitVec 32) : Fin 3 → Nat :=
  let c0_i32_5841 : BitVec 32 := 0#32
  let c0_i32_5842 : BitVec 32 := 0#32
  ![v5625.toNat, 0, 0]

def k1_chk246 (v5625 : BitVec 32) : Prop :=
  (∀ a, (k1_off246 v5625) a + S1x1x128.size a ≤ S50000x1x128.size a)
instance k1_chk246.dec : ∀ (v5625 : BitVec 32), Decidable (k1_chk246 v5625) := fun v5625 => decidable_of_iff' _ (Iff.of_eq (k1_chk246.eq_1 v5625))
theorem k1_off246_inb : ∀ (v5625 : BitVec 32) (k1_hw246 : k1_chk246 v5625), ∀ a, (k1_off246 v5625) a + S1x1x128.size a ≤ S50000x1x128.size a := fun v5625 k1_hw246 => k1_hw246

def k1_off247 (v5648 : BitVec 32) : Fin 3 → Nat :=
  let c0_i32_5865 : BitVec 32 := 0#32
  let c0_i32_5866 : BitVec 32 := 0#32
  ![v5648.toNat, 0, 0]

def k1_chk247 (v5648 : BitVec 32) : Prop :=
  (∀ a, (k1_off247 v5648) a + S1x1x128.size a ≤ S50000x1x128.size a)
instance k1_chk247.dec : ∀ (v5648 : BitVec 32), Decidable (k1_chk247 v5648) := fun v5648 => decidable_of_iff' _ (Iff.of_eq (k1_chk247.eq_1 v5648))
theorem k1_off247_inb : ∀ (v5648 : BitVec 32) (k1_hw247 : k1_chk247 v5648), ∀ a, (k1_off247 v5648) a + S1x1x128.size a ≤ S50000x1x128.size a := fun v5648 k1_hw247 => k1_hw247

def k1_off248 (v5671 : BitVec 32) : Fin 3 → Nat :=
  let c0_i32_5889 : BitVec 32 := 0#32
  let c0_i32_5890 : BitVec 32 := 0#32
  ![v5671.toNat, 0, 0]

def k1_chk248 (v5671 : BitVec 32) : Prop :=
  (∀ a, (k1_off248 v5671) a + S1x1x128.size a ≤ S50000x1x128.size a)
instance k1_chk248.dec : ∀ (v5671 : BitVec 32), Decidable (k1_chk248 v5671) := fun v5671 => decidable_of_iff' _ (Iff.of_eq (k1_chk248.eq_1 v5671))
theorem k1_off248_inb : ∀ (v5671 : BitVec 32) (k1_hw248 : k1_chk248 v5671), ∀ a, (k1_off248 v5671) a + S1x1x128.size a ≤ S50000x1x128.size a := fun v5671 k1_hw248 => k1_hw248

def k1_off249 (v5694 : BitVec 32) : Fin 3 → Nat :=
  let c0_i32_5913 : BitVec 32 := 0#32
  let c0_i32_5914 : BitVec 32 := 0#32
  ![v5694.toNat, 0, 0]

def k1_chk249 (v5694 : BitVec 32) : Prop :=
  (∀ a, (k1_off249 v5694) a + S1x1x128.size a ≤ S50000x1x128.size a)
instance k1_chk249.dec : ∀ (v5694 : BitVec 32), Decidable (k1_chk249 v5694) := fun v5694 => decidable_of_iff' _ (Iff.of_eq (k1_chk249.eq_1 v5694))
theorem k1_off249_inb : ∀ (v5694 : BitVec 32) (k1_hw249 : k1_chk249 v5694), ∀ a, (k1_off249 v5694) a + S1x1x128.size a ≤ S50000x1x128.size a := fun v5694 k1_hw249 => k1_hw249

def k1_off250 (v5717 : BitVec 32) : Fin 3 → Nat :=
  let c0_i32_5937 : BitVec 32 := 0#32
  let c0_i32_5938 : BitVec 32 := 0#32
  ![v5717.toNat, 0, 0]

def k1_chk250 (v5717 : BitVec 32) : Prop :=
  (∀ a, (k1_off250 v5717) a + S1x1x128.size a ≤ S50000x1x128.size a)
instance k1_chk250.dec : ∀ (v5717 : BitVec 32), Decidable (k1_chk250 v5717) := fun v5717 => decidable_of_iff' _ (Iff.of_eq (k1_chk250.eq_1 v5717))
theorem k1_off250_inb : ∀ (v5717 : BitVec 32) (k1_hw250 : k1_chk250 v5717), ∀ a, (k1_off250 v5717) a + S1x1x128.size a ≤ S50000x1x128.size a := fun v5717 k1_hw250 => k1_hw250

def k1_off251 (v5740 : BitVec 32) : Fin 3 → Nat :=
  let c0_i32_5961 : BitVec 32 := 0#32
  let c0_i32_5962 : BitVec 32 := 0#32
  ![v5740.toNat, 0, 0]

def k1_chk251 (v5740 : BitVec 32) : Prop :=
  (∀ a, (k1_off251 v5740) a + S1x1x128.size a ≤ S50000x1x128.size a)
instance k1_chk251.dec : ∀ (v5740 : BitVec 32), Decidable (k1_chk251 v5740) := fun v5740 => decidable_of_iff' _ (Iff.of_eq (k1_chk251.eq_1 v5740))
theorem k1_off251_inb : ∀ (v5740 : BitVec 32) (k1_hw251 : k1_chk251 v5740), ∀ a, (k1_off251 v5740) a + S1x1x128.size a ≤ S50000x1x128.size a := fun v5740 k1_hw251 => k1_hw251

def k1_off252 (v5763 : BitVec 32) : Fin 3 → Nat :=
  let c0_i32_5985 : BitVec 32 := 0#32
  let c0_i32_5986 : BitVec 32 := 0#32
  ![v5763.toNat, 0, 0]

def k1_chk252 (v5763 : BitVec 32) : Prop :=
  (∀ a, (k1_off252 v5763) a + S1x1x128.size a ≤ S50000x1x128.size a)
instance k1_chk252.dec : ∀ (v5763 : BitVec 32), Decidable (k1_chk252 v5763) := fun v5763 => decidable_of_iff' _ (Iff.of_eq (k1_chk252.eq_1 v5763))
theorem k1_off252_inb : ∀ (v5763 : BitVec 32) (k1_hw252 : k1_chk252 v5763), ∀ a, (k1_off252 v5763) a + S1x1x128.size a ≤ S50000x1x128.size a := fun v5763 k1_hw252 => k1_hw252

def k1_off253 (v5786 : BitVec 32) : Fin 3 → Nat :=
  let c0_i32_6009 : BitVec 32 := 0#32
  let c0_i32_6010 : BitVec 32 := 0#32
  ![v5786.toNat, 0, 0]

def k1_chk253 (v5786 : BitVec 32) : Prop :=
  (∀ a, (k1_off253 v5786) a + S1x1x128.size a ≤ S50000x1x128.size a)
instance k1_chk253.dec : ∀ (v5786 : BitVec 32), Decidable (k1_chk253 v5786) := fun v5786 => decidable_of_iff' _ (Iff.of_eq (k1_chk253.eq_1 v5786))
theorem k1_off253_inb : ∀ (v5786 : BitVec 32) (k1_hw253 : k1_chk253 v5786), ∀ a, (k1_off253 v5786) a + S1x1x128.size a ≤ S50000x1x128.size a := fun v5786 k1_hw253 => k1_hw253

def k1_off254 (v5809 : BitVec 32) : Fin 3 → Nat :=
  let c0_i32_6033 : BitVec 32 := 0#32
  let c0_i32_6034 : BitVec 32 := 0#32
  ![v5809.toNat, 0, 0]

def k1_chk254 (v5809 : BitVec 32) : Prop :=
  (∀ a, (k1_off254 v5809) a + S1x1x128.size a ≤ S50000x1x128.size a)
instance k1_chk254.dec : ∀ (v5809 : BitVec 32), Decidable (k1_chk254 v5809) := fun v5809 => decidable_of_iff' _ (Iff.of_eq (k1_chk254.eq_1 v5809))
theorem k1_off254_inb : ∀ (v5809 : BitVec 32) (k1_hw254 : k1_chk254 v5809), ∀ a, (k1_off254 v5809) a + S1x1x128.size a ≤ S50000x1x128.size a := fun v5809 k1_hw254 => k1_hw254

def k1_off255 (v5832 : BitVec 32) : Fin 3 → Nat :=
  let c0_i32_6057 : BitVec 32 := 0#32
  let c0_i32_6058 : BitVec 32 := 0#32
  ![v5832.toNat, 0, 0]

def k1_chk255 (v5832 : BitVec 32) : Prop :=
  (∀ a, (k1_off255 v5832) a + S1x1x128.size a ≤ S50000x1x128.size a)
instance k1_chk255.dec : ∀ (v5832 : BitVec 32), Decidable (k1_chk255 v5832) := fun v5832 => decidable_of_iff' _ (Iff.of_eq (k1_chk255.eq_1 v5832))
theorem k1_off255_inb : ∀ (v5832 : BitVec 32) (k1_hw255 : k1_chk255 v5832), ∀ a, (k1_off255 v5832) a + S1x1x128.size a ≤ S50000x1x128.size a := fun v5832 k1_hw255 => k1_hw255

def k1_off256 (v5855 : BitVec 32) : Fin 3 → Nat :=
  let c0_i32_6081 : BitVec 32 := 0#32
  let c0_i32_6082 : BitVec 32 := 0#32
  ![v5855.toNat, 0, 0]

def k1_chk256 (v5855 : BitVec 32) : Prop :=
  (∀ a, (k1_off256 v5855) a + S1x1x128.size a ≤ S50000x1x128.size a)
instance k1_chk256.dec : ∀ (v5855 : BitVec 32), Decidable (k1_chk256 v5855) := fun v5855 => decidable_of_iff' _ (Iff.of_eq (k1_chk256.eq_1 v5855))
theorem k1_off256_inb : ∀ (v5855 : BitVec 32) (k1_hw256 : k1_chk256 v5855), ∀ a, (k1_off256 v5855) a + S1x1x128.size a ≤ S50000x1x128.size a := fun v5855 k1_hw256 => k1_hw256

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S8x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S8x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x32 : S_.BroadcastsInDim S50000x32 (![] : Fin 0 → Fin S50000x32.rank)
  shapeCasts_S50000x32_S50000x32x1 : S50000x32.ShapeCasts S50000x32x1
  bcast_S_S50000x32x1 : S_.BroadcastsInDim S50000x32x1 (![] : Fin 0 → Fin S50000x32x1.rank)
  bcast_S1_S1x1x1_2 : S1.BroadcastsInDim S1x1x1 (![2] : Fin 1 → Fin S1x1x1.rank)
  bcast_S1x1x1_S50000x32x1_0_1_2 : S1x1x1.BroadcastsInDim S50000x32x1 (![0, 1, 2] : Fin 3 → Fin S50000x32x1.rank)
  reducesTo_S50000x32x1_S50000x32_d2 : S50000x32x1.ReducesTo [2] S50000x32
  h_S_ : 0 < S_.numel
  natLt_1_32 : 1 < 32
  reducesTo_S50000x32_S50000_d1 : S50000x32.ReducesTo [1] S50000
  bcast_S32_S1x32_1 : S32.BroadcastsInDim S1x32 (![1] : Fin 1 → Fin S1x32.rank)
  bcast_S50000_S50000x1_0 : S50000.BroadcastsInDim S50000x1 (![0] : Fin 1 → Fin S50000x1.rank)
  bcast_S1x32_S50000x32_0_1 : S1x32.BroadcastsInDim S50000x32 (![0, 1] : Fin 2 → Fin S50000x32.rank)
  bcast_S50000x1_S50000x32_0_1 : S50000x1.BroadcastsInDim S50000x32 (![0, 1] : Fin 2 → Fin S50000x32.rank)
  shapeCasts_S50000x128_S50000x1x128 : S50000x128.ShapeCasts S50000x1x128
  inb_S8x32_S1x1_0_0 : ∀ a, (![0, 0] : Fin 2 → Nat) a + S1x1.size a ≤ S8x32.size a
  numel1_S1x1 : S1x1.numel = 1
  inb_S2_S1_0 : ∀ a, (![0] : Fin 1 → Nat) a + S1.size a ≤ S2.size a
  squeezes_S1_S_ : S1.Squeezes S_
  inb_S2x1x128_S1x1x128_0_0_0 : ∀ a, (![0, 0, 0] : Fin 3 → Nat) a + S1x1x128.size a ≤ S2x1x128.size a
  squeezes_S1x1x128_S1x128 : S1x1x128.Squeezes S1x128
  inb_S8x32_S1x1_0_1 : ∀ a, (![0, 1] : Fin 2 → Nat) a + S1x1.size a ≤ S8x32.size a
  inb_S2_S1_1 : ∀ a, (![1] : Fin 1 → Nat) a + S1.size a ≤ S2.size a
  inb_S2x1x128_S1x1x128_1_0_0 : ∀ a, (![1, 0, 0] : Fin 3 → Nat) a + S1x1x128.size a ≤ S2x1x128.size a
  h_S1x1x128 : 0 < S1x1x128.numel
  shapeCasts_S1x1x128_S1x128 : S1x1x128.ShapeCasts S1x128
  shapeCasts_S1x128_S128 : S1x128.ShapeCasts S128
  inb_S8x32x128_S1x1x128_0_0_0 : ∀ a, (![0, 0, 0] : Fin 3 → Nat) a + S1x1x128.size a ≤ S8x32x128.size a
  shapeCasts_S1x1x128_S128 : S1x1x128.ShapeCasts S128
  shapeCasts_S128_S1x1x128 : S128.ShapeCasts S1x1x128
  inb_S8x32_S1x1_0_2 : ∀ a, (![0, 2] : Fin 2 → Nat) a + S1x1.size a ≤ S8x32.size a
  inb_S8x32x128_S1x1x128_0_1_0 : ∀ a, (![0, 1, 0] : Fin 3 → Nat) a + S1x1x128.size a ≤ S8x32x128.size a
  inb_S8x32_S1x1_0_3 : ∀ a, (![0, 3] : Fin 2 → Nat) a + S1x1.size a ≤ S8x32.size a
  inb_S8x32x128_S1x1x128_0_2_0 : ∀ a, (![0, 2, 0] : Fin 3 → Nat) a + S1x1x128.size a ≤ S8x32x128.size a
  inb_S8x32_S1x1_0_4 : ∀ a, (![0, 4] : Fin 2 → Nat) a + S1x1.size a ≤ S8x32.size a
  inb_S8x32x128_S1x1x128_0_3_0 : ∀ a, (![0, 3, 0] : Fin 3 → Nat) a + S1x1x128.size a ≤ S8x32x128.size a
  inb_S8x32_S1x1_0_5 : ∀ a, (![0, 5] : Fin 2 → Nat) a + S1x1.size a ≤ S8x32.size a
  inb_S8x32x128_S1x1x128_0_4_0 : ∀ a, (![0, 4, 0] : Fin 3 → Nat) a + S1x1x128.size a ≤ S8x32x128.size a
  inb_S8x32_S1x1_0_6 : ∀ a, (![0, 6] : Fin 2 → Nat) a + S1x1.size a ≤ S8x32.size a
  inb_S8x32x128_S1x1x128_0_5_0 : ∀ a, (![0, 5, 0] : Fin 3 → Nat) a + S1x1x128.size a ≤ S8x32x128.size a
  inb_S8x32_S1x1_0_7 : ∀ a, (![0, 7] : Fin 2 → Nat) a + S1x1.size a ≤ S8x32.size a
  inb_S8x32x128_S1x1x128_0_6_0 : ∀ a, (![0, 6, 0] : Fin 3 → Nat) a + S1x1x128.size a ≤ S8x32x128.size a
  inb_S8x32_S1x1_0_8 : ∀ a, (![0, 8] : Fin 2 → Nat) a + S1x1.size a ≤ S8x32.size a
  inb_S8x32x128_S1x1x128_0_7_0 : ∀ a, (![0, 7, 0] : Fin 3 → Nat) a + S1x1x128.size a ≤ S8x32x128.size a
  inb_S8x32_S1x1_0_9 : ∀ a, (![0, 9] : Fin 2 → Nat) a + S1x1.size a ≤ S8x32.size a
  inb_S8x32x128_S1x1x128_0_8_0 : ∀ a, (![0, 8, 0] : Fin 3 → Nat) a + S1x1x128.size a ≤ S8x32x128.size a
  inb_S8x32_S1x1_0_10 : ∀ a, (![0, 10] : Fin 2 → Nat) a + S1x1.size a ≤ S8x32.size a
  inb_S8x32x128_S1x1x128_0_9_0 : ∀ a, (![0, 9, 0] : Fin 3 → Nat) a + S1x1x128.size a ≤ S8x32x128.size a
  inb_S8x32_S1x1_0_11 : ∀ a, (![0, 11] : Fin 2 → Nat) a + S1x1.size a ≤ S8x32.size a
  inb_S8x32x128_S1x1x128_0_10_0 : ∀ a, (![0, 10, 0] : Fin 3 → Nat) a + S1x1x128.size a ≤ S8x32x128.size a
  inb_S8x32_S1x1_0_12 : ∀ a, (![0, 12] : Fin 2 → Nat) a + S1x1.size a ≤ S8x32.size a
  inb_S8x32x128_S1x1x128_0_11_0 : ∀ a, (![0, 11, 0] : Fin 3 → Nat) a + S1x1x128.size a ≤ S8x32x128.size a
  inb_S8x32_S1x1_0_13 : ∀ a, (![0, 13] : Fin 2 → Nat) a + S1x1.size a ≤ S8x32.size a
  inb_S8x32x128_S1x1x128_0_12_0 : ∀ a, (![0, 12, 0] : Fin 3 → Nat) a + S1x1x128.size a ≤ S8x32x128.size a
  inb_S8x32_S1x1_0_14 : ∀ a, (![0, 14] : Fin 2 → Nat) a + S1x1.size a ≤ S8x32.size a
  inb_S8x32x128_S1x1x128_0_13_0 : ∀ a, (![0, 13, 0] : Fin 3 → Nat) a + S1x1x128.size a ≤ S8x32x128.size a
  inb_S8x32_S1x1_0_15 : ∀ a, (![0, 15] : Fin 2 → Nat) a + S1x1.size a ≤ S8x32.size a
  inb_S8x32x128_S1x1x128_0_14_0 : ∀ a, (![0, 14, 0] : Fin 3 → Nat) a + S1x1x128.size a ≤ S8x32x128.size a
  inb_S8x32_S1x1_0_16 : ∀ a, (![0, 16] : Fin 2 → Nat) a + S1x1.size a ≤ S8x32.size a
  inb_S8x32x128_S1x1x128_0_15_0 : ∀ a, (![0, 15, 0] : Fin 3 → Nat) a + S1x1x128.size a ≤ S8x32x128.size a
  inb_S8x32_S1x1_0_17 : ∀ a, (![0, 17] : Fin 2 → Nat) a + S1x1.size a ≤ S8x32.size a
  inb_S8x32x128_S1x1x128_0_16_0 : ∀ a, (![0, 16, 0] : Fin 3 → Nat) a + S1x1x128.size a ≤ S8x32x128.size a
  inb_S8x32_S1x1_0_18 : ∀ a, (![0, 18] : Fin 2 → Nat) a + S1x1.size a ≤ S8x32.size a
  inb_S8x32x128_S1x1x128_0_17_0 : ∀ a, (![0, 17, 0] : Fin 3 → Nat) a + S1x1x128.size a ≤ S8x32x128.size a
  inb_S8x32_S1x1_0_19 : ∀ a, (![0, 19] : Fin 2 → Nat) a + S1x1.size a ≤ S8x32.size a
  inb_S8x32x128_S1x1x128_0_18_0 : ∀ a, (![0, 18, 0] : Fin 3 → Nat) a + S1x1x128.size a ≤ S8x32x128.size a
  inb_S8x32_S1x1_0_20 : ∀ a, (![0, 20] : Fin 2 → Nat) a + S1x1.size a ≤ S8x32.size a
  inb_S8x32x128_S1x1x128_0_19_0 : ∀ a, (![0, 19, 0] : Fin 3 → Nat) a + S1x1x128.size a ≤ S8x32x128.size a
  inb_S8x32_S1x1_0_21 : ∀ a, (![0, 21] : Fin 2 → Nat) a + S1x1.size a ≤ S8x32.size a
  inb_S8x32x128_S1x1x128_0_20_0 : ∀ a, (![0, 20, 0] : Fin 3 → Nat) a + S1x1x128.size a ≤ S8x32x128.size a
  inb_S8x32_S1x1_0_22 : ∀ a, (![0, 22] : Fin 2 → Nat) a + S1x1.size a ≤ S8x32.size a
  inb_S8x32x128_S1x1x128_0_21_0 : ∀ a, (![0, 21, 0] : Fin 3 → Nat) a + S1x1x128.size a ≤ S8x32x128.size a
  inb_S8x32_S1x1_0_23 : ∀ a, (![0, 23] : Fin 2 → Nat) a + S1x1.size a ≤ S8x32.size a
  inb_S8x32x128_S1x1x128_0_22_0 : ∀ a, (![0, 22, 0] : Fin 3 → Nat) a + S1x1x128.size a ≤ S8x32x128.size a
  inb_S8x32_S1x1_0_24 : ∀ a, (![0, 24] : Fin 2 → Nat) a + S1x1.size a ≤ S8x32.size a
  inb_S8x32x128_S1x1x128_0_23_0 : ∀ a, (![0, 23, 0] : Fin 3 → Nat) a + S1x1x128.size a ≤ S8x32x128.size a
  inb_S8x32_S1x1_0_25 : ∀ a, (![0, 25] : Fin 2 → Nat) a + S1x1.size a ≤ S8x32.size a
  inb_S8x32x128_S1x1x128_0_24_0 : ∀ a, (![0, 24, 0] : Fin 3 → Nat) a + S1x1x128.size a ≤ S8x32x128.size a
  inb_S8x32_S1x1_0_26 : ∀ a, (![0, 26] : Fin 2 → Nat) a + S1x1.size a ≤ S8x32.size a
  inb_S8x32x128_S1x1x128_0_25_0 : ∀ a, (![0, 25, 0] : Fin 3 → Nat) a + S1x1x128.size a ≤ S8x32x128.size a
  inb_S8x32_S1x1_0_27 : ∀ a, (![0, 27] : Fin 2 → Nat) a + S1x1.size a ≤ S8x32.size a
  inb_S8x32x128_S1x1x128_0_26_0 : ∀ a, (![0, 26, 0] : Fin 3 → Nat) a + S1x1x128.size a ≤ S8x32x128.size a
  inb_S8x32_S1x1_0_28 : ∀ a, (![0, 28] : Fin 2 → Nat) a + S1x1.size a ≤ S8x32.size a
  inb_S8x32x128_S1x1x128_0_27_0 : ∀ a, (![0, 27, 0] : Fin 3 → Nat) a + S1x1x128.size a ≤ S8x32x128.size a
  inb_S8x32_S1x1_0_29 : ∀ a, (![0, 29] : Fin 2 → Nat) a + S1x1.size a ≤ S8x32.size a
  inb_S8x32x128_S1x1x128_0_28_0 : ∀ a, (![0, 28, 0] : Fin 3 → Nat) a + S1x1x128.size a ≤ S8x32x128.size a
  inb_S8x32_S1x1_0_30 : ∀ a, (![0, 30] : Fin 2 → Nat) a + S1x1.size a ≤ S8x32.size a
  inb_S8x32x128_S1x1x128_0_29_0 : ∀ a, (![0, 29, 0] : Fin 3 → Nat) a + S1x1x128.size a ≤ S8x32x128.size a
  inb_S8x32_S1x1_0_31 : ∀ a, (![0, 31] : Fin 2 → Nat) a + S1x1.size a ≤ S8x32.size a
  inb_S8x32x128_S1x1x128_0_30_0 : ∀ a, (![0, 30, 0] : Fin 3 → Nat) a + S1x1x128.size a ≤ S8x32x128.size a
  inb_S8x32x128_S1x1x128_0_31_0 : ∀ a, (![0, 31, 0] : Fin 3 → Nat) a + S1x1x128.size a ≤ S8x32x128.size a
  inb_S8x32_S1x1_1_0 : ∀ a, (![1, 0] : Fin 2 → Nat) a + S1x1.size a ≤ S8x32.size a
  inb_S8x32_S1x1_1_1 : ∀ a, (![1, 1] : Fin 2 → Nat) a + S1x1.size a ≤ S8x32.size a
  inb_S8x32x128_S1x1x128_1_0_0 : ∀ a, (![1, 0, 0] : Fin 3 → Nat) a + S1x1x128.size a ≤ S8x32x128.size a
  inb_S8x32_S1x1_1_2 : ∀ a, (![1, 2] : Fin 2 → Nat) a + S1x1.size a ≤ S8x32.size a
  inb_S8x32x128_S1x1x128_1_1_0 : ∀ a, (![1, 1, 0] : Fin 3 → Nat) a + S1x1x128.size a ≤ S8x32x128.size a
  inb_S8x32_S1x1_1_3 : ∀ a, (![1, 3] : Fin 2 → Nat) a + S1x1.size a ≤ S8x32.size a
  inb_S8x32x128_S1x1x128_1_2_0 : ∀ a, (![1, 2, 0] : Fin 3 → Nat) a + S1x1x128.size a ≤ S8x32x128.size a
  inb_S8x32_S1x1_1_4 : ∀ a, (![1, 4] : Fin 2 → Nat) a + S1x1.size a ≤ S8x32.size a
  inb_S8x32x128_S1x1x128_1_3_0 : ∀ a, (![1, 3, 0] : Fin 3 → Nat) a + S1x1x128.size a ≤ S8x32x128.size a
  inb_S8x32_S1x1_1_5 : ∀ a, (![1, 5] : Fin 2 → Nat) a + S1x1.size a ≤ S8x32.size a
  inb_S8x32x128_S1x1x128_1_4_0 : ∀ a, (![1, 4, 0] : Fin 3 → Nat) a + S1x1x128.size a ≤ S8x32x128.size a
  inb_S8x32_S1x1_1_6 : ∀ a, (![1, 6] : Fin 2 → Nat) a + S1x1.size a ≤ S8x32.size a
  inb_S8x32x128_S1x1x128_1_5_0 : ∀ a, (![1, 5, 0] : Fin 3 → Nat) a + S1x1x128.size a ≤ S8x32x128.size a
  inb_S8x32_S1x1_1_7 : ∀ a, (![1, 7] : Fin 2 → Nat) a + S1x1.size a ≤ S8x32.size a
  inb_S8x32x128_S1x1x128_1_6_0 : ∀ a, (![1, 6, 0] : Fin 3 → Nat) a + S1x1x128.size a ≤ S8x32x128.size a
  inb_S8x32_S1x1_1_8 : ∀ a, (![1, 8] : Fin 2 → Nat) a + S1x1.size a ≤ S8x32.size a
  inb_S8x32x128_S1x1x128_1_7_0 : ∀ a, (![1, 7, 0] : Fin 3 → Nat) a + S1x1x128.size a ≤ S8x32x128.size a
  inb_S8x32_S1x1_1_9 : ∀ a, (![1, 9] : Fin 2 → Nat) a + S1x1.size a ≤ S8x32.size a
  inb_S8x32x128_S1x1x128_1_8_0 : ∀ a, (![1, 8, 0] : Fin 3 → Nat) a + S1x1x128.size a ≤ S8x32x128.size a
  inb_S8x32_S1x1_1_10 : ∀ a, (![1, 10] : Fin 2 → Nat) a + S1x1.size a ≤ S8x32.size a
  inb_S8x32x128_S1x1x128_1_9_0 : ∀ a, (![1, 9, 0] : Fin 3 → Nat) a + S1x1x128.size a ≤ S8x32x128.size a
  inb_S8x32_S1x1_1_11 : ∀ a, (![1, 11] : Fin 2 → Nat) a + S1x1.size a ≤ S8x32.size a
  inb_S8x32x128_S1x1x128_1_10_0 : ∀ a, (![1, 10, 0] : Fin 3 → Nat) a + S1x1x128.size a ≤ S8x32x128.size a
  inb_S8x32_S1x1_1_12 : ∀ a, (![1, 12] : Fin 2 → Nat) a + S1x1.size a ≤ S8x32.size a
  inb_S8x32x128_S1x1x128_1_11_0 : ∀ a, (![1, 11, 0] : Fin 3 → Nat) a + S1x1x128.size a ≤ S8x32x128.size a
  inb_S8x32_S1x1_1_13 : ∀ a, (![1, 13] : Fin 2 → Nat) a + S1x1.size a ≤ S8x32.size a
  inb_S8x32x128_S1x1x128_1_12_0 : ∀ a, (![1, 12, 0] : Fin 3 → Nat) a + S1x1x128.size a ≤ S8x32x128.size a
  inb_S8x32_S1x1_1_14 : ∀ a, (![1, 14] : Fin 2 → Nat) a + S1x1.size a ≤ S8x32.size a
  inb_S8x32x128_S1x1x128_1_13_0 : ∀ a, (![1, 13, 0] : Fin 3 → Nat) a + S1x1x128.size a ≤ S8x32x128.size a
  inb_S8x32_S1x1_1_15 : ∀ a, (![1, 15] : Fin 2 → Nat) a + S1x1.size a ≤ S8x32.size a
  inb_S8x32x128_S1x1x128_1_14_0 : ∀ a, (![1, 14, 0] : Fin 3 → Nat) a + S1x1x128.size a ≤ S8x32x128.size a
  inb_S8x32_S1x1_1_16 : ∀ a, (![1, 16] : Fin 2 → Nat) a + S1x1.size a ≤ S8x32.size a
  inb_S8x32x128_S1x1x128_1_15_0 : ∀ a, (![1, 15, 0] : Fin 3 → Nat) a + S1x1x128.size a ≤ S8x32x128.size a
  inb_S8x32_S1x1_1_17 : ∀ a, (![1, 17] : Fin 2 → Nat) a + S1x1.size a ≤ S8x32.size a
  inb_S8x32x128_S1x1x128_1_16_0 : ∀ a, (![1, 16, 0] : Fin 3 → Nat) a + S1x1x128.size a ≤ S8x32x128.size a
  inb_S8x32_S1x1_1_18 : ∀ a, (![1, 18] : Fin 2 → Nat) a + S1x1.size a ≤ S8x32.size a
  inb_S8x32x128_S1x1x128_1_17_0 : ∀ a, (![1, 17, 0] : Fin 3 → Nat) a + S1x1x128.size a ≤ S8x32x128.size a
  inb_S8x32_S1x1_1_19 : ∀ a, (![1, 19] : Fin 2 → Nat) a + S1x1.size a ≤ S8x32.size a
  inb_S8x32x128_S1x1x128_1_18_0 : ∀ a, (![1, 18, 0] : Fin 3 → Nat) a + S1x1x128.size a ≤ S8x32x128.size a
  inb_S8x32_S1x1_1_20 : ∀ a, (![1, 20] : Fin 2 → Nat) a + S1x1.size a ≤ S8x32.size a
  inb_S8x32x128_S1x1x128_1_19_0 : ∀ a, (![1, 19, 0] : Fin 3 → Nat) a + S1x1x128.size a ≤ S8x32x128.size a
  inb_S8x32_S1x1_1_21 : ∀ a, (![1, 21] : Fin 2 → Nat) a + S1x1.size a ≤ S8x32.size a
  inb_S8x32x128_S1x1x128_1_20_0 : ∀ a, (![1, 20, 0] : Fin 3 → Nat) a + S1x1x128.size a ≤ S8x32x128.size a
  inb_S8x32_S1x1_1_22 : ∀ a, (![1, 22] : Fin 2 → Nat) a + S1x1.size a ≤ S8x32.size a
  inb_S8x32x128_S1x1x128_1_21_0 : ∀ a, (![1, 21, 0] : Fin 3 → Nat) a + S1x1x128.size a ≤ S8x32x128.size a
  inb_S8x32_S1x1_1_23 : ∀ a, (![1, 23] : Fin 2 → Nat) a + S1x1.size a ≤ S8x32.size a
  inb_S8x32x128_S1x1x128_1_22_0 : ∀ a, (![1, 22, 0] : Fin 3 → Nat) a + S1x1x128.size a ≤ S8x32x128.size a
  inb_S8x32_S1x1_1_24 : ∀ a, (![1, 24] : Fin 2 → Nat) a + S1x1.size a ≤ S8x32.size a
  inb_S8x32x128_S1x1x128_1_23_0 : ∀ a, (![1, 23, 0] : Fin 3 → Nat) a + S1x1x128.size a ≤ S8x32x128.size a
  inb_S8x32_S1x1_1_25 : ∀ a, (![1, 25] : Fin 2 → Nat) a + S1x1.size a ≤ S8x32.size a
  inb_S8x32x128_S1x1x128_1_24_0 : ∀ a, (![1, 24, 0] : Fin 3 → Nat) a + S1x1x128.size a ≤ S8x32x128.size a
  inb_S8x32_S1x1_1_26 : ∀ a, (![1, 26] : Fin 2 → Nat) a + S1x1.size a ≤ S8x32.size a
  inb_S8x32x128_S1x1x128_1_25_0 : ∀ a, (![1, 25, 0] : Fin 3 → Nat) a + S1x1x128.size a ≤ S8x32x128.size a
  inb_S8x32_S1x1_1_27 : ∀ a, (![1, 27] : Fin 2 → Nat) a + S1x1.size a ≤ S8x32.size a
  inb_S8x32x128_S1x1x128_1_26_0 : ∀ a, (![1, 26, 0] : Fin 3 → Nat) a + S1x1x128.size a ≤ S8x32x128.size a
  inb_S8x32_S1x1_1_28 : ∀ a, (![1, 28] : Fin 2 → Nat) a + S1x1.size a ≤ S8x32.size a
  inb_S8x32x128_S1x1x128_1_27_0 : ∀ a, (![1, 27, 0] : Fin 3 → Nat) a + S1x1x128.size a ≤ S8x32x128.size a
  inb_S8x32_S1x1_1_29 : ∀ a, (![1, 29] : Fin 2 → Nat) a + S1x1.size a ≤ S8x32.size a
  inb_S8x32x128_S1x1x128_1_28_0 : ∀ a, (![1, 28, 0] : Fin 3 → Nat) a + S1x1x128.size a ≤ S8x32x128.size a
  inb_S8x32_S1x1_1_30 : ∀ a, (![1, 30] : Fin 2 → Nat) a + S1x1.size a ≤ S8x32.size a
  inb_S8x32x128_S1x1x128_1_29_0 : ∀ a, (![1, 29, 0] : Fin 3 → Nat) a + S1x1x128.size a ≤ S8x32x128.size a
  inb_S8x32_S1x1_1_31 : ∀ a, (![1, 31] : Fin 2 → Nat) a + S1x1.size a ≤ S8x32.size a
  inb_S8x32x128_S1x1x128_1_30_0 : ∀ a, (![1, 30, 0] : Fin 3 → Nat) a + S1x1x128.size a ≤ S8x32x128.size a
  inb_S8x32x128_S1x1x128_1_31_0 : ∀ a, (![1, 31, 0] : Fin 3 → Nat) a + S1x1x128.size a ≤ S8x32x128.size a
  inb_S8x32_S1x1_2_0 : ∀ a, (![2, 0] : Fin 2 → Nat) a + S1x1.size a ≤ S8x32.size a
  inb_S8x32_S1x1_2_1 : ∀ a, (![2, 1] : Fin 2 → Nat) a + S1x1.size a ≤ S8x32.size a
  inb_S8x32x128_S1x1x128_2_0_0 : ∀ a, (![2, 0, 0] : Fin 3 → Nat) a + S1x1x128.size a ≤ S8x32x128.size a
  inb_S8x32_S1x1_2_2 : ∀ a, (![2, 2] : Fin 2 → Nat) a + S1x1.size a ≤ S8x32.size a
  inb_S8x32x128_S1x1x128_2_1_0 : ∀ a, (![2, 1, 0] : Fin 3 → Nat) a + S1x1x128.size a ≤ S8x32x128.size a
  inb_S8x32_S1x1_2_3 : ∀ a, (![2, 3] : Fin 2 → Nat) a + S1x1.size a ≤ S8x32.size a
  inb_S8x32x128_S1x1x128_2_2_0 : ∀ a, (![2, 2, 0] : Fin 3 → Nat) a + S1x1x128.size a ≤ S8x32x128.size a
  inb_S8x32_S1x1_2_4 : ∀ a, (![2, 4] : Fin 2 → Nat) a + S1x1.size a ≤ S8x32.size a
  inb_S8x32x128_S1x1x128_2_3_0 : ∀ a, (![2, 3, 0] : Fin 3 → Nat) a + S1x1x128.size a ≤ S8x32x128.size a
  inb_S8x32_S1x1_2_5 : ∀ a, (![2, 5] : Fin 2 → Nat) a + S1x1.size a ≤ S8x32.size a
  inb_S8x32x128_S1x1x128_2_4_0 : ∀ a, (![2, 4, 0] : Fin 3 → Nat) a + S1x1x128.size a ≤ S8x32x128.size a
  inb_S8x32_S1x1_2_6 : ∀ a, (![2, 6] : Fin 2 → Nat) a + S1x1.size a ≤ S8x32.size a
  inb_S8x32x128_S1x1x128_2_5_0 : ∀ a, (![2, 5, 0] : Fin 3 → Nat) a + S1x1x128.size a ≤ S8x32x128.size a
  inb_S8x32_S1x1_2_7 : ∀ a, (![2, 7] : Fin 2 → Nat) a + S1x1.size a ≤ S8x32.size a
  inb_S8x32x128_S1x1x128_2_6_0 : ∀ a, (![2, 6, 0] : Fin 3 → Nat) a + S1x1x128.size a ≤ S8x32x128.size a
  inb_S8x32_S1x1_2_8 : ∀ a, (![2, 8] : Fin 2 → Nat) a + S1x1.size a ≤ S8x32.size a
  inb_S8x32x128_S1x1x128_2_7_0 : ∀ a, (![2, 7, 0] : Fin 3 → Nat) a + S1x1x128.size a ≤ S8x32x128.size a
  inb_S8x32_S1x1_2_9 : ∀ a, (![2, 9] : Fin 2 → Nat) a + S1x1.size a ≤ S8x32.size a
  inb_S8x32x128_S1x1x128_2_8_0 : ∀ a, (![2, 8, 0] : Fin 3 → Nat) a + S1x1x128.size a ≤ S8x32x128.size a
  inb_S8x32_S1x1_2_10 : ∀ a, (![2, 10] : Fin 2 → Nat) a + S1x1.size a ≤ S8x32.size a
  inb_S8x32x128_S1x1x128_2_9_0 : ∀ a, (![2, 9, 0] : Fin 3 → Nat) a + S1x1x128.size a ≤ S8x32x128.size a
  inb_S8x32_S1x1_2_11 : ∀ a, (![2, 11] : Fin 2 → Nat) a + S1x1.size a ≤ S8x32.size a
  inb_S8x32x128_S1x1x128_2_10_0 : ∀ a, (![2, 10, 0] : Fin 3 → Nat) a + S1x1x128.size a ≤ S8x32x128.size a
  inb_S8x32_S1x1_2_12 : ∀ a, (![2, 12] : Fin 2 → Nat) a + S1x1.size a ≤ S8x32.size a
  inb_S8x32x128_S1x1x128_2_11_0 : ∀ a, (![2, 11, 0] : Fin 3 → Nat) a + S1x1x128.size a ≤ S8x32x128.size a
  inb_S8x32_S1x1_2_13 : ∀ a, (![2, 13] : Fin 2 → Nat) a + S1x1.size a ≤ S8x32.size a
  inb_S8x32x128_S1x1x128_2_12_0 : ∀ a, (![2, 12, 0] : Fin 3 → Nat) a + S1x1x128.size a ≤ S8x32x128.size a
  inb_S8x32_S1x1_2_14 : ∀ a, (![2, 14] : Fin 2 → Nat) a + S1x1.size a ≤ S8x32.size a
  inb_S8x32x128_S1x1x128_2_13_0 : ∀ a, (![2, 13, 0] : Fin 3 → Nat) a + S1x1x128.size a ≤ S8x32x128.size a
  inb_S8x32_S1x1_2_15 : ∀ a, (![2, 15] : Fin 2 → Nat) a + S1x1.size a ≤ S8x32.size a
  inb_S8x32x128_S1x1x128_2_14_0 : ∀ a, (![2, 14, 0] : Fin 3 → Nat) a + S1x1x128.size a ≤ S8x32x128.size a
  inb_S8x32_S1x1_2_16 : ∀ a, (![2, 16] : Fin 2 → Nat) a + S1x1.size a ≤ S8x32.size a
  inb_S8x32x128_S1x1x128_2_15_0 : ∀ a, (![2, 15, 0] : Fin 3 → Nat) a + S1x1x128.size a ≤ S8x32x128.size a
  inb_S8x32_S1x1_2_17 : ∀ a, (![2, 17] : Fin 2 → Nat) a + S1x1.size a ≤ S8x32.size a
  inb_S8x32x128_S1x1x128_2_16_0 : ∀ a, (![2, 16, 0] : Fin 3 → Nat) a + S1x1x128.size a ≤ S8x32x128.size a
  inb_S8x32_S1x1_2_18 : ∀ a, (![2, 18] : Fin 2 → Nat) a + S1x1.size a ≤ S8x32.size a
  inb_S8x32x128_S1x1x128_2_17_0 : ∀ a, (![2, 17, 0] : Fin 3 → Nat) a + S1x1x128.size a ≤ S8x32x128.size a
  inb_S8x32_S1x1_2_19 : ∀ a, (![2, 19] : Fin 2 → Nat) a + S1x1.size a ≤ S8x32.size a
  inb_S8x32x128_S1x1x128_2_18_0 : ∀ a, (![2, 18, 0] : Fin 3 → Nat) a + S1x1x128.size a ≤ S8x32x128.size a
  inb_S8x32_S1x1_2_20 : ∀ a, (![2, 20] : Fin 2 → Nat) a + S1x1.size a ≤ S8x32.size a
  inb_S8x32x128_S1x1x128_2_19_0 : ∀ a, (![2, 19, 0] : Fin 3 → Nat) a + S1x1x128.size a ≤ S8x32x128.size a
  inb_S8x32_S1x1_2_21 : ∀ a, (![2, 21] : Fin 2 → Nat) a + S1x1.size a ≤ S8x32.size a
  inb_S8x32x128_S1x1x128_2_20_0 : ∀ a, (![2, 20, 0] : Fin 3 → Nat) a + S1x1x128.size a ≤ S8x32x128.size a
  inb_S8x32_S1x1_2_22 : ∀ a, (![2, 22] : Fin 2 → Nat) a + S1x1.size a ≤ S8x32.size a
  inb_S8x32x128_S1x1x128_2_21_0 : ∀ a, (![2, 21, 0] : Fin 3 → Nat) a + S1x1x128.size a ≤ S8x32x128.size a
  inb_S8x32_S1x1_2_23 : ∀ a, (![2, 23] : Fin 2 → Nat) a + S1x1.size a ≤ S8x32.size a
  inb_S8x32x128_S1x1x128_2_22_0 : ∀ a, (![2, 22, 0] : Fin 3 → Nat) a + S1x1x128.size a ≤ S8x32x128.size a
  inb_S8x32_S1x1_2_24 : ∀ a, (![2, 24] : Fin 2 → Nat) a + S1x1.size a ≤ S8x32.size a
  inb_S8x32x128_S1x1x128_2_23_0 : ∀ a, (![2, 23, 0] : Fin 3 → Nat) a + S1x1x128.size a ≤ S8x32x128.size a
  inb_S8x32_S1x1_2_25 : ∀ a, (![2, 25] : Fin 2 → Nat) a + S1x1.size a ≤ S8x32.size a
  inb_S8x32x128_S1x1x128_2_24_0 : ∀ a, (![2, 24, 0] : Fin 3 → Nat) a + S1x1x128.size a ≤ S8x32x128.size a
  inb_S8x32_S1x1_2_26 : ∀ a, (![2, 26] : Fin 2 → Nat) a + S1x1.size a ≤ S8x32.size a
  inb_S8x32x128_S1x1x128_2_25_0 : ∀ a, (![2, 25, 0] : Fin 3 → Nat) a + S1x1x128.size a ≤ S8x32x128.size a
  inb_S8x32_S1x1_2_27 : ∀ a, (![2, 27] : Fin 2 → Nat) a + S1x1.size a ≤ S8x32.size a
  inb_S8x32x128_S1x1x128_2_26_0 : ∀ a, (![2, 26, 0] : Fin 3 → Nat) a + S1x1x128.size a ≤ S8x32x128.size a
  inb_S8x32_S1x1_2_28 : ∀ a, (![2, 28] : Fin 2 → Nat) a + S1x1.size a ≤ S8x32.size a
  inb_S8x32x128_S1x1x128_2_27_0 : ∀ a, (![2, 27, 0] : Fin 3 → Nat) a + S1x1x128.size a ≤ S8x32x128.size a
  inb_S8x32_S1x1_2_29 : ∀ a, (![2, 29] : Fin 2 → Nat) a + S1x1.size a ≤ S8x32.size a
  inb_S8x32x128_S1x1x128_2_28_0 : ∀ a, (![2, 28, 0] : Fin 3 → Nat) a + S1x1x128.size a ≤ S8x32x128.size a
  inb_S8x32_S1x1_2_30 : ∀ a, (![2, 30] : Fin 2 → Nat) a + S1x1.size a ≤ S8x32.size a
  inb_S8x32x128_S1x1x128_2_29_0 : ∀ a, (![2, 29, 0] : Fin 3 → Nat) a + S1x1x128.size a ≤ S8x32x128.size a
  inb_S8x32_S1x1_2_31 : ∀ a, (![2, 31] : Fin 2 → Nat) a + S1x1.size a ≤ S8x32.size a
  inb_S8x32x128_S1x1x128_2_30_0 : ∀ a, (![2, 30, 0] : Fin 3 → Nat) a + S1x1x128.size a ≤ S8x32x128.size a
  inb_S8x32x128_S1x1x128_2_31_0 : ∀ a, (![2, 31, 0] : Fin 3 → Nat) a + S1x1x128.size a ≤ S8x32x128.size a
  inb_S8x32_S1x1_3_0 : ∀ a, (![3, 0] : Fin 2 → Nat) a + S1x1.size a ≤ S8x32.size a
  inb_S8x32_S1x1_3_1 : ∀ a, (![3, 1] : Fin 2 → Nat) a + S1x1.size a ≤ S8x32.size a
  inb_S8x32x128_S1x1x128_3_0_0 : ∀ a, (![3, 0, 0] : Fin 3 → Nat) a + S1x1x128.size a ≤ S8x32x128.size a
  inb_S8x32_S1x1_3_2 : ∀ a, (![3, 2] : Fin 2 → Nat) a + S1x1.size a ≤ S8x32.size a
  inb_S8x32x128_S1x1x128_3_1_0 : ∀ a, (![3, 1, 0] : Fin 3 → Nat) a + S1x1x128.size a ≤ S8x32x128.size a
  inb_S8x32_S1x1_3_3 : ∀ a, (![3, 3] : Fin 2 → Nat) a + S1x1.size a ≤ S8x32.size a
  inb_S8x32x128_S1x1x128_3_2_0 : ∀ a, (![3, 2, 0] : Fin 3 → Nat) a + S1x1x128.size a ≤ S8x32x128.size a
  inb_S8x32_S1x1_3_4 : ∀ a, (![3, 4] : Fin 2 → Nat) a + S1x1.size a ≤ S8x32.size a
  inb_S8x32x128_S1x1x128_3_3_0 : ∀ a, (![3, 3, 0] : Fin 3 → Nat) a + S1x1x128.size a ≤ S8x32x128.size a
  inb_S8x32_S1x1_3_5 : ∀ a, (![3, 5] : Fin 2 → Nat) a + S1x1.size a ≤ S8x32.size a
  inb_S8x32x128_S1x1x128_3_4_0 : ∀ a, (![3, 4, 0] : Fin 3 → Nat) a + S1x1x128.size a ≤ S8x32x128.size a
  inb_S8x32_S1x1_3_6 : ∀ a, (![3, 6] : Fin 2 → Nat) a + S1x1.size a ≤ S8x32.size a
  inb_S8x32x128_S1x1x128_3_5_0 : ∀ a, (![3, 5, 0] : Fin 3 → Nat) a + S1x1x128.size a ≤ S8x32x128.size a
  inb_S8x32_S1x1_3_7 : ∀ a, (![3, 7] : Fin 2 → Nat) a + S1x1.size a ≤ S8x32.size a
  inb_S8x32x128_S1x1x128_3_6_0 : ∀ a, (![3, 6, 0] : Fin 3 → Nat) a + S1x1x128.size a ≤ S8x32x128.size a
  inb_S8x32_S1x1_3_8 : ∀ a, (![3, 8] : Fin 2 → Nat) a + S1x1.size a ≤ S8x32.size a
  inb_S8x32x128_S1x1x128_3_7_0 : ∀ a, (![3, 7, 0] : Fin 3 → Nat) a + S1x1x128.size a ≤ S8x32x128.size a
  inb_S8x32_S1x1_3_9 : ∀ a, (![3, 9] : Fin 2 → Nat) a + S1x1.size a ≤ S8x32.size a
  inb_S8x32x128_S1x1x128_3_8_0 : ∀ a, (![3, 8, 0] : Fin 3 → Nat) a + S1x1x128.size a ≤ S8x32x128.size a
  inb_S8x32_S1x1_3_10 : ∀ a, (![3, 10] : Fin 2 → Nat) a + S1x1.size a ≤ S8x32.size a
  inb_S8x32x128_S1x1x128_3_9_0 : ∀ a, (![3, 9, 0] : Fin 3 → Nat) a + S1x1x128.size a ≤ S8x32x128.size a
  inb_S8x32_S1x1_3_11 : ∀ a, (![3, 11] : Fin 2 → Nat) a + S1x1.size a ≤ S8x32.size a
  inb_S8x32x128_S1x1x128_3_10_0 : ∀ a, (![3, 10, 0] : Fin 3 → Nat) a + S1x1x128.size a ≤ S8x32x128.size a
  inb_S8x32_S1x1_3_12 : ∀ a, (![3, 12] : Fin 2 → Nat) a + S1x1.size a ≤ S8x32.size a
  inb_S8x32x128_S1x1x128_3_11_0 : ∀ a, (![3, 11, 0] : Fin 3 → Nat) a + S1x1x128.size a ≤ S8x32x128.size a
  inb_S8x32_S1x1_3_13 : ∀ a, (![3, 13] : Fin 2 → Nat) a + S1x1.size a ≤ S8x32.size a
  inb_S8x32x128_S1x1x128_3_12_0 : ∀ a, (![3, 12, 0] : Fin 3 → Nat) a + S1x1x128.size a ≤ S8x32x128.size a
  inb_S8x32_S1x1_3_14 : ∀ a, (![3, 14] : Fin 2 → Nat) a + S1x1.size a ≤ S8x32.size a
  inb_S8x32x128_S1x1x128_3_13_0 : ∀ a, (![3, 13, 0] : Fin 3 → Nat) a + S1x1x128.size a ≤ S8x32x128.size a
  inb_S8x32_S1x1_3_15 : ∀ a, (![3, 15] : Fin 2 → Nat) a + S1x1.size a ≤ S8x32.size a
  inb_S8x32x128_S1x1x128_3_14_0 : ∀ a, (![3, 14, 0] : Fin 3 → Nat) a + S1x1x128.size a ≤ S8x32x128.size a
  inb_S8x32_S1x1_3_16 : ∀ a, (![3, 16] : Fin 2 → Nat) a + S1x1.size a ≤ S8x32.size a
  inb_S8x32x128_S1x1x128_3_15_0 : ∀ a, (![3, 15, 0] : Fin 3 → Nat) a + S1x1x128.size a ≤ S8x32x128.size a
  inb_S8x32_S1x1_3_17 : ∀ a, (![3, 17] : Fin 2 → Nat) a + S1x1.size a ≤ S8x32.size a
  inb_S8x32x128_S1x1x128_3_16_0 : ∀ a, (![3, 16, 0] : Fin 3 → Nat) a + S1x1x128.size a ≤ S8x32x128.size a
  inb_S8x32_S1x1_3_18 : ∀ a, (![3, 18] : Fin 2 → Nat) a + S1x1.size a ≤ S8x32.size a
  inb_S8x32x128_S1x1x128_3_17_0 : ∀ a, (![3, 17, 0] : Fin 3 → Nat) a + S1x1x128.size a ≤ S8x32x128.size a
  inb_S8x32_S1x1_3_19 : ∀ a, (![3, 19] : Fin 2 → Nat) a + S1x1.size a ≤ S8x32.size a
  inb_S8x32x128_S1x1x128_3_18_0 : ∀ a, (![3, 18, 0] : Fin 3 → Nat) a + S1x1x128.size a ≤ S8x32x128.size a
  inb_S8x32_S1x1_3_20 : ∀ a, (![3, 20] : Fin 2 → Nat) a + S1x1.size a ≤ S8x32.size a
  inb_S8x32x128_S1x1x128_3_19_0 : ∀ a, (![3, 19, 0] : Fin 3 → Nat) a + S1x1x128.size a ≤ S8x32x128.size a
  inb_S8x32_S1x1_3_21 : ∀ a, (![3, 21] : Fin 2 → Nat) a + S1x1.size a ≤ S8x32.size a
  inb_S8x32x128_S1x1x128_3_20_0 : ∀ a, (![3, 20, 0] : Fin 3 → Nat) a + S1x1x128.size a ≤ S8x32x128.size a
  inb_S8x32_S1x1_3_22 : ∀ a, (![3, 22] : Fin 2 → Nat) a + S1x1.size a ≤ S8x32.size a
  inb_S8x32x128_S1x1x128_3_21_0 : ∀ a, (![3, 21, 0] : Fin 3 → Nat) a + S1x1x128.size a ≤ S8x32x128.size a
  inb_S8x32_S1x1_3_23 : ∀ a, (![3, 23] : Fin 2 → Nat) a + S1x1.size a ≤ S8x32.size a
  inb_S8x32x128_S1x1x128_3_22_0 : ∀ a, (![3, 22, 0] : Fin 3 → Nat) a + S1x1x128.size a ≤ S8x32x128.size a
  inb_S8x32_S1x1_3_24 : ∀ a, (![3, 24] : Fin 2 → Nat) a + S1x1.size a ≤ S8x32.size a
  inb_S8x32x128_S1x1x128_3_23_0 : ∀ a, (![3, 23, 0] : Fin 3 → Nat) a + S1x1x128.size a ≤ S8x32x128.size a
  inb_S8x32_S1x1_3_25 : ∀ a, (![3, 25] : Fin 2 → Nat) a + S1x1.size a ≤ S8x32.size a
  inb_S8x32x128_S1x1x128_3_24_0 : ∀ a, (![3, 24, 0] : Fin 3 → Nat) a + S1x1x128.size a ≤ S8x32x128.size a
  inb_S8x32_S1x1_3_26 : ∀ a, (![3, 26] : Fin 2 → Nat) a + S1x1.size a ≤ S8x32.size a
  inb_S8x32x128_S1x1x128_3_25_0 : ∀ a, (![3, 25, 0] : Fin 3 → Nat) a + S1x1x128.size a ≤ S8x32x128.size a
  inb_S8x32_S1x1_3_27 : ∀ a, (![3, 27] : Fin 2 → Nat) a + S1x1.size a ≤ S8x32.size a
  inb_S8x32x128_S1x1x128_3_26_0 : ∀ a, (![3, 26, 0] : Fin 3 → Nat) a + S1x1x128.size a ≤ S8x32x128.size a
  inb_S8x32_S1x1_3_28 : ∀ a, (![3, 28] : Fin 2 → Nat) a + S1x1.size a ≤ S8x32.size a
  inb_S8x32x128_S1x1x128_3_27_0 : ∀ a, (![3, 27, 0] : Fin 3 → Nat) a + S1x1x128.size a ≤ S8x32x128.size a
  inb_S8x32_S1x1_3_29 : ∀ a, (![3, 29] : Fin 2 → Nat) a + S1x1.size a ≤ S8x32.size a
  inb_S8x32x128_S1x1x128_3_28_0 : ∀ a, (![3, 28, 0] : Fin 3 → Nat) a + S1x1x128.size a ≤ S8x32x128.size a
  inb_S8x32_S1x1_3_30 : ∀ a, (![3, 30] : Fin 2 → Nat) a + S1x1.size a ≤ S8x32.size a
  inb_S8x32x128_S1x1x128_3_29_0 : ∀ a, (![3, 29, 0] : Fin 3 → Nat) a + S1x1x128.size a ≤ S8x32x128.size a
  inb_S8x32_S1x1_3_31 : ∀ a, (![3, 31] : Fin 2 → Nat) a + S1x1.size a ≤ S8x32.size a
  inb_S8x32x128_S1x1x128_3_30_0 : ∀ a, (![3, 30, 0] : Fin 3 → Nat) a + S1x1x128.size a ≤ S8x32x128.size a
  inb_S8x32x128_S1x1x128_3_31_0 : ∀ a, (![3, 31, 0] : Fin 3 → Nat) a + S1x1x128.size a ≤ S8x32x128.size a
  inb_S8x32_S1x1_4_0 : ∀ a, (![4, 0] : Fin 2 → Nat) a + S1x1.size a ≤ S8x32.size a
  inb_S8x32_S1x1_4_1 : ∀ a, (![4, 1] : Fin 2 → Nat) a + S1x1.size a ≤ S8x32.size a
  inb_S8x32x128_S1x1x128_4_0_0 : ∀ a, (![4, 0, 0] : Fin 3 → Nat) a + S1x1x128.size a ≤ S8x32x128.size a
  inb_S8x32_S1x1_4_2 : ∀ a, (![4, 2] : Fin 2 → Nat) a + S1x1.size a ≤ S8x32.size a
  inb_S8x32x128_S1x1x128_4_1_0 : ∀ a, (![4, 1, 0] : Fin 3 → Nat) a + S1x1x128.size a ≤ S8x32x128.size a
  inb_S8x32_S1x1_4_3 : ∀ a, (![4, 3] : Fin 2 → Nat) a + S1x1.size a ≤ S8x32.size a
  inb_S8x32x128_S1x1x128_4_2_0 : ∀ a, (![4, 2, 0] : Fin 3 → Nat) a + S1x1x128.size a ≤ S8x32x128.size a
  inb_S8x32_S1x1_4_4 : ∀ a, (![4, 4] : Fin 2 → Nat) a + S1x1.size a ≤ S8x32.size a
  inb_S8x32x128_S1x1x128_4_3_0 : ∀ a, (![4, 3, 0] : Fin 3 → Nat) a + S1x1x128.size a ≤ S8x32x128.size a
  inb_S8x32_S1x1_4_5 : ∀ a, (![4, 5] : Fin 2 → Nat) a + S1x1.size a ≤ S8x32.size a
  inb_S8x32x128_S1x1x128_4_4_0 : ∀ a, (![4, 4, 0] : Fin 3 → Nat) a + S1x1x128.size a ≤ S8x32x128.size a
  inb_S8x32_S1x1_4_6 : ∀ a, (![4, 6] : Fin 2 → Nat) a + S1x1.size a ≤ S8x32.size a
  inb_S8x32x128_S1x1x128_4_5_0 : ∀ a, (![4, 5, 0] : Fin 3 → Nat) a + S1x1x128.size a ≤ S8x32x128.size a
  inb_S8x32_S1x1_4_7 : ∀ a, (![4, 7] : Fin 2 → Nat) a + S1x1.size a ≤ S8x32.size a
  inb_S8x32x128_S1x1x128_4_6_0 : ∀ a, (![4, 6, 0] : Fin 3 → Nat) a + S1x1x128.size a ≤ S8x32x128.size a
  inb_S8x32_S1x1_4_8 : ∀ a, (![4, 8] : Fin 2 → Nat) a + S1x1.size a ≤ S8x32.size a
  inb_S8x32x128_S1x1x128_4_7_0 : ∀ a, (![4, 7, 0] : Fin 3 → Nat) a + S1x1x128.size a ≤ S8x32x128.size a
  inb_S8x32_S1x1_4_9 : ∀ a, (![4, 9] : Fin 2 → Nat) a + S1x1.size a ≤ S8x32.size a
  inb_S8x32x128_S1x1x128_4_8_0 : ∀ a, (![4, 8, 0] : Fin 3 → Nat) a + S1x1x128.size a ≤ S8x32x128.size a
  inb_S8x32_S1x1_4_10 : ∀ a, (![4, 10] : Fin 2 → Nat) a + S1x1.size a ≤ S8x32.size a
  inb_S8x32x128_S1x1x128_4_9_0 : ∀ a, (![4, 9, 0] : Fin 3 → Nat) a + S1x1x128.size a ≤ S8x32x128.size a
  inb_S8x32_S1x1_4_11 : ∀ a, (![4, 11] : Fin 2 → Nat) a + S1x1.size a ≤ S8x32.size a
  inb_S8x32x128_S1x1x128_4_10_0 : ∀ a, (![4, 10, 0] : Fin 3 → Nat) a + S1x1x128.size a ≤ S8x32x128.size a
  inb_S8x32_S1x1_4_12 : ∀ a, (![4, 12] : Fin 2 → Nat) a + S1x1.size a ≤ S8x32.size a
  inb_S8x32x128_S1x1x128_4_11_0 : ∀ a, (![4, 11, 0] : Fin 3 → Nat) a + S1x1x128.size a ≤ S8x32x128.size a
  inb_S8x32_S1x1_4_13 : ∀ a, (![4, 13] : Fin 2 → Nat) a + S1x1.size a ≤ S8x32.size a
  inb_S8x32x128_S1x1x128_4_12_0 : ∀ a, (![4, 12, 0] : Fin 3 → Nat) a + S1x1x128.size a ≤ S8x32x128.size a
  inb_S8x32_S1x1_4_14 : ∀ a, (![4, 14] : Fin 2 → Nat) a + S1x1.size a ≤ S8x32.size a
  inb_S8x32x128_S1x1x128_4_13_0 : ∀ a, (![4, 13, 0] : Fin 3 → Nat) a + S1x1x128.size a ≤ S8x32x128.size a
  inb_S8x32_S1x1_4_15 : ∀ a, (![4, 15] : Fin 2 → Nat) a + S1x1.size a ≤ S8x32.size a
  inb_S8x32x128_S1x1x128_4_14_0 : ∀ a, (![4, 14, 0] : Fin 3 → Nat) a + S1x1x128.size a ≤ S8x32x128.size a
  inb_S8x32_S1x1_4_16 : ∀ a, (![4, 16] : Fin 2 → Nat) a + S1x1.size a ≤ S8x32.size a
  inb_S8x32x128_S1x1x128_4_15_0 : ∀ a, (![4, 15, 0] : Fin 3 → Nat) a + S1x1x128.size a ≤ S8x32x128.size a
  inb_S8x32_S1x1_4_17 : ∀ a, (![4, 17] : Fin 2 → Nat) a + S1x1.size a ≤ S8x32.size a
  inb_S8x32x128_S1x1x128_4_16_0 : ∀ a, (![4, 16, 0] : Fin 3 → Nat) a + S1x1x128.size a ≤ S8x32x128.size a
  inb_S8x32_S1x1_4_18 : ∀ a, (![4, 18] : Fin 2 → Nat) a + S1x1.size a ≤ S8x32.size a
  inb_S8x32x128_S1x1x128_4_17_0 : ∀ a, (![4, 17, 0] : Fin 3 → Nat) a + S1x1x128.size a ≤ S8x32x128.size a
  inb_S8x32_S1x1_4_19 : ∀ a, (![4, 19] : Fin 2 → Nat) a + S1x1.size a ≤ S8x32.size a
  inb_S8x32x128_S1x1x128_4_18_0 : ∀ a, (![4, 18, 0] : Fin 3 → Nat) a + S1x1x128.size a ≤ S8x32x128.size a
  inb_S8x32_S1x1_4_20 : ∀ a, (![4, 20] : Fin 2 → Nat) a + S1x1.size a ≤ S8x32.size a
  inb_S8x32x128_S1x1x128_4_19_0 : ∀ a, (![4, 19, 0] : Fin 3 → Nat) a + S1x1x128.size a ≤ S8x32x128.size a
  inb_S8x32_S1x1_4_21 : ∀ a, (![4, 21] : Fin 2 → Nat) a + S1x1.size a ≤ S8x32.size a
  inb_S8x32x128_S1x1x128_4_20_0 : ∀ a, (![4, 20, 0] : Fin 3 → Nat) a + S1x1x128.size a ≤ S8x32x128.size a
  inb_S8x32_S1x1_4_22 : ∀ a, (![4, 22] : Fin 2 → Nat) a + S1x1.size a ≤ S8x32.size a
  inb_S8x32x128_S1x1x128_4_21_0 : ∀ a, (![4, 21, 0] : Fin 3 → Nat) a + S1x1x128.size a ≤ S8x32x128.size a
  inb_S8x32_S1x1_4_23 : ∀ a, (![4, 23] : Fin 2 → Nat) a + S1x1.size a ≤ S8x32.size a
  inb_S8x32x128_S1x1x128_4_22_0 : ∀ a, (![4, 22, 0] : Fin 3 → Nat) a + S1x1x128.size a ≤ S8x32x128.size a
  inb_S8x32_S1x1_4_24 : ∀ a, (![4, 24] : Fin 2 → Nat) a + S1x1.size a ≤ S8x32.size a
  inb_S8x32x128_S1x1x128_4_23_0 : ∀ a, (![4, 23, 0] : Fin 3 → Nat) a + S1x1x128.size a ≤ S8x32x128.size a
  inb_S8x32_S1x1_4_25 : ∀ a, (![4, 25] : Fin 2 → Nat) a + S1x1.size a ≤ S8x32.size a
  inb_S8x32x128_S1x1x128_4_24_0 : ∀ a, (![4, 24, 0] : Fin 3 → Nat) a + S1x1x128.size a ≤ S8x32x128.size a
  inb_S8x32_S1x1_4_26 : ∀ a, (![4, 26] : Fin 2 → Nat) a + S1x1.size a ≤ S8x32.size a
  inb_S8x32x128_S1x1x128_4_25_0 : ∀ a, (![4, 25, 0] : Fin 3 → Nat) a + S1x1x128.size a ≤ S8x32x128.size a
  inb_S8x32_S1x1_4_27 : ∀ a, (![4, 27] : Fin 2 → Nat) a + S1x1.size a ≤ S8x32.size a
  inb_S8x32x128_S1x1x128_4_26_0 : ∀ a, (![4, 26, 0] : Fin 3 → Nat) a + S1x1x128.size a ≤ S8x32x128.size a
  inb_S8x32_S1x1_4_28 : ∀ a, (![4, 28] : Fin 2 → Nat) a + S1x1.size a ≤ S8x32.size a
  inb_S8x32x128_S1x1x128_4_27_0 : ∀ a, (![4, 27, 0] : Fin 3 → Nat) a + S1x1x128.size a ≤ S8x32x128.size a
  inb_S8x32_S1x1_4_29 : ∀ a, (![4, 29] : Fin 2 → Nat) a + S1x1.size a ≤ S8x32.size a
  inb_S8x32x128_S1x1x128_4_28_0 : ∀ a, (![4, 28, 0] : Fin 3 → Nat) a + S1x1x128.size a ≤ S8x32x128.size a
  inb_S8x32_S1x1_4_30 : ∀ a, (![4, 30] : Fin 2 → Nat) a + S1x1.size a ≤ S8x32.size a
  inb_S8x32x128_S1x1x128_4_29_0 : ∀ a, (![4, 29, 0] : Fin 3 → Nat) a + S1x1x128.size a ≤ S8x32x128.size a
  inb_S8x32_S1x1_4_31 : ∀ a, (![4, 31] : Fin 2 → Nat) a + S1x1.size a ≤ S8x32.size a
  inb_S8x32x128_S1x1x128_4_30_0 : ∀ a, (![4, 30, 0] : Fin 3 → Nat) a + S1x1x128.size a ≤ S8x32x128.size a
  inb_S8x32x128_S1x1x128_4_31_0 : ∀ a, (![4, 31, 0] : Fin 3 → Nat) a + S1x1x128.size a ≤ S8x32x128.size a
  inb_S8x32_S1x1_5_0 : ∀ a, (![5, 0] : Fin 2 → Nat) a + S1x1.size a ≤ S8x32.size a
  inb_S8x32_S1x1_5_1 : ∀ a, (![5, 1] : Fin 2 → Nat) a + S1x1.size a ≤ S8x32.size a
  inb_S8x32x128_S1x1x128_5_0_0 : ∀ a, (![5, 0, 0] : Fin 3 → Nat) a + S1x1x128.size a ≤ S8x32x128.size a
  inb_S8x32_S1x1_5_2 : ∀ a, (![5, 2] : Fin 2 → Nat) a + S1x1.size a ≤ S8x32.size a
  inb_S8x32x128_S1x1x128_5_1_0 : ∀ a, (![5, 1, 0] : Fin 3 → Nat) a + S1x1x128.size a ≤ S8x32x128.size a
  inb_S8x32_S1x1_5_3 : ∀ a, (![5, 3] : Fin 2 → Nat) a + S1x1.size a ≤ S8x32.size a
  inb_S8x32x128_S1x1x128_5_2_0 : ∀ a, (![5, 2, 0] : Fin 3 → Nat) a + S1x1x128.size a ≤ S8x32x128.size a
  inb_S8x32_S1x1_5_4 : ∀ a, (![5, 4] : Fin 2 → Nat) a + S1x1.size a ≤ S8x32.size a
  inb_S8x32x128_S1x1x128_5_3_0 : ∀ a, (![5, 3, 0] : Fin 3 → Nat) a + S1x1x128.size a ≤ S8x32x128.size a
  inb_S8x32_S1x1_5_5 : ∀ a, (![5, 5] : Fin 2 → Nat) a + S1x1.size a ≤ S8x32.size a
  inb_S8x32x128_S1x1x128_5_4_0 : ∀ a, (![5, 4, 0] : Fin 3 → Nat) a + S1x1x128.size a ≤ S8x32x128.size a
  inb_S8x32_S1x1_5_6 : ∀ a, (![5, 6] : Fin 2 → Nat) a + S1x1.size a ≤ S8x32.size a
  inb_S8x32x128_S1x1x128_5_5_0 : ∀ a, (![5, 5, 0] : Fin 3 → Nat) a + S1x1x128.size a ≤ S8x32x128.size a
  inb_S8x32_S1x1_5_7 : ∀ a, (![5, 7] : Fin 2 → Nat) a + S1x1.size a ≤ S8x32.size a
  inb_S8x32x128_S1x1x128_5_6_0 : ∀ a, (![5, 6, 0] : Fin 3 → Nat) a + S1x1x128.size a ≤ S8x32x128.size a
  inb_S8x32_S1x1_5_8 : ∀ a, (![5, 8] : Fin 2 → Nat) a + S1x1.size a ≤ S8x32.size a
  inb_S8x32x128_S1x1x128_5_7_0 : ∀ a, (![5, 7, 0] : Fin 3 → Nat) a + S1x1x128.size a ≤ S8x32x128.size a
  inb_S8x32_S1x1_5_9 : ∀ a, (![5, 9] : Fin 2 → Nat) a + S1x1.size a ≤ S8x32.size a
  inb_S8x32x128_S1x1x128_5_8_0 : ∀ a, (![5, 8, 0] : Fin 3 → Nat) a + S1x1x128.size a ≤ S8x32x128.size a
  inb_S8x32_S1x1_5_10 : ∀ a, (![5, 10] : Fin 2 → Nat) a + S1x1.size a ≤ S8x32.size a
  inb_S8x32x128_S1x1x128_5_9_0 : ∀ a, (![5, 9, 0] : Fin 3 → Nat) a + S1x1x128.size a ≤ S8x32x128.size a
  inb_S8x32_S1x1_5_11 : ∀ a, (![5, 11] : Fin 2 → Nat) a + S1x1.size a ≤ S8x32.size a
  inb_S8x32x128_S1x1x128_5_10_0 : ∀ a, (![5, 10, 0] : Fin 3 → Nat) a + S1x1x128.size a ≤ S8x32x128.size a
  inb_S8x32_S1x1_5_12 : ∀ a, (![5, 12] : Fin 2 → Nat) a + S1x1.size a ≤ S8x32.size a
  inb_S8x32x128_S1x1x128_5_11_0 : ∀ a, (![5, 11, 0] : Fin 3 → Nat) a + S1x1x128.size a ≤ S8x32x128.size a
  inb_S8x32_S1x1_5_13 : ∀ a, (![5, 13] : Fin 2 → Nat) a + S1x1.size a ≤ S8x32.size a
  inb_S8x32x128_S1x1x128_5_12_0 : ∀ a, (![5, 12, 0] : Fin 3 → Nat) a + S1x1x128.size a ≤ S8x32x128.size a
  inb_S8x32_S1x1_5_14 : ∀ a, (![5, 14] : Fin 2 → Nat) a + S1x1.size a ≤ S8x32.size a
  inb_S8x32x128_S1x1x128_5_13_0 : ∀ a, (![5, 13, 0] : Fin 3 → Nat) a + S1x1x128.size a ≤ S8x32x128.size a
  inb_S8x32_S1x1_5_15 : ∀ a, (![5, 15] : Fin 2 → Nat) a + S1x1.size a ≤ S8x32.size a
  inb_S8x32x128_S1x1x128_5_14_0 : ∀ a, (![5, 14, 0] : Fin 3 → Nat) a + S1x1x128.size a ≤ S8x32x128.size a
  inb_S8x32_S1x1_5_16 : ∀ a, (![5, 16] : Fin 2 → Nat) a + S1x1.size a ≤ S8x32.size a
  inb_S8x32x128_S1x1x128_5_15_0 : ∀ a, (![5, 15, 0] : Fin 3 → Nat) a + S1x1x128.size a ≤ S8x32x128.size a
  inb_S8x32_S1x1_5_17 : ∀ a, (![5, 17] : Fin 2 → Nat) a + S1x1.size a ≤ S8x32.size a
  inb_S8x32x128_S1x1x128_5_16_0 : ∀ a, (![5, 16, 0] : Fin 3 → Nat) a + S1x1x128.size a ≤ S8x32x128.size a
  inb_S8x32_S1x1_5_18 : ∀ a, (![5, 18] : Fin 2 → Nat) a + S1x1.size a ≤ S8x32.size a
  inb_S8x32x128_S1x1x128_5_17_0 : ∀ a, (![5, 17, 0] : Fin 3 → Nat) a + S1x1x128.size a ≤ S8x32x128.size a
  inb_S8x32_S1x1_5_19 : ∀ a, (![5, 19] : Fin 2 → Nat) a + S1x1.size a ≤ S8x32.size a
  inb_S8x32x128_S1x1x128_5_18_0 : ∀ a, (![5, 18, 0] : Fin 3 → Nat) a + S1x1x128.size a ≤ S8x32x128.size a
  inb_S8x32_S1x1_5_20 : ∀ a, (![5, 20] : Fin 2 → Nat) a + S1x1.size a ≤ S8x32.size a
  inb_S8x32x128_S1x1x128_5_19_0 : ∀ a, (![5, 19, 0] : Fin 3 → Nat) a + S1x1x128.size a ≤ S8x32x128.size a
  inb_S8x32_S1x1_5_21 : ∀ a, (![5, 21] : Fin 2 → Nat) a + S1x1.size a ≤ S8x32.size a
  inb_S8x32x128_S1x1x128_5_20_0 : ∀ a, (![5, 20, 0] : Fin 3 → Nat) a + S1x1x128.size a ≤ S8x32x128.size a
  inb_S8x32_S1x1_5_22 : ∀ a, (![5, 22] : Fin 2 → Nat) a + S1x1.size a ≤ S8x32.size a
  inb_S8x32x128_S1x1x128_5_21_0 : ∀ a, (![5, 21, 0] : Fin 3 → Nat) a + S1x1x128.size a ≤ S8x32x128.size a
  inb_S8x32_S1x1_5_23 : ∀ a, (![5, 23] : Fin 2 → Nat) a + S1x1.size a ≤ S8x32.size a
  inb_S8x32x128_S1x1x128_5_22_0 : ∀ a, (![5, 22, 0] : Fin 3 → Nat) a + S1x1x128.size a ≤ S8x32x128.size a
  inb_S8x32_S1x1_5_24 : ∀ a, (![5, 24] : Fin 2 → Nat) a + S1x1.size a ≤ S8x32.size a
  inb_S8x32x128_S1x1x128_5_23_0 : ∀ a, (![5, 23, 0] : Fin 3 → Nat) a + S1x1x128.size a ≤ S8x32x128.size a
  inb_S8x32_S1x1_5_25 : ∀ a, (![5, 25] : Fin 2 → Nat) a + S1x1.size a ≤ S8x32.size a
  inb_S8x32x128_S1x1x128_5_24_0 : ∀ a, (![5, 24, 0] : Fin 3 → Nat) a + S1x1x128.size a ≤ S8x32x128.size a
  inb_S8x32_S1x1_5_26 : ∀ a, (![5, 26] : Fin 2 → Nat) a + S1x1.size a ≤ S8x32.size a
  inb_S8x32x128_S1x1x128_5_25_0 : ∀ a, (![5, 25, 0] : Fin 3 → Nat) a + S1x1x128.size a ≤ S8x32x128.size a
  inb_S8x32_S1x1_5_27 : ∀ a, (![5, 27] : Fin 2 → Nat) a + S1x1.size a ≤ S8x32.size a
  inb_S8x32x128_S1x1x128_5_26_0 : ∀ a, (![5, 26, 0] : Fin 3 → Nat) a + S1x1x128.size a ≤ S8x32x128.size a
  inb_S8x32_S1x1_5_28 : ∀ a, (![5, 28] : Fin 2 → Nat) a + S1x1.size a ≤ S8x32.size a
  inb_S8x32x128_S1x1x128_5_27_0 : ∀ a, (![5, 27, 0] : Fin 3 → Nat) a + S1x1x128.size a ≤ S8x32x128.size a
  inb_S8x32_S1x1_5_29 : ∀ a, (![5, 29] : Fin 2 → Nat) a + S1x1.size a ≤ S8x32.size a
  inb_S8x32x128_S1x1x128_5_28_0 : ∀ a, (![5, 28, 0] : Fin 3 → Nat) a + S1x1x128.size a ≤ S8x32x128.size a
  inb_S8x32_S1x1_5_30 : ∀ a, (![5, 30] : Fin 2 → Nat) a + S1x1.size a ≤ S8x32.size a
  inb_S8x32x128_S1x1x128_5_29_0 : ∀ a, (![5, 29, 0] : Fin 3 → Nat) a + S1x1x128.size a ≤ S8x32x128.size a
  inb_S8x32_S1x1_5_31 : ∀ a, (![5, 31] : Fin 2 → Nat) a + S1x1.size a ≤ S8x32.size a
  inb_S8x32x128_S1x1x128_5_30_0 : ∀ a, (![5, 30, 0] : Fin 3 → Nat) a + S1x1x128.size a ≤ S8x32x128.size a
  inb_S8x32x128_S1x1x128_5_31_0 : ∀ a, (![5, 31, 0] : Fin 3 → Nat) a + S1x1x128.size a ≤ S8x32x128.size a
  inb_S8x32_S1x1_6_0 : ∀ a, (![6, 0] : Fin 2 → Nat) a + S1x1.size a ≤ S8x32.size a
  inb_S8x32_S1x1_6_1 : ∀ a, (![6, 1] : Fin 2 → Nat) a + S1x1.size a ≤ S8x32.size a
  inb_S8x32x128_S1x1x128_6_0_0 : ∀ a, (![6, 0, 0] : Fin 3 → Nat) a + S1x1x128.size a ≤ S8x32x128.size a
  inb_S8x32_S1x1_6_2 : ∀ a, (![6, 2] : Fin 2 → Nat) a + S1x1.size a ≤ S8x32.size a
  inb_S8x32x128_S1x1x128_6_1_0 : ∀ a, (![6, 1, 0] : Fin 3 → Nat) a + S1x1x128.size a ≤ S8x32x128.size a
  inb_S8x32_S1x1_6_3 : ∀ a, (![6, 3] : Fin 2 → Nat) a + S1x1.size a ≤ S8x32.size a
  inb_S8x32x128_S1x1x128_6_2_0 : ∀ a, (![6, 2, 0] : Fin 3 → Nat) a + S1x1x128.size a ≤ S8x32x128.size a
  inb_S8x32_S1x1_6_4 : ∀ a, (![6, 4] : Fin 2 → Nat) a + S1x1.size a ≤ S8x32.size a
  inb_S8x32x128_S1x1x128_6_3_0 : ∀ a, (![6, 3, 0] : Fin 3 → Nat) a + S1x1x128.size a ≤ S8x32x128.size a
  inb_S8x32_S1x1_6_5 : ∀ a, (![6, 5] : Fin 2 → Nat) a + S1x1.size a ≤ S8x32.size a
  inb_S8x32x128_S1x1x128_6_4_0 : ∀ a, (![6, 4, 0] : Fin 3 → Nat) a + S1x1x128.size a ≤ S8x32x128.size a
  inb_S8x32_S1x1_6_6 : ∀ a, (![6, 6] : Fin 2 → Nat) a + S1x1.size a ≤ S8x32.size a
  inb_S8x32x128_S1x1x128_6_5_0 : ∀ a, (![6, 5, 0] : Fin 3 → Nat) a + S1x1x128.size a ≤ S8x32x128.size a
  inb_S8x32_S1x1_6_7 : ∀ a, (![6, 7] : Fin 2 → Nat) a + S1x1.size a ≤ S8x32.size a
  inb_S8x32x128_S1x1x128_6_6_0 : ∀ a, (![6, 6, 0] : Fin 3 → Nat) a + S1x1x128.size a ≤ S8x32x128.size a
  inb_S8x32_S1x1_6_8 : ∀ a, (![6, 8] : Fin 2 → Nat) a + S1x1.size a ≤ S8x32.size a
  inb_S8x32x128_S1x1x128_6_7_0 : ∀ a, (![6, 7, 0] : Fin 3 → Nat) a + S1x1x128.size a ≤ S8x32x128.size a
  inb_S8x32_S1x1_6_9 : ∀ a, (![6, 9] : Fin 2 → Nat) a + S1x1.size a ≤ S8x32.size a
  inb_S8x32x128_S1x1x128_6_8_0 : ∀ a, (![6, 8, 0] : Fin 3 → Nat) a + S1x1x128.size a ≤ S8x32x128.size a
  inb_S8x32_S1x1_6_10 : ∀ a, (![6, 10] : Fin 2 → Nat) a + S1x1.size a ≤ S8x32.size a
  inb_S8x32x128_S1x1x128_6_9_0 : ∀ a, (![6, 9, 0] : Fin 3 → Nat) a + S1x1x128.size a ≤ S8x32x128.size a
  inb_S8x32_S1x1_6_11 : ∀ a, (![6, 11] : Fin 2 → Nat) a + S1x1.size a ≤ S8x32.size a
  inb_S8x32x128_S1x1x128_6_10_0 : ∀ a, (![6, 10, 0] : Fin 3 → Nat) a + S1x1x128.size a ≤ S8x32x128.size a
  inb_S8x32_S1x1_6_12 : ∀ a, (![6, 12] : Fin 2 → Nat) a + S1x1.size a ≤ S8x32.size a
  inb_S8x32x128_S1x1x128_6_11_0 : ∀ a, (![6, 11, 0] : Fin 3 → Nat) a + S1x1x128.size a ≤ S8x32x128.size a
  inb_S8x32_S1x1_6_13 : ∀ a, (![6, 13] : Fin 2 → Nat) a + S1x1.size a ≤ S8x32.size a
  inb_S8x32x128_S1x1x128_6_12_0 : ∀ a, (![6, 12, 0] : Fin 3 → Nat) a + S1x1x128.size a ≤ S8x32x128.size a
  inb_S8x32_S1x1_6_14 : ∀ a, (![6, 14] : Fin 2 → Nat) a + S1x1.size a ≤ S8x32.size a
  inb_S8x32x128_S1x1x128_6_13_0 : ∀ a, (![6, 13, 0] : Fin 3 → Nat) a + S1x1x128.size a ≤ S8x32x128.size a
  inb_S8x32_S1x1_6_15 : ∀ a, (![6, 15] : Fin 2 → Nat) a + S1x1.size a ≤ S8x32.size a
  inb_S8x32x128_S1x1x128_6_14_0 : ∀ a, (![6, 14, 0] : Fin 3 → Nat) a + S1x1x128.size a ≤ S8x32x128.size a
  inb_S8x32_S1x1_6_16 : ∀ a, (![6, 16] : Fin 2 → Nat) a + S1x1.size a ≤ S8x32.size a
  inb_S8x32x128_S1x1x128_6_15_0 : ∀ a, (![6, 15, 0] : Fin 3 → Nat) a + S1x1x128.size a ≤ S8x32x128.size a
  inb_S8x32_S1x1_6_17 : ∀ a, (![6, 17] : Fin 2 → Nat) a + S1x1.size a ≤ S8x32.size a
  inb_S8x32x128_S1x1x128_6_16_0 : ∀ a, (![6, 16, 0] : Fin 3 → Nat) a + S1x1x128.size a ≤ S8x32x128.size a
  inb_S8x32_S1x1_6_18 : ∀ a, (![6, 18] : Fin 2 → Nat) a + S1x1.size a ≤ S8x32.size a
  inb_S8x32x128_S1x1x128_6_17_0 : ∀ a, (![6, 17, 0] : Fin 3 → Nat) a + S1x1x128.size a ≤ S8x32x128.size a
  inb_S8x32_S1x1_6_19 : ∀ a, (![6, 19] : Fin 2 → Nat) a + S1x1.size a ≤ S8x32.size a
  inb_S8x32x128_S1x1x128_6_18_0 : ∀ a, (![6, 18, 0] : Fin 3 → Nat) a + S1x1x128.size a ≤ S8x32x128.size a
  inb_S8x32_S1x1_6_20 : ∀ a, (![6, 20] : Fin 2 → Nat) a + S1x1.size a ≤ S8x32.size a
  inb_S8x32x128_S1x1x128_6_19_0 : ∀ a, (![6, 19, 0] : Fin 3 → Nat) a + S1x1x128.size a ≤ S8x32x128.size a
  inb_S8x32_S1x1_6_21 : ∀ a, (![6, 21] : Fin 2 → Nat) a + S1x1.size a ≤ S8x32.size a
  inb_S8x32x128_S1x1x128_6_20_0 : ∀ a, (![6, 20, 0] : Fin 3 → Nat) a + S1x1x128.size a ≤ S8x32x128.size a
  inb_S8x32_S1x1_6_22 : ∀ a, (![6, 22] : Fin 2 → Nat) a + S1x1.size a ≤ S8x32.size a
  inb_S8x32x128_S1x1x128_6_21_0 : ∀ a, (![6, 21, 0] : Fin 3 → Nat) a + S1x1x128.size a ≤ S8x32x128.size a
  inb_S8x32_S1x1_6_23 : ∀ a, (![6, 23] : Fin 2 → Nat) a + S1x1.size a ≤ S8x32.size a
  inb_S8x32x128_S1x1x128_6_22_0 : ∀ a, (![6, 22, 0] : Fin 3 → Nat) a + S1x1x128.size a ≤ S8x32x128.size a
  inb_S8x32_S1x1_6_24 : ∀ a, (![6, 24] : Fin 2 → Nat) a + S1x1.size a ≤ S8x32.size a
  inb_S8x32x128_S1x1x128_6_23_0 : ∀ a, (![6, 23, 0] : Fin 3 → Nat) a + S1x1x128.size a ≤ S8x32x128.size a
  inb_S8x32_S1x1_6_25 : ∀ a, (![6, 25] : Fin 2 → Nat) a + S1x1.size a ≤ S8x32.size a
  inb_S8x32x128_S1x1x128_6_24_0 : ∀ a, (![6, 24, 0] : Fin 3 → Nat) a + S1x1x128.size a ≤ S8x32x128.size a
  inb_S8x32_S1x1_6_26 : ∀ a, (![6, 26] : Fin 2 → Nat) a + S1x1.size a ≤ S8x32.size a
  inb_S8x32x128_S1x1x128_6_25_0 : ∀ a, (![6, 25, 0] : Fin 3 → Nat) a + S1x1x128.size a ≤ S8x32x128.size a
  inb_S8x32_S1x1_6_27 : ∀ a, (![6, 27] : Fin 2 → Nat) a + S1x1.size a ≤ S8x32.size a
  inb_S8x32x128_S1x1x128_6_26_0 : ∀ a, (![6, 26, 0] : Fin 3 → Nat) a + S1x1x128.size a ≤ S8x32x128.size a
  inb_S8x32_S1x1_6_28 : ∀ a, (![6, 28] : Fin 2 → Nat) a + S1x1.size a ≤ S8x32.size a
  inb_S8x32x128_S1x1x128_6_27_0 : ∀ a, (![6, 27, 0] : Fin 3 → Nat) a + S1x1x128.size a ≤ S8x32x128.size a
  inb_S8x32_S1x1_6_29 : ∀ a, (![6, 29] : Fin 2 → Nat) a + S1x1.size a ≤ S8x32.size a
  inb_S8x32x128_S1x1x128_6_28_0 : ∀ a, (![6, 28, 0] : Fin 3 → Nat) a + S1x1x128.size a ≤ S8x32x128.size a
  inb_S8x32_S1x1_6_30 : ∀ a, (![6, 30] : Fin 2 → Nat) a + S1x1.size a ≤ S8x32.size a
  inb_S8x32x128_S1x1x128_6_29_0 : ∀ a, (![6, 29, 0] : Fin 3 → Nat) a + S1x1x128.size a ≤ S8x32x128.size a
  inb_S8x32_S1x1_6_31 : ∀ a, (![6, 31] : Fin 2 → Nat) a + S1x1.size a ≤ S8x32.size a
  inb_S8x32x128_S1x1x128_6_30_0 : ∀ a, (![6, 30, 0] : Fin 3 → Nat) a + S1x1x128.size a ≤ S8x32x128.size a
  inb_S8x32x128_S1x1x128_6_31_0 : ∀ a, (![6, 31, 0] : Fin 3 → Nat) a + S1x1x128.size a ≤ S8x32x128.size a
  inb_S8x32_S1x1_7_0 : ∀ a, (![7, 0] : Fin 2 → Nat) a + S1x1.size a ≤ S8x32.size a
  inb_S8x32_S1x1_7_1 : ∀ a, (![7, 1] : Fin 2 → Nat) a + S1x1.size a ≤ S8x32.size a
  inb_S8x32x128_S1x1x128_7_0_0 : ∀ a, (![7, 0, 0] : Fin 3 → Nat) a + S1x1x128.size a ≤ S8x32x128.size a
  inb_S8x32_S1x1_7_2 : ∀ a, (![7, 2] : Fin 2 → Nat) a + S1x1.size a ≤ S8x32.size a
  inb_S8x32x128_S1x1x128_7_1_0 : ∀ a, (![7, 1, 0] : Fin 3 → Nat) a + S1x1x128.size a ≤ S8x32x128.size a
  inb_S8x32_S1x1_7_3 : ∀ a, (![7, 3] : Fin 2 → Nat) a + S1x1.size a ≤ S8x32.size a
  inb_S8x32x128_S1x1x128_7_2_0 : ∀ a, (![7, 2, 0] : Fin 3 → Nat) a + S1x1x128.size a ≤ S8x32x128.size a
  inb_S8x32_S1x1_7_4 : ∀ a, (![7, 4] : Fin 2 → Nat) a + S1x1.size a ≤ S8x32.size a
  inb_S8x32x128_S1x1x128_7_3_0 : ∀ a, (![7, 3, 0] : Fin 3 → Nat) a + S1x1x128.size a ≤ S8x32x128.size a
  inb_S8x32_S1x1_7_5 : ∀ a, (![7, 5] : Fin 2 → Nat) a + S1x1.size a ≤ S8x32.size a
  inb_S8x32x128_S1x1x128_7_4_0 : ∀ a, (![7, 4, 0] : Fin 3 → Nat) a + S1x1x128.size a ≤ S8x32x128.size a
  inb_S8x32_S1x1_7_6 : ∀ a, (![7, 6] : Fin 2 → Nat) a + S1x1.size a ≤ S8x32.size a
  inb_S8x32x128_S1x1x128_7_5_0 : ∀ a, (![7, 5, 0] : Fin 3 → Nat) a + S1x1x128.size a ≤ S8x32x128.size a
  inb_S8x32_S1x1_7_7 : ∀ a, (![7, 7] : Fin 2 → Nat) a + S1x1.size a ≤ S8x32.size a
  inb_S8x32x128_S1x1x128_7_6_0 : ∀ a, (![7, 6, 0] : Fin 3 → Nat) a + S1x1x128.size a ≤ S8x32x128.size a
  inb_S8x32_S1x1_7_8 : ∀ a, (![7, 8] : Fin 2 → Nat) a + S1x1.size a ≤ S8x32.size a
  inb_S8x32x128_S1x1x128_7_7_0 : ∀ a, (![7, 7, 0] : Fin 3 → Nat) a + S1x1x128.size a ≤ S8x32x128.size a
  inb_S8x32_S1x1_7_9 : ∀ a, (![7, 9] : Fin 2 → Nat) a + S1x1.size a ≤ S8x32.size a
  inb_S8x32x128_S1x1x128_7_8_0 : ∀ a, (![7, 8, 0] : Fin 3 → Nat) a + S1x1x128.size a ≤ S8x32x128.size a
  inb_S8x32_S1x1_7_10 : ∀ a, (![7, 10] : Fin 2 → Nat) a + S1x1.size a ≤ S8x32.size a
  inb_S8x32x128_S1x1x128_7_9_0 : ∀ a, (![7, 9, 0] : Fin 3 → Nat) a + S1x1x128.size a ≤ S8x32x128.size a
  inb_S8x32_S1x1_7_11 : ∀ a, (![7, 11] : Fin 2 → Nat) a + S1x1.size a ≤ S8x32.size a
  inb_S8x32x128_S1x1x128_7_10_0 : ∀ a, (![7, 10, 0] : Fin 3 → Nat) a + S1x1x128.size a ≤ S8x32x128.size a
  inb_S8x32_S1x1_7_12 : ∀ a, (![7, 12] : Fin 2 → Nat) a + S1x1.size a ≤ S8x32.size a
  inb_S8x32x128_S1x1x128_7_11_0 : ∀ a, (![7, 11, 0] : Fin 3 → Nat) a + S1x1x128.size a ≤ S8x32x128.size a
  inb_S8x32_S1x1_7_13 : ∀ a, (![7, 13] : Fin 2 → Nat) a + S1x1.size a ≤ S8x32.size a
  inb_S8x32x128_S1x1x128_7_12_0 : ∀ a, (![7, 12, 0] : Fin 3 → Nat) a + S1x1x128.size a ≤ S8x32x128.size a
  inb_S8x32_S1x1_7_14 : ∀ a, (![7, 14] : Fin 2 → Nat) a + S1x1.size a ≤ S8x32.size a
  inb_S8x32x128_S1x1x128_7_13_0 : ∀ a, (![7, 13, 0] : Fin 3 → Nat) a + S1x1x128.size a ≤ S8x32x128.size a
  inb_S8x32_S1x1_7_15 : ∀ a, (![7, 15] : Fin 2 → Nat) a + S1x1.size a ≤ S8x32.size a
  inb_S8x32x128_S1x1x128_7_14_0 : ∀ a, (![7, 14, 0] : Fin 3 → Nat) a + S1x1x128.size a ≤ S8x32x128.size a
  inb_S8x32_S1x1_7_16 : ∀ a, (![7, 16] : Fin 2 → Nat) a + S1x1.size a ≤ S8x32.size a
  inb_S8x32x128_S1x1x128_7_15_0 : ∀ a, (![7, 15, 0] : Fin 3 → Nat) a + S1x1x128.size a ≤ S8x32x128.size a
  inb_S8x32_S1x1_7_17 : ∀ a, (![7, 17] : Fin 2 → Nat) a + S1x1.size a ≤ S8x32.size a
  inb_S8x32x128_S1x1x128_7_16_0 : ∀ a, (![7, 16, 0] : Fin 3 → Nat) a + S1x1x128.size a ≤ S8x32x128.size a
  inb_S8x32_S1x1_7_18 : ∀ a, (![7, 18] : Fin 2 → Nat) a + S1x1.size a ≤ S8x32.size a
  inb_S8x32x128_S1x1x128_7_17_0 : ∀ a, (![7, 17, 0] : Fin 3 → Nat) a + S1x1x128.size a ≤ S8x32x128.size a
  inb_S8x32_S1x1_7_19 : ∀ a, (![7, 19] : Fin 2 → Nat) a + S1x1.size a ≤ S8x32.size a
  inb_S8x32x128_S1x1x128_7_18_0 : ∀ a, (![7, 18, 0] : Fin 3 → Nat) a + S1x1x128.size a ≤ S8x32x128.size a
  inb_S8x32_S1x1_7_20 : ∀ a, (![7, 20] : Fin 2 → Nat) a + S1x1.size a ≤ S8x32.size a
  inb_S8x32x128_S1x1x128_7_19_0 : ∀ a, (![7, 19, 0] : Fin 3 → Nat) a + S1x1x128.size a ≤ S8x32x128.size a
  inb_S8x32_S1x1_7_21 : ∀ a, (![7, 21] : Fin 2 → Nat) a + S1x1.size a ≤ S8x32.size a
  inb_S8x32x128_S1x1x128_7_20_0 : ∀ a, (![7, 20, 0] : Fin 3 → Nat) a + S1x1x128.size a ≤ S8x32x128.size a
  inb_S8x32_S1x1_7_22 : ∀ a, (![7, 22] : Fin 2 → Nat) a + S1x1.size a ≤ S8x32.size a
  inb_S8x32x128_S1x1x128_7_21_0 : ∀ a, (![7, 21, 0] : Fin 3 → Nat) a + S1x1x128.size a ≤ S8x32x128.size a
  inb_S8x32_S1x1_7_23 : ∀ a, (![7, 23] : Fin 2 → Nat) a + S1x1.size a ≤ S8x32.size a
  inb_S8x32x128_S1x1x128_7_22_0 : ∀ a, (![7, 22, 0] : Fin 3 → Nat) a + S1x1x128.size a ≤ S8x32x128.size a
  inb_S8x32_S1x1_7_24 : ∀ a, (![7, 24] : Fin 2 → Nat) a + S1x1.size a ≤ S8x32.size a
  inb_S8x32x128_S1x1x128_7_23_0 : ∀ a, (![7, 23, 0] : Fin 3 → Nat) a + S1x1x128.size a ≤ S8x32x128.size a
  inb_S8x32_S1x1_7_25 : ∀ a, (![7, 25] : Fin 2 → Nat) a + S1x1.size a ≤ S8x32.size a
  inb_S8x32x128_S1x1x128_7_24_0 : ∀ a, (![7, 24, 0] : Fin 3 → Nat) a + S1x1x128.size a ≤ S8x32x128.size a
  inb_S8x32_S1x1_7_26 : ∀ a, (![7, 26] : Fin 2 → Nat) a + S1x1.size a ≤ S8x32.size a
  inb_S8x32x128_S1x1x128_7_25_0 : ∀ a, (![7, 25, 0] : Fin 3 → Nat) a + S1x1x128.size a ≤ S8x32x128.size a
  inb_S8x32_S1x1_7_27 : ∀ a, (![7, 27] : Fin 2 → Nat) a + S1x1.size a ≤ S8x32.size a
  inb_S8x32x128_S1x1x128_7_26_0 : ∀ a, (![7, 26, 0] : Fin 3 → Nat) a + S1x1x128.size a ≤ S8x32x128.size a
  inb_S8x32_S1x1_7_28 : ∀ a, (![7, 28] : Fin 2 → Nat) a + S1x1.size a ≤ S8x32.size a
  inb_S8x32x128_S1x1x128_7_27_0 : ∀ a, (![7, 27, 0] : Fin 3 → Nat) a + S1x1x128.size a ≤ S8x32x128.size a
  inb_S8x32_S1x1_7_29 : ∀ a, (![7, 29] : Fin 2 → Nat) a + S1x1.size a ≤ S8x32.size a
  inb_S8x32x128_S1x1x128_7_28_0 : ∀ a, (![7, 28, 0] : Fin 3 → Nat) a + S1x1x128.size a ≤ S8x32x128.size a
  inb_S8x32_S1x1_7_30 : ∀ a, (![7, 30] : Fin 2 → Nat) a + S1x1.size a ≤ S8x32.size a
  inb_S8x32x128_S1x1x128_7_29_0 : ∀ a, (![7, 29, 0] : Fin 3 → Nat) a + S1x1x128.size a ≤ S8x32x128.size a
  inb_S8x32_S1x1_7_31 : ∀ a, (![7, 31] : Fin 2 → Nat) a + S1x1.size a ≤ S8x32.size a
  inb_S8x32x128_S1x1x128_7_30_0 : ∀ a, (![7, 30, 0] : Fin 3 → Nat) a + S1x1x128.size a ≤ S8x32x128.size a
  inb_S8x32x128_S1x1x128_7_31_0 : ∀ a, (![7, 31, 0] : Fin 3 → Nat) a + S1x1x128.size a ≤ S8x32x128.size a
  dot_S5000x128_S128x128_S5000x128_1_0_0_1_n_n_wf : DotDims.WF S5000x128 S128x128 S5000x128 [1] [0] [0] [1] [] []
  gather_S50000x32_S50000x32x1_S50000x32_n_1_0_0_1_2_11_wf : GatherDims.WF S50000x32 S50000x32x1 S50000x32 [] [1] [0] [1] [0] 2 ![1, 1]
  hcc1_scratch1 : 12 + S2.numel ≤ 14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32.size a ≤ S50000x32.size a
  hwx1_0 : ∀ i : grid1.Coords, EltTy.bits .i32 = 32 ∨ (Rect.block (s := S50000x32) S8x32.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32.size a ≤ S50000x32.size a
  hwx1_1 : ∀ i : grid1.Coords, EltTy.bits .i32 = 32 ∨ (Rect.block (s := S50000x32) S8x32.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S8x32x128.size a ≤ S50000x32x128.size a
  hwx1_2 : ∀ i : grid1.Coords, EltTy.bits .f32 = 32 ∨ (Rect.block (s := S50000x32x128) S8x32x128.size (cc1_transform_3 i) (hinb1_2 i)).WholeWords (EltTy.packing .f32)

variable [Facts₀]

abbrev cc1_scratch1 : DmaSems sig S2 := SemArray.consecutive 12 S2 hcc1_scratch1
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def comparator_i32_i32_d1 : BitVec 32 × BitVec 32 → BitVec 32 × BitVec 32 → BitVec 1 :=
  fun l r =>
    let v2 := IntOp.cmpi .slt l.1 r.1
    v2
def gather_S50000x32_S50000x32x1_S50000x32_n_1_0_0_1_2_11 : GatherDims S50000x32 S50000x32x1 S50000x32 where
  offsetDims := []
  collapsedSliceDims := [1]
  operandBatchingDims := [0]
  startIndicesBatchingDims := [0]
  startIndexMap := [1]
  indexVectorDim := 2
  sliceSizes := ![1, 1]
  wf := gather_S50000x32_S50000x32x1_S50000x32_n_1_0_0_1_2_11_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S8x32x128.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000x32x1 : Shape := ⟨3, ![50000, 32, 1]⟩
abbrev S1 : Shape := ⟨1, ![1]⟩
abbrev S1x1x1 : Shape := ⟨3, ![1, 1, 1]⟩
abbrev S50000 : Shape := ⟨1, ![50000]⟩
abbrev S32 : Shape := ⟨1, ![32]⟩
abbrev S1x32 : Shape := ⟨2, ![1, 32]⟩
abbrev S50000x1 : Shape := ⟨2, ![50000, 1]⟩
abbrev S50000x32x128 : Shape := ⟨3, ![50000, 32, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S50000x32, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S_, .i32⟩
  | .hbm, ⟨11, _⟩ => ⟨S_, .i32⟩
  | .hbm, ⟨12, _⟩ => ⟨S50000x32, .i32⟩
  | .hbm, ⟨13, _⟩ => ⟨S50000x32, .i32⟩
  | .hbm, ⟨14, _⟩ => ⟨S50000x32, .i32⟩
  | .hbm, ⟨15, _⟩ => ⟨S50000x32, .i32⟩
  | .hbm, ⟨16, _⟩ => ⟨S50000x32, .i32⟩
  | .hbm, ⟨17, _⟩ => ⟨S50000x32, .i32⟩
  | .hbm, ⟨18, _⟩ => ⟨S_, .i32⟩
  | .hbm, ⟨19, _⟩ => ⟨S50000x32, .i32⟩
  | .hbm, ⟨20, _⟩ => ⟨S50000x32, .i1⟩
  | .hbm, ⟨21, _⟩ => ⟨S_, .i32⟩
  | .hbm, ⟨22, _⟩ => ⟨S50000x32, .i32⟩
  | .hbm, ⟨23, _⟩ => ⟨S50000x32, .i32⟩
  | .hbm, ⟨24, _⟩ => ⟨S50000x32, .i32⟩
  | .hbm, ⟨25, _⟩ => ⟨S50000x32x1, .i32⟩
  | .hbm, ⟨26, _⟩ => ⟨S1, .i32⟩
  | .hbm, ⟨27, _⟩ => ⟨S_, .i32⟩
  | .hbm, ⟨28, _⟩ => ⟨S50000x32x1, .i32⟩
  | .hbm, ⟨29, _⟩ => ⟨S50000x32x1, .i1⟩
  | .hbm, ⟨30, _⟩ => ⟨S1x1x1, .i32⟩
  | .hbm, ⟨31, _⟩ => ⟨S50000x32x1, .i32⟩
  | .hbm, ⟨32, _⟩ => ⟨S50000x32x1, .i1⟩
  | .hbm, ⟨33, _⟩ => ⟨S50000x32x1, .i1⟩
  | .hbm, ⟨34, _⟩ => ⟨S_, .i1⟩
  | .hbm, ⟨35, _⟩ => ⟨S50000x32, .i1⟩
  | .hbm, ⟨36, _⟩ => ⟨S50000x32, .i32⟩
  | .hbm, ⟨37, _⟩ => ⟨S_, .i32⟩
  | .hbm, ⟨38, _⟩ => ⟨S50000x32, .i32⟩
  | .hbm, ⟨39, _⟩ => ⟨S50000x32, .i32⟩
  | .hbm, ⟨40, _⟩ => ⟨S50000x32, .i32⟩
  | .hbm, ⟨41, _⟩ => ⟨S_, .i32⟩
  | .hbm, ⟨42, _⟩ => ⟨S50000, .i32⟩
  | .hbm, ⟨43, _⟩ => ⟨S32, .i32⟩
  | .hbm, ⟨44, _⟩ => ⟨S1x32, .i32⟩
  | .hbm, ⟨45, _⟩ => ⟨S50000x1, .i32⟩
  | .hbm, ⟨46, _⟩ => ⟨S50000x32, .i32⟩
  | .hbm, ⟨47, _⟩ => ⟨S50000x32, .i32⟩
  | .hbm, ⟨48, _⟩ => ⟨S50000x32, .i1⟩
  | .hbm, ⟨49, _⟩ => ⟨S50000x32x1, .i1⟩
  | .hbm, ⟨50, _⟩ => ⟨S_, .i32⟩
  | .hbm, ⟨51, _⟩ => ⟨S50000x32, .i32⟩
  | .hbm, ⟨52, _⟩ => ⟨S50000x32, .i1⟩
  | .hbm, ⟨53, _⟩ => ⟨S_, .i32⟩
  | .hbm, ⟨54, _⟩ => ⟨S50000x32, .i32⟩
  | .hbm, ⟨55, _⟩ => ⟨S50000x32, .i32⟩
  | .hbm, ⟨56, _⟩ => ⟨S50000x32, .i32⟩
  | .hbm, ⟨57, _⟩ => ⟨S50000x32x1, .i32⟩
  | .hbm, ⟨58, _⟩ => ⟨S50000x32x128, .f32⟩
  | .hbm, ⟨59, _⟩ => ⟨S_, .f32⟩
  | .hbm, ⟨60, _⟩ => ⟨S_, .f32⟩
  | .hbm, ⟨61, _⟩ => ⟨S50000x32x128, .i1⟩
  | .hbm, ⟨62, _⟩ => ⟨S50000x32x128, .f32⟩
  | .hbm, ⟨63, _⟩ => ⟨S50000x32x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_call1_v0 : Ref sig .tc := ⟨.hbm, 15, rfl⟩
abbrev main_call1_v1_0 : Ref sig .tc := ⟨.hbm, 16, rfl⟩
abbrev main_v6 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_c_4 : Ref sig .tc := ⟨.hbm, 37, rfl⟩
abbrev main_call2_v14 : Ref sig .tc := ⟨.hbm, 38, rfl⟩
abbrev main_v7 : Ref sig .tc := ⟨.hbm, 39, rfl⟩
abbrev main_v8 : Ref sig .tc := ⟨.hbm, 40, rfl⟩
abbrev main_c_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_2 : Ref sig .tc := ⟨.hbm, 50, rfl⟩
abbrev main_v17 : Ref sig .tc := ⟨.hbm, 51, rfl⟩
abbrev main_v18 : Ref sig .tc := ⟨.hbm, 52, rfl⟩
abbrev main_c_3 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v24 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x32 : S_.BroadcastsInDim S50000x32 (![] : Fin 0 → Fin S50000x32.rank)
  shapeCasts_S50000x32_S50000x32x1 : S50000x32.ShapeCasts S50000x32x1
  bcast_S_S50000x32x1 : S_.BroadcastsInDim S50000x32x1 (![] : Fin 0 → Fin S50000x32x1.rank)
  bcast_S1_S1x1x1_2 : S1.BroadcastsInDim S1x1x1 (![2] : Fin 1 → Fin S1x1x1.rank)
  bcast_S1x1x1_S50000x32x1_0_1_2 : S1x1x1.BroadcastsInDim S50000x32x1 (![0, 1, 2] : Fin 3 → Fin S50000x32x1.rank)
  reducesTo_S50000x32x1_S50000x32_d2 : S50000x32x1.ReducesTo [2] S50000x32
  h_S_ : 0 < S_.numel
  natLt_1_32 : 1 < 32
  reducesTo_S50000x32_S50000_d1 : S50000x32.ReducesTo [1] S50000
  bcast_S32_S1x32_1 : S32.BroadcastsInDim S1x32 (![1] : Fin 1 → Fin S1x32.rank)
  bcast_S50000_S50000x1_0 : S50000.BroadcastsInDim S50000x1 (![0] : Fin 1 → Fin S50000x1.rank)
  bcast_S1x32_S50000x32_0_1 : S1x32.BroadcastsInDim S50000x32 (![0, 1] : Fin 2 → Fin S50000x32.rank)
  bcast_S50000x1_S50000x32_0_1 : S50000x1.BroadcastsInDim S50000x32 (![0, 1] : Fin 2 → Fin S50000x32.rank)
  bcast_S50000x32_S50000x32x1_0_1 : S50000x32.BroadcastsInDim S50000x32x1 (![0, 1] : Fin 2 → Fin S50000x32x1.rank)
  bcast_S50000x32x1_S50000x32x128_0_1_2 : S50000x32x1.BroadcastsInDim S50000x32x128 (![0, 1, 2] : Fin 3 → Fin S50000x32x128.rank)
  bcast_S_S50000x32x128 : S_.BroadcastsInDim S50000x32x128 (![] : Fin 0 → Fin S50000x32x128.rank)
  dot_S50000x128_S128x128_S50000x128_1_0_0_1_n_n_wf : DotDims.WF S50000x128 S128x128 S50000x128 [1] [0] [0] [1] [] []
  gather_S50000x32_S50000x32x1_S50000x32_n_1_0_0_1_2_11_wf : GatherDims.WF S50000x32 S50000x32x1 S50000x32 [] [1] [0] [1] [0] 2 ![1, 1]
  gather_S50000x128_S50000x32x1_S50000x32x128_2_0_n_n_0_2_1128_wf : GatherDims.WF S50000x128 S50000x32x1 S50000x32x128 [2] [0] [] [0] [] 2 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def comparator_i32_i32_d1 : BitVec 32 × BitVec 32 → BitVec 32 × BitVec 32 → BitVec 1 :=
  fun l r =>
    let v2 := IntOp.cmpi .slt l.1 r.1
    v2
def gather_S50000x32_S50000x32x1_S50000x32_n_1_0_0_1_2_11 : GatherDims S50000x32 S50000x32x1 S50000x32 where
  offsetDims := []
  collapsedSliceDims := [1]
  operandBatchingDims := [0]
  startIndicesBatchingDims := [0]
  startIndexMap := [1]
  indexVectorDim := 2
  sliceSizes := ![1, 1]
  wf := gather_S50000x32_S50000x32x1_S50000x32_n_1_0_0_1_2_11_wf
def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf

class Facts : Prop extends Facts₀ where

variable [Facts]
-- ==== Proof.K.Body0.lean ====
import proofs.«405686_j2499670966883_2_alg».proof.Proof.Gen.Kernel.Launch
import proofs.«405686_j2499670966883_2_alg».proof.Proof.Gen.Kernel.Skeleton
import proofs.«405686_j2499670966883_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The linear call (the first kernel region) at the region-entry contents `V` -/

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: at an unfetched point the block index has
    not moved, the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: at an unfetched point the block index has
    not moved, the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: at an unfetched point the block index has
    not moved, the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its block -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output block -/

/-- The output block after the body, from the three input blocks: one store of the whole block, whose value is
    the rounded product of the row block with the weights plus the bias row. -/
def out0_3 (x0 : Vec F S5000x128 .f32) (x1 : Vec F S128x128 .f32) (x2 : Vec F S1x128 .f32) : Vec F S5000x128 .f32 :=
  View.canon [⟨r0_x, k0_pay1 (View.ld x0 r0_x) (View.ld x1 r0_w) (View.ld x2 r0_b)⟩]

/-- The one store is of the whole block, so it covers it. -/
theorem cover0_3 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- The kernel body on whole staging memrefs, the inputs' at read contents and the output's at anything, runs to
    the continuation holding the inputs' as they were and the output's at `out0_3` of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the linear call on core `c`: the arrays as the region finds them; after the body at point
    `t` each input's buffer at its block and the output's at `out0_3` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Run1.lean ====
import proofs.«405686_j2499670966883_2_alg».proof.Proof.Gen.Kernel.Launch
import proofs.«405686_j2499670966883_2_alg».proof.Proof.Gen.Kernel.Skeleton
import proofs.«405686_j2499670966883_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gather body, run whole

The body walks its 8 × 32 slots in order. For slot (r, k) it reads the row number `idx[r, k]` from the index block,
copies that row of the table (the operand left in HBM) into one of two 128-lane scratch slots by a transfer of its
own, waits for it, and stores the row -- or zeros where `keep[r, k] ≤ 0` -- into lane row (r, k) of the output block.
A transfer is started only after the one before it has been waited for, so at most one is in flight; the slot it
fills is the one the body is not reading. -/

/-- A row-number word addresses a row inside the 50000-row table. -/
def InRange (v : BitVec 32) : Prop :=
  ∀ a, (![v.toNat, 0, 0] : Fin 3 → ℕ) a + S1x1x128.size a ≤ S50000x1x128.size a

/-- The table the body copies rows of, whole. -/
abbrev hbM1_0 : Memref sig .tc .hbm S50000x1x128 .f32 := Memref.whole main_v17
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

set_option maxHeartbeats 0 in
/-- What the body's 256 stores leave in the output block, as pieces (last first), with the proof that from whole
    staging memrefs -- the index block at `x0`, the keep block at `x1`, the output block and the scratch at anything,
    the two semaphores at zero, the table whole at `fh0` -- and every row number of `x0` in range (`hx`), the body runs
    to the continuation holding the blocks as they were, the scratch at some contents, the semaphores at zero again,
    the table as it was, and the output block with the pieces written. -/
noncomputable def kernelRun1 (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    { L : List (View.Piece (Elt F) S8x32x128 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ owns (c : Thread nD τ) arg5 fullShare ds0 ∗ semVal ((c : Thread nD τ), SemLoc.dma 12) 0 ∗ semVal ((c : Thread nD τ), SemLoc.dma 13) 0 ∗ hbPt1 c hbM1_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L) ∗ (∃ d, owns (c : Thread nD τ) arg5 fullShare d) ∗ semVal ((c : Thread nD τ), SemLoc.dma 12) 0 ∗ semVal ((c : Thread nD τ), SemLoc.dma 13) 0 ∗ hbPt1 c hbM1_0 fh0 ∗ (∃ W', owes (c : Thread nD τ) 0 W')) -∗ K ⟨⟩))
          ⊢ wp frame (wpE (defs₀ (F := F)) Variants.none c none) Set.univ (cc1__gather_kernel i arg1 harg1 arg2 harg2 (Memref.whole main_v17) (Memref.isWhole_whole _) arg4 harg4 arg5 harg5 cc1_scratch1) K } := by
  refine ⟨?_, fun W K => ?run⟩
  case run =>
    simp only [cc1__gather_kernel_eq_skeleton]; unfold cc1__gather_kernel_skel
    unfold owns
    iintro ⟨⟨%f0, %hf0, H0⟩, ⟨%f1, %hf1, H1⟩, ⟨%d4, %f4, -, H4⟩, ⟨%fs0, %hfs0, HS0⟩, Hq0, Hq1, Hh0, HW, Hk⟩
    obtain rfl := harg1.eq_unread hf0; obtain rfl := harg2.eq_unread hf1; obtain rfl := harg5.eq_unread hfs0
    set_option sl_exec.dmaWindow true in set_option sl_exec.dmaWindowSet true in sl_exec_parts (disch := exact hx _ _)
    try sl_step
    iapply Hk
    isplitl [H0]
    · iexists _; isplitr; · ipureintro; exact harg1.read_unread _
      iexact H0
    isplitl [H1]
    · iexists _; isplitr; · ipureintro; exact harg2.read_unread _
      iexact H1
    isplitl [H4]; · iexists _; iexact H4
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.Kernel.Hand

end
-- ==== Proof.K.SlotRead.lean ====
import proofs.«405686_j2499670966883_2_alg».proof.Proof.K.Run1
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix1 ix2 ix3)

/-! # Reading the two-slot scratch and the table's rows back

The gather body copies one table row per slot into one of two 128-lane scratch slots and reads the slot back before it
stores. In the scratch's raw contents each copy is one write through the slot's view -- the scratch sliced to one row,
its leading axis squeezed away --, nested over everything older. Read through the other slot's write and onto the
slot's own, the load of slot `s` is the payload of the last copy into slot `s`, whatever lies deeper; and that payload is
one row of the table. Stated for any base contents, so that a read of the deep nest rewrites from the top. -/

section Rows
variable {Val : EltTy → Type} {sig' : RefSig} {κ : Kind} {sp : Space} {n : ℕ}

/-- The table shape: n rows of one 128-lane vector. -/
abbrev rowsOf (n : ℕ) : Shape := ⟨3, ![n, 1, 128]⟩

/-- Reading through a one-row slice (at any offset) with the leading axis squeezed away. -/
theorem read_row_squeezed (M : Memref sig' κ sp (rowsOf n) .f32) (off : Fin 3 → ℕ)
    (inb : ∀ a, off a + S1x1x128.size a ≤ (rowsOf n).size a) (hr) (hq : S1x1x128.Squeezes S1x128)
    (f : M.view.ty.Contents Val) (y : S1x128.Idx) :
    ((M.slice (Rect.unit (s := rowsOf n) off S1x1x128.size inb) hr).squeeze S1x128 hq).view.read Val f y
      = M.view.read Val f ((Rect.unit (s := rowsOf n) off S1x1x128.size inb).emb (Fin.cons ⟨0, Nat.one_pos⟩ y)) := by
  have h1 : ((M.slice (Rect.unit (s := rowsOf n) off S1x1x128.size inb) hr).squeeze S1x128 hq).view.read Val f y
      = M.view.read Val f ((Rect.unit (s := rowsOf n) off S1x1x128.size inb).emb (Shape.reshapeEquiv hq.numel_eq y)) := rfl
  rw [h1, Shape.reshapeEquiv_cons_one]

end Rows

section Rows2
variable {Val : EltTy → Type} {sig' : RefSig} {κ : Kind} {sp : Space} {n : ℕ}

/-- Lane `l` of row `g` of the table, as the one-row slice at offset `(g, 0, 0)` places it. -/
theorem unit_emb_cons (off : Fin 3 → ℕ) (g : ℕ) (hoff : off = ![g, 0, 0]) (hg : g < n)
    (inb : ∀ a, off a + S1x1x128.size a ≤ (rowsOf n).size a) (y : S1x128.Idx) :
    (Rect.unit (s := rowsOf n) off S1x1x128.size inb).emb (Fin.cons ⟨0, Nat.one_pos⟩ y)
      = (ix3 (⟨g, hg⟩ : Fin n) (0 : Fin 1) (y 1 : Fin 128) : (rowsOf n).Idx) := by
  subst hoff
  have h0 : (y 0).val < 1 := (y 0).isLt
  funext a; apply Fin.ext
  match a with
  | ⟨0, _⟩ => show g + 1 * 0 = g; omega
  | ⟨1, _⟩ => show 0 + 1 * (y 0).val = 0; omega
  | ⟨2, _⟩ => show 0 + 1 * (y 1).val = (y 1).val; omega

/-- A load of the one-row rectangle reads, at each of its indices, the row's lane. -/
theorem readAt_unit_row (M : Memref sig' κ sp (rowsOf n) .f32) (off : Fin 3 → ℕ)
    (inb : ∀ a, off a + S1x1x128.size a ≤ (rowsOf n).size a) (f : M.view.ty.Contents Val)
    (j : (Rect.unit (s := rowsOf n) off S1x1x128.size inb).toLoadRect.shape.Idx) :
    M.view.readAt Val (Rect.unit (s := rowsOf n) off S1x1x128.size inb).toLoadRect f j
      = M.view.read Val f ((Rect.unit (s := rowsOf n) off S1x1x128.size inb).emb
          (Fin.cons ⟨0, Nat.one_pos⟩ (ix2 (0 : Fin 1) (j 2 : Fin 128) : S1x128.Idx))) := by
  rw [View.readAt_apply]
  congr 1
  have h0 : (j 0).val < 1 := (j 0).isLt
  have h1 : (j 1).val < 1 := (j 1).isLt
  funext a; apply Fin.ext
  match a with
  | ⟨0, _⟩ => show off 0 + 1 * (j 0).val = off 0 + 1 * 0; omega
  | ⟨1, _⟩ => show off 1 + 1 * (j 1).val = off 1 + 1 * 0; omega
  | ⟨2, _⟩ => rfl

/-- A store through ANOTHER row's squeezed slice leaves this row as it was. -/
theorem read_write_other_row (M : Memref sig' κ sp (rowsOf n) .f32) (g' : ℕ) (off' : Fin 3 → ℕ) (h' : off' = ![g', 0, 0])
    (inb' : ∀ a, off' a + S1x1x128.size a ≤ (rowsOf n).size a) (hr') (hq : S1x1x128.Squeezes S1x128)
    (f : M.view.ty.Contents Val) (w : S1x128.Idx → Val .f32) (Ms : Finset S1x128.Idx)
    (i : (rowsOf n).Idx) (hi : (i 0).val ≠ g') :
    M.view.read Val (((M.slice (Rect.unit (s := rowsOf n) off' S1x1x128.size inb') hr').squeeze S1x128 hq).view.write Val f w Ms) i
      = M.view.read Val f i := by
  subst h'
  apply View.read_congr_at
  apply View.write_of_not_mem
  intro hm
  obtain ⟨x, _, hx⟩ := Finset.mem_map.mp hm
  have e : ((M.slice (Rect.unit (s := rowsOf n) ![g', 0, 0] S1x1x128.size inb') hr').squeeze S1x128 hq).view.emb x
      = M.view.emb ((Rect.unit (s := rowsOf n) ![g', 0, 0] S1x1x128.size inb').emb (Shape.reshapeEquiv hq.numel_eq x)) := rfl
  rw [e, Shape.reshapeEquiv_cons_one] at hx
  have h := M.view.emb.injective hx
  have h0 := congrArg (fun i : (rowsOf n).Idx => (i 0 : ℕ)) h
  simp only [Rect.emb_apply] at h0
  have h4 : g' + 1 * 0 = (i 0 : ℕ) := h0
  omega

/-- A store through a row's own squeezed slice, read back on that row: the payload. -/
theorem read_write_own_row (M : Memref sig' κ sp (rowsOf n) .f32) (off : Fin 3 → ℕ)
    (inb : ∀ a, off a + S1x1x128.size a ≤ (rowsOf n).size a) (hr) (hq : S1x1x128.Squeezes S1x128)
    (f : M.view.ty.Contents Val) (w : S1x128.Idx → Val .f32) (y : S1x128.Idx) :
    M.view.read Val (((M.slice (Rect.unit (s := rowsOf n) off S1x1x128.size inb) hr).squeeze S1x128 hq).view.write Val f w Finset.univ)
        ((Rect.unit (s := rowsOf n) off S1x1x128.size inb).emb (Fin.cons ⟨0, Nat.one_pos⟩ y))
      = w y := by
  exact (read_row_squeezed M off inb hr hq _ y).symm.trans
    (View.read_write_of_mem (v := ((M.slice (Rect.unit (s := rowsOf n) off S1x1x128.size inb) hr).squeeze S1x128 hq).view) f w (Finset.mem_univ y))

end Rows2

/-! ## The two-slot scratch: reading a slot back after the transfers into it -/

section Slots
variable (arg5 : Memref sig .tc .vmem S2x1x128 .f32)

/-- Slot 0, read after a transfer into slot 0 and then one into slot 1: the first transfer's payload, lane by lane. -/
theorem slot0_read_after_both (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p p' : S1x128.Idx → Elt F .f32) :
    arg5.view.readAt (Elt F) (Rect.unit (s := S2x1x128) ![0, 0, 0] S1x1x128.size inb0).toLoadRect
        (((arg5.slice (Rect.unit (s := S2x1x128) ![1, 0, 0] S1x1x128.size inb1) hr1).squeeze S1x128 hq').view.write (Elt F)
          (((arg5.slice (Rect.unit (s := S2x1x128) ![0, 0, 0] S1x1x128.size inb0) hr0).squeeze S1x128 hq).view.write (Elt F) B p Finset.univ)
          p' Finset.univ)
      = fun j => p (ix2 (0 : Fin 1) (j 2 : Fin 128)) := by
  funext j
  rw [readAt_unit_row (n := 2) arg5 ![0, 0, 0] inb0]
  rw [read_write_other_row (n := 2) arg5 1 ![1, 0, 0] rfl inb1 hr1 hq' _ p' Finset.univ _ (by show (0 + 1 * 0 : ℕ) ≠ 1; omega)]
  exact read_write_own_row (n := 2) arg5 ![0, 0, 0] inb0 hr0 hq B p _

/-- Slot 1, read after a transfer into slot 1 and then one into slot 0: the first transfer's payload, lane by lane. -/
theorem slot1_read_after_both (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p p' : S1x128.Idx → Elt F .f32) :
    arg5.view.readAt (Elt F) (Rect.unit (s := S2x1x128) ![1, 0, 0] S1x1x128.size inb1).toLoadRect
        (((arg5.slice (Rect.unit (s := S2x1x128) ![0, 0, 0] S1x1x128.size inb0) hr0).squeeze S1x128 hq').view.write (Elt F)
          (((arg5.slice (Rect.unit (s := S2x1x128) ![1, 0, 0] S1x1x128.size inb1) hr1).squeeze S1x128 hq).view.write (Elt F) B p Finset.univ)
          p' Finset.univ)
      = fun j => p (ix2 (0 : Fin 1) (j 2 : Fin 128)) := by
  funext j
  rw [readAt_unit_row (n := 2) arg5 ![1, 0, 0] inb1]
  rw [read_write_other_row (n := 2) arg5 0 ![0, 0, 0] rfl inb0 hr0 hq' _ p' Finset.univ _ (by show (1 + 1 * 0 : ℕ) ≠ 0; omega)]
  exact read_write_own_row (n := 2) arg5 ![1, 0, 0] inb1 hr1 hq B p _

/-- Slot 0, read right after a transfer into it: the transfer's payload, lane by lane. -/
theorem slot0_read_after_own (inb0 : ∀ a, (![0, 0, 0] : Fin 3 → ℕ) a + S1x1x128.size a ≤ S2x1x128.size a) (hr0)
    (hq : S1x1x128.Squeezes S1x128) (B : BufTy.Contents (Elt F) arg5.view.ty) (p : S1x128.Idx → Elt F .f32) :
    arg5.view.readAt (Elt F) (Rect.unit (s := S2x1x128) ![0, 0, 0] S1x1x128.size inb0).toLoadRect
        (((arg5.slice (Rect.unit (s := S2x1x128) ![0, 0, 0] S1x1x128.size inb0) hr0).squeeze S1x128 hq).view.write (Elt F) B p Finset.univ)
      = fun j => p (ix2 (0 : Fin 1) (j 2 : Fin 128)) := by
  funext j
  rw [readAt_unit_row (n := 2) arg5 ![0, 0, 0] inb0]
  exact read_write_own_row (n := 2) arg5 ![0, 0, 0] inb0 hr0 hq B p _

/-- Slot 1, read right after a transfer into it: the transfer's payload, lane by lane. -/
theorem slot1_read_after_own (inb1 : ∀ a, (![1, 0, 0] : Fin 3 → ℕ) a + S1x1x128.size a ≤ S2x1x128.size a) (hr1)
    (hq : S1x1x128.Squeezes S1x128) (B : BufTy.Contents (Elt F) arg5.view.ty) (p : S1x128.Idx → Elt F .f32) :
    arg5.view.readAt (Elt F) (Rect.unit (s := S2x1x128) ![1, 0, 0] S1x1x128.size inb1).toLoadRect
        (((arg5.slice (Rect.unit (s := S2x1x128) ![1, 0, 0] S1x1x128.size inb1) hr1).squeeze S1x128 hq).view.write (Elt F) B p Finset.univ)
      = fun j => p (ix2 (0 : Fin 1) (j 2 : Fin 128)) := by
  funext j
  rw [readAt_unit_row (n := 2) arg5 ![1, 0, 0] inb1]
  exact read_write_own_row (n := 2) arg5 ![1, 0, 0] inb1 hr1 hq B p _

end Slots

/-! ## A transfer's payload: one row of the table -/

/-- The row of the table a transfer copies, as a [1, 128] vector: row `w` of the table, lane by lane. -/
theorem dma_row (c : Dev nD) (w : BitVec 32) (hw : w.toNat < 50000) (off : Fin 3 → ℕ) (hoff : off = ![w.toNat, 0, 0])
    (inb : ∀ a, off a + S1x1x128.size a ≤ S50000x1x128.size a) (hr) (hq : S1x1x128.Squeezes S1x128)
    (fh0 : HbBuf1 (F := F) c hbM1_0) :
    (ReadAs.same : ReadAs (Elt F) S1x128 .f32 S1x128 .f32).apply
        ((((Memref.whole main_v17 : Memref sig .tc .hbm S50000x1x128 .f32).slice (Rect.unit (s := S50000x1x128) off S1x1x128.size inb) hr).squeeze S1x128 hq).view.read (Elt F) fh0)
      = fun j : S1x128.Idx => (fh0 : S50000x1x128.Idx → Elt F .f32) (ix3 (⟨w.toNat, hw⟩ : Fin 50000) (0 : Fin 1) (j 1 : Fin 128)) := by
  funext j
  rw [ReadAs.apply_same, read_row_squeezed (n := 50000) (Memref.whole main_v17) off inb hr hq fh0 j,
    unit_emb_cons (n := 50000) off w.toNat hoff hw]
  simp only [Memref.view_whole, View.read_whole]

/-! ## An index or keep word: the block's entry at its slot -/

/-- The word a scalar load reads at slot `(r, k)` of a whole 8 × 32 block holding `x` is `x` at `(r, k)`. -/
theorem word_read (arg : Memref sig .tc .smem S8x32 .i32) (harg : arg.IsWhole) (x : Vec F S8x32 .i32)
    (off : Fin 2 → ℕ) (r : Fin 8) (k : Fin 32) (hoff : off = ![r.val, k.val])
    (inb : ∀ a, off a + S1x1.size a ≤ S8x32.size a) (h1) :
    arg.view.readAt (Elt F) (Rect.unit (s := S8x32) off S1x1.size inb).toLoadRect (harg.unread x) (Shape.Idx.first h1)
      = x (ix2 r k) := by
  subst hoff
  rw [View.readAt_apply, harg.read_unread]
  congr 1
  have h0 : (Shape.Idx.first h1 (0 : Fin 2)).val < 1 := (Shape.Idx.first h1 (0 : Fin 2)).isLt
  have h1' : (Shape.Idx.first h1 (1 : Fin 2)).val < 1 := (Shape.Idx.first h1 (1 : Fin 2)).isLt
  funext a; apply Fin.ext
  match a with
  | ⟨0, _⟩ => show r.val + 1 * (Shape.Idx.first h1 (0 : Fin 2)).val = r.val; omega
  | ⟨1, _⟩ => show k.val + 1 * (Shape.Idx.first h1 (1 : Fin 2)).val = k.val; omega

end Cert.Kernel.Hand

end
-- ==== Proof.K.SpecF.lean ====
import proofs.«405686_j2499670966883_2_alg».proof.Kernel
import Idealize.ShloMosaic.Lib.ValueIdx

noncomputable section

namespace Cert.Kernel.Hand

open Cert.Kernel Idealize.ShloMosaic Idealize.ShloMosaic.ValueIdx

/-- The block the gather body leaves, from its own three operands, at any float algebra: lane row `(r, k)` of the
    8 × 32 × 128 block holds row `x0[r, k]` of the table (laid out as [50000, 1, 128]) where the keep word
    `x1[r, k]` is above zero, and zero words elsewhere. Nothing here computes with a float. -/
def GblkF {F : FTy → Type} [FloatOps F] (x0 x1 : IVec S8x32 32) (h3 : FVec F S50000x1x128 .f32) : FVec F S8x32x128 .f32 :=
  fun y => Scalar.select (Scalar.cmpi .sgt (x1 (ix2 (y 0 : Fin 8) (y 1 : Fin 32))) 0#32)
    (h3 (ix3 (⟨(x0 (ix2 (y 0 : Fin 8) (y 1 : Fin 32))).toNat % 50000, Nat.mod_lt _ (by decide)⟩ : Fin 50000) (0 : Fin 1) (y 2 : Fin 128)))
    (Scalar.ofBits .f32 0x00000000#32 : F .f32)

end Cert.Kernel.Hand

end
-- ==== Proof.K.PieceApply.lean ====
import proofs.«405686_j2499670966883_2_alg».proof.Proof.K.SpecF
import proofs.«405686_j2499670966883_2_alg».proof.Proof.Gen.Kernel.Skeleton
import Idealize.ShloMosaic.Lib.Pipeline.Frame
import Idealize.ShloMosaic.Lib.Pipeline.Value
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.ValueIdx

/-! # One store of the gather body, entry by entry

Each of the body's 256 stores writes one 128-lane row of the output block: the row the scratch slot holds where the
slot's keep word is above zero, zero words elsewhere, passed through three changes of layout that move no entry.
Stated at any float algebra: nothing here computes with a float. -/

variable {F : FTy → Type} [FloatOps F]

/-- The value every store of the body writes, from the slot's keep bit and the scratch slot as loaded. -/
def payB (b : BitVec 1) (ld : Vec F S1x1x128 .f32) : FVec F S1x1x128 .f32 :=
  shapeCast S1x1x128 (shapeCast S128 (Scalar.select b (shapeCast S1x128 ld shapeCasts_S1x1x128_S1x128)
    (broadcast S1x128 (Scalar.ofBits .f32 0x00000000#32 : F .f32))) shapeCasts_S1x128_S128) shapeCasts_S128_S1x1x128

/-- The printed payloads are that value, in each of the four spellings the body's cut into parts gives them. -/
theorem pay_word_eq (kw : Elt F .i32) (ld : Vec F S1x1x128 .f32) : k1_pay5 kw ld = payB (Scalar.cmpi .sgt kw 0#32) ld := rfl
theorem pay_bit_eq (b : BitVec 1) (ld : Vec F S1x1x128 .f32) : k1_pay1 b ld = payB b ld := rfl
theorem pay_three_eq (b : BitVec 1) (ld : Vec F S1x1x128 .f32) : k1_pay4 b (k1_pay2 ld) (k1_pay3 (F := F)) = payB b ld := rfl
theorem pay_cast_eq (kw : Elt F .i32) (ld : Vec F S1x1x128 .f32) : k1_pay12 (k1_pay11 kw ld) = payB (Scalar.cmpi .sgt kw 0#32) ld := rfl

/-- Read at lane `j`: the loaded row's lane where the keep bit is set, the zero word elsewhere. -/
theorem payB_apply (b : BitVec 1) (ld : Vec F S1x1x128 .f32) (j : Fin 128) :
    payB b ld (ix3 (0 : Fin 1) (0 : Fin 1) j)
      = Scalar.select b (ld (ix3 (0 : Fin 1) (0 : Fin 1) j)) (Scalar.ofBits .f32 0x00000000#32 : F .f32) := by
  unfold payB
  rw [shapeCast_apply _ shapeCasts_S128_S1x1x128 (ix3 (0 : Fin 1) (0 : Fin 1) j) (ix1 j) (by
      rw [Shape.rowMajor_val_one, Shape.rowMajor_val_three]; show j.val = (0 * 1 + 0) * 128 + j.val; omega),
    shapeCast_apply _ shapeCasts_S1x128_S128 (ix1 j) (ix2 (0 : Fin 1) j) (by
      rw [Shape.rowMajor_val_one, Shape.rowMajor_val_two]; show 0 * 128 + j.val = j.val; omega)]
  rcases BitVec.eq_zero_or_eq_one b with h | h <;> subst h
  · rw [select_zero, select_zero]; rfl
  · rw [select_one, select_one]
    exact shapeCast_apply ld shapeCasts_S1x1x128_S1x128 (ix2 (0 : Fin 1) j) (ix3 (0 : Fin 1) (0 : Fin 1) j) (by
      rw [Shape.rowMajor_val_two, Shape.rowMajor_val_three]; show (0 * 1 + 0) * 128 + j.val = 0 * 128 + j.val; omega)

/-- An index of a one-row block is its lane. -/
theorem eq_lane (x : S1x1x128.Idx) : x = ix3 (0 : Fin 1) (0 : Fin 1) (x 2 : Fin 128) := by
  funext a
  match a with
  | ⟨0, _⟩ => exact Fin.ext (by have h0 : (x 0).val < 1 := (x 0).isLt; show (x 0).val = 0; omega)
  | ⟨1, _⟩ => exact Fin.ext (by have h1 : (x 1).val < 1 := (x 1).isLt; show (x 1).val = 0; omega)
  | ⟨2, _⟩ => rfl

/-- A word read at entry `(r, k)` of a whole 8 × 32 block of words holding `X` is `X` at `(r, k)`. -/
theorem word_at (m : Memref sig .tc .smem S8x32 .i32) (hm : m.IsWhole) (X : Vec F S8x32 .i32)
    (r k : ℕ) (hr : r < 8) (hk : k < 32) (inb : ∀ a, (![r, k] : Fin 2 → ℕ) a + S1x1.size a ≤ S8x32.size a) (h1 : 0 < S1x1.numel) :
    m.view.readAt (Elt F) (Rect.unit (s := S8x32) ![r, k] S1x1.size inb).toLoadRect (hm.unread X) (Shape.Idx.first h1)
      = X (ix2 (⟨r, hr⟩ : Fin 8) (⟨k, hk⟩ : Fin 32)) := by
  rw [View.readAt_apply, Memref.IsWhole.read_unread]
  refine congrArg X (funext fun a => Fin.ext ?_)
  match a with
  | ⟨0, _⟩ => show r + 1 * 0 = r; omega
  | ⟨1, _⟩ => show k + 1 * 0 = k; omega

/-- The store to lane row `(r, k)` of the output block, with the slot's keep bit the test of the keep block's entry
    and the loaded row the table's row that the index block's entry names, writes the block's lane row. -/
theorem piece_applyF (x0 x1 : Vec F S8x32 .i32) (fh0 : FVec F S50000x1x128 .f32)
    (r k : ℕ) (hr : r < 8) (hk : k < 32)
    (inb : ∀ a, (![r, k, 0] : Fin 3 → ℕ) a + S1x1x128.size a ≤ S8x32x128.size a)
    (b : BitVec 1) (ld : Vec F S1x1x128 .f32)
    (hb : b = Scalar.cmpi .sgt (x1 (ix2 (⟨r, hr⟩ : Fin 8) (⟨k, hk⟩ : Fin 32))) 0#32)
    (hld : ∀ j : Fin 128, ld (ix3 (0 : Fin 1) (0 : Fin 1) j)
      = fh0 (ix3 (⟨(x0 (ix2 (⟨r, hr⟩ : Fin 8) (⟨k, hk⟩ : Fin 32))).toNat % 50000, Nat.mod_lt _ (by decide)⟩ : Fin 50000) (0 : Fin 1) j))
    (x : S1x1x128.Idx) :
    payB b ld x = GblkF x0 x1 fh0 ((Rect.unit (s := S8x32x128) ![r, k, 0] S1x1x128.size inb).emb x) := by
  obtain ⟨j, rfl⟩ : ∃ j : Fin 128, x = ix3 (0 : Fin 1) (0 : Fin 1) j := ⟨x 2, eq_lane x⟩
  have hemb : (Rect.unit (s := S8x32x128) ![r, k, 0] S1x1x128.size inb).emb (ix3 (0 : Fin 1) (0 : Fin 1) j)
      = (ix3 (⟨r, hr⟩ : Fin 8) (⟨k, hk⟩ : Fin 32) j : S8x32x128.Idx) := by
    funext a; apply Fin.ext
    match a with
    | ⟨0, _⟩ => show r + 1 * 0 = r; omega
    | ⟨1, _⟩ => show k + 1 * 0 = k; omega
    | ⟨2, _⟩ => show 0 + 1 * j.val = j.val; omega
  rw [hemb, payB_apply, hld, hb]
  rfl

/-- The same with the loaded row as the body has it: the scratch slot read back lane by lane from a transfer's payload
    `p`, and `p` row `w` of the table, `w` the index block's entry, a row number inside the table. -/
theorem piece_of_row (x0 x1 : Vec F S8x32 .i32) (fh0 : FVec F S50000x1x128 .f32)
    (r k : ℕ) (hr : r < 8) (hk : k < 32)
    (inb : ∀ a, (![r, k, 0] : Fin 3 → ℕ) a + S1x1x128.size a ≤ S8x32x128.size a)
    (b : BitVec 1) (ld : Vec F S1x1x128 .f32) (w : BitVec 32) (hw : w.toNat < 50000) (p : S1x128.Idx → Elt F .f32)
    (hb : b = Scalar.cmpi .sgt (x1 (ix2 (⟨r, hr⟩ : Fin 8) (⟨k, hk⟩ : Fin 32))) 0#32)
    (hwd : w = x0 (ix2 (⟨r, hr⟩ : Fin 8) (⟨k, hk⟩ : Fin 32)))
    (hp : p = fun z => fh0 (ix3 (⟨w.toNat, hw⟩ : Fin 50000) (0 : Fin 1) (z 1 : Fin 128)))
    (hld : ld = fun j => p (ix2 (0 : Fin 1) (j 2 : Fin 128)))
    (x : S1x1x128.Idx) :
    payB b ld x = GblkF x0 x1 fh0 ((Rect.unit (s := S8x32x128) ![r, k, 0] S1x1x128.size inb).emb x) := by
  subst hld hp
  refine piece_applyF x0 x1 fh0 r k hr hk inb b _ hb (fun j => ?_) x
  show fh0 (ix3 (⟨w.toNat, hw⟩ : Fin 50000) (0 : Fin 1) j) = _
  refine congrArg (fun n : Fin 50000 => fh0 (ix3 n (0 : Fin 1) j)) (Fin.ext ?_)
  show w.toNat = (x0 (ix2 (⟨r, hr⟩ : Fin 8) (⟨k, hk⟩ : Fin 32))).toNat % 50000
  rw [← hwd, Nat.mod_eq_of_lt hw]

end Cert.Kernel.Hand

end
-- ==== Proof.K.PieceSlots.lean ====
import proofs.«405686_j2499670966883_2_alg».proof.Proof.K.SlotRead
import proofs.«405686_j2499670966883_2_alg».proof.Proof.K.PieceApply

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.ValueIdx

variable {F : FTy → Type} [FloatOps F]

/-! # One store of the gather body, as the run has it

The value a store writes, spelt with the raw reads the run records: the keep word read from the keep block, the
scratch slot loaded through the transfers written over it -- the row's own transfer, and for all but the last slot of a
block row the next row's transfer into the other slot --, and the row's own transfer the table's row that the index
block's entry names. Four cases, by the slot read and by whether a later transfer lies over it; whatever the scratch
held below. -/

/-- A row number word inside the table is below the row count. -/
theorem lt_of_inRange {v : BitVec 32} (h : InRange v) : v.toNat < 50000 := by
  have h0 := h 0
  have h1 : v.toNat + 1 ≤ 50000 := h0
  omega

/-- The store to lane row `(r, k)` when the body reads slot 0 after the row's own transfer into it and the next row's transfer into slot 1. -/
theorem piece0_both (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p' : S1x128.Idx → Elt F .f32)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![0, 0, 0] S1x1x128.size inb0).toLoadRect
        (((arg5.slice (Rect.unit (s := S2x1x128) ![1, 0, 0] S1x1x128.size inb1) hr1).squeeze S1x128 hq').view.write (Elt F)
          (((arg5.slice (Rect.unit (s := S2x1x128) ![0, 0, 0] S1x1x128.size inb0) hr0).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)
          p' Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot0_read_after_both arg5 inb0 inb1 hr0 hr1 hq hq' B _ p') x

/-- The store to lane row `(r, k)` when the body reads slot 1 after the row's own transfer into it and the next row's transfer into slot 0. -/
theorem piece1_both (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p' : S1x128.Idx → Elt F .f32)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![1, 0, 0] S1x1x128.size inb1).toLoadRect
        (((arg5.slice (Rect.unit (s := S2x1x128) ![0, 0, 0] S1x1x128.size inb0) hr0).squeeze S1x128 hq').view.write (Elt F)
          (((arg5.slice (Rect.unit (s := S2x1x128) ![1, 0, 0] S1x1x128.size inb1) hr1).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)
          p' Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot1_read_after_both arg5 inb0 inb1 hr0 hr1 hq hq' B _ p') x

/-- The store to lane row `(r, k)` when the body reads slot 0 right after the row's own transfer into it (the last slot of a block row). -/
theorem piece0_own (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a) (hr0)
    (hq : S1x1x128.Squeezes S1x128) (B : BufTy.Contents (Elt F) arg5.view.ty)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![0, 0, 0] S1x1x128.size inb0).toLoadRect
        (((arg5.slice (Rect.unit (s := S2x1x128) ![0, 0, 0] S1x1x128.size inb0) hr0).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot0_read_after_own arg5 inb0 hr0 hq B _) x

/-- The store to lane row `(r, k)` when the body reads slot 1 right after the row's own transfer into it (the last slot of a block row). -/
theorem piece1_own (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb1 : ∀ a, (![1, 0, 0] : Fin 3 → ℕ) a + S1x1x128.size a ≤ S2x1x128.size a) (hr1)
    (hq : S1x1x128.Squeezes S1x128) (B : BufTy.Contents (Elt F) arg5.view.ty)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![1, 0, 0] S1x1x128.size inb1).toLoadRect
        (((arg5.slice (Rect.unit (s := S2x1x128) ![1, 0, 0] S1x1x128.size inb1) hr1).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot1_read_after_own arg5 inb1 hr1 hq B _) x

end Cert.Kernel.Hand

end
-- ==== Proof.K.PieceWalk.lean ====
import proofs.«405686_j2499670966883_2_alg».proof.Proof.K.PieceSlots

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The run's pieces are the blocks of one function

The 256 pieces the gather body's run leaves in the output block tile it, and the piece at lane row (r, k) is the
block specification `GblkF` of the body's operands read there -- whatever the scratch held on entry. -/

/-- A property of every member of a list, from its head and its tail, the list given up to unfolding. -/
theorem forall_mem_of_cons {α : Type} {P : α → Prop} {l : List α} (a : α) (t : List α) (h : l = a :: t)
    (ha : P a) (ht : ∀ p ∈ t, P p) : ∀ p ∈ l, P p := by
  subst h
  exact List.forall_mem_cons.2 ⟨ha, ht⟩

/-- The four per-store closers: take the list's head store off (the list's own names unfold as far as its head), and
    close it by the scratch slot the store reads and by whether a later transfer lies over it. -/
local macro "piece_slot0_both" : tactic => `(tactic| (refine forall_mem_of_cons _ _ rfl ?_ ?_; · (intro x; dsimp only; exact piece0_both _ _ _ _ _ _ _ _ _ ‹_› _ _ (by decide) (by decide) (by decide) _ _ _ _ _ _ _ _ _ _ _ _ rfl _ _ _ x)))
local macro "piece_slot1_both" : tactic => `(tactic| (refine forall_mem_of_cons _ _ rfl ?_ ?_; · (intro x; dsimp only; exact piece1_both _ _ _ _ _ _ _ _ _ ‹_› _ _ (by decide) (by decide) (by decide) _ _ _ _ _ _ _ _ _ _ _ _ rfl _ _ _ x)))
local macro "piece_slot1_own" : tactic => `(tactic| (refine forall_mem_of_cons _ _ rfl ?_ ?_; · (intro x; dsimp only; exact piece1_own _ _ _ _ _ _ _ _ _ ‹_› _ _ (by decide) (by decide) (by decide) _ _ _ _ _ _ _ _ rfl _ _ _ x)))

/-- The pieces tile the output block. -/
theorem run1_tiled (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    View.Piece.tiledL (kernelRun1 c i arg1 harg1 arg2 harg2 arg4 harg4 arg5 harg5 x0 x1 fh0 ds0 hx).1 S1x1x128.size = true := by
  sl_kernel_rfl

set_option maxHeartbeats 4000000 in
/-- Every piece is the block of `GblkF` its rectangle names. -/
theorem run1_pieces (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    ∀ p ∈ (kernelRun1 c i arg1 harg1 arg2 harg2 arg4 harg4 arg5 harg5 x0 x1 fh0 ds0 hx).1, ∀ x : p.1.shape.Idx,
      p.2 x = GblkF x0 x1 fh0 (p.1.emb x) := by
  -- last store first: block rows 7 … 0, and in each the slots 31 … 0; slot k reads scratch slot k mod 2, and only slot 31
  -- has no later transfer over its own
  iterate 8
    (piece_slot1_own
     iterate 15 (piece_slot0_both; piece_slot1_both)
     piece_slot0_both)
  exact fun p hp => absurd hp List.not_mem_nil

end Cert.Kernel.Hand

end
-- ==== Proof.K.Body1.lean ====
import proofs.«405686_j2499670966883_2_alg».proof.Proof.K.PieceWalk
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gather call (the second kernel region) at the region-entry contents `V`

Its pipeline stages three windows per point (the index block, the keep block, the output block); the table it copies
rows of stays in HBM, and the body moves rows itself through a two-slot scratch on two semaphores of its own. The
region's invariant therefore carries, beside the scoped buffers no window stages and the generator register, those
two semaphores at zero and the table whole at its entry contents. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over `V`'s arrays
    whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .smem S8x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S8x32 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x32x128 .f32 := win1_2.stage (cfg1.slots t 2)
abbrev hs1_2 (t : Fin cfg1.N) : (ms1_2 t).IsWhole := hstage1_2 ((cfg1.slots t 2).cast nbuf1_2)
/-- The two-slot scratch, whole. -/
abbrev scM1_0 : Memref sig .tc .vmem S2x1x128 .f32 := Memref.whole cc1_scratch0
/-- One staging buffer of the output window, through which its contents are stated. -/
abbrev VO1_2 : View sig .tc .vmem S8x32x128 .f32 := (Memref.whole cc1_stg2_0 : Memref sig .tc .vmem S8x32x128 .f32).view

/-- Every row number the body reads from its index block, at every point, is inside the table. -/
def Hyps1 : Prop :=
  ∀ (c : Dev nD) (t : Fin cfg1.N) (o : Fin 2 → ℕ) (ho : ∀ a, o a + S1x1.size a ≤ S8x32.size a),
    InRange ((ms1_0 t).view.readAt (Elt F) (Rect.unit (s := S8x32) o S1x1.size ho).toLoadRect ((hs1_0 t).unread (iblk1 V c 0 t)) (Shape.Idx.first (numel1_S1x1.symm ▸ Nat.one_pos)))

/-- The body's own DMA semaphores. -/
abbrev osem1 : Fin 2 → SemLoc sig := fun j => (![SemLoc.dma 12, SemLoc.dma 13] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 12) 0 ∗ semVal ((c : Thread nD τ), SemLoc.dma 13) 0) := by
  rw [Pipeline.ownSems0_eq_of_list c osem1 [0, 1] (by decide) (by decide)]; rfl
/-- The operand left in HBM that the body copies rows of. -/
def H1 : Finset (Ref sig .tc) := {main_v17}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt1 c hbM1_0 (V c main_v17)) := by
  rw [BI.bigSep_eq_bigSepL_of_eq [main_v17] (by decide) (by decide)]; rfl

/-- The region's invariant, conjunct by conjunct: the scoped buffers no window of this call stages (the first call's
    six staging buffers, untouched here, and the scratch), the generator register, the own semaphores at zero, the
    table at its entry contents. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d))
          ∗ (∃ r, prngReg c r) ∗ iprop(semVal ((c : Thread nD τ), SemLoc.dma 12) 0 ∗ semVal ((c : Thread nD τ), SemLoc.dma 13) 0) ∗ iprop(hbPt1 c hbM1_0 (V c main_v17))) := by
  rw [Pipeline.ΦD_eq, scopedRest1_eq, ownSems01_eq, hbmPts1_eq]; simp only [scM1_0, owns_whole]; try rfl

/-- What the body leaves in the output block at point `t`: the block specification of the point's index and keep
    blocks and the table as the region finds it. -/
def outsAt1 (hH : Hyps1 V) (c : Dev nD) (t : Fin cfg1.N) : Vec F S8x32x128 .f32 :=
  GblkF (iblk1 V c 0 t) (iblk1 V c 1 t) (V c main_v17)

/-- The pipeline's proof data on core `c`: the arrays as the region finds them; after the body at point `t` each
    input block in place and the output block at `outsAt1`; the invariant above; nothing owed; full shares. -/
def dat1 (hH : Hyps1 V) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V hH c t
  Φ _ := Pipeline.ΦD osem1 spec1 H1 V c
  q _ := fullShare
  owed _ := 0

theorem A_eq1 (hH : Hyps1 V) (c : Dev nD) (w : Fin cfg1.W) : (dat1 V hH c).A w = V c (Pipeline.arrRef spec1 w) := by
  dsimp only [dat1]

theorem after1_0 (hH : Hyps1 V) (c : Dev nD) (t : Fin cfg1.N) : (dat1 V hH c).after 0 t = iblk1 V c 0 t := by dsimp only [dat1]
theorem after1_1 (hH : Hyps1 V) (c : Dev nD) (t : Fin cfg1.N) : (dat1 V hH c).after 1 t = iblk1 V c 1 t := by dsimp only [dat1]
theorem after1_2 (hH : Hyps1 V) (c : Dev nD) (t : Fin cfg1.N) : (dat1 V hH c).after 2 t = outsAt1 V hH c t := by dsimp only [dat1]

theorem before1_0 (hH : Hyps1 V) (c : Dev nD) (t : Fin cfg1.N) (d) : (dat1 V hH c).before 0 t d = iblk1 V c 0 t :=
  before1_0_of V (dat1 V hH c) (A_eq1 V hH c 0) (after1_0 V hH c) t d
theorem before1_1 (hH : Hyps1 V) (c : Dev nD) (t : Fin cfg1.N) (d) : (dat1 V hH c).before 1 t d = iblk1 V c 1 t :=
  before1_1_of V (dat1 V hH c) (A_eq1 V hH c 1) (after1_1 V hH c) t d

/-- What the body is called with at point `t`, -/
def bodyPre1 (hH : Hyps1 V) (c : Dev nD) (t : Fin cfg1.N) : sProp 𝕄 :=
  iprop((dat1 V hH c).Φ t.castSucc ∗ (dat1 V hH c).owesAt () t.castSucc
    ∗ (∃ d, owns (c : Thread nD τ) (ms1_0 t) fullShare ((dat1 V hH c).before 0 t d))
    ∗ (∃ d, owns (c : Thread nD τ) (ms1_1 t) fullShare ((dat1 V hH c).before 1 t d))
    ∗ (∃ d, owns (c : Thread nD τ) (ms1_2 t) fullShare ((dat1 V hH c).before 2 t d)))

/-- and what it returns. -/
def bodyPost1 (hH : Hyps1 V) (c : Dev nD) (t : Fin cfg1.N) : sProp 𝕄 :=
  iprop((dat1 V hH c).Φ t.succ ∗ (dat1 V hH c).owesAt () t.succ
    ∗ owns (c : Thread nD τ) (ms1_0 t) fullShare ((dat1 V hH c).after 0 t)
    ∗ owns (c : Thread nD τ) (ms1_1 t) fullShare ((dat1 V hH c).after 1 t)
    ∗ owns (c : Thread nD τ) (ms1_2 t) fullShare ((dat1 V hH c).after 2 t))

/-- The body at any point: the input memrefs hold their blocks, so the run applies; the invariant hands the body its
    scratch, its semaphores at zero and the table, and takes them back as they were; the first call's staging buffers
    and the generator register pass through; the core's `owes` comes back with this point's waits. -/
theorem sound_body1 (hH : Hyps1 V) (c : Dev nD) (t : Fin cfg1.N) :
    bodyPre1 V hH c t ⊢ wp frame (wpE (defs₀ (F := F)) Variants.none c none) Set.univ (bodyAt1 t) (fun _ => bodyPost1 V hH c t) := by
  unfold bodyPre1 bodyPost1 bodyAt1
  simp only [before1_0, before1_1]
  rw [show (dat1 V hH c).Φ t.succ = (dat1 V hH c).Φ t.castSucc from rfl,
    after1_0, after1_1, after1_2]
  rw [show (dat1 V hH c).Φ t.castSucc = Pipeline.ΦD osem1 spec1 H1 V c from rfl, PhiD1_eq]
  unfold Dat.owesAt Pipeline.owesWithin
  rw [show (dat1 V hH c).owed t.castSucc = 0 from rfl, show (dat1 V hH c).owed t.succ = 0 from rfl]
  unfold outsAt1
  iintro ⟨⟨⟨Hr0, Hr1, Hr2, Hr3, Hr4, Hr5, ⟨%ds0, HS0⟩⟩, Hg, ⟨Hq0, Hq1⟩, Hh0⟩, ⟨%W, -, HW⟩, ⟨%d0, H0⟩, ⟨%d1, H1⟩, ⟨%d2, H2⟩⟩
  iapply ((kernelRun1 c (grid1.coords t) _ _ _ _ _ _ _ _ (iblk1 V c 0 t) (iblk1 V c 1 t) (V c main_v17) ds0 (hH c t)).2 W _)
  isplitl [H0]; · iexact H0
  isplitl [H1]; · iexact H1
  isplitl [H2]; · iexists _; iexact H2
  isplitl [HS0]; · iexact HS0
  isplitl [Hq0]; · iexact Hq0
  isplitl [Hq1]; · iexact Hq1
  isplitl [Hh0]; · iexact Hh0
  isplitl [HW]; · iexact HW
  iintro ⟨H0, H1, ⟨%e2, H2⟩, HS0, Hq0, Hq1, Hh0, ⟨%W', HW'⟩⟩
  isplitl [Hr0 Hr1 Hr2 Hr3 Hr4 Hr5 HS0 Hg Hq0 Hq1 Hh0]
  · isplitl [Hr0 Hr1 Hr2 Hr3 Hr4 Hr5 HS0]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact HS0
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro
  have hcov := View.cover_of_tiledL (s := S8x32x128) _ S1x1x128.size (run1_tiled c (grid1.coords t) (ms1_0 t) (hs1_0 t) (ms1_1 t) (hs1_1 t) (ms1_2 t) (hs1_2 t) scM1_0 (Memref.isWhole_whole _) (iblk1 V c 0 t) (iblk1 V c 1 t) (V c main_v17) ds0 (hH c t))
  funext y
  exact (View.read_writes_apply_eq_canon _ _ y _ (hcov y)).trans
    (View.canon_apply_of_pieces _ _ (run1_pieces c (grid1.coords t) (ms1_0 t) (hs1_0 t) (ms1_1 t) (hs1_1 t) (ms1_2 t) (hs1_2 t) scM1_0 (Memref.isWhole_whole _) (iblk1 V c 0 t) (iblk1 V c 1 t) (V c main_v17) ds0 (hH c t)) y (hcov y))

set_option maxRecDepth 200000 in
/-- The library's body obligation, at every point. -/
theorem body_obligation1 (hH : Hyps1 V) (c : Dev nD) : BodyObligation (dat1 (F := F) V hH c) (defs₀ (F := F)) Variants.none () Set.univ := fun t => by
  rw [bigSep_W1, bigSep_W1]
  show bodyPre1 V hH c t ⊢ wp frame (wpE (defs₀ (F := F)) Variants.none c none) Set.univ (bodyAt1 t) (fun _ => bodyPost1 V hH c t)
  exact sound_body1 V hH c t

end

end Cert.Kernel.Hand

end
-- ==== Proof.K.Frame.lean ====
import proofs.«405686_j2499670966883_2_alg».proof.Proof.Gen.Kernel.Launch
import proofs.«405686_j2499670966883_2_alg».proof.Proof.Gen.Kernel.Skeleton
import proofs.«405686_j2499670966883_2_alg».proof.Proof.Gen.Kernel.Points
import proofs.«405686_j2499670966883_2_alg».proof.Proof.K.Body0
import proofs.«405686_j2499670966883_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run of the whole program: its segments from the launch to the return

The program is a stretch of host operations, the linear call, seven stretches of host operations, and the gather call.
Proved here, given that every row number the gather call reads at its entry contents is inside the table it copies
rows of: from any memory with zero counters the program runs to the end, nothing faulting, and every unscoped buffer
of every core ends at the last of the boundary contents defined below; in particular the five arguments end as
launched, the linear call's output buffer at what its pipeline leaves in it, and the gather call's likewise.

## The buffer contents at each segment boundary: a fold through the program -/

/-- Core `c`'s buffers at launch. -/
abbrev W0 : Dev nD → Valuation τ sig (Elt F) := fun c b => (s₀ m ρ).mem ((c : Dev nD), b)
/-- After the first stretch (the linear call's entry). -/
abbrev W1 : Dev nD → Valuation τ sig (Elt F) := fun c => StableHlo.after hostOps0 (W0 m ρ c)
/-- The same read at the TensorCore's references (what the linear call's proof data take). -/
abbrev V1 : (c : Dev nD) → (b : Ref sig .tc) → Buf (Elt F) ((c : Thread nD τ).loc b) := fun c b => W1 m ρ c b
/-- At the linear call's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the linear call's exit contents). -/
abbrev V2 : (c : Dev nD) → (b : Ref sig .tc) → Buf (Elt F) ((c : Thread nD τ).loc b) := fun c b => W2 m ρ c b
/-- At the linear call's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the seven stretches between the two calls, in turn. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
/-- After the last of them (the gather call's entry). -/
abbrev W9 : Dev nD → Valuation τ sig (Elt F) := fun c => StableHlo.after hostOps1_6 (W8 m ρ c)
/-- The same read at the TensorCore's references (what the gather call's proof data take). -/
abbrev V9 : (c : Dev nD) → (b : Ref sig .tc) → Buf (Elt F) ((c : Thread nD τ).loc b) := fun c b => W9 m ρ c b

-- the row numbers the gather call reads, at its entry contents, are inside the table
variable (hH : Hyps1 (V9 m ρ))

/-- At the gather call's exit: its arrays at what the pipeline leaves, every other buffer as entered. -/
def W10 (c : Dev nD) : Valuation τ sig (Elt F) :=
  Pipeline.withArrays spec1 c (W9 m ρ c) fun w => (dat1 (V9 m ρ) hH c).arrAt w cfg1.N
theorem W10_arr (c : Dev nD) (w : Fin cfg1.W) :
    W10 m ρ hH c (Proc.devRef .tc (Pipeline.arrRef spec1 w)) = (dat1 (V9 m ρ) hH c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ hH c (Proc.devRef .tc b) = W9 m ρ c (Proc.devRef .tc b) := by
  unfold W10; exact Pipeline.withArrays_of_ne spec1 c _ _ b hb
/-- The same read at the TensorCore's references (the gather call's exit contents). -/
abbrev V10 : (c : Dev nD) → (b : Ref sig .tc) → Buf (Elt F) ((c : Thread nD τ).loc b) := fun c b => W10 m ρ hH c b
theorem hF1 (c : Dev nD) (w : Fin cfg1.W) : (dat1 (V9 m ρ) hH c).arrAt w cfg1.N = V10 m ρ hH c (Pipeline.arrRef spec1 w) :=
  (W10_arr m ρ hH c w).symm
theorem hrest1 (c : Dev nD) : ∀ b, b ∉ Finset.univ.image (Pipeline.arrRef spec1) → V10 m ρ hH c b = V9 m ρ c b :=
  fun b hb => W10_of_ne m ρ hH c b fun w e => hb (Finset.mem_image.mpr ⟨w, Finset.mem_univ _, e⟩)

/-! ### The arguments end as launched: no host operation and no call writes one (a call reads it through an
    input window or bypasses it), so the fold at an argument's buffer walks back to the launch memory -/

theorem W10_main_arg0 (c : Dev nD) : W10 m ρ hH c (Proc.devRef .tc main_arg0) = m ((c : Thread nD τ).loc main_arg0) :=
  calc W10 m ρ hH c (Proc.devRef .tc main_arg0)
    _ = W9 m ρ c (Proc.devRef .tc main_arg0) := W10_of_ne m ρ hH c main_arg0 (by decide)
    _ = W8 m ρ c (Proc.devRef .tc main_arg0) := StableHlo.after_of_forall_not_mem (b := Proc.devRef .tc main_arg0) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := StableHlo.after_of_forall_not_mem (b := Proc.devRef .tc main_arg0) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W10_main_arg1 (c : Dev nD) : W10 m ρ hH c (Proc.devRef .tc main_arg1) = m ((c : Thread nD τ).loc main_arg1) :=
  calc W10 m ρ hH c (Proc.devRef .tc main_arg1)
    _ = W9 m ρ c (Proc.devRef .tc main_arg1) := W10_of_ne m ρ hH c main_arg1 (by decide)
    _ = W8 m ρ c (Proc.devRef .tc main_arg1) := StableHlo.after_of_forall_not_mem (b := Proc.devRef .tc main_arg1) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W10_main_arg2 (c : Dev nD) : W10 m ρ hH c (Proc.devRef .tc main_arg2) = m ((c : Thread nD τ).loc main_arg2) :=
  calc W10 m ρ hH c (Proc.devRef .tc main_arg2)
    _ = W9 m ρ c (Proc.devRef .tc main_arg2) := W10_of_ne m ρ hH c main_arg2 (by decide)
    _ = W8 m ρ c (Proc.devRef .tc main_arg2) := StableHlo.after_of_forall_not_mem (b := Proc.devRef .tc main_arg2) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W10_main_arg3 (c : Dev nD) : W10 m ρ hH c (Proc.devRef .tc main_arg3) = m ((c : Thread nD τ).loc main_arg3) :=
  calc W10 m ρ hH c (Proc.devRef .tc main_arg3)
    _ = W9 m ρ c (Proc.devRef .tc main_arg3) := W10_of_ne m ρ hH c main_arg3 (by decide)
    _ = W8 m ρ c (Proc.devRef .tc main_arg3) := StableHlo.after_of_forall_not_mem (b := Proc.devRef .tc main_arg3) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W10_main_arg4 (c : Dev nD) : W10 m ρ hH c (Proc.devRef .tc main_arg4) = m ((c : Thread nD τ).loc main_arg4) :=
  calc W10 m ρ hH c (Proc.devRef .tc main_arg4)
    _ = W9 m ρ c (Proc.devRef .tc main_arg4) := W10_of_ne m ρ hH c main_arg4 (by decide)
    _ = W8 m ρ c (Proc.devRef .tc main_arg4) := StableHlo.after_of_forall_not_mem (b := Proc.devRef .tc main_arg4) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The two calls' outputs at the end: the linear call's output array is written by nothing after it, and the
    gather call's output array is one of its own arrays -/

theorem W10_main_v2 (c : Dev nD) : W10 m ρ hH c (Proc.devRef .tc main_v2) = (dat0 (V1 m ρ) c).arrAt 3 cfg0.N :=
  calc W10 m ρ hH c (Proc.devRef .tc main_v2)
    _ = W9 m ρ c (Proc.devRef .tc main_v2) := W10_of_ne m ρ hH c main_v2 (by decide)
    _ = W8 m ρ c (Proc.devRef .tc main_v2) := StableHlo.after_of_forall_not_mem (b := Proc.devRef .tc main_v2) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v2) := StableHlo.after_of_forall_not_mem (b := Proc.devRef .tc main_v2) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v2) := StableHlo.after_of_forall_not_mem (b := Proc.devRef .tc main_v2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v2) := StableHlo.after_of_forall_not_mem (b := Proc.devRef .tc main_v2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v2) := StableHlo.after_of_forall_not_mem (b := Proc.devRef .tc main_v2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := StableHlo.after_of_forall_not_mem (b := Proc.devRef .tc main_v2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

theorem W10_main_v18 (c : Dev nD) : W10 m ρ hH c (Proc.devRef .tc main_v18) = (dat1 (V9 m ρ) hH c).arrAt 2 cfg1.N :=
  W10_arr m ρ hH c 2

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents: the linear call's at the contents after the first
    stretch, the gather call's at the contents after the seven stretches that follow the linear call. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V9 m ρ) hH c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of the stretch over `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor
/-- No operation of this stretch allocates a buffer. -/
theorem hostOps1_1_fresh : (hostOps1_1 : List (HloOp τ sig (Elt F))).Forall fun op => op.fresh = ∅ := by
  simp only [List.Forall]; repeat' constructor
/-- No operation of this stretch allocates a buffer. -/
theorem hostOps1_2_fresh : (hostOps1_2 : List (HloOp τ sig (Elt F))).Forall fun op => op.fresh = ∅ := by
  simp only [List.Forall]; repeat' constructor
/-- No operation of this stretch allocates a buffer. -/
theorem hostOps1_3_fresh : (hostOps1_3 : List (HloOp τ sig (Elt F))).Forall fun op => op.fresh = ∅ := by
  simp only [List.Forall]; repeat' constructor
/-- No operation of this stretch allocates a buffer. -/
theorem hostOps1_4_fresh : (hostOps1_4 : List (HloOp τ sig (Elt F))).Forall fun op => op.fresh = ∅ := by
  simp only [List.Forall]; repeat' constructor
/-- No operation of this stretch allocates a buffer. -/
theorem hostOps1_5_fresh : (hostOps1_5 : List (HloOp τ sig (Elt F))).Forall fun op => op.fresh = ∅ := by
  simp only [List.Forall]; repeat' constructor
/-- No operation of this stretch allocates a buffer. -/
theorem hostOps1_6_fresh : (hostOps1_6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W10 m ρ hH c) ∗ ∃ r, prngReg c r)

/-! ## The two calls as segments -/

set_option backward.isDefEq.respectTransparency.types false in
/-- The linear call over the thread state: entered from every unscoped buffer at `W1`, left at `W2`. Its arrays
    are split out of the unscoped buffers and put back at the exit contents; the generator register goes into the
    class invariant and comes out; nothing owed; no semaphore of the kernel's own. -/
def reg0 : Pipeline.RegionSeg (pcfgs (F := F)) adm (pdats m ρ hH) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ hH) launch0.win launch0.arr_whole c
      ((pdats m ρ hH 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hH) ((pdats m ρ hH 0 c).share_full fun _ => rfl)
      (V1 m ρ c) (V2 m ρ c) ((pdats m ρ hH 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call over the thread state: entered from every unscoped buffer at `W9`, left at `W10` (what the
    launch reads at the end). Its arrays are split out of the unscoped buffers and put back at the exit contents; the
    generator register goes into the invariant and comes out, beside the kernel's own transfer cells (at zero from the
    boundary and back) and the table it copies rows of itself (split out of the bypassing buffers and rejoined);
    nothing owed. -/
def reg1 : Pipeline.RegionSeg (pcfgs (F := F)) adm (pdats m ρ hH) () defs₀ 𝒱₀ L lv 1 where
  win := launch1.win.to₀
  block_pos := launch1.block_pos
  stage_whole := launch1.stage_whole
  K := Fin 2
  osem := osem1
  ho := ownSemFacts1
  hbody c := (body_obligation1 (V9 m ρ) hH c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ hH c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V9 m ρ c b))
  Y c := iprop((∃ r, prngReg c r) ∗ (bigSep H1 fun b => (((c : Thread nD τ)).loc b) ↦{fullShare} V9 m ρ c b))
  Z c := bigSep (Pipeline.restRefs sig spec1 \ H1) fun b => (((c : Thread nD τ)).loc b) ↦{fullShare} V9 m ρ c b
  hentry c := by
    have hsplit := Pipeline.arrays_of_unscopedBufs (p := 1) (pcfgs (F := F)) adm (pdats m ρ hH) launch1.win launch1.arr_whole c
      ((pdats m ρ hH 1 c).share_full fun _ => rfl) (V9 m ρ c) fun _ => rfl
    rw [Pipeline.unscopedBufs_held] at hsplit
    have hHs : (Pipeline.unscopedRest (Ix := Unit) (Name := ℕ) (U := Pipeline.UD sig nD τ) (Lvl := ℕ) spec1 c (V9 m ρ c) : sProp 𝕄)
        = iprop((bigSep H1 fun b => (((c : Thread nD τ)).loc b) ↦{fullShare} V9 m ρ c b) ∗ (bigSep (Pipeline.restRefs sig spec1 \ H1) fun b => (((c : Thread nD τ)).loc b) ↦{fullShare} V9 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hHs) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hH 1 c).Φ 0 = Pipeline.ΦD osem1 spec1 H1 (V9 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hH 1 c).Φ (Fin.last _) = Pipeline.ΦD osem1 spec1 H1 (V9 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hH) ((pdats m ρ hH 1 c).share_full fun _ => rfl)
      (V9 m ρ c) (V10 m ρ hH c) ((pdats m ρ hH 1 c).arrAt · cfg1.N) (hF1 m ρ hH c) (hrest1 m ρ hH c)
    rw [Pipeline.unscopedBufs_held] at hjoin
    have hHs : (Pipeline.unscopedRest (Ix := Unit) (Name := ℕ) (U := Pipeline.UD sig nD τ) (Lvl := ℕ) spec1 c (V9 m ρ c) : sProp 𝕄)
        = iprop((bigSep H1 fun b => (((c : Thread nD τ)).loc b) ↦{fullShare} V9 m ρ c b) ∗ (bigSep (Pipeline.restRefs sig spec1 \ H1) fun b => (((c : Thread nD τ)).loc b) ↦{fullShare} V9 m ρ c b)) := by
      unfold Pipeline.unscopedRest; exact BI.bigSep_sdiff_split H1_sub
    iintro ⟨Ha, HO, ⟨HY, HH⟩, HR⟩
    ihave Hrest := (Entails.of_eq hHs.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 10 segments in order: a host segment per stretch from its boundary's contents, a region per call. -/
abbrev segs : List (Pipeline.Seg (pcfgs (F := F)) adm (pdats m ρ hH) () defs₀ 𝒱₀ L lv) :=
  [ .host (hseg hostOps0 hostOps0_sub hostOps0_fresh (W0 m ρ)),
    .region (reg0 m ρ hH),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .region (reg1 m ρ hH) ]
/-- The program IS the run of the segments: it is the chain of its items, and the segments' run is that chain by
    definitional unfolding. -/
theorem main_run (c : Dev nD) : main (F := F) c = Pipeline.Seg.run (segs m ρ hH) := (main_chain c).trans (by chain_rfl)

set_option backward.isDefEq.respectTransparency.types false in
/-- The run: at the compiled mesh, from any memory with zero counters, every weakly fair execution of the program on
    the TensorCores terminates, nothing faulting, and in every final state every unscoped buffer of every core holds
    the last boundary's contents `W10`. The launch over the segments; the last thread state read against the final
    state. The launch element is the pipeline library's paired with the transfer counters' unit. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ hH c b) :=
  Pipeline.θ_run_regions_kit (pcfgs (F := F)) adm (pdats m ρ hH) () cellOf_inj embL defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ hH c) s')
      isplitl [Hh] <;> iassumption)
    (hQ := fun _ h => h)

include hH in
/-- The frame: the program terminates, nothing faulting, and every final state has the five argument arrays as
    launched. From the run, each argument's buffer being unscoped and read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W10_main_arg0 m ρ hH c),
     (h c _ (mem_uc main_arg1 (by decide))).trans (W10_main_arg1 m ρ hH c),
     (h c _ (mem_uc main_arg2 (by decide))).trans (W10_main_arg2 m ρ hH c),
     (h c _ (mem_uc main_arg3 (by decide))).trans (W10_main_arg3 m ρ hH c),
     (h c _ (mem_uc main_arg4 (by decide))).trans (W10_main_arg4 m ρ hH c)⟩) (run_all m ρ hH)

end Cert.Kernel.Hand

end
-- ==== Proof.K.Chain.lean ====
import proofs.«405686_j2499670966883_2_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe

variable {F : FTy → Type} [FloatOps F]

/-! # The host index plumbing between the two kernel regions

Between the first kernel region (the dense layer) and the second (the neighbour gather) the program
computes, from the neighbour table `a1` and the neighbour mask `a2`, three arrays: the compacted
neighbour indices (valid neighbours moved to the front of each row, by a stable argsort of the
negated mask, the tail zeroed), the 0/1 words of "slot `j` is below the row's degree", and the dense
layer's output viewed as 50000 rows of one 128-vector. Here each is a pure function of the inputs,
written as the composition of the program's own operations in order, and each host stretch of the
program is shown to leave exactly that function's value in its result buffer. -/

/-- The all-`v` table of 32-bit words. -/
def fillK (v : BitVec 32) : IVec S50000x32 32 :=
  broadcastInDim S50000x32 ![] bcast_S_S50000x32 (constantI S_ 32 v)

/-- The sort key: 0 where the mask is set, 1 where it is not. -/
def keyK (a2 : IVec S50000x32 1) : IVec S50000x32 32 :=
  select a2 (fillK 0#32) (fillK 1#32)

/-- The stable argsort of the key along each row: the slots of the valid neighbours first, in their
    original order, then the slots of the invalid ones. -/
def orderK (a2 : IVec S50000x32 1) : IVec S50000x32 32 :=
  (Host.sort2 S50000x32 1 comparator_i32_i32_d1 (keyK a2) (iotaInDim S50000x32 32 1)).2

/-- The order's entries as gather indices: a negative entry wrapped by adding the row length, then
    one index vector per entry. -/
def wrapK (o : IVec S50000x32 32) : IVec S50000x32x1 32 :=
  shapeCast S50000x32x1 (select (cmpi .slt o (fillK 0#32)) (addi o (fillK 32#32)) o) shapeCasts_S50000x32_S50000x32x1

/-- Where the wrapped index lies inside the row, `0 ≤ · ≤ 31`. -/
def inRowK (o : IVec S50000x32 32) : IVec S50000x32 1 :=
  Host.reduce IntOp.andi
    (andi (cmpi .sge (wrapK o) (broadcastInDim S50000x32x1 ![] bcast_S_S50000x32x1 (constantI S_ 32 0#32)))
      (cmpi .sle (wrapK o) (broadcastInDim S50000x32x1 ![0, 1, 2] bcast_S1x1x1_S50000x32x1_0_1_2
        (broadcastInDim S1x1x1 ![2] bcast_S1_S1x1x1_2 (constantI S1 32 31#32)))))
    (constantI S_ 1 1#1) reducesTo_S50000x32x1_S50000x32_d2 h_S_

/-- The neighbour table read along each row at the order `o`; an out-of-row index reads the fill word. -/
def takeK (a1 : IVec S50000x32 32) (o : IVec S50000x32 32) : IVec S50000x32 32 :=
  select (inRowK o) (Host.gather gather_S50000x32_S50000x32x1_S50000x32_n_1_0_0_1_2_11 a1 (wrapK o)) (fillK 2147483648#32)

/-- The neighbour table with each row's valid neighbours moved to the front. -/
def compactK (a1 : IVec S50000x32 32) (a2 : IVec S50000x32 1) : IVec S50000x32 32 :=
  takeK a1 (orderK a2)

/-- Each row's degree: the number of set mask bits, as a 32-bit word. -/
def degK (a2 : IVec S50000x32 1) : IVec S50000 32 :=
  Host.reduce IntOp.addi (extui 32 a2 natLt_1_32) (constantI S_ 32 0#32) reducesTo_S50000x32_S50000_d1 h_S_

/-- Slot `j` of row `i` is kept when `j` is below the row's degree. -/
def keepMaskK (a2 : IVec S50000x32 1) : IVec S50000x32 1 :=
  cmpi .slt
    (broadcastInDim S50000x32 ![0, 1] bcast_S1x32_S50000x32_0_1 (broadcastInDim S1x32 ![1] bcast_S32_S1x32_1 (iotaInDim S32 32 0)))
    (broadcastInDim S50000x32 ![0, 1] bcast_S50000x1_S50000x32_0_1 (broadcastInDim S50000x1 ![0] bcast_S50000_S50000x1_0 (degK a2)))

/-- The compacted neighbour indices, zero past the degree: the second region's index table. -/
def cidxK (a1 : IVec S50000x32 32) (a2 : IVec S50000x32 1) : IVec S50000x32 32 :=
  select (keepMaskK a2) (compactK a1 a2) (fillK 0#32)

/-- The kept slots as 0/1 words: the second region's keep table. -/
def keepK (a2 : IVec S50000x32 1) : IVec S50000x32 32 :=
  extui 32 (keepMaskK a2) natLt_1_32

/-- The dense layer's output viewed as 50000 rows of one 128-vector. -/
def h3K (h : FVec F S50000x128 .f32) : FVec F S50000x1x128 .f32 :=
  shapeCast S50000x1x128 h shapeCasts_S50000x128_S50000x1x128

/-- The weight matrix transposed. -/
def wtK (w : FVec F S128x128 .f32) : FVec F S128x128 .f32 :=
  transpose S128x128 [1, 0] w transposes_S128x128_S128x128_1_0

/-- The bias as one row. -/
def b2K (b : FVec F S128 .f32) : FVec F S1x128 .f32 :=
  shapeCast S1x128 b shapeCasts_S128_S1x128

/-! ## The first stretch -/

theorem after0_v0 (W : Valuation τ sig (Elt F)) :
    StableHlo.after hostOps0 W (Proc.devRef .tc main_v0) = wtK (W (Proc.devRef .tc main_arg3)) := by
  after_results; rfl

theorem after0_v1 (W : Valuation τ sig (Elt F)) :
    StableHlo.after hostOps0 W (Proc.devRef .tc main_v1) = b2K (W (Proc.devRef .tc main_arg4)) := by
  after_results; rfl

theorem after0_arg0 (W : Valuation τ sig (Elt F)) :
    StableHlo.after hostOps0 W (Proc.devRef .tc main_arg0) = W (Proc.devRef .tc main_arg0) := by
  after_results
theorem after0_arg1 (W : Valuation τ sig (Elt F)) :
    StableHlo.after hostOps0 W (Proc.devRef .tc main_arg1) = W (Proc.devRef .tc main_arg1) := by
  after_results
theorem after0_arg2 (W : Valuation τ sig (Elt F)) :
    StableHlo.after hostOps0 W (Proc.devRef .tc main_arg2) = W (Proc.devRef .tc main_arg2) := by
  after_results
theorem after0_arg3 (W : Valuation τ sig (Elt F)) :
    StableHlo.after hostOps0 W (Proc.devRef .tc main_arg3) = W (Proc.devRef .tc main_arg3) := by
  after_results
theorem after0_arg4 (W : Valuation τ sig (Elt F)) :
    StableHlo.after hostOps0 W (Proc.devRef .tc main_arg4) = W (Proc.devRef .tc main_arg4) := by
  after_results

/-! ## The stretches between the regions, one at a time

Each stretch's result buffers as functions of the contents `V` it starts from. -/

/-- Selecting among three tables read through their buffers' types is selecting among the tables. -/
theorem sel_cast (m : IVec S50000x32 1) (g f : IVec S50000x32 32) :
    (StableHlo.TRef.of main_v5 : StableHlo.TRef sig ⟨S50000x32, .i32⟩).toBuf (Val := Elt F)
      (select ((StableHlo.TRef.of main_call2_v12 : StableHlo.TRef sig ⟨S50000x32, .i1⟩).ofBuf (Val := Elt F) m)
        ((StableHlo.TRef.of main_call2_v13 : StableHlo.TRef sig ⟨S50000x32, .i32⟩).ofBuf (Val := Elt F) g)
        ((StableHlo.TRef.of main_call2_v14 : StableHlo.TRef sig ⟨S50000x32, .i32⟩).ofBuf (Val := Elt F) f))
    = select m g f := rfl

section Stretches
variable (V : Valuation τ sig (Elt F))

theorem after1_c : StableHlo.after hostOps1 V (Proc.devRef .tc main_c) = (constantI S_ 32 0#32 : IVec S_ 32) := by
  after_results
theorem after1_c_0 : StableHlo.after hostOps1 V (Proc.devRef .tc main_c_0) = (constantI S_ 32 1#32 : IVec S_ 32) := by
  after_results
theorem after1_arg1 : StableHlo.after hostOps1 V (Proc.devRef .tc main_arg1) = V (Proc.devRef .tc main_arg1) := by
  after_results
theorem after1_arg2 : StableHlo.after hostOps1 V (Proc.devRef .tc main_arg2) = V (Proc.devRef .tc main_arg2) := by
  after_results

theorem after1_1_v3 : StableHlo.after hostOps1_1 V (Proc.devRef .tc main_v3)
    = select (V (Proc.devRef .tc main_arg2))
        (broadcastInDim S50000x32 ![] bcast_S_S50000x32 (V (Proc.devRef .tc main_c)))
        (broadcastInDim S50000x32 ![] bcast_S_S50000x32 (V (Proc.devRef .tc main_c_0))) := by
  after_results; rfl
theorem after1_1_arg1 : StableHlo.after hostOps1_1 V (Proc.devRef .tc main_arg1) = V (Proc.devRef .tc main_arg1) := by
  after_results
theorem after1_1_arg2 : StableHlo.after hostOps1_1 V (Proc.devRef .tc main_arg2) = V (Proc.devRef .tc main_arg2) := by
  after_results

theorem after1_2_v4 : StableHlo.after hostOps1_2 V (Proc.devRef .tc main_v4)
    = (Host.sort2 S50000x32 1 comparator_i32_i32_d1 (V (Proc.devRef .tc main_v3)) (iotaInDim S50000x32 32 1)).2 := by
  after_results; rfl
theorem after1_2_arg1 : StableHlo.after hostOps1_2 V (Proc.devRef .tc main_arg1) = V (Proc.devRef .tc main_arg1) := by
  after_results
theorem after1_2_arg2 : StableHlo.after hostOps1_2 V (Proc.devRef .tc main_arg2) = V (Proc.devRef .tc main_arg2) := by
  after_results

attribute [local irreducible] Host.reduce in
/-- The in-row test the gather stretch leaves in its mask buffer. -/
theorem after1_3_mask : StableHlo.after hostOps1_3 V (Proc.devRef .tc main_call2_v12)
    = inRowK (V (Proc.devRef .tc main_v4)) := by
  after_results_simp
  rfl

theorem after1_3_gather : StableHlo.after hostOps1_3 V (Proc.devRef .tc main_call2_v13)
    = Host.gather gather_S50000x32_S50000x32x1_S50000x32_n_1_0_0_1_2_11 (V (Proc.devRef .tc main_arg1)) (wrapK (V (Proc.devRef .tc main_v4))) := by
  after_results_simp
  rfl

theorem after1_3_fill : StableHlo.after hostOps1_3 V (Proc.devRef .tc main_call2_v14) = fillK 2147483648#32 := by
  after_results_simp
  rfl

/-- The gather stretch's result: its last operation selects among the three buffers above. -/
theorem after1_3_v5 : StableHlo.after hostOps1_3 V (Proc.devRef .tc main_v5)
    = takeK (V (Proc.devRef .tc main_arg1)) (V (Proc.devRef .tc main_v4)) := by
  have e12 := after1_3_mask V
  have e13 := after1_3_gather V
  have e14 := after1_3_fill V
  simp only [StableHlo.after_cons, StableHlo.after_nil] at e12 e13 e14 ⊢
  rw [StableHlo.ternary_result_ne] at e12 e13 e14
  rotate_left
  · decide
  · decide
  · decide
  rw [StableHlo.ternary_result, e12, e13, e14]
  unfold takeK
  generalize inRowK (V (Proc.devRef .tc main_v4)) = m
  generalize Host.gather gather_S50000x32_S50000x32x1_S50000x32_n_1_0_0_1_2_11 (V (Proc.devRef .tc main_arg1)) (wrapK (V (Proc.devRef .tc main_v4))) = g
  generalize fillK 2147483648#32 = f
  exact sel_cast m g f

theorem after1_3_arg2 : StableHlo.after hostOps1_3 V (Proc.devRef .tc main_arg2) = V (Proc.devRef .tc main_arg2) := by
  after_results_simp

theorem after1_4_v13 : StableHlo.after hostOps1_4 V (Proc.devRef .tc main_v13) = keepMaskK (V (Proc.devRef .tc main_arg2)) := by
  after_results; rfl
theorem after1_4_v14 : StableHlo.after hostOps1_4 V (Proc.devRef .tc main_v14) = fillK 0#32 := by
  after_results; rfl
theorem after1_4_v5 : StableHlo.after hostOps1_4 V (Proc.devRef .tc main_v5) = V (Proc.devRef .tc main_v5) := by
  after_results

theorem after1_5_v15 : StableHlo.after hostOps1_5 V (Proc.devRef .tc main_v15)
    = select (V (Proc.devRef .tc main_v13)) (V (Proc.devRef .tc main_v5)) (V (Proc.devRef .tc main_v14)) := by
  after_results; rfl

theorem after1_6_v15 : StableHlo.after hostOps1_6 V (Proc.devRef .tc main_v15) = V (Proc.devRef .tc main_v15) := by
  after_results

end Stretches

/-! ## The stretches between the regions, together -/

/-- The buffers' contents after the seven host stretches between the two regions, from contents `W`. -/
abbrev afterMid (W : Valuation τ sig (Elt F)) : Valuation τ sig (Elt F) :=
  StableHlo.after hostOps1_6 (StableHlo.after hostOps1_5 (StableHlo.after hostOps1_4 (StableHlo.after hostOps1_3
    (StableHlo.after hostOps1_2 (StableHlo.after hostOps1_1 (StableHlo.after hostOps1 W))))))

/-- The second region's index table is the compacted neighbour indices. -/
theorem afterMid_v15 (W : Valuation τ sig (Elt F)) :
    afterMid W (Proc.devRef .tc main_v15) = cidxK (W (Proc.devRef .tc main_arg1)) (W (Proc.devRef .tc main_arg2)) := by
  show StableHlo.after hostOps1_6 _ _ = _
  rw [after1_6_v15, after1_5_v15, after1_4_v13, after1_4_v14, after1_4_v5, after1_3_v5, after1_3_arg2,
    after1_2_v4, after1_2_arg1, after1_2_arg2, after1_1_v3, after1_1_arg1, after1_1_arg2,
    after1_c, after1_c_0, after1_arg1, after1_arg2]
  rfl

/-- The second region's keep table is the 0/1 words of "slot below the degree". -/
theorem afterMid_v16 (W : Valuation τ sig (Elt F)) :
    afterMid W (Proc.devRef .tc main_v16) = keepK (W (Proc.devRef .tc main_arg2)) := by
  after_results; rfl

/-- The second region's row table is the first region's output, one 128-vector per row. -/
theorem afterMid_v17 (W : Valuation τ sig (Elt F)) :
    afterMid W (Proc.devRef .tc main_v17) = h3K (W (Proc.devRef .tc main_v2)) := by
  after_results; rfl

theorem afterMid_v2 (W : Valuation τ sig (Elt F)) :
    afterMid W (Proc.devRef .tc main_v2) = W (Proc.devRef .tc main_v2) := by
  after_results
theorem afterMid_arg0 (W : Valuation τ sig (Elt F)) :
    afterMid W (Proc.devRef .tc main_arg0) = W (Proc.devRef .tc main_arg0) := by
  after_results
theorem afterMid_arg1 (W : Valuation τ sig (Elt F)) :
    afterMid W (Proc.devRef .tc main_arg1) = W (Proc.devRef .tc main_arg1) := by
  after_results
theorem afterMid_arg2 (W : Valuation τ sig (Elt F)) :
    afterMid W (Proc.devRef .tc main_arg2) = W (Proc.devRef .tc main_arg2) := by
  after_results
theorem afterMid_arg3 (W : Valuation τ sig (Elt F)) :
    afterMid W (Proc.devRef .tc main_arg3) = W (Proc.devRef .tc main_arg3) := by
  after_results
theorem afterMid_arg4 (W : Valuation τ sig (Elt F)) :
    afterMid W (Proc.devRef .tc main_arg4) = W (Proc.devRef .tc main_arg4) := by
  after_results

end Cert.Kernel.Hand

end
-- ==== Proof.K.IndexRange.lean ====
import proofs.«405686_j2499670966883_2_alg».proof.Proof.K.Chain
import proofs.«405686_j2499670966883_2_alg».proof.Kernel
import proofs.«405686_j2499670966883_2_alg».proof.Pre_finite_inputs
import Idealize.ShloMosaic.Lib.ReduceAll
import Idealize.ShloMosaic.Lib.StableHlo.Predicate
import Idealize.ShloMosaic.Lib.ValueIdx
import Idealize.ShloMosaic.Lib.IdealHost

noncomputable section

namespace Cert.Kernel.Hand

open Cert.Kernel Cert.Kernel.Gen Idealize.ShloMosaic

/-! # The row numbers the gather region reads are inside the table

The second region copies, for each slot of each row, one row of a 50000-row table, the row number read
from the compacted neighbour table. Here: every such row number is below 50000, given that every entry of
the neighbour table is (which the precondition says). The compacted table is built from the neighbour table
by a stable sort of column numbers, a take along the rows at the sorted column numbers, and a select against
zero; each step only moves entries of the table around or replaces them by zero. -/

/-! ## Words: a signed 32-bit word between 0 and a small bound -/

/-- A word that is signed-at-least 0 and signed-below a bound under 2³¹ has its value below the bound. -/
theorem toNat_lt_of_sge_slt (w : BitVec 32) (n : ℕ) (hn : n < 2 ^ 31)
    (hge : IntOp.cmpi .sge w 0#32 = 1#1) (hlt : IntOp.cmpi .slt w (BitVec.ofNat 32 n) = 1#1) : w.toNat < n := by
  unfold IntOp.cmpi at hge hlt
  rw [StableHlo.Predicate.ofBool_eq_one_iff] at hge hlt
  simp only [BitVec.sle, BitVec.slt, decide_eq_true_eq] at hge hlt
  have h0 : (0#32 : BitVec 32).toInt = 0 := by decide
  rw [StableHlo.Predicate.toInt_ofNat_small n hn] at hlt
  rw [h0] at hge
  rw [BitVec.toInt_eq_toNat_cond] at hge hlt
  have := w.isLt
  split at hge <;> omega

/-! ## The precondition read back: every entry of the neighbour table is a row number -/

section Pre
variable [Cert.Pre_finite_inputs.Facts]

/-- The scalar shape has one index. -/
instance subsingleton_S_Idx : Subsingleton Cert.Pre_finite_inputs.S_.Idx := ⟨fun a b => funext fun d => d.elim0⟩

/-- The precondition's last conjunct is "every entry of the neighbour table is signed-at-least 0 and
    signed-below 50000", reduced by "and" over the whole table; where the precondition holds, each entry's
    value is below 50000. -/
theorem idx_lt_of_pre {F : FTy → Type} [FloatOps F] (a0 : FVec F Cert.Pre_finite_inputs.S50000x128 .f32)
    (a1 : IVec Cert.Pre_finite_inputs.S50000x32 32) (a2 : IVec Cert.Pre_finite_inputs.S50000x32 1)
    (a3 : FVec F Cert.Pre_finite_inputs.S128x128 .f32) (a4 : FVec F Cert.Pre_finite_inputs.S128 .f32)
    (h : Cert.Pre_finite_inputs.fn (F := F) a0 a1 a2 a3 a4 = fun _ => 1#1) :
    ∀ i : Cert.Pre_finite_inputs.S50000x32.Idx, (a1 i).toNat < 50000 := by
  intro i
  have h0 := congrFun h ValueIdx.ix0
  dsimp only [Cert.Pre_finite_inputs.fn, Cert.Pre_finite_inputs.fn_part1] at h0
  obtain ⟨_, hr⟩ := IntOp.andi_eq_one.1 h0
  have hi := Host.reduce_andi_all _ _ _ _ _ hr i
  obtain ⟨hge, hlt⟩ := IntOp.andi_eq_one.1 hi
  have hge' : IntOp.cmpi .sge (a1 i) 0#32 = 1#1 := hge
  have hlt' : IntOp.cmpi .slt (a1 i) (BitVec.ofNat 32 50000) = 1#1 := hlt
  exact toNat_lt_of_sge_slt (a1 i) 50000 (by norm_num) hge' hlt'

end Pre

section Generic
variable [Facts]
open Facts₀ Facts

/-! ## The sort: the sorted copy of the column numbers holds column numbers -/

/-- The column-number array read anywhere on a row's fiber along the columns is that position, below 32. -/
theorem iota_along_lt (i : S50000x32.Idx) (k : Fin (S50000x32.size ⟨1, by decide⟩)) :
    (iotaInDim S50000x32 32 1 (i.along ⟨1, by decide⟩ k)).toNat < 32 := by
  rw [ValueIdx.iotaInDim_apply]
  have hk : ((i.along ⟨1, by decide⟩ k) (1 : Fin S50000x32.rank)) = k := by
    unfold Shape.Idx.along
    exact Function.update_self _ _ _
  rw [hk]
  have hk32 : k.val < 32 := k.isLt
  rw [BitVec.toNat_ofNat]
  omega

/-- A stable sort of any keys along the columns, carrying the column numbers, returns in its second result a column
    number of the same row at every position: a word below 32. -/
theorem order_lt (keys : IVec S50000x32 32) (i : S50000x32.Idx) :
    ((Host.sort2 S50000x32 1 comparator_i32_i32_d1 keys (iotaInDim S50000x32 32 1)).2 i).toNat < 32 := by
  unfold Host.sort2
  rw [dif_pos (show 1 < S50000x32.rank from by decide)]
  exact iota_along_lt i _

/-! ## Words below 32: the wrap of a negative index does nothing, and the range test passes -/

/-- A word below 2³¹ is not signed-below zero. -/
theorem slt_zero_of_small (w : BitVec 32) (hw : w.toNat < 2 ^ 31) : IntOp.cmpi .slt w 0#32 = 0#1 := by
  unfold IntOp.cmpi
  have : w.slt 0#32 = false := by
    simp only [BitVec.slt, StableHlo.Predicate.toInt_eq_toNat_of_lt hw, show (0#32 : BitVec 32).toInt = 0 from by decide]
    simp
  rw [this]; rfl

/-- Wrapping a negative index (add the row length where the index is below zero) leaves a small word alone. -/
theorem wrap_id (w : BitVec 32) (hw : w.toNat < 32) :
    Scalar.select (IntOp.cmpi .slt w 0#32) (IntOp.addi w 32#32) w = w := by
  rw [slt_zero_of_small w (by omega)]
  exact ValueIdx.select_zero _ _

/-- A word below 32 passes the range test 0 ≤ w ≤ 31. -/
theorem inRange_one (w : BitVec 32) (hw : w.toNat < 32) :
    IntOp.andi (IntOp.cmpi .sge w 0#32) (IntOp.cmpi .sle w 31#32) = 1#1 := by
  rw [IntOp.andi_eq_one]
  refine ⟨(StableHlo.Predicate.sge_iff_toNat (by omega) (by decide)).2 (by simp), ?_⟩
  refine (StableHlo.Predicate.sle_iff_toNat (by omega) (by decide)).2 ?_
  show w.toNat ≤ 31
  omega

/-! ## A reduction by "and" over all-ones is one -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

theorem reduce_andi_ones {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_ones x _ (fun n _ => hx n)

/-! ## The gather reads the operand somewhere -/

theorem gather_mem {α : Type} {s si t : Shape} {w : ℕ} (d : GatherDims s si t) (x : s.Idx → α) (idx : IVec si w) (y : t.Idx) :
    ∃ j, Host.gather d x idx y = x j := ⟨_, rfl⟩

end Generic

/-! ## The take along the rows, at an order whose entries are column numbers -/

/-- The wrapped order holds the order's own entries: words below 32. -/
theorem wrapK_lt (o : IVec S50000x32 32) (ho : ∀ i, (o i).toNat < 32) (k : S50000x32x1.Idx) :
    (wrapK o k).toNat < 32 := by
  unfold wrapK shapeCast
  show (Scalar.select (IntOp.cmpi .slt (o _) 0#32) (IntOp.addi (o _) 32#32) (o _)).toNat < 32
  rw [wrap_id _ (ho _)]
  exact ho _

/-- Every entry of such an order lies inside the row. -/
theorem inRowK_one (o : IVec S50000x32 32) (ho : ∀ i, (o i).toNat < 32) (i : S50000x32.Idx) :
    inRowK o i = 1#1 := by
  unfold inRowK
  apply reduce_andi_ones
  intro k
  show IntOp.andi (IntOp.cmpi .sge (wrapK o k) 0#32) (IntOp.cmpi .sle (wrapK o k) 31#32) = 1#1
  exact inRange_one _ (wrapK_lt o ho k)

/-- The take then reads the table: each of its entries is an entry of the table. -/
theorem takeK_mem (a1 o : IVec S50000x32 32) (ho : ∀ i, (o i).toNat < 32) (i : S50000x32.Idx) :
    ∃ j, takeK a1 o i = a1 j := by
  obtain ⟨j, hj⟩ := gather_mem gather_S50000x32_S50000x32x1_S50000x32_n_1_0_0_1_2_11 a1 (wrapK o) i
  refine ⟨j, ?_⟩
  unfold takeK
  show Scalar.select (inRowK o i) (Host.gather gather_S50000x32_S50000x32x1_S50000x32_n_1_0_0_1_2_11 a1 (wrapK o) i) _ = a1 j
  rw [inRowK_one o ho i, ValueIdx.select_one, hj]

/-- The compacted table's entries are entries of the table. -/
theorem compactK_mem (a1 : IVec S50000x32 32) (a2 : IVec S50000x32 1) (i : S50000x32.Idx) :
    ∃ j, compactK a1 a2 i = a1 j :=
  takeK_mem a1 (orderK a2) (fun i => order_lt (keyK a2) i) i

/-- Row numbers in, row numbers out: if every entry of the table is below 50000, so is every entry of the
    compacted table zeroed past the degree. -/
theorem cidxK_lt (a1 : IVec S50000x32 32) (a2 : IVec S50000x32 1) (h : ∀ i, (a1 i).toNat < 50000) :
    ∀ i, (cidxK a1 a2 i).toNat < 50000 := by
  intro i
  unfold cidxK
  show (Scalar.select (keepMaskK a2 i) (compactK a1 a2 i) 0#32).toNat < 50000
  unfold Scalar.select
  split
  · obtain ⟨j, hj⟩ := compactK_mem a1 a2 i
    rw [hj]; exact h j
  · decide

/-- The same from the precondition: where it holds, every row number the second region reads is below 50000. -/
theorem cidxK_lt_of_pre [Cert.Pre_finite_inputs.Facts] {F : FTy → Type} [FloatOps F] (a0 : FVec F Cert.Pre_finite_inputs.S50000x128 .f32)
    (a1 : IVec S50000x32 32) (a2 : IVec S50000x32 1)
    (a3 : FVec F Cert.Pre_finite_inputs.S128x128 .f32) (a4 : FVec F Cert.Pre_finite_inputs.S128 .f32)
    (h : Cert.Pre_finite_inputs.fn (F := F) a0 a1 a2 a3 a4 = fun _ => 1#1) :
    ∀ i, (cidxK a1 a2 i).toNat < 50000 :=
  cidxK_lt a1 a2 (idx_lt_of_pre a0 a1 a2 a3 a4 h)

end Cert.Kernel.Hand

end
-- ==== Proof.K.HypsOfIdx.lean ====
import proofs.«405686_j2499670966883_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The gather call's row numbers are inside the table when the compacted index table's entries are

The second region's body reads, at each of the 8 × 32 slots of its index block, one word and copies that row of the
50000-row table. The index block at a point is a block of the compacted index table; so if every entry of that
table is below 50000, every word the body reads addresses a row of the table. -/

/-- A word below 50000 addresses a row inside the 50000-row table. -/
theorem inRange_of_lt (v : BitVec 32) (h : v.toNat < 50000) : InRange v := by
  unfold InRange
  intro a
  fin_cases a
  · show v.toNat + 1 ≤ 50000
    omega
  · show 0 + 1 ≤ 1
    omega
  · show 0 + 128 ≤ 128
    omega

section
variable (V : (c : Dev nD) → (b : Ref sig .tc) → Buf (Elt F) ((c : Thread nD τ).loc b))

/-- The index block the body reads at any point is a block of the compacted index table, so each word it reads there is
    an entry of that table: where every entry of the table is below 50000, every row number the body reads is inside
    the 50000-row table. -/
theorem hyps1_of_lt (h : ∀ (c : Dev nD) (i : S50000x32.Idx), ((V c main_v15 : IVec S50000x32 32) i).toNat < 50000) : Hyps1 V := by
  intro c t o ho
  refine inRange_of_lt _ ?_
  rw [View.readAt_apply, Memref.IsWhole.read_unread]
  unfold iblk1 View.read
  exact lt_of_eq_of_lt (congrArg BitVec.toNat (cast_eq _ _)) (h c _)
end
end Cert.Kernel.Hand
end
-- ==== Proof.K.HypsOfPre.lean ====
import proofs.«405686_j2499670966883_2_alg».proof.Proof.K.Frame
import proofs.«405686_j2499670966883_2_alg».proof.Proof.K.Chain
import proofs.«405686_j2499670966883_2_alg».proof.Proof.K.IndexRange
import proofs.«405686_j2499670966883_2_alg».proof.Proof.K.HypsOfIdx
import proofs.«405686_j2499670966883_2_alg».proof.Proof.Gen.Pre_finite_inputs

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

/-! # The two calls' entry arrays as functions of the arguments, and the gather call's row numbers in range

At the linear call's entry its three input arrays are the row table as launched, the weights transposed and the bias
as one row. At the gather call's entry its two index arrays are the compacted neighbour indices and the kept-slot
words, both functions of the neighbour table and mask as launched, and the table it copies rows of is the linear
call's output viewed as rows of one vector. Under the precondition every compacted neighbour index is a row number
of that table, which is what the gather call's run asks. -/

/-! ## The contents before the gather call are the seven stretches folded over the linear call's exit contents -/

theorem W9_eq_afterMid (c : Dev nD) : W9 m ρ c = afterMid (W2 m ρ c) := rfl

/-! ## No argument is written by the first stretch or by the linear call -/

theorem W2_main_arg1 (c : Dev nD) : W2 m ρ c (Proc.devRef .tc main_arg1) = m ((c.tc : Thread nD τ).loc main_arg1) :=
  (W2_of_ne m ρ c main_arg1 (by decide)).trans (after0_arg1 (W0 m ρ c))
theorem W2_main_arg2 (c : Dev nD) : W2 m ρ c (Proc.devRef .tc main_arg2) = m ((c.tc : Thread nD τ).loc main_arg2) :=
  (W2_of_ne m ρ c main_arg2 (by decide)).trans (after0_arg2 (W0 m ρ c))

/-! ## The linear call's entry arrays -/

/-- The row table as launched. -/
theorem V1_arg0 (c : Dev nD) : V1 m ρ c main_arg0 = m ((c.tc : Thread nD τ).loc main_arg0) :=
  after0_arg0 (W0 m ρ c)
/-- The weights transposed. -/
theorem V1_v0 (c : Dev nD) : V1 m ρ c main_v0 = wtK (m ((c.tc : Thread nD τ).loc main_arg3)) :=
  after0_v0 (W0 m ρ c)
/-- The bias as one row. -/
theorem V1_v1 (c : Dev nD) : V1 m ρ c main_v1 = b2K (m ((c.tc : Thread nD τ).loc main_arg4)) :=
  after0_v1 (W0 m ρ c)

/-! ## The gather call's entry arrays -/

/-- The compacted neighbour indices of the neighbour table and mask as launched. -/
theorem V9_v15 (c : Dev nD) : V9 m ρ c main_v15 = cidxK (m ((c.tc : Thread nD τ).loc main_arg1)) (m ((c.tc : Thread nD τ).loc main_arg2)) :=
  calc V9 m ρ c main_v15
    _ = afterMid (W2 m ρ c) (Proc.devRef .tc main_v15) := rfl
    _ = cidxK (W2 m ρ c (Proc.devRef .tc main_arg1)) (W2 m ρ c (Proc.devRef .tc main_arg2)) := afterMid_v15 (W2 m ρ c)
    _ = cidxK (m ((c.tc : Thread nD τ).loc main_arg1)) (m ((c.tc : Thread nD τ).loc main_arg2)) := by rw [W2_main_arg1 m ρ c, W2_main_arg2 m ρ c]

/-- The kept-slot words of the mask as launched. -/
theorem V9_v16 (c : Dev nD) : V9 m ρ c main_v16 = keepK (m ((c.tc : Thread nD τ).loc main_arg2)) :=
  calc V9 m ρ c main_v16
    _ = afterMid (W2 m ρ c) (Proc.devRef .tc main_v16) := rfl
    _ = keepK (W2 m ρ c (Proc.devRef .tc main_arg2)) := afterMid_v16 (W2 m ρ c)
    _ = keepK (m ((c.tc : Thread nD τ).loc main_arg2)) := by rw [W2_main_arg2 m ρ c]

/-- The table the gather call copies rows of: the linear call's output at its exit, viewed as rows of one vector. -/
theorem V9_v17 (c : Dev nD) : V9 m ρ c main_v17 = h3K (W2 m ρ c (Proc.devRef .tc main_v2)) :=
  afterMid_v17 (W2 m ρ c)
/-- The linear call's output at its exit is what its pipeline leaves in its output array. -/
theorem W2_main_v2 (c : Dev nD) : W2 m ρ c (Proc.devRef .tc main_v2) = (dat0 (V1 m ρ) c).arrAt 3 cfg0.N :=
  W2_arr m ρ c 3

/-! ## Under the precondition the gather call's row numbers are in range -/

/-- Where the precondition holds of the arguments as launched, every row number the gather call reads, at its entry
    contents, is inside the table: the index array is the compacted neighbour indices, each below 50000. -/
theorem hyps_of_pre
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    Hyps1 (V9 m ρ) :=
  hyps1_of_lt (V9 m ρ) fun c i => by
    rw [V9_v15 m ρ c]
    exact cidxK_lt_of_pre _ _ _ _ _ (hpre c) i

end Cert.Kernel.Hand

end
-- ==== Proof.KI.Body0.lean ====
import proofs.«405686_j2499670966883_2_alg».proof.Proof.Gen.KernelIdeal.Launch
import proofs.«405686_j2499670966883_2_alg».proof.Proof.Gen.KernelIdeal.Skeleton
import proofs.«405686_j2499670966883_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The linear call (the first kernel region) at the region-entry contents `V` -/

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: at an unfetched point the block index has
    not moved, the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: at an unfetched point the block index has
    not moved, the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: at an unfetched point the block index has
    not moved, the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its block -/

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output block -/

/-- The output block after the body, from the three input blocks: one store of the whole block, whose value is
    the rounded product of the row block with the weights plus the bias row. -/
def out0_3 (x0 : Vec F S5000x128 .f32) (x1 : Vec F S128x128 .f32) (x2 : Vec F S1x128 .f32) : Vec F S5000x128 .f32 :=
  View.canon [⟨r0_x, k0_pay1 (View.ld x0 r0_x) (View.ld x1 r0_w) (View.ld x2 r0_b)⟩]

/-- The one store is of the whole block, so it covers it. -/
theorem cover0_3 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

/-! ## The body's triple -/

set_option maxHeartbeats 1000000 in
/-- The kernel body on whole staging memrefs, the inputs' at read contents and the output's at anything, runs to
    the continuation holding the inputs' as they were and the output's at `out0_3` of the inputs'. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the linear call on core `c`: the arrays as the region finds them; after the body at point
    `t` each input's buffer at its block and the output's at `out0_3` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Run1.lean ====
import proofs.«405686_j2499670966883_2_alg».proof.Proof.Gen.KernelIdeal.Launch
import proofs.«405686_j2499670966883_2_alg».proof.Proof.Gen.KernelIdeal.Skeleton
import proofs.«405686_j2499670966883_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gather body, run whole

The body walks its 8 × 32 slots in order. For slot (r, k) it reads the row number `idx[r, k]` from the index block,
copies that row of the table (the operand left in HBM) into one of two 128-lane scratch slots by a transfer of its
own, waits for it, and stores the row -- or zeros where `keep[r, k] ≤ 0` -- into lane row (r, k) of the output block.
A transfer is started only after the one before it has been waited for, so at most one is in flight; the slot it
fills is the one the body is not reading. -/

/-- A row-number word addresses a row inside the 50000-row table. -/
def InRange (v : BitVec 32) : Prop :=
  ∀ a, (![v.toNat, 0, 0] : Fin 3 → ℕ) a + S1x1x128.size a ≤ S50000x1x128.size a

/-- The table the body copies rows of, whole. -/
abbrev hbM1_0 : Memref sig .tc .hbm S50000x1x128 .f32 := Memref.whole main_v17
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

set_option maxHeartbeats 0 in
/-- What the body's 256 stores leave in the output block, as pieces (last first), with the proof that from whole
    staging memrefs -- the index block at `x0`, the keep block at `x1`, the output block and the scratch at anything,
    the two semaphores at zero, the table whole at `fh0` -- and every row number of `x0` in range (`hx`), the body runs
    to the continuation holding the blocks as they were, the scratch at some contents, the semaphores at zero again,
    the table as it was, and the output block with the pieces written. -/
noncomputable def kernelRun1 (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    { L : List (View.Piece (Elt F) S8x32x128 .f32) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ owns (c : Thread nD τ) arg5 fullShare ds0 ∗ semVal ((c : Thread nD τ), SemLoc.dma 12) 0 ∗ semVal ((c : Thread nD τ), SemLoc.dma 13) 0 ∗ hbPt1 c hbM1_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L) ∗ (∃ d, owns (c : Thread nD τ) arg5 fullShare d) ∗ semVal ((c : Thread nD τ), SemLoc.dma 12) 0 ∗ semVal ((c : Thread nD τ), SemLoc.dma 13) 0 ∗ hbPt1 c hbM1_0 fh0 ∗ (∃ W', owes (c : Thread nD τ) 0 W')) -∗ K ⟨⟩))
          ⊢ wp frame (wpE (defs₀ (F := F)) Variants.none c none) Set.univ (cc1__gather_kernel i arg1 harg1 arg2 harg2 (Memref.whole main_v17) (Memref.isWhole_whole _) arg4 harg4 arg5 harg5 cc1_scratch1) K } := by
  refine ⟨?_, fun W K => ?run⟩
  case run =>
    simp only [cc1__gather_kernel_eq_skeleton]; unfold cc1__gather_kernel_skel
    unfold owns
    iintro ⟨⟨%f0, %hf0, H0⟩, ⟨%f1, %hf1, H1⟩, ⟨%d4, %f4, -, H4⟩, ⟨%fs0, %hfs0, HS0⟩, Hq0, Hq1, Hh0, HW, Hk⟩
    obtain rfl := harg1.eq_unread hf0; obtain rfl := harg2.eq_unread hf1; obtain rfl := harg5.eq_unread hfs0
    set_option sl_exec.dmaWindow true in set_option sl_exec.dmaWindowSet true in sl_exec_parts (disch := exact hx _ _)
    try sl_step
    iapply Hk
    isplitl [H0]
    · iexists _; isplitr; · ipureintro; exact harg1.read_unread _
      iexact H0
    isplitl [H1]
    · iexists _; isplitr; · ipureintro; exact harg2.read_unread _
      iexact H1
    isplitl [H4]; · iexists _; iexact H4
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Hand

end
-- ==== Proof.KI.SlotRead.lean ====
import proofs.«405686_j2499670966883_2_alg».proof.Proof.KI.Run1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix1 ix2 ix3)

/-! # Reading the two-slot scratch and the table's rows back

The gather body copies one table row per slot into one of two 128-lane scratch slots and reads the slot back before it
stores. In the scratch's raw contents each copy is one write through the slot's view -- the scratch sliced to one row,
its leading axis squeezed away --, nested over everything older. Read through the other slot's write and onto the
slot's own, the load of slot `s` is the payload of the last copy into slot `s`, whatever lies deeper; and that payload is
one row of the table. Stated for any base contents, so that a read of the deep nest rewrites from the top. -/

section Rows
variable {Val : EltTy → Type} {sig' : RefSig} {κ : Kind} {sp : Space} {n : ℕ}

/-- The table shape: n rows of one 128-lane vector. -/
abbrev rowsOf (n : ℕ) : Shape := ⟨3, ![n, 1, 128]⟩

/-- Reading through a one-row slice (at any offset) with the leading axis squeezed away. -/
theorem read_row_squeezed (M : Memref sig' κ sp (rowsOf n) .f32) (off : Fin 3 → ℕ)
    (inb : ∀ a, off a + S1x1x128.size a ≤ (rowsOf n).size a) (hr) (hq : S1x1x128.Squeezes S1x128)
    (f : M.view.ty.Contents Val) (y : S1x128.Idx) :
    ((M.slice (Rect.unit (s := rowsOf n) off S1x1x128.size inb) hr).squeeze S1x128 hq).view.read Val f y
      = M.view.read Val f ((Rect.unit (s := rowsOf n) off S1x1x128.size inb).emb (Fin.cons ⟨0, Nat.one_pos⟩ y)) := by
  have h1 : ((M.slice (Rect.unit (s := rowsOf n) off S1x1x128.size inb) hr).squeeze S1x128 hq).view.read Val f y
      = M.view.read Val f ((Rect.unit (s := rowsOf n) off S1x1x128.size inb).emb (Shape.reshapeEquiv hq.numel_eq y)) := rfl
  rw [h1, Shape.reshapeEquiv_cons_one]

end Rows

section Rows2
variable {Val : EltTy → Type} {sig' : RefSig} {κ : Kind} {sp : Space} {n : ℕ}

/-- Lane `l` of row `g` of the table, as the one-row slice at offset `(g, 0, 0)` places it. -/
theorem unit_emb_cons (off : Fin 3 → ℕ) (g : ℕ) (hoff : off = ![g, 0, 0]) (hg : g < n)
    (inb : ∀ a, off a + S1x1x128.size a ≤ (rowsOf n).size a) (y : S1x128.Idx) :
    (Rect.unit (s := rowsOf n) off S1x1x128.size inb).emb (Fin.cons ⟨0, Nat.one_pos⟩ y)
      = (ix3 (⟨g, hg⟩ : Fin n) (0 : Fin 1) (y 1 : Fin 128) : (rowsOf n).Idx) := by
  subst hoff
  have h0 : (y 0).val < 1 := (y 0).isLt
  funext a; apply Fin.ext
  match a with
  | ⟨0, _⟩ => show g + 1 * 0 = g; omega
  | ⟨1, _⟩ => show 0 + 1 * (y 0).val = 0; omega
  | ⟨2, _⟩ => show 0 + 1 * (y 1).val = (y 1).val; omega

/-- A load of the one-row rectangle reads, at each of its indices, the row's lane. -/
theorem readAt_unit_row (M : Memref sig' κ sp (rowsOf n) .f32) (off : Fin 3 → ℕ)
    (inb : ∀ a, off a + S1x1x128.size a ≤ (rowsOf n).size a) (f : M.view.ty.Contents Val)
    (j : (Rect.unit (s := rowsOf n) off S1x1x128.size inb).toLoadRect.shape.Idx) :
    M.view.readAt Val (Rect.unit (s := rowsOf n) off S1x1x128.size inb).toLoadRect f j
      = M.view.read Val f ((Rect.unit (s := rowsOf n) off S1x1x128.size inb).emb
          (Fin.cons ⟨0, Nat.one_pos⟩ (ix2 (0 : Fin 1) (j 2 : Fin 128) : S1x128.Idx))) := by
  rw [View.readAt_apply]
  congr 1
  have h0 : (j 0).val < 1 := (j 0).isLt
  have h1 : (j 1).val < 1 := (j 1).isLt
  funext a; apply Fin.ext
  match a with
  | ⟨0, _⟩ => show off 0 + 1 * (j 0).val = off 0 + 1 * 0; omega
  | ⟨1, _⟩ => show off 1 + 1 * (j 1).val = off 1 + 1 * 0; omega
  | ⟨2, _⟩ => rfl

/-- A store through ANOTHER row's squeezed slice leaves this row as it was. -/
theorem read_write_other_row (M : Memref sig' κ sp (rowsOf n) .f32) (g' : ℕ) (off' : Fin 3 → ℕ) (h' : off' = ![g', 0, 0])
    (inb' : ∀ a, off' a + S1x1x128.size a ≤ (rowsOf n).size a) (hr') (hq : S1x1x128.Squeezes S1x128)
    (f : M.view.ty.Contents Val) (w : S1x128.Idx → Val .f32) (Ms : Finset S1x128.Idx)
    (i : (rowsOf n).Idx) (hi : (i 0).val ≠ g') :
    M.view.read Val (((M.slice (Rect.unit (s := rowsOf n) off' S1x1x128.size inb') hr').squeeze S1x128 hq).view.write Val f w Ms) i
      = M.view.read Val f i := by
  subst h'
  apply View.read_congr_at
  apply View.write_of_not_mem
  intro hm
  obtain ⟨x, _, hx⟩ := Finset.mem_map.mp hm
  have e : ((M.slice (Rect.unit (s := rowsOf n) ![g', 0, 0] S1x1x128.size inb') hr').squeeze S1x128 hq).view.emb x
      = M.view.emb ((Rect.unit (s := rowsOf n) ![g', 0, 0] S1x1x128.size inb').emb (Shape.reshapeEquiv hq.numel_eq x)) := rfl
  rw [e, Shape.reshapeEquiv_cons_one] at hx
  have h := M.view.emb.injective hx
  have h0 := congrArg (fun i : (rowsOf n).Idx => (i 0 : ℕ)) h
  simp only [Rect.emb_apply] at h0
  have h4 : g' + 1 * 0 = (i 0 : ℕ) := h0
  omega

/-- A store through a row's own squeezed slice, read back on that row: the payload. -/
theorem read_write_own_row (M : Memref sig' κ sp (rowsOf n) .f32) (off : Fin 3 → ℕ)
    (inb : ∀ a, off a + S1x1x128.size a ≤ (rowsOf n).size a) (hr) (hq : S1x1x128.Squeezes S1x128)
    (f : M.view.ty.Contents Val) (w : S1x128.Idx → Val .f32) (y : S1x128.Idx) :
    M.view.read Val (((M.slice (Rect.unit (s := rowsOf n) off S1x1x128.size inb) hr).squeeze S1x128 hq).view.write Val f w Finset.univ)
        ((Rect.unit (s := rowsOf n) off S1x1x128.size inb).emb (Fin.cons ⟨0, Nat.one_pos⟩ y))
      = w y := by
  exact (read_row_squeezed M off inb hr hq _ y).symm.trans
    (View.read_write_of_mem (v := ((M.slice (Rect.unit (s := rowsOf n) off S1x1x128.size inb) hr).squeeze S1x128 hq).view) f w (Finset.mem_univ y))

end Rows2

/-! ## The two-slot scratch: reading a slot back after the transfers into it -/

section Slots
variable (arg5 : Memref sig .tc .vmem S2x1x128 .f32)

/-- Slot 0, read after a transfer into slot 0 and then one into slot 1: the first transfer's payload, lane by lane. -/
theorem slot0_read_after_both (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p p' : S1x128.Idx → Elt F .f32) :
    arg5.view.readAt (Elt F) (Rect.unit (s := S2x1x128) ![0, 0, 0] S1x1x128.size inb0).toLoadRect
        (((arg5.slice (Rect.unit (s := S2x1x128) ![1, 0, 0] S1x1x128.size inb1) hr1).squeeze S1x128 hq').view.write (Elt F)
          (((arg5.slice (Rect.unit (s := S2x1x128) ![0, 0, 0] S1x1x128.size inb0) hr0).squeeze S1x128 hq).view.write (Elt F) B p Finset.univ)
          p' Finset.univ)
      = fun j => p (ix2 (0 : Fin 1) (j 2 : Fin 128)) := by
  funext j
  rw [readAt_unit_row (n := 2) arg5 ![0, 0, 0] inb0]
  rw [read_write_other_row (n := 2) arg5 1 ![1, 0, 0] rfl inb1 hr1 hq' _ p' Finset.univ _ (by show (0 + 1 * 0 : ℕ) ≠ 1; omega)]
  exact read_write_own_row (n := 2) arg5 ![0, 0, 0] inb0 hr0 hq B p _

/-- Slot 1, read after a transfer into slot 1 and then one into slot 0: the first transfer's payload, lane by lane. -/
theorem slot1_read_after_both (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p p' : S1x128.Idx → Elt F .f32) :
    arg5.view.readAt (Elt F) (Rect.unit (s := S2x1x128) ![1, 0, 0] S1x1x128.size inb1).toLoadRect
        (((arg5.slice (Rect.unit (s := S2x1x128) ![0, 0, 0] S1x1x128.size inb0) hr0).squeeze S1x128 hq').view.write (Elt F)
          (((arg5.slice (Rect.unit (s := S2x1x128) ![1, 0, 0] S1x1x128.size inb1) hr1).squeeze S1x128 hq).view.write (Elt F) B p Finset.univ)
          p' Finset.univ)
      = fun j => p (ix2 (0 : Fin 1) (j 2 : Fin 128)) := by
  funext j
  rw [readAt_unit_row (n := 2) arg5 ![1, 0, 0] inb1]
  rw [read_write_other_row (n := 2) arg5 0 ![0, 0, 0] rfl inb0 hr0 hq' _ p' Finset.univ _ (by show (1 + 1 * 0 : ℕ) ≠ 0; omega)]
  exact read_write_own_row (n := 2) arg5 ![1, 0, 0] inb1 hr1 hq B p _

/-- Slot 0, read right after a transfer into it: the transfer's payload, lane by lane. -/
theorem slot0_read_after_own (inb0 : ∀ a, (![0, 0, 0] : Fin 3 → ℕ) a + S1x1x128.size a ≤ S2x1x128.size a) (hr0)
    (hq : S1x1x128.Squeezes S1x128) (B : BufTy.Contents (Elt F) arg5.view.ty) (p : S1x128.Idx → Elt F .f32) :
    arg5.view.readAt (Elt F) (Rect.unit (s := S2x1x128) ![0, 0, 0] S1x1x128.size inb0).toLoadRect
        (((arg5.slice (Rect.unit (s := S2x1x128) ![0, 0, 0] S1x1x128.size inb0) hr0).squeeze S1x128 hq).view.write (Elt F) B p Finset.univ)
      = fun j => p (ix2 (0 : Fin 1) (j 2 : Fin 128)) := by
  funext j
  rw [readAt_unit_row (n := 2) arg5 ![0, 0, 0] inb0]
  exact read_write_own_row (n := 2) arg5 ![0, 0, 0] inb0 hr0 hq B p _

/-- Slot 1, read right after a transfer into it: the transfer's payload, lane by lane. -/
theorem slot1_read_after_own (inb1 : ∀ a, (![1, 0, 0] : Fin 3 → ℕ) a + S1x1x128.size a ≤ S2x1x128.size a) (hr1)
    (hq : S1x1x128.Squeezes S1x128) (B : BufTy.Contents (Elt F) arg5.view.ty) (p : S1x128.Idx → Elt F .f32) :
    arg5.view.readAt (Elt F) (Rect.unit (s := S2x1x128) ![1, 0, 0] S1x1x128.size inb1).toLoadRect
        (((arg5.slice (Rect.unit (s := S2x1x128) ![1, 0, 0] S1x1x128.size inb1) hr1).squeeze S1x128 hq).view.write (Elt F) B p Finset.univ)
      = fun j => p (ix2 (0 : Fin 1) (j 2 : Fin 128)) := by
  funext j
  rw [readAt_unit_row (n := 2) arg5 ![1, 0, 0] inb1]
  exact read_write_own_row (n := 2) arg5 ![1, 0, 0] inb1 hr1 hq B p _

end Slots

/-! ## A transfer's payload: one row of the table -/

/-- The row of the table a transfer copies, as a [1, 128] vector: row `w` of the table, lane by lane. -/
theorem dma_row (c : Dev nD) (w : BitVec 32) (hw : w.toNat < 50000) (off : Fin 3 → ℕ) (hoff : off = ![w.toNat, 0, 0])
    (inb : ∀ a, off a + S1x1x128.size a ≤ S50000x1x128.size a) (hr) (hq : S1x1x128.Squeezes S1x128)
    (fh0 : HbBuf1 (F := F) c hbM1_0) :
    (ReadAs.same : ReadAs (Elt F) S1x128 .f32 S1x128 .f32).apply
        ((((Memref.whole main_v17 : Memref sig .tc .hbm S50000x1x128 .f32).slice (Rect.unit (s := S50000x1x128) off S1x1x128.size inb) hr).squeeze S1x128 hq).view.read (Elt F) fh0)
      = fun j : S1x128.Idx => (fh0 : S50000x1x128.Idx → Elt F .f32) (ix3 (⟨w.toNat, hw⟩ : Fin 50000) (0 : Fin 1) (j 1 : Fin 128)) := by
  funext j
  rw [ReadAs.apply_same, read_row_squeezed (n := 50000) (Memref.whole main_v17) off inb hr hq fh0 j,
    unit_emb_cons (n := 50000) off w.toNat hoff hw]
  simp only [Memref.view_whole, View.read_whole]

/-! ## An index or keep word: the block's entry at its slot -/

/-- The word a scalar load reads at slot `(r, k)` of a whole 8 × 32 block holding `x` is `x` at `(r, k)`. -/
theorem word_read (arg : Memref sig .tc .smem S8x32 .i32) (harg : arg.IsWhole) (x : Vec F S8x32 .i32)
    (off : Fin 2 → ℕ) (r : Fin 8) (k : Fin 32) (hoff : off = ![r.val, k.val])
    (inb : ∀ a, off a + S1x1.size a ≤ S8x32.size a) (h1) :
    arg.view.readAt (Elt F) (Rect.unit (s := S8x32) off S1x1.size inb).toLoadRect (harg.unread x) (Shape.Idx.first h1)
      = x (ix2 r k) := by
  subst hoff
  rw [View.readAt_apply, harg.read_unread]
  congr 1
  have h0 : (Shape.Idx.first h1 (0 : Fin 2)).val < 1 := (Shape.Idx.first h1 (0 : Fin 2)).isLt
  have h1' : (Shape.Idx.first h1 (1 : Fin 2)).val < 1 := (Shape.Idx.first h1 (1 : Fin 2)).isLt
  funext a; apply Fin.ext
  match a with
  | ⟨0, _⟩ => show r.val + 1 * (Shape.Idx.first h1 (0 : Fin 2)).val = r.val; omega
  | ⟨1, _⟩ => show k.val + 1 * (Shape.Idx.first h1 (1 : Fin 2)).val = k.val; omega

end Cert.KernelIdeal.Hand

end
-- ==== Proof.KI.SpecF.lean ====
import proofs.«405686_j2499670966883_2_alg».proof.KernelIdeal
import Idealize.ShloMosaic.Lib.ValueIdx

noncomputable section

namespace Cert.KernelIdeal.Hand

open Cert.KernelIdeal Idealize.ShloMosaic Idealize.ShloMosaic.ValueIdx

/-- The block the gather body leaves, from its own three operands, at any float algebra: lane row `(r, k)` of the
    8 × 32 × 128 block holds row `x0[r, k]` of the table (laid out as [50000, 1, 128]) where the keep word
    `x1[r, k]` is above zero, and zero words elsewhere. Nothing here computes with a float. -/
def GblkF {F : FTy → Type} [FloatOps F] (x0 x1 : IVec S8x32 32) (h3 : FVec F S50000x1x128 .f32) : FVec F S8x32x128 .f32 :=
  fun y => Scalar.select (Scalar.cmpi .sgt (x1 (ix2 (y 0 : Fin 8) (y 1 : Fin 32))) 0#32)
    (h3 (ix3 (⟨(x0 (ix2 (y 0 : Fin 8) (y 1 : Fin 32))).toNat % 50000, Nat.mod_lt _ (by decide)⟩ : Fin 50000) (0 : Fin 1) (y 2 : Fin 128)))
    (Scalar.ofBits .f32 0x00000000#32 : F .f32)

end Cert.KernelIdeal.Hand

end
-- ==== Proof.KI.PieceApply.lean ====
import proofs.«405686_j2499670966883_2_alg».proof.Proof.KI.SpecF
import proofs.«405686_j2499670966883_2_alg».proof.Proof.Gen.KernelIdeal.Skeleton
import Idealize.ShloMosaic.Lib.Pipeline.Frame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

/-! # One store of the gather body, entry by entry

Each of the body's 256 stores writes one 128-lane row of the output block: the row the scratch slot holds where the
slot's keep word is above zero, zero words elsewhere, passed through three changes of layout that move no entry.
Stated at any float algebra: nothing here computes with a float. -/

variable {F : FTy → Type} [FloatOps F]

/-- The value every store of the body writes, from the slot's keep bit and the scratch slot as loaded. -/
def payB (b : BitVec 1) (ld : Vec F S1x1x128 .f32) : FVec F S1x1x128 .f32 :=
  shapeCast S1x1x128 (shapeCast S128 (Scalar.select b (shapeCast S1x128 ld shapeCasts_S1x1x128_S1x128)
    (broadcast S1x128 (Scalar.ofBits .f32 0x00000000#32 : F .f32))) shapeCasts_S1x128_S128) shapeCasts_S128_S1x1x128

/-- The printed payloads are that value, in each of the four spellings the body's cut into parts gives them. -/
theorem pay_word_eq (kw : Elt F .i32) (ld : Vec F S1x1x128 .f32) : k1_pay5 kw ld = payB (Scalar.cmpi .sgt kw 0#32) ld := rfl
theorem pay_bit_eq (b : BitVec 1) (ld : Vec F S1x1x128 .f32) : k1_pay1 b ld = payB b ld := rfl
theorem pay_three_eq (b : BitVec 1) (ld : Vec F S1x1x128 .f32) : k1_pay4 b (k1_pay2 ld) (k1_pay3 (F := F)) = payB b ld := rfl
theorem pay_cast_eq (kw : Elt F .i32) (ld : Vec F S1x1x128 .f32) : k1_pay12 (k1_pay11 kw ld) = payB (Scalar.cmpi .sgt kw 0#32) ld := rfl

/-- Read at lane `j`: the loaded row's lane where the keep bit is set, the zero word elsewhere. -/
theorem payB_apply (b : BitVec 1) (ld : Vec F S1x1x128 .f32) (j : Fin 128) :
    payB b ld (ix3 (0 : Fin 1) (0 : Fin 1) j)
      = Scalar.select b (ld (ix3 (0 : Fin 1) (0 : Fin 1) j)) (Scalar.ofBits .f32 0x00000000#32 : F .f32) := by
  unfold payB
  rw [shapeCast_apply _ shapeCasts_S128_S1x1x128 (ix3 (0 : Fin 1) (0 : Fin 1) j) (ix1 j) (by
      rw [Shape.rowMajor_val_one, Shape.rowMajor_val_three]; show j.val = (0 * 1 + 0) * 128 + j.val; omega),
    shapeCast_apply _ shapeCasts_S1x128_S128 (ix1 j) (ix2 (0 : Fin 1) j) (by
      rw [Shape.rowMajor_val_one, Shape.rowMajor_val_two]; show 0 * 128 + j.val = j.val; omega)]
  rcases BitVec.eq_zero_or_eq_one b with h | h <;> subst h
  · rw [select_zero, select_zero]; rfl
  · rw [select_one, select_one]
    exact shapeCast_apply ld shapeCasts_S1x1x128_S1x128 (ix2 (0 : Fin 1) j) (ix3 (0 : Fin 1) (0 : Fin 1) j) (by
      rw [Shape.rowMajor_val_two, Shape.rowMajor_val_three]; show (0 * 1 + 0) * 128 + j.val = 0 * 128 + j.val; omega)

/-- An index of a one-row block is its lane. -/
theorem eq_lane (x : S1x1x128.Idx) : x = ix3 (0 : Fin 1) (0 : Fin 1) (x 2 : Fin 128) := by
  funext a
  match a with
  | ⟨0, _⟩ => exact Fin.ext (by have h0 : (x 0).val < 1 := (x 0).isLt; show (x 0).val = 0; omega)
  | ⟨1, _⟩ => exact Fin.ext (by have h1 : (x 1).val < 1 := (x 1).isLt; show (x 1).val = 0; omega)
  | ⟨2, _⟩ => rfl

/-- A word read at entry `(r, k)` of a whole 8 × 32 block of words holding `X` is `X` at `(r, k)`. -/
theorem word_at (m : Memref sig .tc .smem S8x32 .i32) (hm : m.IsWhole) (X : Vec F S8x32 .i32)
    (r k : ℕ) (hr : r < 8) (hk : k < 32) (inb : ∀ a, (![r, k] : Fin 2 → ℕ) a + S1x1.size a ≤ S8x32.size a) (h1 : 0 < S1x1.numel) :
    m.view.readAt (Elt F) (Rect.unit (s := S8x32) ![r, k] S1x1.size inb).toLoadRect (hm.unread X) (Shape.Idx.first h1)
      = X (ix2 (⟨r, hr⟩ : Fin 8) (⟨k, hk⟩ : Fin 32)) := by
  rw [View.readAt_apply, Memref.IsWhole.read_unread]
  refine congrArg X (funext fun a => Fin.ext ?_)
  match a with
  | ⟨0, _⟩ => show r + 1 * 0 = r; omega
  | ⟨1, _⟩ => show k + 1 * 0 = k; omega

/-- The store to lane row `(r, k)` of the output block, with the slot's keep bit the test of the keep block's entry
    and the loaded row the table's row that the index block's entry names, writes the block's lane row. -/
theorem piece_applyF (x0 x1 : Vec F S8x32 .i32) (fh0 : FVec F S50000x1x128 .f32)
    (r k : ℕ) (hr : r < 8) (hk : k < 32)
    (inb : ∀ a, (![r, k, 0] : Fin 3 → ℕ) a + S1x1x128.size a ≤ S8x32x128.size a)
    (b : BitVec 1) (ld : Vec F S1x1x128 .f32)
    (hb : b = Scalar.cmpi .sgt (x1 (ix2 (⟨r, hr⟩ : Fin 8) (⟨k, hk⟩ : Fin 32))) 0#32)
    (hld : ∀ j : Fin 128, ld (ix3 (0 : Fin 1) (0 : Fin 1) j)
      = fh0 (ix3 (⟨(x0 (ix2 (⟨r, hr⟩ : Fin 8) (⟨k, hk⟩ : Fin 32))).toNat % 50000, Nat.mod_lt _ (by decide)⟩ : Fin 50000) (0 : Fin 1) j))
    (x : S1x1x128.Idx) :
    payB b ld x = GblkF x0 x1 fh0 ((Rect.unit (s := S8x32x128) ![r, k, 0] S1x1x128.size inb).emb x) := by
  obtain ⟨j, rfl⟩ : ∃ j : Fin 128, x = ix3 (0 : Fin 1) (0 : Fin 1) j := ⟨x 2, eq_lane x⟩
  have hemb : (Rect.unit (s := S8x32x128) ![r, k, 0] S1x1x128.size inb).emb (ix3 (0 : Fin 1) (0 : Fin 1) j)
      = (ix3 (⟨r, hr⟩ : Fin 8) (⟨k, hk⟩ : Fin 32) j : S8x32x128.Idx) := by
    funext a; apply Fin.ext
    match a with
    | ⟨0, _⟩ => show r + 1 * 0 = r; omega
    | ⟨1, _⟩ => show k + 1 * 0 = k; omega
    | ⟨2, _⟩ => show 0 + 1 * j.val = j.val; omega
  rw [hemb, payB_apply, hld, hb]
  rfl

/-- The same with the loaded row as the body has it: the scratch slot read back lane by lane from a transfer's payload
    `p`, and `p` row `w` of the table, `w` the index block's entry, a row number inside the table. -/
theorem piece_of_row (x0 x1 : Vec F S8x32 .i32) (fh0 : FVec F S50000x1x128 .f32)
    (r k : ℕ) (hr : r < 8) (hk : k < 32)
    (inb : ∀ a, (![r, k, 0] : Fin 3 → ℕ) a + S1x1x128.size a ≤ S8x32x128.size a)
    (b : BitVec 1) (ld : Vec F S1x1x128 .f32) (w : BitVec 32) (hw : w.toNat < 50000) (p : S1x128.Idx → Elt F .f32)
    (hb : b = Scalar.cmpi .sgt (x1 (ix2 (⟨r, hr⟩ : Fin 8) (⟨k, hk⟩ : Fin 32))) 0#32)
    (hwd : w = x0 (ix2 (⟨r, hr⟩ : Fin 8) (⟨k, hk⟩ : Fin 32)))
    (hp : p = fun z => fh0 (ix3 (⟨w.toNat, hw⟩ : Fin 50000) (0 : Fin 1) (z 1 : Fin 128)))
    (hld : ld = fun j => p (ix2 (0 : Fin 1) (j 2 : Fin 128)))
    (x : S1x1x128.Idx) :
    payB b ld x = GblkF x0 x1 fh0 ((Rect.unit (s := S8x32x128) ![r, k, 0] S1x1x128.size inb).emb x) := by
  subst hld hp
  refine piece_applyF x0 x1 fh0 r k hr hk inb b _ hb (fun j => ?_) x
  show fh0 (ix3 (⟨w.toNat, hw⟩ : Fin 50000) (0 : Fin 1) j) = _
  refine congrArg (fun n : Fin 50000 => fh0 (ix3 n (0 : Fin 1) j)) (Fin.ext ?_)
  show w.toNat = (x0 (ix2 (⟨r, hr⟩ : Fin 8) (⟨k, hk⟩ : Fin 32))).toNat % 50000
  rw [← hwd, Nat.mod_eq_of_lt hw]

end Cert.KernelIdeal.Hand

end
-- ==== Proof.KI.PieceSlots.lean ====
import proofs.«405686_j2499670966883_2_alg».proof.Proof.KI.SlotRead
import proofs.«405686_j2499670966883_2_alg».proof.Proof.KI.PieceApply

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! # One store of the gather body, as the run has it

The value a store writes, spelt with the raw reads the run records: the keep word read from the keep block, the
scratch slot loaded through the transfers written over it -- the row's own transfer, and for all but the last slot of a
block row the next row's transfer into the other slot --, and the row's own transfer the table's row that the index
block's entry names. Four cases, by the slot read and by whether a later transfer lies over it; whatever the scratch
held below. -/

/-- A row number word inside the table is below the row count. -/
theorem lt_of_inRange {v : BitVec 32} (h : InRange v) : v.toNat < 50000 := by
  have h0 := h 0
  have h1 : v.toNat + 1 ≤ 50000 := h0
  omega

/-- The store to lane row `(r, k)` when the body reads slot 0 after the row's own transfer into it and the next row's transfer into slot 1. -/
theorem piece0_both (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p' : S1x128.Idx → Elt F .f32)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![0, 0, 0] S1x1x128.size inb0).toLoadRect
        (((arg5.slice (Rect.unit (s := S2x1x128) ![1, 0, 0] S1x1x128.size inb1) hr1).squeeze S1x128 hq').view.write (Elt F)
          (((arg5.slice (Rect.unit (s := S2x1x128) ![0, 0, 0] S1x1x128.size inb0) hr0).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)
          p' Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot0_read_after_both arg5 inb0 inb1 hr0 hr1 hq hq' B _ p') x

/-- The store to lane row `(r, k)` when the body reads slot 1 after the row's own transfer into it and the next row's transfer into slot 0. -/
theorem piece1_both (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a)
    (inb1 : ∀ a, (![1, 0, 0] : Fin 3 → ℕ) a + S1x1x128.size a ≤ S2x1x128.size a) (hr0) (hr1)
    (hq hq' : S1x1x128.Squeezes S1x128) (B : BufTy.Contents (Elt F) arg5.view.ty) (p' : S1x128.Idx → Elt F .f32)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![1, 0, 0] S1x1x128.size inb1).toLoadRect
        (((arg5.slice (Rect.unit (s := S2x1x128) ![0, 0, 0] S1x1x128.size inb0) hr0).squeeze S1x128 hq').view.write (Elt F)
          (((arg5.slice (Rect.unit (s := S2x1x128) ![1, 0, 0] S1x1x128.size inb1) hr1).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)
          p' Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot1_read_after_both arg5 inb0 inb1 hr0 hr1 hq hq' B _ p') x

/-- The store to lane row `(r, k)` when the body reads slot 0 right after the row's own transfer into it (the last slot of a block row). -/
theorem piece0_own (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb0 : ∀ a, (![0, 0, 0] : Fin 3 → ℕ) a + S1x1x128.size a ≤ S2x1x128.size a) (hr0)
    (hq : S1x1x128.Squeezes S1x128) (B : BufTy.Contents (Elt F) arg5.view.ty)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![0, 0, 0] S1x1x128.size inb0).toLoadRect
        (((arg5.slice (Rect.unit (s := S2x1x128) ![0, 0, 0] S1x1x128.size inb0) hr0).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot0_read_after_own arg5 inb0 hr0 hq B _) x

/-- The store to lane row `(r, k)` when the body reads slot 1 right after the row's own transfer into it (the last slot of a block row). -/
theorem piece1_own (c : Dev nD)
    (arg1 : Memref sig .tc .smem S8x32 .i32) (harg1 : arg1.IsWhole)
    (arg2 : Memref sig .tc .smem S8x32 .i32) (harg2 : arg2.IsWhole)
    (arg5 : Memref sig .tc .vmem S2x1x128 .f32)
    (x0 x1 : Vec F S8x32 .i32) (fh0 : HbBuf1 (F := F) c hbM1_0)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos))))
    (r k : ℕ) (hr : r < 8) (hk : k < 32)
    (inb : ∀ a, (![r, k, 0] : Fin 3 → ℕ) a + S1x1x128.size a ≤ S8x32x128.size a)
    (inbw : ∀ a, (![r, k] : Fin 2 → ℕ) a + S1x1.size a ≤ S8x32.size a) (h1 h1' : 0 < S1x1.numel)
    (inb1 : ∀ a, (![1, 0, 0] : Fin 3 → ℕ) a + S1x1x128.size a ≤ S2x1x128.size a) (hr1)
    (hq : S1x1x128.Squeezes S1x128) (B : BufTy.Contents (Elt F) arg5.view.ty)
    (off : Fin 3 → ℕ)
    (hoff : off = ![(arg1.view.readAt (Elt F) (Rect.unit (s := S8x32) ![r, k] S1x1.size inbw).toLoadRect (harg1.unread x0) (Shape.Idx.first h1)).toNat, 0, 0])
    (inbT : ∀ a, off a + S1x1x128.size a ≤ S50000x1x128.size a) (hrT) (hqT : S1x1x128.Squeezes S1x128)
    (x : S1x1x128.Idx) :
    payB (Scalar.cmpi .sgt (arg2.view.readAt (Elt F) (Rect.unit (s := S8x32) ![r, k] S1x1.size inbw).toLoadRect (harg2.unread x1) (Shape.Idx.first h1')) 0#32)
      (arg5.view.readAt (Elt F) (Rect.unit (s := S2x1x128) ![1, 0, 0] S1x1x128.size inb1).toLoadRect
        (((arg5.slice (Rect.unit (s := S2x1x128) ![1, 0, 0] S1x1x128.size inb1) hr1).squeeze S1x128 hq).view.write (Elt F) B
            ((ReadAs.same : ReadAs (Elt F) S1x128 .f32 S1x128 .f32).apply ((((Memref.whole main_v17 : Memref sig .tc .hbm S50000x1x128 .f32).slice (Rect.unit (s := S50000x1x128) off S1x1x128.size inbT) hrT).squeeze S1x128 hqT).view.read (Elt F) fh0)) Finset.univ)) x
      = GblkF x0 x1 fh0 ((Rect.unit (s := S8x32x128) ![r, k, 0] S1x1x128.size inb).emb x) :=
  piece_of_row x0 x1 fh0 r k hr hk inb _ _ _ (lt_of_inRange (hx ![r, k] inbw)) _
    (congrArg (fun w => Scalar.cmpi .sgt w 0#32) (word_at arg2 harg2 x1 r k hr hk inbw h1'))
    (word_at arg1 harg1 x0 r k hr hk inbw h1)
    (dma_row c _ (lt_of_inRange (hx ![r, k] inbw)) off hoff inbT hrT hqT fh0)
    (slot1_read_after_own arg5 inb1 hr1 hq B _) x

end Cert.KernelIdeal.Hand

end
-- ==== Proof.KI.PieceWalk.lean ====
import proofs.«405686_j2499670966883_2_alg».proof.Proof.KI.PieceSlots

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The run's pieces are the blocks of one function

The 256 pieces the gather body's run leaves in the output block tile it, and the piece at lane row (r, k) is the
block specification `GblkF` of the body's operands read there -- whatever the scratch held on entry. -/

/-- A property of every member of a list, from its head and its tail, the list given up to unfolding. -/
theorem forall_mem_of_cons {α : Type} {P : α → Prop} {l : List α} (a : α) (t : List α) (h : l = a :: t)
    (ha : P a) (ht : ∀ p ∈ t, P p) : ∀ p ∈ l, P p := by
  subst h
  exact List.forall_mem_cons.2 ⟨ha, ht⟩

/-- The four per-store closers: take the list's head store off (the list's own names unfold as far as its head), and
    close it by the scratch slot the store reads and by whether a later transfer lies over it. -/
local macro "piece_slot0_both" : tactic => `(tactic| (refine forall_mem_of_cons _ _ rfl ?_ ?_; · (intro x; dsimp only; exact piece0_both _ _ _ _ _ _ _ _ _ ‹_› _ _ (by decide) (by decide) (by decide) _ _ _ _ _ _ _ _ _ _ _ _ rfl _ _ _ x)))
local macro "piece_slot1_both" : tactic => `(tactic| (refine forall_mem_of_cons _ _ rfl ?_ ?_; · (intro x; dsimp only; exact piece1_both _ _ _ _ _ _ _ _ _ ‹_› _ _ (by decide) (by decide) (by decide) _ _ _ _ _ _ _ _ _ _ _ _ rfl _ _ _ x)))
local macro "piece_slot1_own" : tactic => `(tactic| (refine forall_mem_of_cons _ _ rfl ?_ ?_; · (intro x; dsimp only; exact piece1_own _ _ _ _ _ _ _ _ _ ‹_› _ _ (by decide) (by decide) (by decide) _ _ _ _ _ _ _ _ rfl _ _ _ x)))

/-- The pieces tile the output block. -/
theorem run1_tiled (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    View.Piece.tiledL (kernelRun1 c i arg1 harg1 arg2 harg2 arg4 harg4 arg5 harg5 x0 x1 fh0 ds0 hx).1 S1x1x128.size = true := by
  sl_kernel_rfl

set_option maxHeartbeats 4000000 in
/-- Every piece is the block of `GblkF` its rectangle names. -/
theorem run1_pieces (c : Dev nD) (i : grid1.Coords)
    (arg1 : Memref sig .tc .smem S8x32 .i32) (harg1 : arg1.IsWhole)
    (arg2 : Memref sig .tc .smem S8x32 .i32) (harg2 : arg2.IsWhole)
    (arg4 : Memref sig .tc .vmem S8x32x128 .f32) (harg4 : arg4.IsWhole)
    (arg5 : Memref sig .tc .vmem S2x1x128 .f32) (harg5 : arg5.IsWhole)
    (x0 : Vec F S8x32 .i32) (x1 : Vec F S8x32 .i32) (fh0 : HbBuf1 (F := F) c hbM1_0) (ds0 : Vec F S2x1x128 .f32)
    (hx : ∀ (o : Fin 2 → ℕ) (ho : ∀ a, o a + S1x1.size a ≤ S8x32.size a),
      InRange (arg1.view.readAt (Elt F) (Rect.unit (s := S8x32) o S1x1.size ho).toLoadRect (harg1.unread x0) (Shape.Idx.first (numel1_S1x1.symm ▸ Nat.one_pos)))) :
    ∀ p ∈ (kernelRun1 c i arg1 harg1 arg2 harg2 arg4 harg4 arg5 harg5 x0 x1 fh0 ds0 hx).1, ∀ x : p.1.shape.Idx,
      p.2 x = GblkF x0 x1 fh0 (p.1.emb x) := by
  -- last store first: block rows 7 … 0, and in each the slots 31 … 0; slot k reads scratch slot k mod 2, and only slot 31
  -- has no later transfer over its own
  iterate 8
    (piece_slot1_own
     iterate 15 (piece_slot0_both; piece_slot1_both)
     piece_slot0_both)
  exact fun p hp => absurd hp List.not_mem_nil

end Cert.KernelIdeal.Hand

end
-- ==== Proof.KI.Body1.lean ====
import proofs.«405686_j2499670966883_2_alg».proof.Proof.KI.PieceWalk
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gather call (the second kernel region) at the region-entry contents `V`

Its pipeline stages three windows per point (the index block, the keep block, the output block); the table it copies
rows of stays in HBM, and the body moves rows itself through a two-slot scratch on two semaphores of its own. The
region's invariant therefore carries, beside the scoped buffers no window stages and the generator register, those
two semaphores at zero and the table whole at its entry contents. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over `V`'s arrays
    whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .smem S8x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S8x32 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x32x128 .f32 := win1_2.stage (cfg1.slots t 2)
abbrev hs1_2 (t : Fin cfg1.N) : (ms1_2 t).IsWhole := hstage1_2 ((cfg1.slots t 2).cast nbuf1_2)
/-- The two-slot scratch, whole. -/
abbrev scM1_0 : Memref sig .tc .vmem S2x1x128 .f32 := Memref.whole cc1_scratch0
/-- One staging buffer of the output window, through which its contents are stated. -/
abbrev VO1_2 : View sig .tc .vmem S8x32x128 .f32 := (Memref.whole cc1_stg2_0 : Memref sig .tc .vmem S8x32x128 .f32).view

/-- Every row number the body reads from its index block, at every point, is inside the table. -/
def Hyps1 : Prop :=
  ∀ (c : Dev nD) (t : Fin cfg1.N) (o : Fin 2 → ℕ) (ho : ∀ a, o a + S1x1.size a ≤ S8x32.size a),
    InRange ((ms1_0 t).view.readAt (Elt F) (Rect.unit (s := S8x32) o S1x1.size ho).toLoadRect ((hs1_0 t).unread (iblk1 V c 0 t)) (Shape.Idx.first (numel1_S1x1.symm ▸ Nat.one_pos)))

/-- The body's own DMA semaphores. -/
abbrev osem1 : Fin 2 → SemLoc sig := fun j => (![SemLoc.dma 12, SemLoc.dma 13] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 12) 0 ∗ semVal ((c : Thread nD τ), SemLoc.dma 13) 0) := by
  rw [Pipeline.ownSems0_eq_of_list c osem1 [0, 1] (by decide) (by decide)]; rfl
/-- The operand left in HBM that the body copies rows of. -/
def H1 : Finset (Ref sig .tc) := {main_v17}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt1 c hbM1_0 (V c main_v17)) := by
  rw [BI.bigSep_eq_bigSepL_of_eq [main_v17] (by decide) (by decide)]; rfl

/-- The region's invariant, conjunct by conjunct: the scoped buffers no window of this call stages (the first call's
    six staging buffers, untouched here, and the scratch), the generator register, the own semaphores at zero, the
    table at its entry contents. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d))
          ∗ (∃ r, prngReg c r) ∗ iprop(semVal ((c : Thread nD τ), SemLoc.dma 12) 0 ∗ semVal ((c : Thread nD τ), SemLoc.dma 13) 0) ∗ iprop(hbPt1 c hbM1_0 (V c main_v17))) := by
  rw [Pipeline.ΦD_eq, scopedRest1_eq, ownSems01_eq, hbmPts1_eq]; simp only [scM1_0, owns_whole]; try rfl

/-- What the body leaves in the output block at point `t`: the block specification of the point's index and keep
    blocks and the table as the region finds it. -/
def outsAt1 (hH : Hyps1 V) (c : Dev nD) (t : Fin cfg1.N) : Vec F S8x32x128 .f32 :=
  GblkF (iblk1 V c 0 t) (iblk1 V c 1 t) (V c main_v17)

/-- The pipeline's proof data on core `c`: the arrays as the region finds them; after the body at point `t` each
    input block in place and the output block at `outsAt1`; the invariant above; nothing owed; full shares. -/
def dat1 (hH : Hyps1 V) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V hH c t
  Φ _ := Pipeline.ΦD osem1 spec1 H1 V c
  q _ := fullShare
  owed _ := 0

theorem A_eq1 (hH : Hyps1 V) (c : Dev nD) (w : Fin cfg1.W) : (dat1 V hH c).A w = V c (Pipeline.arrRef spec1 w) := by
  dsimp only [dat1]

theorem after1_0 (hH : Hyps1 V) (c : Dev nD) (t : Fin cfg1.N) : (dat1 V hH c).after 0 t = iblk1 V c 0 t := by dsimp only [dat1]
theorem after1_1 (hH : Hyps1 V) (c : Dev nD) (t : Fin cfg1.N) : (dat1 V hH c).after 1 t = iblk1 V c 1 t := by dsimp only [dat1]
theorem after1_2 (hH : Hyps1 V) (c : Dev nD) (t : Fin cfg1.N) : (dat1 V hH c).after 2 t = outsAt1 V hH c t := by dsimp only [dat1]

theorem before1_0 (hH : Hyps1 V) (c : Dev nD) (t : Fin cfg1.N) (d) : (dat1 V hH c).before 0 t d = iblk1 V c 0 t :=
  before1_0_of V (dat1 V hH c) (A_eq1 V hH c 0) (after1_0 V hH c) t d
theorem before1_1 (hH : Hyps1 V) (c : Dev nD) (t : Fin cfg1.N) (d) : (dat1 V hH c).before 1 t d = iblk1 V c 1 t :=
  before1_1_of V (dat1 V hH c) (A_eq1 V hH c 1) (after1_1 V hH c) t d

/-- What the body is called with at point `t`, -/
def bodyPre1 (hH : Hyps1 V) (c : Dev nD) (t : Fin cfg1.N) : sProp 𝕄 :=
  iprop((dat1 V hH c).Φ t.castSucc ∗ (dat1 V hH c).owesAt () t.castSucc
    ∗ (∃ d, owns (c : Thread nD τ) (ms1_0 t) fullShare ((dat1 V hH c).before 0 t d))
    ∗ (∃ d, owns (c : Thread nD τ) (ms1_1 t) fullShare ((dat1 V hH c).before 1 t d))
    ∗ (∃ d, owns (c : Thread nD τ) (ms1_2 t) fullShare ((dat1 V hH c).before 2 t d)))

/-- and what it returns. -/
def bodyPost1 (hH : Hyps1 V) (c : Dev nD) (t : Fin cfg1.N) : sProp 𝕄 :=
  iprop((dat1 V hH c).Φ t.succ ∗ (dat1 V hH c).owesAt () t.succ
    ∗ owns (c : Thread nD τ) (ms1_0 t) fullShare ((dat1 V hH c).after 0 t)
    ∗ owns (c : Thread nD τ) (ms1_1 t) fullShare ((dat1 V hH c).after 1 t)
    ∗ owns (c : Thread nD τ) (ms1_2 t) fullShare ((dat1 V hH c).after 2 t))

/-- The body at any point: the input memrefs hold their blocks, so the run applies; the invariant hands the body its
    scratch, its semaphores at zero and the table, and takes them back as they were; the first call's staging buffers
    and the generator register pass through; the core's `owes` comes back with this point's waits. -/
theorem sound_body1 (hH : Hyps1 V) (c : Dev nD) (t : Fin cfg1.N) :
    bodyPre1 V hH c t ⊢ wp frame (wpE (defs₀ (F := F)) Variants.none c none) Set.univ (bodyAt1 t) (fun _ => bodyPost1 V hH c t) := by
  unfold bodyPre1 bodyPost1 bodyAt1
  simp only [before1_0, before1_1]
  rw [show (dat1 V hH c).Φ t.succ = (dat1 V hH c).Φ t.castSucc from rfl,
    after1_0, after1_1, after1_2]
  rw [show (dat1 V hH c).Φ t.castSucc = Pipeline.ΦD osem1 spec1 H1 V c from rfl, PhiD1_eq]
  unfold Dat.owesAt Pipeline.owesWithin
  rw [show (dat1 V hH c).owed t.castSucc = 0 from rfl, show (dat1 V hH c).owed t.succ = 0 from rfl]
  unfold outsAt1
  iintro ⟨⟨⟨Hr0, Hr1, Hr2, Hr3, Hr4, Hr5, ⟨%ds0, HS0⟩⟩, Hg, ⟨Hq0, Hq1⟩, Hh0⟩, ⟨%W, -, HW⟩, ⟨%d0, H0⟩, ⟨%d1, H1⟩, ⟨%d2, H2⟩⟩
  iapply ((kernelRun1 c (grid1.coords t) _ _ _ _ _ _ _ _ (iblk1 V c 0 t) (iblk1 V c 1 t) (V c main_v17) ds0 (hH c t)).2 W _)
  isplitl [H0]; · iexact H0
  isplitl [H1]; · iexact H1
  isplitl [H2]; · iexists _; iexact H2
  isplitl [HS0]; · iexact HS0
  isplitl [Hq0]; · iexact Hq0
  isplitl [Hq1]; · iexact Hq1
  isplitl [Hh0]; · iexact Hh0
  isplitl [HW]; · iexact HW
  iintro ⟨H0, H1, ⟨%e2, H2⟩, HS0, Hq0, Hq1, Hh0, ⟨%W', HW'⟩⟩
  isplitl [Hr0 Hr1 Hr2 Hr3 Hr4 Hr5 HS0 Hg Hq0 Hq1 Hh0]
  · isplitl [Hr0 Hr1 Hr2 Hr3 Hr4 Hr5 HS0]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact HS0
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro
  have hcov := View.cover_of_tiledL (s := S8x32x128) _ S1x1x128.size (run1_tiled c (grid1.coords t) (ms1_0 t) (hs1_0 t) (ms1_1 t) (hs1_1 t) (ms1_2 t) (hs1_2 t) scM1_0 (Memref.isWhole_whole _) (iblk1 V c 0 t) (iblk1 V c 1 t) (V c main_v17) ds0 (hH c t))
  funext y
  exact (View.read_writes_apply_eq_canon _ _ y _ (hcov y)).trans
    (View.canon_apply_of_pieces _ _ (run1_pieces c (grid1.coords t) (ms1_0 t) (hs1_0 t) (ms1_1 t) (hs1_1 t) (ms1_2 t) (hs1_2 t) scM1_0 (Memref.isWhole_whole _) (iblk1 V c 0 t) (iblk1 V c 1 t) (V c main_v17) ds0 (hH c t)) y (hcov y))

set_option maxRecDepth 200000 in
/-- The library's body obligation, at every point. -/
theorem body_obligation1 (hH : Hyps1 V) (c : Dev nD) : BodyObligation (dat1 (F := F) V hH c) (defs₀ (F := F)) Variants.none () Set.univ := fun t => by
  rw [bigSep_W1, bigSep_W1]
  show bodyPre1 V hH c t ⊢ wp frame (wpE (defs₀ (F := F)) Variants.none c none) Set.univ (bodyAt1 t) (fun _ => bodyPost1 V hH c t)
  exact sound_body1 V hH c t

end

end Cert.KernelIdeal.Hand

end
-- ==== Proof.KI.Frame.lean ====
import proofs.«405686_j2499670966883_2_alg».proof.Proof.Gen.KernelIdeal.Launch
import proofs.«405686_j2499670966883_2_alg».proof.Proof.Gen.KernelIdeal.Skeleton
import proofs.«405686_j2499670966883_2_alg».proof.Proof.Gen.KernelIdeal.Points
import proofs.«405686_j2499670966883_2_alg».proof.Proof.KI.Body0
import proofs.«405686_j2499670966883_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run of the whole program: its segments from the launch to the return

The program is a stretch of host operations, the linear call, seven stretches of host operations, and the gather call.
Proved here, given that every row number the gather call reads at its entry contents is inside the table it copies
rows of: from any memory with zero counters the program runs to the end, nothing faulting, and every unscoped buffer
of every core ends at the last of the boundary contents defined below; in particular the five arguments end as
launched, the linear call's output buffer at what its pipeline leaves in it, and the gather call's likewise.

## The buffer contents at each segment boundary: a fold through the program -/

/-- Core `c`'s buffers at launch. -/
abbrev W0 : Dev nD → Valuation τ sig (Elt F) := fun c b => (s₀ m ρ).mem ((c : Dev nD), b)
/-- After the first stretch (the linear call's entry). -/
abbrev W1 : Dev nD → Valuation τ sig (Elt F) := fun c => StableHlo.after hostOps0 (W0 m ρ c)
/-- The same read at the TensorCore's references (what the linear call's proof data take). -/
abbrev V1 : (c : Dev nD) → (b : Ref sig .tc) → Buf (Elt F) ((c : Thread nD τ).loc b) := fun c b => W1 m ρ c b
/-- At the linear call's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the linear call's exit contents). -/
abbrev V2 : (c : Dev nD) → (b : Ref sig .tc) → Buf (Elt F) ((c : Thread nD τ).loc b) := fun c b => W2 m ρ c b
/-- At the linear call's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the seven stretches between the two calls, in turn. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
/-- After the last of them (the gather call's entry). -/
abbrev W9 : Dev nD → Valuation τ sig (Elt F) := fun c => StableHlo.after hostOps1_6 (W8 m ρ c)
/-- The same read at the TensorCore's references (what the gather call's proof data take). -/
abbrev V9 : (c : Dev nD) → (b : Ref sig .tc) → Buf (Elt F) ((c : Thread nD τ).loc b) := fun c b => W9 m ρ c b

-- the row numbers the gather call reads, at its entry contents, are inside the table
variable (hH : Hyps1 (V9 m ρ))

/-- At the gather call's exit: its arrays at what the pipeline leaves, every other buffer as entered. -/
def W10 (c : Dev nD) : Valuation τ sig (Elt F) :=
  Pipeline.withArrays spec1 c (W9 m ρ c) fun w => (dat1 (V9 m ρ) hH c).arrAt w cfg1.N
theorem W10_arr (c : Dev nD) (w : Fin cfg1.W) :
    W10 m ρ hH c (Proc.devRef .tc (Pipeline.arrRef spec1 w)) = (dat1 (V9 m ρ) hH c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ hH c (Proc.devRef .tc b) = W9 m ρ c (Proc.devRef .tc b) := by
  unfold W10; exact Pipeline.withArrays_of_ne spec1 c _ _ b hb
/-- The same read at the TensorCore's references (the gather call's exit contents). -/
abbrev V10 : (c : Dev nD) → (b : Ref sig .tc) → Buf (Elt F) ((c : Thread nD τ).loc b) := fun c b => W10 m ρ hH c b
theorem hF1 (c : Dev nD) (w : Fin cfg1.W) : (dat1 (V9 m ρ) hH c).arrAt w cfg1.N = V10 m ρ hH c (Pipeline.arrRef spec1 w) :=
  (W10_arr m ρ hH c w).symm
theorem hrest1 (c : Dev nD) : ∀ b, b ∉ Finset.univ.image (Pipeline.arrRef spec1) → V10 m ρ hH c b = V9 m ρ c b :=
  fun b hb => W10_of_ne m ρ hH c b fun w e => hb (Finset.mem_image.mpr ⟨w, Finset.mem_univ _, e⟩)

/-! ### The arguments end as launched: no host operation and no call writes one (a call reads it through an
    input window or bypasses it), so the fold at an argument's buffer walks back to the launch memory -/

theorem W10_main_arg0 (c : Dev nD) : W10 m ρ hH c (Proc.devRef .tc main_arg0) = m ((c : Thread nD τ).loc main_arg0) :=
  calc W10 m ρ hH c (Proc.devRef .tc main_arg0)
    _ = W9 m ρ c (Proc.devRef .tc main_arg0) := W10_of_ne m ρ hH c main_arg0 (by decide)
    _ = W8 m ρ c (Proc.devRef .tc main_arg0) := StableHlo.after_of_forall_not_mem (b := Proc.devRef .tc main_arg0) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := StableHlo.after_of_forall_not_mem (b := Proc.devRef .tc main_arg0) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W10_main_arg1 (c : Dev nD) : W10 m ρ hH c (Proc.devRef .tc main_arg1) = m ((c : Thread nD τ).loc main_arg1) :=
  calc W10 m ρ hH c (Proc.devRef .tc main_arg1)
    _ = W9 m ρ c (Proc.devRef .tc main_arg1) := W10_of_ne m ρ hH c main_arg1 (by decide)
    _ = W8 m ρ c (Proc.devRef .tc main_arg1) := StableHlo.after_of_forall_not_mem (b := Proc.devRef .tc main_arg1) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W10_main_arg2 (c : Dev nD) : W10 m ρ hH c (Proc.devRef .tc main_arg2) = m ((c : Thread nD τ).loc main_arg2) :=
  calc W10 m ρ hH c (Proc.devRef .tc main_arg2)
    _ = W9 m ρ c (Proc.devRef .tc main_arg2) := W10_of_ne m ρ hH c main_arg2 (by decide)
    _ = W8 m ρ c (Proc.devRef .tc main_arg2) := StableHlo.after_of_forall_not_mem (b := Proc.devRef .tc main_arg2) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W10_main_arg3 (c : Dev nD) : W10 m ρ hH c (Proc.devRef .tc main_arg3) = m ((c : Thread nD τ).loc main_arg3) :=
  calc W10 m ρ hH c (Proc.devRef .tc main_arg3)
    _ = W9 m ρ c (Proc.devRef .tc main_arg3) := W10_of_ne m ρ hH c main_arg3 (by decide)
    _ = W8 m ρ c (Proc.devRef .tc main_arg3) := StableHlo.after_of_forall_not_mem (b := Proc.devRef .tc main_arg3) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W10_main_arg4 (c : Dev nD) : W10 m ρ hH c (Proc.devRef .tc main_arg4) = m ((c : Thread nD τ).loc main_arg4) :=
  calc W10 m ρ hH c (Proc.devRef .tc main_arg4)
    _ = W9 m ρ c (Proc.devRef .tc main_arg4) := W10_of_ne m ρ hH c main_arg4 (by decide)
    _ = W8 m ρ c (Proc.devRef .tc main_arg4) := StableHlo.after_of_forall_not_mem (b := Proc.devRef .tc main_arg4) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### The two calls' outputs at the end: the linear call's output array is written by nothing after it, and the
    gather call's output array is one of its own arrays -/

theorem W10_main_v2 (c : Dev nD) : W10 m ρ hH c (Proc.devRef .tc main_v2) = (dat0 (V1 m ρ) c).arrAt 3 cfg0.N :=
  calc W10 m ρ hH c (Proc.devRef .tc main_v2)
    _ = W9 m ρ c (Proc.devRef .tc main_v2) := W10_of_ne m ρ hH c main_v2 (by decide)
    _ = W8 m ρ c (Proc.devRef .tc main_v2) := StableHlo.after_of_forall_not_mem (b := Proc.devRef .tc main_v2) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v2) := StableHlo.after_of_forall_not_mem (b := Proc.devRef .tc main_v2) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v2) := StableHlo.after_of_forall_not_mem (b := Proc.devRef .tc main_v2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v2) := StableHlo.after_of_forall_not_mem (b := Proc.devRef .tc main_v2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v2) := StableHlo.after_of_forall_not_mem (b := Proc.devRef .tc main_v2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := StableHlo.after_of_forall_not_mem (b := Proc.devRef .tc main_v2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

theorem W10_main_v18 (c : Dev nD) : W10 m ρ hH c (Proc.devRef .tc main_v18) = (dat1 (V9 m ρ) hH c).arrAt 2 cfg1.N :=
  W10_arr m ρ hH c 2

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents: the linear call's at the contents after the first
    stretch, the gather call's at the contents after the seven stretches that follow the linear call. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V9 m ρ) hH c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of the stretch over `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor
/-- No operation of this stretch allocates a buffer. -/
theorem hostOps1_1_fresh : (hostOps1_1 : List (HloOp τ sig (Elt F))).Forall fun op => op.fresh = ∅ := by
  simp only [List.Forall]; repeat' constructor
/-- No operation of this stretch allocates a buffer. -/
theorem hostOps1_2_fresh : (hostOps1_2 : List (HloOp τ sig (Elt F))).Forall fun op => op.fresh = ∅ := by
  simp only [List.Forall]; repeat' constructor
/-- No operation of this stretch allocates a buffer. -/
theorem hostOps1_3_fresh : (hostOps1_3 : List (HloOp τ sig (Elt F))).Forall fun op => op.fresh = ∅ := by
  simp only [List.Forall]; repeat' constructor
/-- No operation of this stretch allocates a buffer. -/
theorem hostOps1_4_fresh : (hostOps1_4 : List (HloOp τ sig (Elt F))).Forall fun op => op.fresh = ∅ := by
  simp only [List.Forall]; repeat' constructor
/-- No operation of this stretch allocates a buffer. -/
theorem hostOps1_5_fresh : (hostOps1_5 : List (HloOp τ sig (Elt F))).Forall fun op => op.fresh = ∅ := by
  simp only [List.Forall]; repeat' constructor
/-- No operation of this stretch allocates a buffer. -/
theorem hostOps1_6_fresh : (hostOps1_6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W10 m ρ hH c) ∗ ∃ r, prngReg c r)

/-! ## The two calls as segments -/

set_option backward.isDefEq.respectTransparency.types false in
/-- The linear call over the thread state: entered from every unscoped buffer at `W1`, left at `W2`. Its arrays
    are split out of the unscoped buffers and put back at the exit contents; the generator register goes into the
    class invariant and comes out; nothing owed; no semaphore of the kernel's own. -/
def reg0 : Pipeline.RegionSeg (pcfgs (F := F)) adm (pdats m ρ hH) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ hH) launch0.win launch0.arr_whole c
      ((pdats m ρ hH 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hH) ((pdats m ρ hH 0 c).share_full fun _ => rfl)
      (V1 m ρ c) (V2 m ρ c) ((pdats m ρ hH 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call over the thread state: entered from every unscoped buffer at `W9`, left at `W10` (what the
    launch reads at the end). Its arrays are split out of the unscoped buffers and put back at the exit contents; the
    generator register goes into the invariant and comes out, beside the kernel's own transfer cells (at zero from the
    boundary and back) and the table it copies rows of itself (split out of the bypassing buffers and rejoined);
    nothing owed. -/
def reg1 : Pipeline.RegionSeg (pcfgs (F := F)) adm (pdats m ρ hH) () defs₀ 𝒱₀ L lv 1 where
  win := launch1.win.to₀
  block_pos := launch1.block_pos
  stage_whole := launch1.stage_whole
  K := Fin 2
  osem := osem1
  ho := ownSemFacts1
  hbody c := (body_obligation1 (V9 m ρ) hH c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ hH c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V9 m ρ c b))
  Y c := iprop((∃ r, prngReg c r) ∗ (bigSep H1 fun b => (((c : Thread nD τ)).loc b) ↦{fullShare} V9 m ρ c b))
  Z c := bigSep (Pipeline.restRefs sig spec1 \ H1) fun b => (((c : Thread nD τ)).loc b) ↦{fullShare} V9 m ρ c b
  hentry c := by
    have hsplit := Pipeline.arrays_of_unscopedBufs (p := 1) (pcfgs (F := F)) adm (pdats m ρ hH) launch1.win launch1.arr_whole c
      ((pdats m ρ hH 1 c).share_full fun _ => rfl) (V9 m ρ c) fun _ => rfl
    rw [Pipeline.unscopedBufs_held] at hsplit
    have hHs : (Pipeline.unscopedRest (Ix := Unit) (Name := ℕ) (U := Pipeline.UD sig nD τ) (Lvl := ℕ) spec1 c (V9 m ρ c) : sProp 𝕄)
        = iprop((bigSep H1 fun b => (((c : Thread nD τ)).loc b) ↦{fullShare} V9 m ρ c b) ∗ (bigSep (Pipeline.restRefs sig spec1 \ H1) fun b => (((c : Thread nD τ)).loc b) ↦{fullShare} V9 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hHs) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ hH 1 c).Φ 0 = Pipeline.ΦD osem1 spec1 H1 (V9 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ hH 1 c).Φ (Fin.last _) = Pipeline.ΦD osem1 spec1 H1 (V9 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hH) ((pdats m ρ hH 1 c).share_full fun _ => rfl)
      (V9 m ρ c) (V10 m ρ hH c) ((pdats m ρ hH 1 c).arrAt · cfg1.N) (hF1 m ρ hH c) (hrest1 m ρ hH c)
    rw [Pipeline.unscopedBufs_held] at hjoin
    have hHs : (Pipeline.unscopedRest (Ix := Unit) (Name := ℕ) (U := Pipeline.UD sig nD τ) (Lvl := ℕ) spec1 c (V9 m ρ c) : sProp 𝕄)
        = iprop((bigSep H1 fun b => (((c : Thread nD τ)).loc b) ↦{fullShare} V9 m ρ c b) ∗ (bigSep (Pipeline.restRefs sig spec1 \ H1) fun b => (((c : Thread nD τ)).loc b) ↦{fullShare} V9 m ρ c b)) := by
      unfold Pipeline.unscopedRest; exact BI.bigSep_sdiff_split H1_sub
    iintro ⟨Ha, HO, ⟨HY, HH⟩, HR⟩
    ihave Hrest := (Entails.of_eq hHs.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 10 segments in order: a host segment per stretch from its boundary's contents, a region per call. -/
abbrev segs : List (Pipeline.Seg (pcfgs (F := F)) adm (pdats m ρ hH) () defs₀ 𝒱₀ L lv) :=
  [ .host (hseg hostOps0 hostOps0_sub hostOps0_fresh (W0 m ρ)),
    .region (reg0 m ρ hH),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .region (reg1 m ρ hH) ]
/-- The program IS the run of the segments: it is the chain of its items, and the segments' run is that chain by
    definitional unfolding. -/
theorem main_run (c : Dev nD) : main (F := F) c = Pipeline.Seg.run (segs m ρ hH) := (main_chain c).trans (by chain_rfl)

set_option backward.isDefEq.respectTransparency.types false in
/-- The run: at the compiled mesh, from any memory with zero counters, every weakly fair execution of the program on
    the TensorCores terminates, nothing faulting, and in every final state every unscoped buffer of every core holds
    the last boundary's contents `W10`. The launch over the segments; the last thread state read against the final
    state. The launch element is the pipeline library's paired with the transfer counters' unit. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ hH c b) :=
  Pipeline.θ_run_regions_kit (pcfgs (F := F)) adm (pdats m ρ hH) () cellOf_inj embL defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ hH c) s')
      isplitl [Hh] <;> iassumption)
    (hQ := fun _ h => h)

include hH in
/-- The frame: the program terminates, nothing faulting, and every final state has the five argument arrays as
    launched. From the run, each argument's buffer being unscoped and read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W10_main_arg0 m ρ hH c),
     (h c _ (mem_uc main_arg1 (by decide))).trans (W10_main_arg1 m ρ hH c),
     (h c _ (mem_uc main_arg2 (by decide))).trans (W10_main_arg2 m ρ hH c),
     (h c _ (mem_uc main_arg3 (by decide))).trans (W10_main_arg3 m ρ hH c),
     (h c _ (mem_uc main_arg4 (by decide))).trans (W10_main_arg4 m ρ hH c)⟩) (run_all m ρ hH)

end Cert.KernelIdeal.Hand

end
-- ==== Proof.KI.Chain.lean ====
import proofs.«405686_j2499670966883_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! # The host index plumbing between the two kernel regions

Between the first kernel region (the dense layer) and the second (the neighbour gather) the program
computes, from the neighbour table `a1` and the neighbour mask `a2`, three arrays: the compacted
neighbour indices (valid neighbours moved to the front of each row, by a stable argsort of the
negated mask, the tail zeroed), the 0/1 words of "slot `j` is below the row's degree", and the dense
layer's output viewed as 50000 rows of one 128-vector. Here each is a pure function of the inputs,
written as the composition of the program's own operations in order, and each host stretch of the
program is shown to leave exactly that function's value in its result buffer. -/

/-- The all-`v` table of 32-bit words. -/
def fillK (v : BitVec 32) : IVec S50000x32 32 :=
  broadcastInDim S50000x32 ![] bcast_S_S50000x32 (constantI S_ 32 v)

/-- The sort key: 0 where the mask is set, 1 where it is not. -/
def keyK (a2 : IVec S50000x32 1) : IVec S50000x32 32 :=
  select a2 (fillK 0#32) (fillK 1#32)

/-- The stable argsort of the key along each row: the slots of the valid neighbours first, in their
    original order, then the slots of the invalid ones. -/
def orderK (a2 : IVec S50000x32 1) : IVec S50000x32 32 :=
  (Host.sort2 S50000x32 1 comparator_i32_i32_d1 (keyK a2) (iotaInDim S50000x32 32 1)).2

/-- The order's entries as gather indices: a negative entry wrapped by adding the row length, then
    one index vector per entry. -/
def wrapK (o : IVec S50000x32 32) : IVec S50000x32x1 32 :=
  shapeCast S50000x32x1 (select (cmpi .slt o (fillK 0#32)) (addi o (fillK 32#32)) o) shapeCasts_S50000x32_S50000x32x1

/-- Where the wrapped index lies inside the row, `0 ≤ · ≤ 31`. -/
def inRowK (o : IVec S50000x32 32) : IVec S50000x32 1 :=
  Host.reduce IntOp.andi
    (andi (cmpi .sge (wrapK o) (broadcastInDim S50000x32x1 ![] bcast_S_S50000x32x1 (constantI S_ 32 0#32)))
      (cmpi .sle (wrapK o) (broadcastInDim S50000x32x1 ![0, 1, 2] bcast_S1x1x1_S50000x32x1_0_1_2
        (broadcastInDim S1x1x1 ![2] bcast_S1_S1x1x1_2 (constantI S1 32 31#32)))))
    (constantI S_ 1 1#1) reducesTo_S50000x32x1_S50000x32_d2 h_S_

/-- The neighbour table read along each row at the order `o`; an out-of-row index reads the fill word. -/
def takeK (a1 : IVec S50000x32 32) (o : IVec S50000x32 32) : IVec S50000x32 32 :=
  select (inRowK o) (Host.gather gather_S50000x32_S50000x32x1_S50000x32_n_1_0_0_1_2_11 a1 (wrapK o)) (fillK 2147483648#32)

/-- The neighbour table with each row's valid neighbours moved to the front. -/
def compactK (a1 : IVec S50000x32 32) (a2 : IVec S50000x32 1) : IVec S50000x32 32 :=
  takeK a1 (orderK a2)

/-- Each row's degree: the number of set mask bits, as a 32-bit word. -/
def degK (a2 : IVec S50000x32 1) : IVec S50000 32 :=
  Host.reduce IntOp.addi (extui 32 a2 natLt_1_32) (constantI S_ 32 0#32) reducesTo_S50000x32_S50000_d1 h_S_

/-- Slot `j` of row `i` is kept when `j` is below the row's degree. -/
def keepMaskK (a2 : IVec S50000x32 1) : IVec S50000x32 1 :=
  cmpi .slt
    (broadcastInDim S50000x32 ![0, 1] bcast_S1x32_S50000x32_0_1 (broadcastInDim S1x32 ![1] bcast_S32_S1x32_1 (iotaInDim S32 32 0)))
    (broadcastInDim S50000x32 ![0, 1] bcast_S50000x1_S50000x32_0_1 (broadcastInDim S50000x1 ![0] bcast_S50000_S50000x1_0 (degK a2)))

/-- The compacted neighbour indices, zero past the degree: the second region's index table. -/
def cidxK (a1 : IVec S50000x32 32) (a2 : IVec S50000x32 1) : IVec S50000x32 32 :=
  select (keepMaskK a2) (compactK a1 a2) (fillK 0#32)

/-- The kept slots as 0/1 words: the second region's keep table. -/
def keepK (a2 : IVec S50000x32 1) : IVec S50000x32 32 :=
  extui 32 (keepMaskK a2) natLt_1_32

/-- The dense layer's output viewed as 50000 rows of one 128-vector. -/
def h3K (h : FVec F S50000x128 .f32) : FVec F S50000x1x128 .f32 :=
  shapeCast S50000x1x128 h shapeCasts_S50000x128_S50000x1x128

/-- The weight matrix transposed. -/
def wtK (w : FVec F S128x128 .f32) : FVec F S128x128 .f32 :=
  transpose S128x128 [1, 0] w transposes_S128x128_S128x128_1_0

/-- The bias as one row. -/
def b2K (b : FVec F S128 .f32) : FVec F S1x128 .f32 :=
  shapeCast S1x128 b shapeCasts_S128_S1x128

/-! ## The first stretch -/

theorem after0_v0 (W : Valuation τ sig (Elt F)) :
    StableHlo.after hostOps0 W (Proc.devRef .tc main_v0) = wtK (W (Proc.devRef .tc main_arg3)) := by
  after_results; rfl

theorem after0_v1 (W : Valuation τ sig (Elt F)) :
    StableHlo.after hostOps0 W (Proc.devRef .tc main_v1) = b2K (W (Proc.devRef .tc main_arg4)) := by
  after_results; rfl

theorem after0_arg0 (W : Valuation τ sig (Elt F)) :
    StableHlo.after hostOps0 W (Proc.devRef .tc main_arg0) = W (Proc.devRef .tc main_arg0) := by
  after_results
theorem after0_arg1 (W : Valuation τ sig (Elt F)) :
    StableHlo.after hostOps0 W (Proc.devRef .tc main_arg1) = W (Proc.devRef .tc main_arg1) := by
  after_results
theorem after0_arg2 (W : Valuation τ sig (Elt F)) :
    StableHlo.after hostOps0 W (Proc.devRef .tc main_arg2) = W (Proc.devRef .tc main_arg2) := by
  after_results
theorem after0_arg3 (W : Valuation τ sig (Elt F)) :
    StableHlo.after hostOps0 W (Proc.devRef .tc main_arg3) = W (Proc.devRef .tc main_arg3) := by
  after_results
theorem after0_arg4 (W : Valuation τ sig (Elt F)) :
    StableHlo.after hostOps0 W (Proc.devRef .tc main_arg4) = W (Proc.devRef .tc main_arg4) := by
  after_results

/-! ## The stretches between the regions, one at a time

Each stretch's result buffers as functions of the contents `V` it starts from. -/

/-- Selecting among three tables read through their buffers' types is selecting among the tables. -/
theorem sel_cast (m : IVec S50000x32 1) (g f : IVec S50000x32 32) :
    (StableHlo.TRef.of main_v5 : StableHlo.TRef sig ⟨S50000x32, .i32⟩).toBuf (Val := Elt F)
      (select ((StableHlo.TRef.of main_call2_v12 : StableHlo.TRef sig ⟨S50000x32, .i1⟩).ofBuf (Val := Elt F) m)
        ((StableHlo.TRef.of main_call2_v13 : StableHlo.TRef sig ⟨S50000x32, .i32⟩).ofBuf (Val := Elt F) g)
        ((StableHlo.TRef.of main_call2_v14 : StableHlo.TRef sig ⟨S50000x32, .i32⟩).ofBuf (Val := Elt F) f))
    = select m g f := rfl

section Stretches
variable (V : Valuation τ sig (Elt F))

theorem after1_c : StableHlo.after hostOps1 V (Proc.devRef .tc main_c) = (constantI S_ 32 0#32 : IVec S_ 32) := by
  after_results
theorem after1_c_0 : StableHlo.after hostOps1 V (Proc.devRef .tc main_c_0) = (constantI S_ 32 1#32 : IVec S_ 32) := by
  after_results
theorem after1_arg1 : StableHlo.after hostOps1 V (Proc.devRef .tc main_arg1) = V (Proc.devRef .tc main_arg1) := by
  after_results
theorem after1_arg2 : StableHlo.after hostOps1 V (Proc.devRef .tc main_arg2) = V (Proc.devRef .tc main_arg2) := by
  after_results

theorem after1_1_v3 : StableHlo.after hostOps1_1 V (Proc.devRef .tc main_v3)
    = select (V (Proc.devRef .tc main_arg2))
        (broadcastInDim S50000x32 ![] bcast_S_S50000x32 (V (Proc.devRef .tc main_c)))
        (broadcastInDim S50000x32 ![] bcast_S_S50000x32 (V (Proc.devRef .tc main_c_0))) := by
  after_results; rfl
theorem after1_1_arg1 : StableHlo.after hostOps1_1 V (Proc.devRef .tc main_arg1) = V (Proc.devRef .tc main_arg1) := by
  after_results
theorem after1_1_arg2 : StableHlo.after hostOps1_1 V (Proc.devRef .tc main_arg2) = V (Proc.devRef .tc main_arg2) := by
  after_results

theorem after1_2_v4 : StableHlo.after hostOps1_2 V (Proc.devRef .tc main_v4)
    = (Host.sort2 S50000x32 1 comparator_i32_i32_d1 (V (Proc.devRef .tc main_v3)) (iotaInDim S50000x32 32 1)).2 := by
  after_results; rfl
theorem after1_2_arg1 : StableHlo.after hostOps1_2 V (Proc.devRef .tc main_arg1) = V (Proc.devRef .tc main_arg1) := by
  after_results
theorem after1_2_arg2 : StableHlo.after hostOps1_2 V (Proc.devRef .tc main_arg2) = V (Proc.devRef .tc main_arg2) := by
  after_results

attribute [local irreducible] Host.reduce in
/-- The in-row test the gather stretch leaves in its mask buffer. -/
theorem after1_3_mask : StableHlo.after hostOps1_3 V (Proc.devRef .tc main_call2_v12)
    = inRowK (V (Proc.devRef .tc main_v4)) := by
  after_results_simp
  rfl

theorem after1_3_gather : StableHlo.after hostOps1_3 V (Proc.devRef .tc main_call2_v13)
    = Host.gather gather_S50000x32_S50000x32x1_S50000x32_n_1_0_0_1_2_11 (V (Proc.devRef .tc main_arg1)) (wrapK (V (Proc.devRef .tc main_v4))) := by
  after_results_simp
  rfl

theorem after1_3_fill : StableHlo.after hostOps1_3 V (Proc.devRef .tc main_call2_v14) = fillK 2147483648#32 := by
  after_results_simp
  rfl

/-- The gather stretch's result: its last operation selects among the three buffers above. -/
theorem after1_3_v5 : StableHlo.after hostOps1_3 V (Proc.devRef .tc main_v5)
    = takeK (V (Proc.devRef .tc main_arg1)) (V (Proc.devRef .tc main_v4)) := by
  have e12 := after1_3_mask V
  have e13 := after1_3_gather V
  have e14 := after1_3_fill V
  simp only [StableHlo.after_cons, StableHlo.after_nil] at e12 e13 e14 ⊢
  rw [StableHlo.ternary_result_ne] at e12 e13 e14
  rotate_left
  · decide
  · decide
  · decide
  rw [StableHlo.ternary_result, e12, e13, e14]
  unfold takeK
  generalize inRowK (V (Proc.devRef .tc main_v4)) = m
  generalize Host.gather gather_S50000x32_S50000x32x1_S50000x32_n_1_0_0_1_2_11 (V (Proc.devRef .tc main_arg1)) (wrapK (V (Proc.devRef .tc main_v4))) = g
  generalize fillK 2147483648#32 = f
  exact sel_cast m g f

theorem after1_3_arg2 : StableHlo.after hostOps1_3 V (Proc.devRef .tc main_arg2) = V (Proc.devRef .tc main_arg2) := by
  after_results_simp

theorem after1_4_v13 : StableHlo.after hostOps1_4 V (Proc.devRef .tc main_v13) = keepMaskK (V (Proc.devRef .tc main_arg2)) := by
  after_results; rfl
theorem after1_4_v14 : StableHlo.after hostOps1_4 V (Proc.devRef .tc main_v14) = fillK 0#32 := by
  after_results; rfl
theorem after1_4_v5 : StableHlo.after hostOps1_4 V (Proc.devRef .tc main_v5) = V (Proc.devRef .tc main_v5) := by
  after_results

theorem after1_5_v15 : StableHlo.after hostOps1_5 V (Proc.devRef .tc main_v15)
    = select (V (Proc.devRef .tc main_v13)) (V (Proc.devRef .tc main_v5)) (V (Proc.devRef .tc main_v14)) := by
  after_results; rfl

theorem after1_6_v15 : StableHlo.after hostOps1_6 V (Proc.devRef .tc main_v15) = V (Proc.devRef .tc main_v15) := by
  after_results

end Stretches

/-! ## The stretches between the regions, together -/

/-- The buffers' contents after the seven host stretches between the two regions, from contents `W`. -/
abbrev afterMid (W : Valuation τ sig (Elt F)) : Valuation τ sig (Elt F) :=
  StableHlo.after hostOps1_6 (StableHlo.after hostOps1_5 (StableHlo.after hostOps1_4 (StableHlo.after hostOps1_3
    (StableHlo.after hostOps1_2 (StableHlo.after hostOps1_1 (StableHlo.after hostOps1 W))))))

/-- The second region's index table is the compacted neighbour indices. -/
theorem afterMid_v15 (W : Valuation τ sig (Elt F)) :
    afterMid W (Proc.devRef .tc main_v15) = cidxK (W (Proc.devRef .tc main_arg1)) (W (Proc.devRef .tc main_arg2)) := by
  show StableHlo.after hostOps1_6 _ _ = _
  rw [after1_6_v15, after1_5_v15, after1_4_v13, after1_4_v14, after1_4_v5, after1_3_v5, after1_3_arg2,
    after1_2_v4, after1_2_arg1, after1_2_arg2, after1_1_v3, after1_1_arg1, after1_1_arg2,
    after1_c, after1_c_0, after1_arg1, after1_arg2]
  rfl

/-- The second region's keep table is the 0/1 words of "slot below the degree". -/
theorem afterMid_v16 (W : Valuation τ sig (Elt F)) :
    afterMid W (Proc.devRef .tc main_v16) = keepK (W (Proc.devRef .tc main_arg2)) := by
  after_results; rfl

/-- The second region's row table is the first region's output, one 128-vector per row. -/
theorem afterMid_v17 (W : Valuation τ sig (Elt F)) :
    afterMid W (Proc.devRef .tc main_v17) = h3K (W (Proc.devRef .tc main_v2)) := by
  after_results; rfl

theorem afterMid_v2 (W : Valuation τ sig (Elt F)) :
    afterMid W (Proc.devRef .tc main_v2) = W (Proc.devRef .tc main_v2) := by
  after_results
theorem afterMid_arg0 (W : Valuation τ sig (Elt F)) :
    afterMid W (Proc.devRef .tc main_arg0) = W (Proc.devRef .tc main_arg0) := by
  after_results
theorem afterMid_arg1 (W : Valuation τ sig (Elt F)) :
    afterMid W (Proc.devRef .tc main_arg1) = W (Proc.devRef .tc main_arg1) := by
  after_results
theorem afterMid_arg2 (W : Valuation τ sig (Elt F)) :
    afterMid W (Proc.devRef .tc main_arg2) = W (Proc.devRef .tc main_arg2) := by
  after_results
theorem afterMid_arg3 (W : Valuation τ sig (Elt F)) :
    afterMid W (Proc.devRef .tc main_arg3) = W (Proc.devRef .tc main_arg3) := by
  after_results
theorem afterMid_arg4 (W : Valuation τ sig (Elt F)) :
    afterMid W (Proc.devRef .tc main_arg4) = W (Proc.devRef .tc main_arg4) := by
  after_results

end Cert.KernelIdeal.Hand

end
-- ==== Proof.KI.IndexRange.lean ====
import proofs.«405686_j2499670966883_2_alg».proof.Proof.KI.Chain
import proofs.«405686_j2499670966883_2_alg».proof.KernelIdeal
import proofs.«405686_j2499670966883_2_alg».proof.Pre_finite_inputs
import Idealize.ShloMosaic.Lib.ReduceAll
import Idealize.ShloMosaic.Lib.StableHlo.Predicate
import Idealize.ShloMosaic.Lib.ValueIdx
import Idealize.ShloMosaic.Lib.IdealHost

noncomputable section

namespace Cert.KernelIdeal.Hand

open Cert.KernelIdeal Cert.KernelIdeal.Gen Idealize.ShloMosaic

/-! # The row numbers the gather region reads are inside the table

The second region copies, for each slot of each row, one row of a 50000-row table, the row number read
from the compacted neighbour table. Here: every such row number is below 50000, given that every entry of
the neighbour table is (which the precondition says). The compacted table is built from the neighbour table
by a stable sort of column numbers, a take along the rows at the sorted column numbers, and a select against
zero; each step only moves entries of the table around or replaces them by zero. -/

/-! ## Words: a signed 32-bit word between 0 and a small bound -/

/-- A word that is signed-at-least 0 and signed-below a bound under 2³¹ has its value below the bound. -/
theorem toNat_lt_of_sge_slt (w : BitVec 32) (n : ℕ) (hn : n < 2 ^ 31)
    (hge : IntOp.cmpi .sge w 0#32 = 1#1) (hlt : IntOp.cmpi .slt w (BitVec.ofNat 32 n) = 1#1) : w.toNat < n := by
  unfold IntOp.cmpi at hge hlt
  rw [StableHlo.Predicate.ofBool_eq_one_iff] at hge hlt
  simp only [BitVec.sle, BitVec.slt, decide_eq_true_eq] at hge hlt
  have h0 : (0#32 : BitVec 32).toInt = 0 := by decide
  rw [StableHlo.Predicate.toInt_ofNat_small n hn] at hlt
  rw [h0] at hge
  rw [BitVec.toInt_eq_toNat_cond] at hge hlt
  have := w.isLt
  split at hge <;> omega

/-! ## The precondition read back: every entry of the neighbour table is a row number -/

section Pre
variable [Cert.Pre_finite_inputs.Facts]

/-- The scalar shape has one index. -/
instance subsingleton_S_Idx : Subsingleton Cert.Pre_finite_inputs.S_.Idx := ⟨fun a b => funext fun d => d.elim0⟩

/-- The precondition's last conjunct is "every entry of the neighbour table is signed-at-least 0 and
    signed-below 50000", reduced by "and" over the whole table; where the precondition holds, each entry's
    value is below 50000. -/
theorem idx_lt_of_pre {F : FTy → Type} [FloatOps F] (a0 : FVec F Cert.Pre_finite_inputs.S50000x128 .f32)
    (a1 : IVec Cert.Pre_finite_inputs.S50000x32 32) (a2 : IVec Cert.Pre_finite_inputs.S50000x32 1)
    (a3 : FVec F Cert.Pre_finite_inputs.S128x128 .f32) (a4 : FVec F Cert.Pre_finite_inputs.S128 .f32)
    (h : Cert.Pre_finite_inputs.fn (F := F) a0 a1 a2 a3 a4 = fun _ => 1#1) :
    ∀ i : Cert.Pre_finite_inputs.S50000x32.Idx, (a1 i).toNat < 50000 := by
  intro i
  have h0 := congrFun h ValueIdx.ix0
  dsimp only [Cert.Pre_finite_inputs.fn, Cert.Pre_finite_inputs.fn_part1] at h0
  obtain ⟨_, hr⟩ := IntOp.andi_eq_one.1 h0
  have hi := Host.reduce_andi_all _ _ _ _ _ hr i
  obtain ⟨hge, hlt⟩ := IntOp.andi_eq_one.1 hi
  have hge' : IntOp.cmpi .sge (a1 i) 0#32 = 1#1 := hge
  have hlt' : IntOp.cmpi .slt (a1 i) (BitVec.ofNat 32 50000) = 1#1 := hlt
  exact toNat_lt_of_sge_slt (a1 i) 50000 (by norm_num) hge' hlt'

end Pre

section Generic
variable [Facts]
open Facts₀ Facts

/-! ## The sort: the sorted copy of the column numbers holds column numbers -/

/-- The column-number array read anywhere on a row's fiber along the columns is that position, below 32. -/
theorem iota_along_lt (i : S50000x32.Idx) (k : Fin (S50000x32.size ⟨1, by decide⟩)) :
    (iotaInDim S50000x32 32 1 (i.along ⟨1, by decide⟩ k)).toNat < 32 := by
  rw [ValueIdx.iotaInDim_apply]
  have hk : ((i.along ⟨1, by decide⟩ k) (1 : Fin S50000x32.rank)) = k := by
    unfold Shape.Idx.along
    exact Function.update_self _ _ _
  rw [hk]
  have hk32 : k.val < 32 := k.isLt
  rw [BitVec.toNat_ofNat]
  omega

/-- A stable sort of any keys along the columns, carrying the column numbers, returns in its second result a column
    number of the same row at every position: a word below 32. -/
theorem order_lt (keys : IVec S50000x32 32) (i : S50000x32.Idx) :
    ((Host.sort2 S50000x32 1 comparator_i32_i32_d1 keys (iotaInDim S50000x32 32 1)).2 i).toNat < 32 := by
  unfold Host.sort2
  rw [dif_pos (show 1 < S50000x32.rank from by decide)]
  exact iota_along_lt i _

/-! ## Words below 32: the wrap of a negative index does nothing, and the range test passes -/

/-- A word below 2³¹ is not signed-below zero. -/
theorem slt_zero_of_small (w : BitVec 32) (hw : w.toNat < 2 ^ 31) : IntOp.cmpi .slt w 0#32 = 0#1 := by
  unfold IntOp.cmpi
  have : w.slt 0#32 = false := by
    simp only [BitVec.slt, StableHlo.Predicate.toInt_eq_toNat_of_lt hw, show (0#32 : BitVec 32).toInt = 0 from by decide]
    simp
  rw [this]; rfl

/-- Wrapping a negative index (add the row length where the index is below zero) leaves a small word alone. -/
theorem wrap_id (w : BitVec 32) (hw : w.toNat < 32) :
    Scalar.select (IntOp.cmpi .slt w 0#32) (IntOp.addi w 32#32) w = w := by
  rw [slt_zero_of_small w (by omega)]
  exact ValueIdx.select_zero _ _

/-- A word below 32 passes the range test 0 ≤ w ≤ 31. -/
theorem inRange_one (w : BitVec 32) (hw : w.toNat < 32) :
    IntOp.andi (IntOp.cmpi .sge w 0#32) (IntOp.cmpi .sle w 31#32) = 1#1 := by
  rw [IntOp.andi_eq_one]
  refine ⟨(StableHlo.Predicate.sge_iff_toNat (by omega) (by decide)).2 (by simp), ?_⟩
  refine (StableHlo.Predicate.sle_iff_toNat (by omega) (by decide)).2 ?_
  show w.toNat ≤ 31
  omega

/-! ## A reduction by "and" over all-ones is one -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

theorem reduce_andi_ones {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_ones x _ (fun n _ => hx n)

/-! ## The gather reads the operand somewhere -/

theorem gather_mem {α : Type} {s si t : Shape} {w : ℕ} (d : GatherDims s si t) (x : s.Idx → α) (idx : IVec si w) (y : t.Idx) :
    ∃ j, Host.gather d x idx y = x j := ⟨_, rfl⟩

end Generic

/-! ## The take along the rows, at an order whose entries are column numbers -/

/-- The wrapped order holds the order's own entries: words below 32. -/
theorem wrapK_lt (o : IVec S50000x32 32) (ho : ∀ i, (o i).toNat < 32) (k : S50000x32x1.Idx) :
    (wrapK o k).toNat < 32 := by
  unfold wrapK shapeCast
  show (Scalar.select (IntOp.cmpi .slt (o _) 0#32) (IntOp.addi (o _) 32#32) (o _)).toNat < 32
  rw [wrap_id _ (ho _)]
  exact ho _

/-- Every entry of such an order lies inside the row. -/
theorem inRowK_one (o : IVec S50000x32 32) (ho : ∀ i, (o i).toNat < 32) (i : S50000x32.Idx) :
    inRowK o i = 1#1 := by
  unfold inRowK
  apply reduce_andi_ones
  intro k
  show IntOp.andi (IntOp.cmpi .sge (wrapK o k) 0#32) (IntOp.cmpi .sle (wrapK o k) 31#32) = 1#1
  exact inRange_one _ (wrapK_lt o ho k)

/-- The take then reads the table: each of its entries is an entry of the table. -/
theorem takeK_mem (a1 o : IVec S50000x32 32) (ho : ∀ i, (o i).toNat < 32) (i : S50000x32.Idx) :
    ∃ j, takeK a1 o i = a1 j := by
  obtain ⟨j, hj⟩ := gather_mem gather_S50000x32_S50000x32x1_S50000x32_n_1_0_0_1_2_11 a1 (wrapK o) i
  refine ⟨j, ?_⟩
  unfold takeK
  show Scalar.select (inRowK o i) (Host.gather gather_S50000x32_S50000x32x1_S50000x32_n_1_0_0_1_2_11 a1 (wrapK o) i) _ = a1 j
  rw [inRowK_one o ho i, ValueIdx.select_one, hj]

/-- The compacted table's entries are entries of the table. -/
theorem compactK_mem (a1 : IVec S50000x32 32) (a2 : IVec S50000x32 1) (i : S50000x32.Idx) :
    ∃ j, compactK a1 a2 i = a1 j :=
  takeK_mem a1 (orderK a2) (fun i => order_lt (keyK a2) i) i

/-- Row numbers in, row numbers out: if every entry of the table is below 50000, so is every entry of the
    compacted table zeroed past the degree. -/
theorem cidxK_lt (a1 : IVec S50000x32 32) (a2 : IVec S50000x32 1) (h : ∀ i, (a1 i).toNat < 50000) :
    ∀ i, (cidxK a1 a2 i).toNat < 50000 := by
  intro i
  unfold cidxK
  show (Scalar.select (keepMaskK a2 i) (compactK a1 a2 i) 0#32).toNat < 50000
  unfold Scalar.select
  split
  · obtain ⟨j, hj⟩ := compactK_mem a1 a2 i
    rw [hj]; exact h j
  · decide

/-- The same from the precondition: where it holds, every row number the second region reads is below 50000. -/
theorem cidxK_lt_of_pre [Cert.Pre_finite_inputs.Facts] {F : FTy → Type} [FloatOps F] (a0 : FVec F Cert.Pre_finite_inputs.S50000x128 .f32)
    (a1 : IVec S50000x32 32) (a2 : IVec S50000x32 1)
    (a3 : FVec F Cert.Pre_finite_inputs.S128x128 .f32) (a4 : FVec F Cert.Pre_finite_inputs.S128 .f32)
    (h : Cert.Pre_finite_inputs.fn (F := F) a0 a1 a2 a3 a4 = fun _ => 1#1) :
    ∀ i, (cidxK a1 a2 i).toNat < 50000 :=
  cidxK_lt a1 a2 (idx_lt_of_pre a0 a1 a2 a3 a4 h)

end Cert.KernelIdeal.Hand

end
-- ==== Proof.KI.HypsOfIdx.lean ====
import proofs.«405686_j2499670966883_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The gather call's row numbers are inside the table when the compacted index table's entries are

The second region's body reads, at each of the 8 × 32 slots of its index block, one word and copies that row of the
50000-row table. The index block at a point is a block of the compacted index table; so if every entry of that
table is below 50000, every word the body reads addresses a row of the table. -/

/-- A word below 50000 addresses a row inside the 50000-row table. -/
theorem inRange_of_lt (v : BitVec 32) (h : v.toNat < 50000) : InRange v := by
  unfold InRange
  intro a
  fin_cases a
  · show v.toNat + 1 ≤ 50000
    omega
  · show 0 + 1 ≤ 1
    omega
  · show 0 + 128 ≤ 128
    omega

section
variable (V : (c : Dev nD) → (b : Ref sig .tc) → Buf (Elt F) ((c : Thread nD τ).loc b))

/-- The index block the body reads at any point is a block of the compacted index table, so each word it reads there is
    an entry of that table: where every entry of the table is below 50000, every row number the body reads is inside
    the 50000-row table. -/
theorem hyps1_of_lt (h : ∀ (c : Dev nD) (i : S50000x32.Idx), ((V c main_v15 : IVec S50000x32 32) i).toNat < 50000) : Hyps1 V := by
  intro c t o ho
  refine inRange_of_lt _ ?_
  rw [View.readAt_apply, Memref.IsWhole.read_unread]
  unfold iblk1 View.read
  exact lt_of_eq_of_lt (congrArg BitVec.toNat (cast_eq _ _)) (h c _)
end
end Cert.KernelIdeal.Hand
end
-- ==== Proof.KI.HypsOfPre.lean ====
import proofs.«405686_j2499670966883_2_alg».proof.Proof.KI.Frame
import proofs.«405686_j2499670966883_2_alg».proof.Proof.KI.Chain
import proofs.«405686_j2499670966883_2_alg».proof.Proof.KI.IndexRange
import proofs.«405686_j2499670966883_2_alg».proof.Proof.KI.HypsOfIdx
import proofs.«405686_j2499670966883_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-! # The two calls' entry arrays as functions of the arguments, and the gather call's row numbers in range

At the linear call's entry its three input arrays are the row table as launched, the weights transposed and the bias
as one row. At the gather call's entry its two index arrays are the compacted neighbour indices and the kept-slot
words, both functions of the neighbour table and mask as launched, and the table it copies rows of is the linear
call's output viewed as rows of one vector. Under the precondition every compacted neighbour index is a row number
of that table, which is what the gather call's run asks. -/

/-! ## The contents before the gather call are the seven stretches folded over the linear call's exit contents -/

theorem W9_eq_afterMid (c : Dev nD) : W9 m ρ c = afterMid (W2 m ρ c) := rfl

/-! ## No argument is written by the first stretch or by the linear call -/

theorem W2_main_arg1 (c : Dev nD) : W2 m ρ c (Proc.devRef .tc main_arg1) = m ((c.tc : Thread nD τ).loc main_arg1) :=
  (W2_of_ne m ρ c main_arg1 (by decide)).trans (after0_arg1 (W0 m ρ c))
theorem W2_main_arg2 (c : Dev nD) : W2 m ρ c (Proc.devRef .tc main_arg2) = m ((c.tc : Thread nD τ).loc main_arg2) :=
  (W2_of_ne m ρ c main_arg2 (by decide)).trans (after0_arg2 (W0 m ρ c))

/-! ## The linear call's entry arrays -/

/-- The row table as launched. -/
theorem V1_arg0 (c : Dev nD) : V1 m ρ c main_arg0 = m ((c.tc : Thread nD τ).loc main_arg0) :=
  after0_arg0 (W0 m ρ c)
/-- The weights transposed. -/
theorem V1_v0 (c : Dev nD) : V1 m ρ c main_v0 = wtK (m ((c.tc : Thread nD τ).loc main_arg3)) :=
  after0_v0 (W0 m ρ c)
/-- The bias as one row. -/
theorem V1_v1 (c : Dev nD) : V1 m ρ c main_v1 = b2K (m ((c.tc : Thread nD τ).loc main_arg4)) :=
  after0_v1 (W0 m ρ c)

/-! ## The gather call's entry arrays -/

/-- The compacted neighbour indices of the neighbour table and mask as launched. -/
theorem V9_v15 (c : Dev nD) : V9 m ρ c main_v15 = cidxK (m ((c.tc : Thread nD τ).loc main_arg1)) (m ((c.tc : Thread nD τ).loc main_arg2)) :=
  calc V9 m ρ c main_v15
    _ = afterMid (W2 m ρ c) (Proc.devRef .tc main_v15) := rfl
    _ = cidxK (W2 m ρ c (Proc.devRef .tc main_arg1)) (W2 m ρ c (Proc.devRef .tc main_arg2)) := afterMid_v15 (W2 m ρ c)
    _ = cidxK (m ((c.tc : Thread nD τ).loc main_arg1)) (m ((c.tc : Thread nD τ).loc main_arg2)) := by rw [W2_main_arg1 m ρ c, W2_main_arg2 m ρ c]

/-- The kept-slot words of the mask as launched. -/
theorem V9_v16 (c : Dev nD) : V9 m ρ c main_v16 = keepK (m ((c.tc : Thread nD τ).loc main_arg2)) :=
  calc V9 m ρ c main_v16
    _ = afterMid (W2 m ρ c) (Proc.devRef .tc main_v16) := rfl
    _ = keepK (W2 m ρ c (Proc.devRef .tc main_arg2)) := afterMid_v16 (W2 m ρ c)
    _ = keepK (m ((c.tc : Thread nD τ).loc main_arg2)) := by rw [W2_main_arg2 m ρ c]

/-- The table the gather call copies rows of: the linear call's output at its exit, viewed as rows of one vector. -/
theorem V9_v17 (c : Dev nD) : V9 m ρ c main_v17 = h3K (W2 m ρ c (Proc.devRef .tc main_v2)) :=
  afterMid_v17 (W2 m ρ c)
/-- The linear call's output at its exit is what its pipeline leaves in its output array. -/
theorem W2_main_v2 (c : Dev nD) : W2 m ρ c (Proc.devRef .tc main_v2) = (dat0 (V1 m ρ) c).arrAt 3 cfg0.N :=
  W2_arr m ρ c 3

/-! ## Under the precondition the gather call's row numbers are in range -/

/-- Where the precondition holds of the arguments as launched, every row number the gather call reads, at its entry
    contents, is inside the table: the index array is the compacted neighbour indices, each below 50000. -/
theorem hyps_of_pre
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    Hyps1 (V9 m ρ) :=
  hyps1_of_lt (V9 m ρ) fun c i => by
    rw [V9_v15 m ρ c]
    exact cidxK_lt_of_pre _ _ _ _ _ (hpre c) i

end Cert.KernelIdeal.Hand

end
-- ==== Proof.KI.Spec.lean ====
import proofs.«405686_j2499670966883_2_alg».proof.KernelIdeal
import Idealize.ShloMosaic.PureOps.Ideal
import Idealize.ShloMosaic.Lib.ValueIdx

/-!
  The two results of the program as whole-array functions over the extended reals, index by index.

  * `Gh x W b` is the linear layer `x · Wᵀ + b`: entry `(n, j)` is `(∑ k, x[n,k] * W[j,k]) + b[j]`.
  * `Gn h cidx keep` is the masked row gather: entry `(n, k, j)` is `h[cidx[n,k], j]` where the mask word
    `keep[n,k]` is `1`, and `0` elsewhere.  The row number is the word `cidx[n,k]` read as a natural number
    (reduced modulo the row count only to make it a row index; on every use it is already below the row count).
-/

noncomputable section

open scoped BigOperators

namespace Cert.KernelIdeal.Hand

open Cert.KernelIdeal Idealize.ShloMosaic
open Idealize.ShloMosaic.ValueIdx

/-- The linear layer: `h[n,j] = (∑ k, x[n,k] * W[j,k]) + b[j]`. -/
def Gh (x : FVec Ideal S50000x128 .f32) (W : FVec Ideal S128x128 .f32) (b : FVec Ideal S128 .f32) :
    FVec Ideal S50000x128 .f32 :=
  fun i => ((∑ k : Fin 128, (x (ix2 (i 0 : Fin 50000) k) : EReal) * (W (ix2 (i 1 : Fin 128) k) : EReal)) +
    (b (ix1 (i 1 : Fin 128)) : EReal) : EReal)

/-- The masked row gather: `out[n,k,j] = h[cidx[n,k], j]` where `keep[n,k] = 1`, else `0`. -/
def Gn (h : FVec Ideal S50000x128 .f32) (cidx : IVec S50000x32 32) (keep : IVec S50000x32 1) :
    FVec Ideal S50000x32x128 .f32 :=
  fun i =>
    if keep (ix2 (i 0 : Fin 50000) (i 1 : Fin 32)) = 1#1 then
      h (ix2 (⟨(cidx (ix2 (i 0 : Fin 50000) (i 1 : Fin 32))).toNat % 50000, Nat.mod_lt _ (by decide)⟩ : Fin 50000)
        (i 2 : Fin 128))
    else (0 : EReal)

end Cert.KernelIdeal.Hand
-- ==== Proof.KI.Value0.lean ====
import proofs.«405686_j2499670966883_2_alg».proof.Proof.KI.Body0
import proofs.«405686_j2499670966883_2_alg».proof.Proof.KI.Spec
import proofs.«405686_j2499670966883_2_alg».proof.Proof.KI.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx

/-! # What the linear call leaves in its output array, over the extended reals -/

/-! ## The matmul's index maps, axis by axis -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a row block with a matrix into a zero accumulator, entry by entry. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The bias row spread over the rows of the block, entry by entry. -/
theorem bias_apply (x2 : FVec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun a => match a with
    | ⟨0, _⟩ => rfl
    | ⟨1, _⟩ => rfl)

/-- The body's stored value at entry `(p, q)`: the row of the block times the column of the weights, plus the bias. -/
theorem pay_apply (x0 : FVec Ideal S5000x128 .f32) (x1 : FVec Ideal S128x128 .f32) (x2 : FVec Ideal S1x128 .f32) (p : Fin 5000) (q : Fin 128) :
    k0_pay1 x0 x1 x2 (ix2 p q) = (∑ k : Fin 128, x0 (ix2 p k) * x1 (ix2 k q)) + x2 (ix2 (0 : Fin 1) q) := by
  unfold k0_pay1
  show addf (matmul dot_S5000x128_S128x128_S5000x128_1_0_0_1_n_n none (truncf .bf16 x0 bitsLt_bf16_f32)
      (truncf .bf16 (shapeCast S128x128 x1 shapeCasts_S128x128_S128x128) bitsLt_bf16_f32) (constant (F := Ideal) S5000x128 .f32 0x00000000#32))
    (broadcastTo S5000x128 (shapeCast S1x128 x2 shapeCasts_S1x128_S1x128) broadcasts_S1x128_S5000x128) (ix2 p q) = _
  rw [addf_apply, mm_apply, shapeCast_self, shapeCast_self, bias_apply]
  rfl

/-! ## The specification and the host-prepared operands, entry by entry -/

/-- The linear layer at entry `(n, j)`. -/
theorem Gh_apply (x : FVec Ideal S50000x128 .f32) (W : FVec Ideal S128x128 .f32) (b : FVec Ideal S128 .f32) (n : Fin 50000) (j : Fin 128) :
    Gh x W b (ix2 n j) = (∑ k : Fin 128, x (ix2 n k) * W (ix2 j k)) + b (ix1 j) := rfl

/-- The transposed weights at entry `(k, q)` are the weights at `(q, k)`. -/
theorem wt_apply (W : FVec Ideal S128x128 .f32) (k q : Fin 128) : wtK W (ix2 k q) = W (ix2 q k) := by
  unfold wtK
  exact transpose_apply [1, 0] W transposes_S128x128_S128x128_1_0 (ix2 k q) (ix2 q k) (fun a => match a with
    | ⟨0, _⟩ => rfl
    | ⟨1, _⟩ => rfl)

/-- The bias as one row, at entry `(0, q)`, is the bias at `q`. -/
theorem b2_apply (b : FVec Ideal S128 .f32) (q : Fin 128) : b2K b (ix2 (0 : Fin 1) q) = b (ix1 q) := by
  unfold b2K
  refine shapeCast_apply b shapeCasts_S128_S1x128 (ix2 (0 : Fin 1) q) (ix1 q) ?_
  rw [Shape.rowMajor_val_one, Shape.rowMajor_val_two]
  show q.val = 0 * 128 + q.val
  omega

/-! ## From the blocks to the array -/

theorem hz0 : (![0, 0] : Fin 2 → Nat) = fun _ => 0 := funext fun a => match a with
  | ⟨0, _⟩ => rfl
  | ⟨1, _⟩ => rfl

/-- The block index maps over the ten grid points: the row block of `x` moves with the output's, whose block row is
    at most 9; the weights, the bias and every column index stay at block 0. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every block row of the output is some point's. -/
theorem idx_onto0 : ∀ q0 : Fin 10, ∃ t : Fin cfg0.N, win0_3.index t (0 : Fin 2) = q0.val :=
  (by decide +kernel : ∀ q0 : Fin 10, ∃ t : Fin grid0.N, win0_3.index t (0 : Fin 2) = q0.val)

section
variable (V : (c : Dev nD) → (b : Ref sig .tc) → Buf (Elt Ideal) ((c : Thread nD τ).loc b))

/-- What point `t` writes back is block `t` of the linear layer of the arrays as the region finds them. -/
theorem flushed0_eq (c : Dev nD) (W : FVec Ideal S128x128 .f32) (b : FVec Ideal S128 .f32)
    (hw : V c main_v0 = wtK W) (hb : V c main_v1 = b2K b) (t : Fin cfg0.N) :
    (dat0 (F := Ideal) V c).flushed 3 t = ((cfg0.win 3).blk t).view.read (Elt Ideal) (Gh (V c main_arg0) W b) := by
  show (cfg0.win 3).cut (grid0.coords t) ((dat0 (F := Ideal) V c).after 3 t) = _
  rw [after0_3]
  unfold out0_3
  rw [View.canon_unit_zero hz0]
  simp only [View.ld_unit_zero (S := S5000x128) hz0, View.ld_unit_zero (S := S128x128) hz0, View.ld_unit_zero (S := S1x128) hz0]
  obtain ⟨e0, e1, e2, e3, e4, e5, e6, e7⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Gh (V c main_arg0) W b (((cfg0.win 3).blk t).view.emb (ix2 p q))
  have hi : ((cfg0.win 3).blk t).view.emb (ix2 p q)
      = (ix2 (⟨win0_3.index t (0 : Fin 2) * 5000 + p.val, by have := p.isLt; omega⟩ : Fin 50000) q : S50000x128.Idx) := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  rw [hi, Gh_apply]
  refine (pay_apply _ _ _ p q).trans ?_
  refine congrArg₂ (· + ·) (Finset.sum_congr rfl fun k _ => congrArg₂ (· * ·) ?_ ?_) ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  · show V c main_v0 (((cfg0.win 1).blk t).view.emb (ix2 k q)) = _
    have h1 : ((cfg0.win 1).blk t).view.emb (ix2 k q) = (ix2 k q : S128x128.Idx) := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [h1]
    exact (congrFun hw _).trans (wt_apply W k q)
  · show V c main_v1 (((cfg0.win 2).blk t).view.emb (ix2 (0 : Fin 1) q)) = _
    have h2 : ((cfg0.win 2).blk t).view.emb (ix2 (0 : Fin 1) q) = (ix2 (0 : Fin 1) q : S1x128.Idx) := by
      funext a; apply Fin.ext
      match a with
      | ⟨0, _⟩ => show win0_2.index t (0 : Fin 2) * 1 + 1 * 0 = 0; omega
      | ⟨1, _⟩ => show win0_2.index t (1 : Fin 2) * 128 + 1 * q.val = q.val; omega
    rw [h2]
    exact (congrFun hb _).trans (b2_apply b q)

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every index of the output array is in the block of the point that covers its row: row `r` is in block `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 5000, by omega⟩
  have q0 : win0_3.index t (0 : Fin 2) = (i 0).val / 5000 := ht
  obtain ⟨-, -, -, -, -, -, -, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the linear layer of the input array, the weights and the bias. -/
theorem arr0_eq (c : Dev nD) (W : FVec Ideal S128x128 .f32) (b : FVec Ideal S128 .f32)
    (hw : V c main_v0 = wtK W) (hb : V c main_v1 = b2K b) :
    (dat0 (F := Ideal) V c).arrAt 3 cfg0.N = Gh (V c main_arg0) W b :=
  (dat0 (F := Ideal) V c).arrAt_eq_of_cover 3 (Gh (V c main_arg0) W b) (fun t _ => flushed0_eq V c W b hw hb t) cover0

end

end Cert.KernelIdeal.Hand

end
-- ==== Proof.KI.SpecK.lean ====
import proofs.«405686_j2499670966883_2_alg».proof.Proof.KI.Spec

noncomputable section

namespace Cert.KernelIdeal.Hand

open Cert.KernelIdeal Idealize.ShloMosaic Idealize.ShloMosaic.ValueIdx

/-- What the gather kernel leaves in its output array, read off its own three operands: the row-number words
    `idx`, the 32-bit keep words `keep32` it tests with `> 0`, and the table `h3` laid out as [50000, 1, 128]:
    out[n, k, j] = h3[idx[n, k], 0, j] where keep32[n, k] > 0, and 0 elsewhere. -/
def GnK (idx : IVec S50000x32 32) (keep32 : IVec S50000x32 32) (h3 : FVec Ideal S50000x1x128 .f32) : FVec Ideal S50000x32x128 .f32 :=
  fun i => if Scalar.cmpi .sgt (keep32 (ix2 (i 0 : Fin 50000) (i 1 : Fin 32))) 0#32 = 1#1
    then h3 (ix3 (⟨(idx (ix2 (i 0 : Fin 50000) (i 1 : Fin 32))).toNat % 50000, Nat.mod_lt _ (by decide)⟩ : Fin 50000) (0 : Fin 1) (i 2 : Fin 128))
    else (0 : EReal)

/-- The same for ONE grid point's blocks: the 8 × 32 index and keep blocks and the whole table give the 8 × 32 × 128
    output block. -/
def Gblk (x0 x1 : IVec S8x32 32) (h3 : FVec Ideal S50000x1x128 .f32) : FVec Ideal S8x32x128 .f32 :=
  fun y => if Scalar.cmpi .sgt (x1 (ix2 (y 0 : Fin 8) (y 1 : Fin 32))) 0#32 = 1#1
    then h3 (ix3 (⟨(x0 (ix2 (y 0 : Fin 8) (y 1 : Fin 32))).toNat % 50000, Nat.mod_lt _ (by decide)⟩ : Fin 50000) (0 : Fin 1) (y 2 : Fin 128))
    else (0 : EReal)

end Cert.KernelIdeal.Hand

end
-- ==== Proof.KI.SpecFIdeal.lean ====
import proofs.«405686_j2499670966883_2_alg».proof.Proof.KI.SpecF
import proofs.«405686_j2499670966883_2_alg».proof.Proof.KI.SpecK
import Idealize.ShloMosaic.PureOps.Ideal.Laws

noncomputable section

namespace Cert.KernelIdeal.Hand

open Cert.KernelIdeal Idealize.ShloMosaic Idealize.ShloMosaic.ValueIdx

/-- Over the extended reals the gather body's block is the block specification: the select on the keep test is the
    if-then-else, and the zero word is zero. -/
theorem GblkF_ideal (x0 x1 : IVec S8x32 32) (h3 : FVec Ideal S50000x1x128 .f32) :
    GblkF (F := Ideal) x0 x1 h3 = Gblk x0 x1 h3 := by
  funext y
  unfold GblkF Gblk
  by_cases hc : Scalar.cmpi .sgt (x1 (ix2 (y 0 : Fin 8) (y 1 : Fin 32))) 0#32 = 1#1
  · rw [if_pos hc, hc, select_one]
  · rw [if_neg hc, eq_zero_of_ne_one hc, select_zero]
    show (Ideal.ofBits .f32 0x00000000#32 : EReal) = 0
    exact Ideal.ofBits_zero_f32

end Cert.KernelIdeal.Hand

end
-- ==== Proof.KI.Value1.lean ====
import proofs.«405686_j2499670966883_2_alg».proof.Proof.KI.Body1
import proofs.«405686_j2499670966883_2_alg».proof.Proof.KI.SpecFIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # What the gather call leaves in its output array, over the extended reals

Each grid point writes back one block of 8 rows of the output; block `t` sits at rows 8t … 8t+7, and the index and
keep blocks the body reads at point `t` are the same 8 rows of the index and keep tables. So the block the body
leaves at point `t` is block `t` of the array specification, and the 6250 blocks tile the array. -/

/-! ## The block specification against the array specification, entry by entry -/

/-- Slot `(p, q)` of a block whose index and keep words are the arrays' at row `n` holds what the array specification
    holds at `(n, q)`. -/
theorem Gblk_eq_GnK_at (x0 x1 : IVec S8x32 32) (idx keep32 : IVec S50000x32 32) (h3 : FVec Ideal S50000x1x128 .f32)
    (p : Fin 8) (q : Fin 32) (r : Fin 128) (n : Fin 50000)
    (e0 : x0 (ix2 p q) = idx (ix2 n q)) (e1 : x1 (ix2 p q) = keep32 (ix2 n q)) :
    Gblk x0 x1 h3 (ix3 p q r) = GnK idx keep32 h3 (ix3 n q r) := by
  unfold Gblk GnK
  show (if Scalar.cmpi .sgt (x1 (ix2 p q)) 0#32 = 1#1
      then h3 (ix3 (⟨(x0 (ix2 p q)).toNat % 50000, Nat.mod_lt _ (by decide)⟩ : Fin 50000) (0 : Fin 1) r) else (0 : EReal))
    = (if Scalar.cmpi .sgt (keep32 (ix2 n q)) 0#32 = 1#1
      then h3 (ix3 (⟨(idx (ix2 n q)).toNat % 50000, Nat.mod_lt _ (by decide)⟩ : Fin 50000) (0 : Fin 1) r) else (0 : EReal))
  rw [e0, e1]

/-! ## From the blocks to the array -/

/-- The block index maps over the 6250 grid points: each window's block row is the point's number, every other block
    index is 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

section
variable (V : (c : Dev nD) → (b : Ref sig .tc) → Buf (Elt Ideal) ((c : Thread nD τ).loc b))

/-- What point `t` writes back is block `t` of the array specification of the arrays as the region finds them. -/
theorem flushed1_eq (hH : Hyps1 V) (c : Dev nD) (t : Fin cfg1.N) :
    (dat1 (F := Ideal) V hH c).flushed 2 t
      = ((cfg1.win 2).blk t).view.read (Elt Ideal) (GnK (V c main_v15) (V c main_v16) (V c main_v17)) := by
  show (cfg1.win 2).cut (grid1.coords t) ((dat1 (F := Ideal) V hH c).after 2 t) = _
  rw [after1_2]
  unfold outsAt1
  rw [GblkF_ideal]
  obtain ⟨e0, e1, e2, e3, e4, e5, e6⟩ := idx_facts1 t
  have ht : t.val < 6250 := t.isLt
  funext j
  obtain ⟨p, q, r, rfl⟩ : ∃ (p : Fin 8) (q : Fin 32) (r : Fin 128), j = ix3 p q r := ⟨j 0, j 1, j 2, eq_ix3 j⟩
  have hp : p.val < 8 := p.isLt
  show Gblk (iblk1 V c 0 t) (iblk1 V c 1 t) (V c main_v17) (ix3 p q r)
    = GnK (V c main_v15) (V c main_v16) (V c main_v17) (((cfg1.win 2).blk t).view.emb (ix3 p q r))
  have hi : ((cfg1.win 2).blk t).view.emb (ix3 p q r)
      = (ix3 (⟨t.val * 8 + p.val, by omega⟩ : Fin 50000) q r : S50000x32x128.Idx) := by
    funext a; apply Fin.ext
    match a with
    | ⟨0, _⟩ => show win1_2.index t (0 : Fin 3) * 8 + 1 * p.val = t.val * 8 + p.val; omega
    | ⟨1, _⟩ => show win1_2.index t (1 : Fin 3) * 32 + 1 * q.val = q.val; omega
    | ⟨2, _⟩ => show win1_2.index t (2 : Fin 3) * 128 + 1 * r.val = r.val; omega
  rw [hi]
  refine Gblk_eq_GnK_at _ _ _ _ _ p q r _ ?_ ?_
  · show V c main_v15 (((cfg1.win 0).blk t).view.emb (ix2 p q)) = V c main_v15 _
    refine congrArg _ (funext fun a => Fin.ext ?_)
    match a with
    | ⟨0, _⟩ => show win1_0.index t (0 : Fin 2) * 8 + 1 * p.val = t.val * 8 + p.val; omega
    | ⟨1, _⟩ => show win1_0.index t (1 : Fin 2) * 32 + 1 * q.val = q.val; omega
  · show V c main_v16 (((cfg1.win 1).blk t).view.emb (ix2 p q)) = V c main_v16 _
    refine congrArg _ (funext fun a => Fin.ext ?_)
    match a with
    | ⟨0, _⟩ => show win1_1.index t (0 : Fin 2) * 8 + 1 * p.val = t.val * 8 + p.val; omega
    | ⟨1, _⟩ => show win1_1.index t (1 : Fin 2) * 32 + 1 * q.val = q.val; omega

/-- An index of the array is in point `t`'s block iff each coordinate is in the block's range on its axis. -/
theorem mem_blk1 (t : Fin cfg1.N) (i : S50000x32x128.Idx) :
    i ∈ ((cfg1.win 2).blk t).view.set ↔ ∀ a : Fin 3, win1_2.index t a * S8x32x128.size a ≤ (i a).val ∧ (i a).val < win1_2.index t a * S8x32x128.size a + S8x32x128.size a := by
  show i ∈ ((View.whole main_v18).slice (win1_2.rect t)).set ↔ _
  rw [View.set_slice_whole, Rect.mem_set_unit]
  exact Iff.rfl

/-- Every index of the output array is in the block of the point that covers its row: row `n` is in block `n / 8`. -/
theorem cover1 (i : S50000x32x128.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  have hi2 : (i 2).val < 128 := (i 2).isLt
  have hN : (i 0).val / 8 < cfg1.N := by show (i 0).val / 8 < 6250; omega
  obtain ⟨-, -, -, -, e4, e5, e6⟩ := idx_facts1 ⟨(i 0).val / 8, hN⟩
  have e4' : win1_2.index ⟨(i 0).val / 8, hN⟩ (0 : Fin 3) = (i 0).val / 8 := e4
  refine ⟨⟨(i 0).val / 8, hN⟩, flush1_2 _, ?_⟩
  rw [mem_blk1]
  intro a
  match a with
  | ⟨0, _⟩ => show win1_2.index ⟨(i 0).val / 8, hN⟩ (0 : Fin 3) * 8 ≤ (i 0).val ∧ (i 0).val < win1_2.index ⟨(i 0).val / 8, hN⟩ (0 : Fin 3) * 8 + 8; omega
  | ⟨1, _⟩ => show win1_2.index ⟨(i 0).val / 8, hN⟩ (1 : Fin 3) * 32 ≤ (i 1).val ∧ (i 1).val < win1_2.index ⟨(i 0).val / 8, hN⟩ (1 : Fin 3) * 32 + 32; omega
  | ⟨2, _⟩ => show win1_2.index ⟨(i 0).val / 8, hN⟩ (2 : Fin 3) * 128 ≤ (i 2).val ∧ (i 2).val < win1_2.index ⟨(i 0).val / 8, hN⟩ (2 : Fin 3) * 128 + 128; omega

/-- The output array after the region: the array specification of the index table, the keep table and the row table
    as the region finds them. -/
theorem arr1_eq (hH : Hyps1 V) (c : Dev nD) :
    (dat1 (F := Ideal) V hH c).arrAt 2 cfg1.N = GnK (V c main_v15) (V c main_v16) (V c main_v17) :=
  (dat1 (F := Ideal) V hH c).arrAt_eq_of_cover 2 (GnK (V c main_v15) (V c main_v16) (V c main_v17)) (fun t _ => flushed1_eq V hH c t) cover1

end

end Cert.KernelIdeal.Hand

end
-- ==== Proof.KI.Bridge.lean ====
import proofs.«405686_j2499670966883_2_alg».proof.Proof.KI.Spec
import proofs.«405686_j2499670966883_2_alg».proof.Proof.KI.SpecK
import proofs.«405686_j2499670966883_2_alg».proof.Proof.KI.Chain
import proofs.«405686_j2499670966883_2_alg».proof.Proof.KI.IndexRange
import proofs.«405686_j2499670966883_2_alg».proof.Proof.RefReadP
import Idealize.ShloMosaic.Lib.Pipeline.Value
import Idealize.ShloMosaic.Lib.ValueIdx
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # Joining the two sides' index plumbing

The gather region reads its row numbers and its keep words from arrays the host part of the program prepared;
the reference prepares the same arrays by the same operations. Here: the region's own reading of its result
(row numbers, 32-bit keep words tested against zero, the table as rows of one vector) is the specification's
masked gather; the zeroing of the row numbers past the degree does not change it; and the reference's
compacted table and keep mask are the program's. -/

/-! ## The keep word and the table's layout -/

/-- A one-bit word widened to 32 bits is signed-above zero exactly when it is one. -/
theorem sgt_zero_setWidth_iff (b : BitVec 1) : Scalar.cmpi .sgt (b.setWidth 32) 0#32 = 1#1 ↔ b = 1#1 := by
  revert b; decide

/-- The 32-bit keep word at a slot is the mask bit widened. -/
theorem keepK_apply (a2 : IVec S50000x32 1) (x : S50000x32.Idx) : keepK a2 x = (keepMaskK a2 x).setWidth 32 := rfl

/-- The table as rows of one vector, read at `(r, 0, j)`, is the table at `(r, j)`. -/
theorem h3K_apply (h : FVec Ideal S50000x128 .f32) (r : Fin 50000) (j : Fin 128) :
    h3K h (ix3 r (0 : Fin 1) j) = h (ix2 r j) := by
  unfold h3K
  refine shapeCast_apply h shapeCasts_S50000x128_S50000x1x128 (ix3 r (0 : Fin 1) j) (ix2 r j) ?_
  rw [Shape.rowMajor_val_two, Shape.rowMajor_val_three]
  show r.val * 128 + j.val = (r.val * 1 + 0) * 128 + j.val
  omega

/-- The region's reading of its result, at the host-prepared operands, is the specification's masked gather. -/
theorem GnK_eq_Gn (h : FVec Ideal S50000x128 .f32) (a1 : IVec S50000x32 32) (a2 : IVec S50000x32 1) :
    GnK (cidxK a1 a2) (keepK a2) (h3K h) = Gn h (cidxK a1 a2) (keepMaskK a2) := by
  funext i
  unfold GnK Gn
  by_cases hk : keepMaskK a2 (ix2 (i 0 : Fin 50000) (i 1 : Fin 32)) = 1#1
  · rw [if_pos ((keepK_apply a2 _).symm ▸ (sgt_zero_setWidth_iff _).2 hk), if_pos hk]
    exact h3K_apply h _ _
  · rw [if_neg (fun hc => hk ((sgt_zero_setWidth_iff _).1 ((keepK_apply a2 _) ▸ hc))), if_neg hk]

/-! ## Zeroing the row numbers past the degree changes nothing -/

/-- Where the mask is set the zeroed table holds the compacted table's entry. -/
theorem cidxK_of_keep (a1 : IVec S50000x32 32) (a2 : IVec S50000x32 1) (x : S50000x32.Idx) (hk : keepMaskK a2 x = 1#1) :
    cidxK a1 a2 x = compactK a1 a2 x := by
  unfold cidxK
  show Scalar.select (keepMaskK a2 x) (compactK a1 a2 x) _ = _
  rw [hk, select_one]

theorem Gn_cidx_compact (h : FVec Ideal S50000x128 .f32) (a1 : IVec S50000x32 32) (a2 : IVec S50000x32 1) :
    Gn h (cidxK a1 a2) (keepMaskK a2) = Gn h (compactK a1 a2) (keepMaskK a2) := by
  funext i
  unfold Gn
  by_cases hk : keepMaskK a2 (ix2 (i 0 : Fin 50000) (i 1 : Fin 32)) = 1#1
  · rw [if_pos hk, if_pos hk]
    exact congrArg (fun v : BitVec 32 => h (ix2 (⟨v.toNat % 50000, Nat.mod_lt _ (by decide)⟩ : Fin 50000) (i 2 : Fin 128)))
      (cidxK_of_keep a1 a2 _ hk)
  · rw [if_neg hk, if_neg hk]

/-! ## The reference's compacted table and keep mask are the program's

Both programs print the same host operations over shapes and records of the same values; each stage of the
reference's chain is the program's stage by unfolding the names, the sorted order carried as one term. -/

theorem refCmp_eq : Cert.ReferenceIdeal.comparator_i32_i32_d1 = comparator_i32_i32_d1 := rfl

theorem refKey_eq (a2 : IVec S50000x32 1) : Cert.ReferenceIdeal.ReadP.val_main_v5 (F := Ideal) a2 = keyK a2 := rfl

theorem refOrder_eq (a2 : IVec S50000x32 1) : Cert.ReferenceIdeal.ReadP.val_main_v6 (F := Ideal) a2 = orderK a2 := by
  unfold Cert.ReferenceIdeal.ReadP.val_main_v6 orderK
  rw [refKey_eq, refCmp_eq]
  rfl

theorem refWrap_eq (a2 : IVec S50000x32 1) : Cert.ReferenceIdeal.ReadP.val_main_call2_v5 (F := Ideal) a2 = wrapK (orderK a2) := by
  unfold Cert.ReferenceIdeal.ReadP.val_main_call2_v5 Cert.ReferenceIdeal.ReadP.val_main_call2_v4
    Cert.ReferenceIdeal.ReadP.val_main_call2_v1 Cert.ReferenceIdeal.ReadP.val_main_call2_v3
  rw [refOrder_eq]
  rfl

theorem refInRow_eq (a2 : IVec S50000x32 1) : Cert.ReferenceIdeal.ReadP.val_main_call2_v12 (F := Ideal) a2 = inRowK (orderK a2) := by
  unfold Cert.ReferenceIdeal.ReadP.val_main_call2_v12 Cert.ReferenceIdeal.ReadP.val_main_call2_v11
    Cert.ReferenceIdeal.ReadP.val_main_call2_v7 Cert.ReferenceIdeal.ReadP.val_main_call2_v10
  rw [refWrap_eq]
  rfl

theorem refIdx_eq (a1 : IVec S50000x32 32) (a2 : IVec S50000x32 1) :
    Cert.ReferenceIdeal.ReadP.val_main_v7 (F := Ideal) a1 a2 = compactK a1 a2 := by
  unfold Cert.ReferenceIdeal.ReadP.val_main_v7 Cert.ReferenceIdeal.ReadP.val_main_call2_v13
  rw [refInRow_eq, refWrap_eq]
  rfl

theorem refKeep_eq (a2 : IVec S50000x32 1) : Cert.ReferenceIdeal.ReadP.val_main_v15 (F := Ideal) a2 = keepMaskK a2 := rfl

/-! ## The compacted table holds row numbers -/

theorem compactK_lt_of_pre [Cert.Pre_finite_inputs.Facts] (a0 : FVec Ideal Cert.Pre_finite_inputs.S50000x128 .f32)
    (a1 : IVec S50000x32 32) (a2 : IVec S50000x32 1)
    (a3 : FVec Ideal Cert.Pre_finite_inputs.S128x128 .f32) (a4 : FVec Ideal Cert.Pre_finite_inputs.S128 .f32)
    (hpre : Cert.Pre_finite_inputs.fn (F := Ideal) a0 a1 a2 a3 a4 = fun _ => 1#1) :
    ∀ i, (compactK a1 a2 i).toNat < 50000 := by
  intro i
  obtain ⟨j, hj⟩ := compactK_mem a1 a2 i
  rw [hj]
  exact idx_lt_of_pre a0 a1 a2 a3 a4 hpre j

end Cert.KernelIdeal.Hand

end
-- ==== Proof.RefValue.lean ====
import proofs.«405686_j2499670966883_2_alg».proof.Proof.RefRunP
import proofs.«405686_j2499670966883_2_alg».proof.Proof.RefReadP
import proofs.«405686_j2499670966883_2_alg».proof.Proof.KI.Spec
import Idealize.ShloMosaic.Lib.Pipeline.Frame
import Idealize.ShloMosaic.Lib.ValueIdx
import Idealize.ShloMosaic.Lib.StableHlo.Predicate
import Idealize.ShloMosaic.PureOps.Ideal.Laws

/-!
  The reference side of the certificate.

  * `run`: every weakly fair execution of the reference's @main terminates with the linear layer's buffer at
    `x · Wᵀ + b` (as the program spells it), the neighbour buffer at the composition of the program's stages, and the
    five arguments unchanged.  The second result is read stretch by stretch: the operation list is five consecutive
    stretches, and after each stretch the few buffers the later stretches read are named by the stage functions, so the
    sort is carried as one value and never opened.
  * `ref_h_eq`: at the extended reals the first result is `Gh`, index by index.
  * `ref_nbr_eq`: at the extended reals the second result is `Gn (Gh …) cidxR keepR`, where `cidxR` is the program's
    compacted index array and `keepR` its keep mask, provided the compacted row numbers at kept slots are below the
    row count: such a row number is not negative as a signed word, so the wrap of negative row numbers and the
    gather's clamp both leave it alone.
-/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Typed references: the moves between a value's type and its buffer's type -/

/-- Moving contents to a typed reference's buffer type and back is the identity. -/
theorem ofBuf_toBuf {T : BufTy} {Val : EltTy → Type} (x : TRef sig T) (v : T.Contents Val) : x.ofBuf (x.toBuf v) = v := by
  obtain ⟨r, rfl, _, _⟩ := x; rfl

/-- At the compacted indices' buffer the move to the buffer's own type is the identity. -/
theorem toBuf_v7 {Val : EltTy → Type} (p1 p2 p3) (X : (⟨S50000x32, .i32⟩ : BufTy).Contents Val) :
    (TRef.of (T := ⟨S50000x32, .i32⟩) main_v7 p1 p2 p3).toBuf X = X := rfl

/-! ## The stages as functions of the values they read -/

section Stages

variable {F : FTy → Type} [FloatOps F]

/-- The take along the sorted positions `s` (the program's `take_along_axis` of the index array `a1`): a position below
    zero is wrapped by the row length, a position outside `[0, 31]` reads the fill word. -/
def takeR (a1 : (⟨S50000x32, .i32⟩ : BufTy).Contents (Elt F)) (s : (⟨S50000x32, .i32⟩ : BufTy).Contents (Elt F)) :
    (⟨S50000x32, .i32⟩ : BufTy).Contents (Elt F) :=
  select
    (Host.reduce IntOp.andi
      (andi
        (cmpi .sge
          (shapeCast _ (select (cmpi .slt s (ReadP.val_main_call2_v0 (F := F))) (addi s (ReadP.val_main_call2_v2 (F := F))) s)
            shapeCasts_S50000x32_S50000x32x1)
          (ReadP.val_main_call2_v6 (F := F)))
        (cmpi .sle
          (shapeCast _ (select (cmpi .slt s (ReadP.val_main_call2_v0 (F := F))) (addi s (ReadP.val_main_call2_v2 (F := F))) s)
            shapeCasts_S50000x32_S50000x32x1)
          (ReadP.val_main_call2_v9 (F := F))))
      (ReadP.val_main_call2_c_3 (F := F)) reducesTo_S50000x32x1_S50000x32_d2 h_S_)
    (Host.gather gather_S50000x32_S50000x32x1_S50000x32_n_1_0_0_1_2_11 a1
      (shapeCast _ (select (cmpi .slt s (ReadP.val_main_call2_v0 (F := F))) (addi s (ReadP.val_main_call2_v2 (F := F))) s)
        shapeCasts_S50000x32_S50000x32x1))
    (ReadP.val_main_call2_v14 (F := F))

/-- The masked row gather as the program spells it: the row numbers `ci` wrapped where negative, the rows of `h`
    gathered at them, and `0` where the mask `k` is off. -/
def tailR (h : (⟨S50000x128, .f32⟩ : BufTy).Contents (Elt F)) (ci : (⟨S50000x32, .i32⟩ : BufTy).Contents (Elt F))
    (k : (⟨S50000x32, .i1⟩ : BufTy).Contents (Elt F)) : (⟨S50000x32x128, .f32⟩ : BufTy).Contents (Elt F) :=
  select
    (broadcastInDim S50000x32x128 ![0, 1, 2] bcast_S50000x32x1_S50000x32x128_0_1_2
      (broadcastInDim S50000x32x1 ![0, 1] bcast_S50000x32_S50000x32x1_0_1 k))
    (Host.gather gather_S50000x128_S50000x32x1_S50000x32x128_2_0_n_n_0_2_1128 h
      (broadcastInDim S50000x32x1 ![0, 1] bcast_S50000x32_S50000x32x1_0_1
        (select (cmpi .slt ci (ReadP.val_main_v17 (F := F))) (addi ci (ReadP.val_main_v19 (F := F))) ci)))
    (ReadP.val_main_call3_v2 (F := F))

/-- The program's take stage is `takeR` at the sorted positions. -/
theorem val_v7_eq (a1 : (⟨S50000x32, .i32⟩ : BufTy).Contents (Elt F)) (a2 : (⟨S50000x32, .i1⟩ : BufTy).Contents (Elt F)) :
    ReadP.val_main_v7 (F := F) a1 a2 = takeR a1 (ReadP.val_main_v6 (F := F) a2) := rfl

/-- The program's last stage is `tailR` at the linear layer, the compacted indices and the keep mask. -/
theorem val_v24_eq (x0 : (⟨S50000x128, .f32⟩ : BufTy).Contents (Elt F)) (x1 : (⟨S50000x32, .i32⟩ : BufTy).Contents (Elt F))
    (x2 : (⟨S50000x32, .i1⟩ : BufTy).Contents (Elt F)) (x3 : (⟨S128x128, .f32⟩ : BufTy).Contents (Elt F))
    (x4 : (⟨S128, .f32⟩ : BufTy).Contents (Elt F)) :
    ReadP.val_main_v24 (F := F) x0 x1 x2 x3 x4
      = tailR (ReadP.val_main_v4 (F := F) x0 x3 x4) (ReadP.val_main_v7 (F := F) x1 x2) (ReadP.val_main_v15 (F := F) x2) := rfl

set_option maxRecDepth 8192 in
set_option maxHeartbeats 1000000 in
/-- The take stretch from any contents: the buffer of the compacted indices is `takeR` of what the index argument and
    the sorted positions' buffer hold. -/
theorem after_take (W : Valuation τ sig (Elt F)) (a1 s : (⟨S50000x32, .i32⟩ : BufTy).Contents (Elt F))
    (h1 : W (Proc.devRef .tc main_arg1) = a1) (h6 : W (Proc.devRef .tc main_v6) = s) :
    after (ValueP.opsC (F := F)) W (Proc.devRef .tc main_v7) = takeR a1 s := by
  after_results_simp
  rw [h6, h1]
  simp only [ofBuf_toBuf]
  rw [toBuf_v7]
  rfl

set_option maxRecDepth 8192 in
set_option maxHeartbeats 1000000 in
/-- The last stretch from any contents: the neighbour buffer is `tailR` of what the linear layer's buffer, the compacted
    indices' buffer and the keep mask's buffer hold. -/
theorem after_tail (W : Valuation τ sig (Elt F)) (h : (⟨S50000x128, .f32⟩ : BufTy).Contents (Elt F))
    (ci : (⟨S50000x32, .i32⟩ : BufTy).Contents (Elt F)) (k : (⟨S50000x32, .i1⟩ : BufTy).Contents (Elt F))
    (h4 : W (Proc.devRef .tc main_v4) = h) (h7 : W (Proc.devRef .tc main_v7) = ci) (h15 : W (Proc.devRef .tc main_v15) = k) :
    after (ValueP.opsE (F := F)) W (Proc.devRef .tc main_v24) = tailR h ci k := by
  after_results_simp
  rw [h15, h7, h4]
  rfl

end Stages

/-! ## The run -/

section Run

variable {F : FTy → Type} [FloatOps F]

set_option maxRecDepth 8192 in
set_option maxHeartbeats 2000000 in
/-- The neighbour buffer after the whole operation list, from any contents `V`: the composition of the stages at
    `V`'s five argument buffers. -/
theorem after_v24 (V : Valuation τ sig (Elt F)) :
    after (ValueP.ops (F := F)) V (Proc.devRef .tc main_v24)
      = ReadP.val_main_v24 (F := F) (V (Proc.devRef .tc main_arg0)) (V (Proc.devRef .tc main_arg1)) (V (Proc.devRef .tc main_arg2))
          (V (Proc.devRef .tc main_arg3)) (V (Proc.devRef .tc main_arg4)) := by
  rw [ValueP.ops_chunks, StableHlo.after_append, StableHlo.after_append, StableHlo.after_append, StableHlo.after_append]
  -- the linear layer
  have a4 : after (ValueP.opsA (F := F)) V (Proc.devRef .tc main_v4)
      = ReadP.val_main_v4 (F := F) (V (Proc.devRef .tc main_arg0)) (V (Proc.devRef .tc main_arg3)) (V (Proc.devRef .tc main_arg4)) := by
    after_results_simp <;> rfl
  have a1 : after (ValueP.opsA (F := F)) V (Proc.devRef .tc main_arg1) = V (Proc.devRef .tc main_arg1) := by after_results_simp
  have a2 : after (ValueP.opsA (F := F)) V (Proc.devRef .tc main_arg2) = V (Proc.devRef .tc main_arg2) := by after_results_simp
  generalize after (ValueP.opsA (F := F)) V = W1 at a4 a1 a2 ⊢
  -- the sort key and the stable argsort
  have b6 : after (ValueP.opsB (F := F)) W1 (Proc.devRef .tc main_v6) = ReadP.val_main_v6 (F := F) (V (Proc.devRef .tc main_arg2)) := by
    after_results_simp
    rw [a2]
    rfl
  have b4 : after (ValueP.opsB (F := F)) W1 (Proc.devRef .tc main_v4)
      = ReadP.val_main_v4 (F := F) (V (Proc.devRef .tc main_arg0)) (V (Proc.devRef .tc main_arg3)) (V (Proc.devRef .tc main_arg4)) := by
    after_results_simp
    exact a4
  have b1 : after (ValueP.opsB (F := F)) W1 (Proc.devRef .tc main_arg1) = V (Proc.devRef .tc main_arg1) := by
    after_results_simp
    exact a1
  have b2 : after (ValueP.opsB (F := F)) W1 (Proc.devRef .tc main_arg2) = V (Proc.devRef .tc main_arg2) := by
    after_results_simp
    exact a2
  clear a4 a1 a2
  generalize after (ValueP.opsB (F := F)) W1 = W2 at b6 b4 b1 b2 ⊢
  -- the take along the sorted positions
  have c7 : after (ValueP.opsC (F := F)) W2 (Proc.devRef .tc main_v7)
      = ReadP.val_main_v7 (F := F) (V (Proc.devRef .tc main_arg1)) (V (Proc.devRef .tc main_arg2)) := by
    exact (after_take W2 _ _ b1 b6).trans (val_v7_eq _ _).symm
  have c4 : after (ValueP.opsC (F := F)) W2 (Proc.devRef .tc main_v4)
      = ReadP.val_main_v4 (F := F) (V (Proc.devRef .tc main_arg0)) (V (Proc.devRef .tc main_arg3)) (V (Proc.devRef .tc main_arg4)) := by
    after_results_simp
    exact b4
  have c2 : after (ValueP.opsC (F := F)) W2 (Proc.devRef .tc main_arg2) = V (Proc.devRef .tc main_arg2) := by
    after_results_simp
    exact b2
  clear b6 b4 b1 b2
  generalize after (ValueP.opsC (F := F)) W2 = W3 at c7 c4 c2 ⊢
  -- the keep mask
  have d15 : after (ValueP.opsD (F := F)) W3 (Proc.devRef .tc main_v15) = ReadP.val_main_v15 (F := F) (V (Proc.devRef .tc main_arg2)) := by
    after_results_simp
    rw [c2]
    rfl
  have d7 : after (ValueP.opsD (F := F)) W3 (Proc.devRef .tc main_v7)
      = ReadP.val_main_v7 (F := F) (V (Proc.devRef .tc main_arg1)) (V (Proc.devRef .tc main_arg2)) := by
    after_results_simp
    exact c7
  have d4 : after (ValueP.opsD (F := F)) W3 (Proc.devRef .tc main_v4)
      = ReadP.val_main_v4 (F := F) (V (Proc.devRef .tc main_arg0)) (V (Proc.devRef .tc main_arg3)) (V (Proc.devRef .tc main_arg4)) := by
    after_results_simp
    exact c4
  clear c7 c4 c2
  generalize after (ValueP.opsD (F := F)) W3 = W4 at d15 d7 d4 ⊢
  -- the wrap, the row gather and the masked select
  exact (after_tail W4 _ _ _ d4 d7 d15).trans (val_v24_eq _ _ _ _ _).symm

set_option maxRecDepth 8192 in
set_option maxHeartbeats 2000000 in
/-- On every device, for any float values, from any memory with zero counters: every weakly fair execution of @main
    terminates with the linear layer's buffer at `x · Wᵀ + b`, the neighbour buffer at the composition of the stages,
    and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = addf (Host.dotGeneral dot_S50000x128_S128x128_S50000x128_1_0_0_1_n_n none (m ((c.tc : Thread nD τ).loc main_arg0)) (transpose S128x128 [1, 0] (m ((c.tc : Thread nD τ).loc main_arg3)) transposes_S128x128_S128x128_1_0)) (broadcastInDim S50000x128 ![0, 1] bcast_S1x128_S50000x128_0_1 (broadcastInDim S1x128 ![1] bcast_S128_S1x128_1 (m ((c.tc : Thread nD τ).loc main_arg4))))
      ∧ r.2.mem ((c.tc : Thread nD τ).loc main_v24) = ReadP.val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v4).trans (by after_results_simp <;> rfl),
      (h c main_v24).trans (after_v24 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq ValueP.scopedRefs_eq ValueP.scopedSems_eq defs main (fun _ => ValueP.ops) ValueP.main_eq (fun _ => ValueP.ops_sub) m ρ)

end Run

/-! ## The linear layer at the extended reals -/

/-- The first result is `Gh`: at `(n, j)` the contraction runs over `x`'s row `n` and `W`'s row `j` (the transpose
    swaps `W`'s coordinates), and the bias is read at `j`. -/
theorem ref_h_eq (x : FVec Ideal S50000x128 .f32) (W : FVec Ideal S128x128 .f32) (b : FVec Ideal S128 .f32) :
    addf (Host.dotGeneral dot_S50000x128_S128x128_S50000x128_1_0_0_1_n_n none x (transpose S128x128 [1, 0] W transposes_S128x128_S128x128_1_0)) (broadcastInDim S50000x128 ![0, 1] bcast_S1x128_S50000x128_0_1 (broadcastInDim S1x128 ![1] bcast_S128_S1x128_1 b))
      = Cert.KernelIdeal.Hand.Gh x W b := by
  rw [ReadP.val_main_v4_eq]
  funext i
  rw [ReadP.val_main_v4_apply, ReadP.val_main_v1_apply, ReadP.val_main_v3_apply, ReadP.val_main_v2_apply, Ideal.addf_def]
  unfold Cert.KernelIdeal.Hand.Gh
  have eb : ReadP.idx_main_v2 (ReadP.idx_main_v3 i) = ix1 (n := 128) (i 1) := by
    funext a; match a with | ⟨0, _⟩ => rfl
  rw [eb]
  congr 1
  refine Finset.sum_congr rfl fun k _ => ?_
  rw [ReadP.val_main_v0_apply]
  have e1 : ReadP.lidx_main_v1 i k = ix2 (n0 := 50000) (n1 := 128) (i 0) k := by
    funext a; match a with | ⟨0, _⟩ => rfl | ⟨1, _⟩ => rfl
  have e2 : ReadP.idx_main_v0 (ReadP.ridx_main_v1 i k) = ix2 (n0 := 128) (n1 := 128) (i 1) k := by
    funext a; match a with | ⟨0, _⟩ => rfl | ⟨1, _⟩ => rfl
  rw [e1, e2]

/-- The stage function of the linear layer is `Gh`. -/
theorem val_h_eq (x : FVec Ideal S50000x128 .f32) (W : FVec Ideal S128x128 .f32) (b : FVec Ideal S128 .f32) :
    ReadP.val_main_v4 (F := Ideal) x W b = Cert.KernelIdeal.Hand.Gh x W b :=
  (ReadP.val_main_v4_eq (F := Ideal) x W b).symm.trans (ref_h_eq x W b)

/-! ## The neighbour gather at the extended reals -/

/-- The reference's compacted index array (its `take_along_axis` of the indices along the stable argsort of the
    mask), as a function of the index and mask arguments. -/
def cidxR (a1 : IVec S50000x32 32) (a2 : IVec S50000x32 1) : IVec S50000x32 32 := ReadP.val_main_v7 (F := Ideal) a1 a2

/-- The reference's keep mask (`position < number of valid neighbours`), as a function of the mask argument. -/
def keepR (a2 : IVec S50000x32 1) : IVec S50000x32 1 := ReadP.val_main_v15 (F := Ideal) a2

/-- The row gather's dimension numbers. -/
abbrev rowsDims : GatherDims S50000x128 S50000x32x1 S50000x32x128 :=
  gather_S50000x128_S50000x32x1_S50000x32x128_2_0_n_n_0_2_1128

/-- The start-indices index `[n, k, 0]` of result index `(n, k, j)`. -/
abbrev rowsIdx (j : S50000x32x128.Idx) : S50000x32x1.Idx :=
  ix3 (j 0 : Fin 50000) (j 1 : Fin 32) (0 : Fin 1)

/-- On the row axis the gather reads the start index, signed and clamped into the rows. -/
theorem rows_coord0 (idx : IVec S50000x32x1 32) (j : S50000x32x128.Idx) :
    rowsDims.start j idx (0 : Fin 2) + rowsDims.batchCoord j (0 : Fin 2) + rowsDims.offCoord j (0 : Fin 2)
      = min (idx (rowsIdx j)).toInt.toNat 49999 := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ rowsDims.startIndexMap from List.mem_singleton.mpr rfl)]
  have hsi : rowsDims.siIdx j ⟨List.idxOf (0 : Fin 2) rowsDims.startIndexMap,
        List.idxOf_lt_length_iff.2 (List.mem_singleton.mpr rfl)⟩ = rowsIdx j := by
    funext b; refine Fin.ext ?_
    match b with
    | ⟨0, _⟩ => rfl
    | ⟨1, _⟩ => rfl
    | ⟨2, _⟩ => rfl
  rw [hsi]
  rfl

/-- On the column axis the gather reads the result's own column. -/
theorem rows_coord1 (idx : IVec S50000x32x1 32) (j : S50000x32x128.Idx) :
    rowsDims.start j idx (1 : Fin 2) + rowsDims.batchCoord j (1 : Fin 2) + rowsDims.offCoord j (1 : Fin 2)
      = (j 2).val := by
  rw [GatherDims.batchCoord_eq_zero _ _ _ List.not_mem_nil, Nat.add_zero]
  unfold GatherDims.start
  rw [dif_neg (by decide), Nat.zero_add]
  unfold GatherDims.offCoord
  rw [dif_pos (by decide)]
  rfl

/-- The row gather read at `(n, k, j)`: the operand at row `idx[n, k, 0]` (read signed, clamped into the rows) and
    column `j`. -/
theorem gather_rows_apply {α : Type} (x : S50000x128.Idx → α) (idx : IVec S50000x32x1 32) (j : S50000x32x128.Idx) :
    Host.gather rowsDims x idx j
      = x (ix2 (⟨min (idx (rowsIdx j)).toInt.toNat 49999, by omega⟩ : Fin 50000) (j 2 : Fin 128)) := by
  unfold Host.gather
  congr 1
  funext a
  refine Fin.ext ?_
  match a with
  | ⟨0, _⟩ => exact rows_coord0 idx j
  | ⟨1, _⟩ => exact rows_coord1 idx j

/-- A row number below the row count is not negative as a signed word, so the wrap of negative row numbers
    (`c < 0 ? c + 50000 : c`) leaves it as it is. -/
theorem wrap_eq_self (c : BitVec 32) (hc : c.toNat < 50000) :
    Scalar.select (IntOp.cmpi .slt c 0#32) (IntOp.addi c 50000#32) c = c := by
  have hne : ¬ IntOp.cmpi .slt c 0#32 = 1#1 := by
    rw [StableHlo.Predicate.slt_iff_toNat (by omega) (by decide)]
    exact Nat.not_lt_zero _
  rw [eq_zero_of_ne_one hne, select_zero]

/-- Read signed and clamped into the rows, a row number below the row count is itself. -/
theorem clamp_eq_self (c : BitVec 32) (hc : c.toNat < 50000) : min c.toInt.toNat 49999 = c.toNat % 50000 := by
  rw [StableHlo.Predicate.toInt_eq_toNat_of_lt (by omega), Int.toNat_natCast, Nat.mod_eq_of_lt hc]
  omega

/-- The wrapped row numbers at a slot whose compacted row number is below the row count: the compacted row number. -/
theorem wrapped_eq (a1 : IVec S50000x32 32) (a2 : IVec S50000x32 1) (p : S50000x32.Idx)
    (hp : (cidxR a1 a2 p).toNat < 50000) :
    ReadP.val_main_v21 (F := Ideal) a1 a2 p = cidxR a1 a2 p := by
  rw [ReadP.val_main_v21_apply, ReadP.val_main_v18_apply, ReadP.val_main_v20_apply, ReadP.val_main_v17_apply,
    ReadP.val_main_v19_apply, ReadP.val_main_c_2_apply, ReadP.val_main_c_3_apply]
  exact wrap_eq_self _ hp

/-- The second result is `Gn (Gh …) cidxR keepR`, given that the compacted row numbers at kept slots are below the
    row count. -/
theorem ref_nbr_eq_of_kept (x : FVec Ideal S50000x128 .f32) (a1 : IVec S50000x32 32) (a2 : IVec S50000x32 1)
    (W : FVec Ideal S128x128 .f32) (b : FVec Ideal S128 .f32)
    (hr : ∀ p, keepR a2 p = 1#1 → (cidxR a1 a2 p).toNat < 50000) :
    ReadP.val_main_v24 (F := Ideal) x a1 a2 W b
      = Cert.KernelIdeal.Hand.Gn (Cert.KernelIdeal.Hand.Gh x W b) (cidxR a1 a2) (keepR a2) := by
  funext i
  rw [ReadP.val_main_v24_apply, ReadP.val_main_call3_v1_apply, ReadP.val_main_v16_apply]
  have ek : ReadP.idx_main_v16 (ReadP.idx_main_call3_v1 i) = ix2 (n0 := 50000) (n1 := 32) (i 0) (i 1) := by
    funext a; match a with | ⟨0, _⟩ => rfl | ⟨1, _⟩ => rfl
  rw [ek]
  unfold Cert.KernelIdeal.Hand.Gn
  by_cases hk : keepR a2 (ix2 (i 0 : Fin 50000) (i 1 : Fin 32)) = 1#1
  · have hk' : ReadP.val_main_v15 (F := Ideal) a2 (ix2 (i 0 : Fin 50000) (i 1 : Fin 32)) = 1#1 := hk
    rw [hk', select_one, if_pos hk]
    have hp := hr _ hk
    unfold ReadP.val_main_v23
    rw [gather_rows_apply, val_h_eq]
    have ep : ReadP.idx_main_v22 (rowsIdx i) = ix2 (n0 := 50000) (n1 := 32) (i 0) (i 1) := by
      funext a; match a with | ⟨0, _⟩ => rfl | ⟨1, _⟩ => rfl
    have hrow : (⟨min (ReadP.val_main_v22 (F := Ideal) a1 a2 (rowsIdx i)).toInt.toNat 49999, by omega⟩ : Fin 50000)
        = ⟨(cidxR a1 a2 (ix2 (i 0 : Fin 50000) (i 1 : Fin 32))).toNat % 50000, Nat.mod_lt _ (by decide)⟩ := by
      refine Fin.ext ?_
      show min (ReadP.val_main_v22 (F := Ideal) a1 a2 (rowsIdx i)).toInt.toNat 49999 = _
      rw [ReadP.val_main_v22_apply, ep, wrapped_eq a1 a2 _ hp]
      exact clamp_eq_self _ hp
    rw [hrow]
  · have hk' : ReadP.val_main_v15 (F := Ideal) a2 (ix2 (i 0 : Fin 50000) (i 1 : Fin 32)) = 0#1 := eq_zero_of_ne_one hk
    rw [hk', select_zero, if_neg hk, ReadP.val_main_call3_v2_apply, ReadP.val_main_call3_v0_apply,
      ReadP.val_main_cst_apply]
    exact Ideal.ofBits_zero_f32

/-- The second result as `run` states it is `Gn (Gh …) cidxR keepR`, given that every compacted row number is below the
    row count. -/
theorem ref_nbr_eq (m : (ℓ : Loc nD τ sig) → Buf (Elt Ideal) ℓ) (c : Dev nD)
    (hr : ∀ i, (cidxR (m ((c.tc : Thread nD τ).loc main_arg1)) (m ((c.tc : Thread nD τ).loc main_arg2)) i).toNat < 50000) :
    ReadP.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      = Cert.KernelIdeal.Hand.Gn
          (Cert.KernelIdeal.Hand.Gh (m ((c.tc : Thread nD τ).loc main_arg0)) (m ((c.tc : Thread nD τ).loc main_arg3)) (m ((c.tc : Thread nD τ).loc main_arg4)))
          (cidxR (m ((c.tc : Thread nD τ).loc main_arg1)) (m ((c.tc : Thread nD τ).loc main_arg2))) (keepR (m ((c.tc : Thread nD τ).loc main_arg2))) :=
  ref_nbr_eq_of_kept _ _ _ _ _ fun p _ => hr p

end Cert.ReferenceIdeal.RefValue
-- ==== Proof.KI.Assemble.lean ====
import proofs.«405686_j2499670966883_2_alg».proof.Proof.KI.Frame
import proofs.«405686_j2499670966883_2_alg».proof.Proof.KI.HypsOfPre
import proofs.«405686_j2499670966883_2_alg».proof.Proof.KI.Value0
import proofs.«405686_j2499670966883_2_alg».proof.Proof.KI.Value1
import proofs.«405686_j2499670966883_2_alg».proof.Proof.KI.Bridge
import proofs.«405686_j2499670966883_2_alg».proof.Proof.RefValue
import proofs.«405686_j2499670966883_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.SL.Sem

/-! # The two programs' results, joined

Over the extended reals both programs end with the same two arrays, functions of the five arguments as launched:
the linear layer `h = x · Wᵀ + b`, and the masked neighbour gather `out[n, k, :] = h[compact[n, k], :]` where slot `k`
is below row `n`'s degree, `0` elsewhere, `compact` being the neighbour table with each row's valid neighbours moved
to the front. The program reaches them through its two calls' output arrays; the reference through its own chain of
operations, whose compacted table and keep mask are the program's. -/

variable (m : (ℓ : Loc nD τ sig) → Buf (Elt Ideal) ℓ) (ρ : Dev nD → PrngReg)

/-- The first result on core `c`: the linear layer of the row table, the weights and the bias as launched. -/
def res0 (c : Dev nD) : FVec Ideal S50000x128 .f32 :=
  Gh (m ((c.tc : Thread nD τ).loc main_arg0)) (m ((c.tc : Thread nD τ).loc main_arg3)) (m ((c.tc : Thread nD τ).loc main_arg4))

/-- The second result on core `c`: the masked gather of the first result's rows at the compacted neighbour table. -/
def res1 (c : Dev nD) : FVec Ideal S50000x32x128 .f32 :=
  Gn (res0 m c) (compactK (m ((c.tc : Thread nD τ).loc main_arg1)) (m ((c.tc : Thread nD τ).loc main_arg2))) (keepMaskK (m ((c.tc : Thread nD τ).loc main_arg2)))

/-! ## The program's side -/

/-- What the linear call leaves in its output array is the first result. -/
theorem out0_eq (c : Dev nD) : (dat0 (F := Ideal) (V1 m ρ) c).arrAt 3 cfg0.N = res0 m c :=
  (arr0_eq (V1 m ρ) c (m ((c.tc : Thread nD τ).loc main_arg3)) (m ((c.tc : Thread nD τ).loc main_arg4)) (V1_v0 m ρ c) (V1_v1 m ρ c)).trans
    (congrArg (fun x : FVec Ideal S50000x128 .f32 => Gh x (m ((c.tc : Thread nD τ).loc main_arg3)) (m ((c.tc : Thread nD τ).loc main_arg4))) (V1_arg0 m ρ c))

variable (hH : Hyps1 (V9 m ρ))

/-- At the end the linear call's output buffer holds the first result. -/
theorem end_v2 (c : Dev nD) : W10 m ρ hH c (Proc.devRef .tc main_v2) = res0 m c :=
  (W10_main_v2 m ρ hH c).trans (out0_eq m ρ c)

/-- The gather call's three operands at its entry: the zeroed compacted table, the keep words, and the first result
    as rows of one vector. -/
theorem entry1_eq (c : Dev nD) :
    GnK (V9 m ρ c main_v15) (V9 m ρ c main_v16) (V9 m ρ c main_v17)
      = GnK (cidxK (m ((c.tc : Thread nD τ).loc main_arg1)) (m ((c.tc : Thread nD τ).loc main_arg2))) (keepK (m ((c.tc : Thread nD τ).loc main_arg2))) (h3K (res0 m c)) := by
  rw [V9_v15 m ρ c, V9_v16 m ρ c, V9_v17 m ρ c, W2_main_v2 m ρ c, out0_eq m ρ c]

/-- At the end the gather call's output buffer holds the second result: the call's own reading of its operands is the
    masked gather, and zeroing the row numbers past the degree does not change it. -/
theorem end_v18 (c : Dev nD) : W10 m ρ hH c (Proc.devRef .tc main_v18) = res1 m c :=
  (W10_main_v18 m ρ hH c).trans <| (arr1_eq (V9 m ρ) hH c).trans <| (entry1_eq m ρ c).trans <|
    (GnK_eq_Gn (res0 m c) (m ((c.tc : Thread nD τ).loc main_arg1)) (m ((c.tc : Thread nD τ).loc main_arg2))).trans
      (Gn_cidx_compact (res0 m c) (m ((c.tc : Thread nD τ).loc main_arg1)) (m ((c.tc : Thread nD τ).loc main_arg2)))

include hH in
/-- The program runs to the end, nothing faulting, and ends with the two results in its result buffers and the five
    arguments as launched. -/
theorem run_values : θ_run (defs (F := Ideal)) (onTc (τ := τ) (main (F := Ideal))) ⟨m, fun _ => 0, ρ⟩ (fun r => ∀ c : Dev nD,
      r.2.mem ((c.tc : Thread nD τ).loc main_v2) = res0 m c
      ∧ r.2.mem ((c.tc : Thread nD τ).loc main_v18) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (end_v2 m ρ hH c),
     (h c _ (mem_uc main_v18 (by decide))).trans (end_v18 m ρ hH c),
     (h c _ (mem_uc main_arg0 (by decide))).trans (W10_main_arg0 m ρ hH c),
     (h c _ (mem_uc main_arg1 (by decide))).trans (W10_main_arg1 m ρ hH c),
     (h c _ (mem_uc main_arg2 (by decide))).trans (W10_main_arg2 m ρ hH c),
     (h c _ (mem_uc main_arg3 (by decide))).trans (W10_main_arg3 m ρ hH c),
     (h c _ (mem_uc main_arg4 (by decide))).trans (W10_main_arg4 m ρ hH c)⟩) (run_all m ρ hH)

/-! ## The reference's side -/

/-- The linear layer of equal arguments. -/
theorem Gh_congr {x x' : FVec Ideal S50000x128 .f32} {W W' : FVec Ideal S128x128 .f32} {b b' : FVec Ideal S128 .f32}
    (e0 : x' = x) (e3 : W' = W) (e4 : b' = b) : Gh x' W' b' = Gh x W b := by
  subst e0 e3 e4; rfl

/-- The reference's second result, at arguments the precondition holds of, is the masked gather of the linear layer's
    rows at the compacted neighbour table: its compacted table and keep mask are the program's, and under the
    precondition every compacted row number is below the row count, so its wrap and clamp of row numbers do nothing. -/
theorem ref_nbr_join (x : FVec Ideal S50000x128 .f32) (a1 : IVec S50000x32 32) (a2 : IVec S50000x32 1)
    (W : FVec Ideal S128x128 .f32) (b : FVec Ideal S128 .f32)
    (hpre : Cert.Pre_finite_inputs.fn (F := Ideal) x a1 a2 W b = fun _ => 1#1) :
    Cert.ReferenceIdeal.ReadP.val_main_v24 (F := Ideal) x a1 a2 W b = Gn (Gh x W b) (compactK a1 a2) (keepMaskK a2) := by
  have hlt := compactK_lt_of_pre x a1 a2 W b hpre
  refine (Cert.ReferenceIdeal.RefValue.ref_nbr_eq_of_kept x a1 a2 W b (fun p _ => ?_)).trans ?_
  · show (Cert.ReferenceIdeal.ReadP.val_main_v7 (F := Ideal) a1 a2 p).toNat < 50000
    rw [refIdx_eq]; exact hlt p
  · show Gn (Gh x W b) (Cert.ReferenceIdeal.ReadP.val_main_v7 (F := Ideal) a1 a2) (Cert.ReferenceIdeal.ReadP.val_main_v15 (F := Ideal) a2) = _
    rw [refIdx_eq, refKeep_eq]

/-- The same at arguments equal to ones the precondition holds of. -/
theorem ref_nbr_join' {x x' : FVec Ideal S50000x128 .f32} {a1 a1' : IVec S50000x32 32} {a2 a2' : IVec S50000x32 1}
    {W W' : FVec Ideal S128x128 .f32} {b b' : FVec Ideal S128 .f32}
    (e0 : x' = x) (e1 : a1' = a1) (e2 : a2' = a2) (e3 : W' = W) (e4 : b' = b)
    (hpre : Cert.Pre_finite_inputs.fn (F := Ideal) x a1 a2 W b = fun _ => 1#1) :
    Cert.ReferenceIdeal.ReadP.val_main_v24 (F := Ideal) x' a1' a2' W' b' = Gn (Gh x W b) (compactK a1 a2) (keepMaskK a2) := by
  subst e0 e1 e2 e3 e4; exact ref_nbr_join _ _ _ _ _ hpre

/-- The reference, from a memory agreeing with the program's on the five arguments, of which the precondition holds:
    it runs to the end, nothing faulting, and ends with the same two results and its arguments as launched. -/
theorem ref_values (m' : (ℓ : Loc Cert.ReferenceIdeal.nD Cert.ReferenceIdeal.τ Cert.ReferenceIdeal.sig) → Buf (Elt Ideal) ℓ) (ρ' : Dev Cert.ReferenceIdeal.nD → PrngReg)
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1))
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v4) = res0 m c
        ∧ r.2.mem ((c.tc : Thread Cert.ReferenceIdeal.nD Cert.ReferenceIdeal.τ).loc Cert.ReferenceIdeal.main_v24) = res1 m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono (fun r h c => by
    obtain ⟨e0, e1, e2, e3, e4⟩ := hagree c
    obtain ⟨h4, h24, r0, r1, r2, r3, r4⟩ := h c
    exact ⟨h4.trans ((Cert.ReferenceIdeal.RefValue.ref_h_eq _ _ _).trans (Gh_congr e0 e3 e4)),
      h24.trans (ref_nbr_join' e0 e1 e2 e3 e4 (hpre c)), r0, r1, r2, r3, r4⟩)
    (Cert.ReferenceIdeal.RefValue.run m' ρ')

end Cert.KernelIdeal.Hand

end
-- ==== Proof.lean ====
/-
  The claim of this certificate, proved.

  The programs take a row table x (50000 rows of 128), a neighbour table of row numbers and a neighbour mask (50000 rows
  of 32 slots), a weight matrix W (128 by 128) and a bias b (128). Each computes two arrays. The first is the linear
  layer h = x · Wᵀ + b. For the second, each row's valid neighbours (mask set) are moved to the front of the row, in
  their original order, by a stable sort of the slots on the negated mask; a slot is kept when its position is below
  the row's degree (its number of valid neighbours); and the array is out[n, k, :] = h[compact[n, k], :] at a kept
  slot, 0 elsewhere.

  The reference computes exactly that, as one chain of array operations. The program computes h by a matrix product
  over ten blocks of 5000 rows, on operands rounded to a narrower format and accumulated wide; it prepares the compacted
  table by the same sort and take, sets the row numbers past the degree to 0, and gathers one row of h per slot by a copy
  of its own, storing the row where the slot is kept and zeros where it is not.

  Precondition: every float argument is finite and every entry of the neighbour table is a row number, at least 0 and
  below 50000.

  What joins them. Over the extended reals a change of format is the identity, so the product of the rounded operands is
  the product of the operands, and block by block the program's first array is x · Wᵀ + b entry by entry. The two
  compacted tables and the two keep masks are the same functions of the arguments, being the same operations in the
  same order. Compaction only moves entries of the neighbour table, so under the precondition every compacted entry is
  a row number below 50000: the program's row copies stay inside the table (which is what its run needs in order not to
  fault), and the reference's wrap of negative row numbers and its clamp of row numbers into the table both leave them
  alone. Setting the row numbers past the degree to 0 changes nothing, since those slots are not kept and hold 0 in
  either program. Hence the second arrays agree entry by entry as well.

  Every program runs to the end without a fault and leaves its five arguments as launched: the program at either
  instance by the run of its segments (a stretch of host operations, the linear call, seven stretches of host operations,
  the gather call), no segment writing an argument; the reference by the run of its operation list. The idealized
  program is the program's own text read over the extended reals, no operation rewritten.
-/
import proofs.«405686_j2499670966883_2_alg».proof.Defs
import proofs.«405686_j2499670966883_2_alg».proof.Proof.Gen.Kernel
import proofs.«405686_j2499670966883_2_alg».proof.Proof.Gen.KernelIdeal
import proofs.«405686_j2499670966883_2_alg».proof.Proof.Gen.ReferenceIdeal
import proofs.«405686_j2499670966883_2_alg».proof.Proof.Gen.Pre_finite_inputs
import proofs.«405686_j2499670966883_2_alg».proof.Proof.K.HypsOfPre
import proofs.«405686_j2499670966883_2_alg».proof.Proof.KI.Assemble
import proofs.«405686_j2499670966883_2_alg».proof.Proof.RefValue

noncomputable section

namespace Cert.Proof

open Idealize.ShloMosaic Idealize.SL.Sem

/-- The five claims, under the side conditions' proved witnesses: the program's run at either instance from the
    precondition (which puts the gather call's row numbers in range), the reference's run with its results dropped, the
    idealization (nothing to restate), and the two programs' equal results with the same witness arrays on both sides. -/
theorem claim : Cert.Claim :=
  ⟨Cert.Kernel.Gen.facts, Cert.KernelIdeal.Gen.facts, Cert.ReferenceIdeal.Gen.facts, Cert.Pre_finite_inputs.Gen.facts,
    fun m g hpre => Cert.Kernel.Hand.frame m g (Cert.Kernel.Hand.hyps_of_pre m g hpre),
    fun m g hpre => Cert.KernelIdeal.Hand.frame m g (Cert.KernelIdeal.Hand.hyps_of_pre m g hpre),
    fun m g _ => (θ_run (Cert.ReferenceIdeal.defs (F := Ideal)) _ _).mono (fun _ h c => (h c).2.2) (Cert.ReferenceIdeal.RefValue.run m g),
    trivial,
    fun m g m' g' hpre hagree =>
      ⟨fun c => Cert.KernelIdeal.Hand.res0 m c, fun c => Cert.KernelIdeal.Hand.res1 m c,
        Cert.KernelIdeal.Hand.run_values m g (Cert.KernelIdeal.Hand.hyps_of_pre m g hpre),
        Cert.KernelIdeal.Hand.ref_values m m' g' hpre hagree⟩⟩

end Cert.Proof

end
